-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v63_1)) (v1 : (c : Dev Cert.KernelIdeal.nD) → Buf (Elt Ideal) ((c.tc : Thread Cert.KernelIdeal.nD Cert.KernelIdeal.τ).loc Cert.KernelIdeal.main_v76_1)) (v2 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63_1) = v0 c
          ∧ r.2.mem ((c.tc : Thread Cert.KernelIdeal.nD Cert.KernelIdeal.τ).loc Cert.KernelIdeal.main_v76_1) = v1 c
          ∧ r.2.mem ((c.tc : Thread Cert.KernelIdeal.nD Cert.KernelIdeal.τ).loc Cert.KernelIdeal.main_v84) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v151) = v0 c
          ∧ r.2.mem ((c.tc : Thread Cert.ReferenceIdeal.nD Cert.ReferenceIdeal.τ).loc Cert.ReferenceIdeal.main_v152) = v1 c
          ∧ r.2.mem ((c.tc : Thread Cert.ReferenceIdeal.nD Cert.ReferenceIdeal.τ).loc Cert.ReferenceIdeal.main_v160) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S200000x64 : Shape := ⟨2, ![200000, 64]⟩
abbrev S4x64 : Shape := ⟨2, ![4, 64]⟩
abbrev S2x2000000 : Shape := ⟨2, ![2, 2000000]⟩
abbrev S2000000 : Shape := ⟨1, ![2000000]⟩
abbrev S2x1000000 : Shape := ⟨2, ![2, 1000000]⟩
abbrev S1000000 : Shape := ⟨1, ![1000000]⟩
abbrev S9x64 : Shape := ⟨2, ![9, 64]⟩
abbrev S4x9 : Shape := ⟨2, ![4, 9]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S200000x64 : S_.BroadcastsInDim S200000x64 (![] : Fin 0 → Fin S200000x64.rank)
  reducesTo_S200000x64_S_d0_1 : S200000x64.ReducesTo [0, 1] S_
  bcast_S_S4x64 : S_.BroadcastsInDim S4x64 (![] : Fin 0 → Fin S4x64.rank)
  reducesTo_S4x64_S_d0_1 : S4x64.ReducesTo [0, 1] S_
  bcast_S_S1000000 : S_.BroadcastsInDim S1000000 (![] : Fin 0 → Fin S1000000.rank)
  reducesTo_S1000000_S_d0 : S1000000.ReducesTo [0] S_
  bcast_S_S9x64 : S_.BroadcastsInDim S9x64 (![] : Fin 0 → Fin S9x64.rank)
  reducesTo_S9x64_S_d0_1 : S9x64.ReducesTo [0, 1] S_
  bcast_S_S4x9 : S_.BroadcastsInDim S4x9 (![] : Fin 0 → Fin S4x9.rank)
  reducesTo_S4x9_S_d0_1 : S4x9.ReducesTo [0, 1] S_
  bcast_S_S2000000 : S_.BroadcastsInDim S2000000 (![] : Fin 0 → Fin S2000000.rank)
  reducesTo_S2000000_S_d0 : S2000000.ReducesTo [0] S_

variable [Facts]

def fn_part2 {F : FTy → Type} [FloatOps F] (main_v28 : IVec S_ 1) (main_v33 : IVec S2000000 1) : IVec S_ 1 :=
  let main_c_12 : IVec S_ 1 := constantI S_ 1 1#1
  let main_v34 : IVec S_ 1 := (fun x v => Host.reduce IntOp.andi x v reducesTo_S2000000_S_d0 h_S_) main_v33 main_c_12
  let main_v35 : IVec S_ 1 := andi main_v28 main_v34
  main_v35

def fn_part1 {F : FTy → Type} [FloatOps F] (main_arg4 : IVec S2000000 32) (main_arg7 : FVec F S9x64 .f32) (main_arg8 : FVec F S4x9 .f32) (main_v13 : IVec S_ 1) (main_v16 : IVec S1000000 1) : IVec S_ 1 :=
  let main_c_5 : IVec S_ 1 := constantI S_ 1 1#1
  let main_v17 : IVec S_ 1 := (fun x v => Host.reduce IntOp.andi x v reducesTo_S1000000_S_d0 h_S_) main_v16 main_c_5
  let main_v18 : IVec S_ 1 := andi main_v13 main_v17
  let main_v19 : FVec F S9x64 .f32 := Host.absf main_arg7
  let main_cst_6 : FVec F S_ .f32 := constant S_ .f32 0x7F800000#32
  let main_v20 : FVec F S9x64 .f32 := broadcastInDim S9x64 ![] bcast_S_S9x64 main_cst_6
  let main_v21 : IVec S9x64 1 := cmpf .olt main_v19 main_v20
  let main_c_7 : IVec S_ 1 := constantI S_ 1 1#1
  let main_v22 : IVec S_ 1 := (fun x v => Host.reduce IntOp.andi x v reducesTo_S9x64_S_d0_1 h_S_) main_v21 main_c_7
  let main_v23 : IVec S_ 1 := andi main_v18 main_v22
  let main_v24 : FVec F S4x9 .f32 := Host.absf main_arg8
  let main_cst_8 : FVec F S_ .f32 := constant S_ .f32 0x7F800000#32
  let main_v25 : FVec F S4x9 .f32 := broadcastInDim S4x9 ![] bcast_S_S4x9 main_cst_8
  let main_v26 : IVec S4x9 1 := cmpf .olt main_v24 main_v25
  let main_c_9 : IVec S_ 1 := constantI S_ 1 1#1
  let main_v27 : IVec S_ 1 := (fun x v => Host.reduce IntOp.andi x v reducesTo_S4x9_S_d0_1 h_S_) main_v26 main_c_9
  let main_v28 : IVec S_ 1 := andi main_v23 main_v27
  let main_c_10 : IVec S_ 32 := constantI S_ 32 1#32
  let main_v29 : IVec S2000000 32 := broadcastInDim S2000000 ![] bcast_S_S2000000 main_c_10
  let main_v30 : IVec S2000000 1 := cmpi .sge main_arg4 main_v29
  let main_c_11 : IVec S_ 32 := constantI S_ 32 9#32
  let main_v31 : IVec S2000000 32 := broadcastInDim S2000000 ![] bcast_S_S2000000 main_c_11
  let main_v32 : IVec S2000000 1 := cmpi .sle main_arg4 main_v31
  let main_v33 : IVec S2000000 1 := andi main_v30 main_v32
  fn_part2 (F := F) main_v28 main_v33

def fn {F : FTy → Type} [FloatOps F] (main_arg0 : FVec F S100000x64 .f32) (main_arg1 : FVec F S200000x64 .f32) (main_arg2 : FVec F S4x64 .f32) (main_arg3 : IVec S2x2000000 32) (main_arg4 : IVec S2000000 32) (main_arg5 : IVec S2x1000000 32) (main_arg6 : FVec F S1000000 .f32) (main_arg7 : FVec F S9x64 .f32) (main_arg8 : FVec F S4x9 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S200000x64 .f32 := Host.absf main_arg1
  let main_cst_0 : FVec F S_ .f32 := constant S_ .f32 0x7F800000#32
  let main_v5 : FVec F S200000x64 .f32 := broadcastInDim S200000x64 ![] bcast_S_S200000x64 main_cst_0
  let main_v6 : IVec S200000x64 1 := cmpf .olt main_v4 main_v5
  let main_c_1 : IVec S_ 1 := constantI S_ 1 1#1
  let main_v7 : IVec S_ 1 := (fun x v => Host.reduce IntOp.andi x v reducesTo_S200000x64_S_d0_1 h_S_) main_v6 main_c_1
  let main_v8 : IVec S_ 1 := andi main_v3 main_v7
  let main_v9 : FVec F S4x64 .f32 := Host.absf main_arg2
  let main_cst_2 : FVec F S_ .f32 := constant S_ .f32 0x7F800000#32
  let main_v10 : FVec F S4x64 .f32 := broadcastInDim S4x64 ![] bcast_S_S4x64 main_cst_2
  let main_v11 : IVec S4x64 1 := cmpf .olt main_v9 main_v10
  let main_c_3 : IVec S_ 1 := constantI S_ 1 1#1
  let main_v12 : IVec S_ 1 := (fun x v => Host.reduce IntOp.andi x v reducesTo_S4x64_S_d0_1 h_S_) main_v11 main_c_3
  let main_v13 : IVec S_ 1 := andi main_v8 main_v12
  let main_v14 : FVec F S1000000 .f32 := Host.absf main_arg6
  let main_cst_4 : FVec F S_ .f32 := constant S_ .f32 0x7F800000#32
  let main_v15 : FVec F S1000000 .f32 := broadcastInDim S1000000 ![] bcast_S_S1000000 main_cst_4
  let main_v16 : IVec S1000000 1 := cmpf .olt main_v14 main_v15
  fn_part1 (F := F) main_arg4 main_arg7 main_arg8 main_v13 main_v16
-- ==== Kernel.lean ====
abbrev S100000x64 : Shape := ⟨2, ![100000, 64]⟩
abbrev S200000x64 : Shape := ⟨2, ![200000, 64]⟩
abbrev S4x64 : Shape := ⟨2, ![4, 64]⟩
abbrev S2x2000000 : Shape := ⟨2, ![2, 2000000]⟩
abbrev S2000000 : Shape := ⟨1, ![2000000]⟩
abbrev S2x1000000 : Shape := ⟨2, ![2, 1000000]⟩
abbrev S1000000 : Shape := ⟨1, ![1000000]⟩
abbrev S9x64 : Shape := ⟨2, ![9, 64]⟩
abbrev S4x9 : Shape := ⟨2, ![4, 9]⟩
abbrev S1x2000000 : Shape := ⟨2, ![1, 2000000]⟩
abbrev S1x1000000 : Shape := ⟨2, ![1, 1000000]⟩
abbrev S_ : Shape := ⟨0, ![]⟩
abbrev S200000 : Shape := ⟨1, ![200000]⟩
abbrev S2000000x1 : Shape := ⟨2, ![2000000, 1]⟩
abbrev S200000x1 : Shape := ⟨2, ![200000, 1]⟩
abbrev S4 : Shape := ⟨1, ![4]⟩
abbrev S4x1 : Shape := ⟨2, ![4, 1]⟩
abbrev S1000000x1 : Shape := ⟨2, ![1000000, 1]⟩
abbrev S2000000x64 : Shape := ⟨2, ![2000000, 64]⟩
abbrev S8000x64 : Shape := ⟨2, ![8000, 64]⟩
abbrev S8000x1 : Shape := ⟨2, ![8000, 1]⟩
abbrev S8000x9 : Shape := ⟨2, ![8000, 9]⟩
abbrev S5000x64 : Shape := ⟨2, ![5000, 64]⟩
abbrev S5000x1 : Shape := ⟨2, ![5000, 1]⟩
abbrev S5000 : Shape := ⟨1, ![5000]⟩
abbrev S5000x4 : Shape := ⟨2, ![5000, 4]⟩
abbrev S1000000x64 : Shape := ⟨2, ![1000000, 64]⟩
abbrev S10000x64 : Shape := ⟨2, ![10000, 64]⟩
abbrev S10000x1 : Shape := ⟨2, ![10000, 1]⟩
abbrev S9x4 : Shape := ⟨2, ![9, 4]⟩
abbrev S4x4 : Shape := ⟨2, ![4, 4]⟩

abbrev nBuf : Space → Nat
  | .hbm => 128
  | .vmem => 78
  | .smem => 0
  | _ => 0

abbrev bufTy : (tb : Table) → Fin (tcTables nBuf tb) → BufTy
  | .hbm, ⟨0, _⟩ => ⟨S100000x64, .f32⟩
  | .hbm, ⟨1, _⟩ => ⟨S200000x64, .f32⟩
  | .hbm, ⟨2, _⟩ => ⟨S4x64, .f32⟩
  | .hbm, ⟨3, _⟩ => ⟨S2x2000000, .i32⟩
  | .hbm, ⟨4, _⟩ => ⟨S2000000, .i32⟩
  | .hbm, ⟨5, _⟩ => ⟨S2x1000000, .i32⟩
  | .hbm, ⟨6, _⟩ => ⟨S1000000, .f32⟩
  | .hbm, ⟨7, _⟩ => ⟨S9x64, .f32⟩
  | .hbm, ⟨8, _⟩ => ⟨S4x9, .f32⟩
  | .hbm, ⟨9, _⟩ => ⟨S1x2000000, .i32⟩
  | .hbm, ⟨10, _⟩ => ⟨S2000000, .i32⟩
  | .hbm, ⟨11, _⟩ => ⟨S1x2000000, .i32⟩
  | .hbm, ⟨12, _⟩ => ⟨S2000000, .i32⟩
  | .hbm, ⟨13, _⟩ => ⟨S1x1000000, .i32⟩
  | .hbm, ⟨14, _⟩ => ⟨S1000000, .i32⟩
  | .hbm, ⟨15, _⟩ => ⟨S1x1000000, .i32⟩
  | .hbm, ⟨16, _⟩ => ⟨S1000000, .i32⟩
  | .hbm, ⟨17, _⟩ => ⟨S_, .f32⟩
  | .hbm, ⟨18, _⟩ => ⟨S2000000, .f32⟩
  | .hbm, ⟨19, _⟩ => ⟨S_, .f32⟩
  | .hbm, ⟨20, _⟩ => ⟨S200000, .f32⟩
  | .hbm, ⟨21, _⟩ => ⟨S2000000x1, .i32⟩
  | .hbm, ⟨22, _⟩ => ⟨S200000, .f32⟩
  | .hbm, ⟨23, _⟩ => ⟨S200000x1, .f32⟩
  | .hbm, ⟨24, _⟩ => ⟨S_, .f32⟩
  | .hbm, ⟨25, _⟩ => ⟨S4, .f32⟩
  | .hbm, ⟨26, _⟩ => ⟨S_, .f32⟩
  | .hbm, ⟨27, _⟩ => ⟨S4, .f32⟩
  | .hbm, ⟨28, _⟩ => ⟨S4, .f32⟩
  | .hbm, ⟨29, _⟩ => ⟨S4x1, .f32⟩
  | .hbm, ⟨30, _⟩ => ⟨S4x9, .f32⟩
  | .hbm, ⟨31, _⟩ => ⟨S4x9, .f32⟩
  | .hbm, ⟨32, _⟩ => ⟨S4x9, .f32⟩
  | .hbm, ⟨33, _⟩ => ⟨S_, .f32⟩
  | .hbm, ⟨34, _⟩ => ⟨S4, .f32⟩
  | .hbm, ⟨35, _⟩ => ⟨S4x1, .f32⟩
  | .hbm, ⟨36, _⟩ => ⟨S4x9, .f32⟩
  | .hbm, ⟨37, _⟩ => ⟨S4x9, .f32⟩
  | .hbm, ⟨38, _⟩ => ⟨S4x64, .f32⟩
  | .hbm, ⟨39, _⟩ => ⟨S2000000x1, .i32⟩
  | .hbm, ⟨40, _⟩ => ⟨S1000000x1, .f32⟩
  | .hbm, ⟨41, _⟩ => ⟨S_, .i32⟩
  | .hbm, ⟨42, _⟩ => ⟨S2000000, .i32⟩
  | .hbm, ⟨43, _⟩ => ⟨S2000000, .i1⟩
  | .hbm, ⟨44, _⟩ => ⟨S_, .i32⟩
  | .hbm, ⟨45, _⟩ => ⟨S2000000, .i32⟩
  | .hbm, ⟨46, _⟩ => ⟨S2000000, .i32⟩
  | .hbm, ⟨47, _⟩ => ⟨S2000000, .i32⟩
  | .hbm, ⟨48, _⟩ => ⟨S2000000x1, .i32⟩
  | .hbm, ⟨49, _⟩ => ⟨S2000000x64, .f32⟩
  | .hbm, ⟨50, _⟩ => ⟨S2000000x64, .f32⟩
  | .hbm, ⟨51, _⟩ => ⟨S_, .f32⟩
  | .hbm, ⟨52, _⟩ => ⟨S200000x64, .f32⟩
  | .hbm, ⟨53, _⟩ => ⟨S2000000x1, .i32⟩
  | .hbm, ⟨54, _⟩ => ⟨S200000x64, .f32⟩
  | .hbm, ⟨55, _⟩ => ⟨S200000x64, .f32⟩
  | .hbm, ⟨56, _⟩ => ⟨S200000x64, .f32⟩
  | .hbm, ⟨57, _⟩ => ⟨S100000x64, .f32⟩
  | .hbm, ⟨58, _⟩ => ⟨S_, .i32⟩
  | .hbm, ⟨59, _⟩ => ⟨S1000000, .i32⟩
  | .hbm, ⟨60, _⟩ => ⟨S1000000, .i1⟩
  | .hbm, ⟨61, _⟩ => ⟨S_, .i32⟩
  | .hbm, ⟨62, _⟩ => ⟨S1000000, .i32⟩
  | .hbm, ⟨63, _⟩ => ⟨S1000000, .i32⟩
  | .hbm, ⟨64, _⟩ => ⟨S1000000, .i32⟩
  | .hbm, ⟨65, _⟩ => ⟨S1000000x1, .i32⟩
  | .hbm, ⟨66, _⟩ => ⟨S1000000x64, .f32⟩
  | .hbm, ⟨67, _⟩ => ⟨S1000000x64, .f32⟩
  | .hbm, ⟨68, _⟩ => ⟨S_, .f32⟩
  | .hbm, ⟨69, _⟩ => ⟨S100000x64, .f32⟩
  | .hbm, ⟨70, _⟩ => ⟨S1000000x1, .i32⟩
  | .hbm, ⟨71, _⟩ => ⟨S100000x64, .f32⟩
  | .hbm, ⟨72, _⟩ => ⟨S100000x64, .f32⟩
  | .hbm, ⟨73, _⟩ => ⟨S100000x64, .f32⟩
  | .hbm, ⟨74, _⟩ => ⟨S_, .i32⟩
  | .hbm, ⟨75, _⟩ => ⟨S2000000, .i32⟩
  | .hbm, ⟨76, _⟩ => ⟨S2000000, .i1⟩
  | .hbm, ⟨77, _⟩ => ⟨S_, .i32⟩
  | .hbm, ⟨78, _⟩ => ⟨S2000000, .i32⟩
  | .hbm, ⟨79, _⟩ => ⟨S2000000, .i32⟩
  | .hbm, ⟨80, _⟩ => ⟨S2000000, .i32⟩
  | .hbm, ⟨81, _⟩ => ⟨S2000000x1, .i32⟩
  | .hbm, ⟨82, _⟩ => ⟨S2000000x64, .f32⟩
  | .hbm, ⟨83, _⟩ => ⟨S2000000x64, .f32⟩
  | .hbm, ⟨84, _⟩ => ⟨S_, .f32⟩
  | .hbm, ⟨85, _⟩ => ⟨S200000x64, .f32⟩
  | .hbm, ⟨86, _⟩ => ⟨S2000000x1, .i32⟩
  | .hbm, ⟨87, _⟩ => ⟨S200000x64, .f32⟩
  | .hbm, ⟨88, _⟩ => ⟨S200000x64, .f32⟩
  | .hbm, ⟨89, _⟩ => ⟨S200000x64, .f32⟩
  | .hbm, ⟨90, _⟩ => ⟨S100000x64, .f32⟩
  | .hbm, ⟨91, _⟩ => ⟨S_, .i32⟩
  | .hbm, ⟨92, _⟩ => ⟨S1000000, .i32⟩
  | .hbm, ⟨93, _⟩ => ⟨S1000000, .i1⟩
  | .hbm, ⟨94, _⟩ => ⟨S_, .i32⟩
  | .hbm, ⟨95, _⟩ => ⟨S1000000, .i32⟩
  | .hbm, ⟨96, _⟩ => ⟨S1000000, .i32⟩
  | .hbm, ⟨97, _⟩ => ⟨S1000000, .i32⟩
  | .hbm, ⟨98, _⟩ => ⟨S1000000x1, .i32⟩
  | .hbm, ⟨99, _⟩ => ⟨S1000000x64, .f32⟩
  | .hbm, ⟨100, _⟩ => ⟨S1000000x64, .f32⟩
  | .hbm, ⟨101, _⟩ => ⟨S_, .f32⟩
  | .hbm, ⟨102, _⟩ => ⟨S100000x64, .f32⟩
  | .hbm, ⟨103, _⟩ => ⟨S1000000x1, .i32⟩
  | .hbm, ⟨104, _⟩ => ⟨S100000x64, .f32⟩
  | .hbm, ⟨105, _⟩ => ⟨S100000x64, .f32⟩
  | .hbm, ⟨106, _⟩ => ⟨S100000x64, .f32⟩
  | .hbm, ⟨107, _⟩ => ⟨S4x9, .f32⟩
  | .hbm, ⟨108, _⟩ => ⟨S_, .f32⟩
  | .hbm, ⟨109, _⟩ => ⟨S4, .f32⟩
  | .hbm, ⟨110, _⟩ => ⟨S4x1, .f32⟩
  | .hbm, ⟨111, _⟩ => ⟨S4x1, .f32⟩
  | .hbm, ⟨112, _⟩ => ⟨S4x9, .f32⟩
  | .hbm, ⟨113, _⟩ => ⟨S4x9, .f32⟩
  | .hbm, ⟨114, _⟩ => ⟨S9x4, .f32⟩
  | .hbm, ⟨115, _⟩ => ⟨S4x4, .f32⟩
  | .hbm, ⟨116, _⟩ => ⟨S4x4, .f32⟩
  | .hbm, ⟨117, _⟩ => ⟨S4x4, .i32⟩
  | .hbm, ⟨118, _⟩ => ⟨S_, .i32⟩
  | .hbm, ⟨119, _⟩ => ⟨S4x4, .i32⟩
  | .hbm, ⟨120, _⟩ => ⟨S4x4, .i32⟩
  | .hbm, ⟨121, _⟩ => ⟨S4x4, .i32⟩
  | .hbm, ⟨122, _⟩ => ⟨S4x4, .i1⟩
  | .hbm, ⟨123, _⟩ => ⟨S_, .f32⟩
  | .hbm, ⟨124, _⟩ => ⟨S4x4, .f32⟩
  | .hbm, ⟨125, _⟩ => ⟨S4x4, .f32⟩
  | .hbm, ⟨126, _⟩ => ⟨S_, .f32⟩
  | .hbm, ⟨127, _⟩ => ⟨S_, .f32⟩
  | .local _ .vmem, ⟨0, _⟩ => ⟨S8000x64, .f32⟩
  | .local _ .vmem, ⟨1, _⟩ => ⟨S8000x64, .f32⟩
  | .local _ .vmem, ⟨2, _⟩ => ⟨S8000x1, .i32⟩
  | .local _ .vmem, ⟨3, _⟩ => ⟨S8000x1, .i32⟩
  | .local _ .vmem, ⟨4, _⟩ => ⟨S9x64, .f32⟩
  | .local _ .vmem, ⟨5, _⟩ => ⟨S8000x64, .f32⟩
  | .local _ .vmem, ⟨6, _⟩ => ⟨S8000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S4x64, .f32⟩
  | .local _ .vmem, ⟨20, _⟩ => ⟨S4x64, .f32⟩
  | .local _ .vmem, ⟨21, _⟩ => ⟨S5000x64, .f32⟩
  | .local _ .vmem, ⟨22, _⟩ => ⟨S5000x64, .f32⟩
  | .local _ .vmem, ⟨23, _⟩ => ⟨S10000x64, .f32⟩
  | .local _ .vmem, ⟨24, _⟩ => ⟨S10000x64, .f32⟩
  | .local _ .vmem, ⟨25, _⟩ => ⟨S10000x1, .f32⟩
  | .local _ .vmem, ⟨26, _⟩ => ⟨S10000x1, .f32⟩
  | .local _ .vmem, ⟨27, _⟩ => ⟨S10000x64, .f32⟩
  | .local _ .vmem, ⟨28, _⟩ => ⟨S10000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x64, .f32⟩
  | .local _ .vmem, ⟨38, _⟩ => ⟨S5000x64, .f32⟩
  | .local _ .vmem, ⟨39, _⟩ => ⟨S8000x64, .f32⟩
  | .local _ .vmem, ⟨40, _⟩ => ⟨S8000x64, .f32⟩
  | .local _ .vmem, ⟨41, _⟩ => ⟨S8000x1, .i32⟩
  | .local _ .vmem, ⟨42, _⟩ => ⟨S8000x1, .i32⟩
  | .local _ .vmem, ⟨43, _⟩ => ⟨S9x64, .f32⟩
  | .local _ .vmem, ⟨44, _⟩ => ⟨S8000x64, .f32⟩
  | .local _ .vmem, ⟨45, _⟩ => ⟨S8000x64, .f32⟩
  | .local _ .vmem, ⟨46, _⟩ => ⟨S5000x64, .f32⟩
  | .local _ .vmem, ⟨47, _⟩ => ⟨S5000x64, .f32⟩
  | .local _ .vmem, ⟨48, _⟩ => ⟨S5000x1, .f32⟩
  | .local _ .vmem, ⟨49, _⟩ => ⟨S5000x1, .f32⟩
  | .local _ .vmem, ⟨50, _⟩ => ⟨S5000x64, .f32⟩
  | .local _ .vmem, ⟨51, _⟩ => ⟨S5000x64, .f32⟩
  | .local _ .vmem, ⟨52, _⟩ => ⟨S5000x64, .f32⟩
  | .local _ .vmem, ⟨53, _⟩ => ⟨S5000x64, .f32⟩
  | .local _ .vmem, ⟨54, _⟩ => ⟨S5000x64, .f32⟩
  | .local _ .vmem, ⟨55, _⟩ => ⟨S5000x64, .f32⟩
  | .local _ .vmem, ⟨56, _⟩ => ⟨S5000x64, .f32⟩
  | .local _ .vmem, ⟨57, _⟩ => ⟨S5000x64, .f32⟩
  | .local _ .vmem, ⟨58, _⟩ => ⟨S4x64, .f32⟩
  | .local _ .vmem, ⟨59, _⟩ => ⟨S4x64, .f32⟩
  | .local _ .vmem, ⟨60, _⟩ => ⟨S5000x64, .f32⟩
  | .local _ .vmem, ⟨61, _⟩ => ⟨S5000x64, .f32⟩
  | .local _ .vmem, ⟨62, _⟩ => ⟨S10000x64, .f32⟩
  | .local _ .vmem, ⟨63, _⟩ => ⟨S10000x64, .f32⟩
  | .local _ .vmem, ⟨64, _⟩ => ⟨S10000x1, .f32⟩
  | .local _ .vmem, ⟨65, _⟩ => ⟨S10000x1, .f32⟩
  | .local _ .vmem, ⟨66, _⟩ => ⟨S10000x64, .f32⟩
  | .local _ .vmem, ⟨67, _⟩ => ⟨S10000x64, .f32⟩
  | .local _ .vmem, ⟨68, _⟩ => ⟨S5000x64, .f32⟩
  | .local _ .vmem, ⟨69, _⟩ => ⟨S5000x64, .f32⟩
  | .local _ .vmem, ⟨70, _⟩ => ⟨S5000x64, .f32⟩
  | .local _ .vmem, ⟨71, _⟩ => ⟨S5000x64, .f32⟩
  | .local _ .vmem, ⟨72, _⟩ => ⟨S5000x64, .f32⟩
  | .local _ .vmem, ⟨73, _⟩ => ⟨S5000x64, .f32⟩
  | .local _ .vmem, ⟨74, _⟩ => ⟨S5000x64, .f32⟩
  | .local _ .vmem, ⟨75, _⟩ => ⟨S5000x64, .f32⟩
  | .local _ .vmem, ⟨76, _⟩ => ⟨S5000x64, .f32⟩
  | .local _ .vmem, ⟨77, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | _, _ => false

abbrev semScoped : Fin 0 → Bool
  | ⟨_, h⟩ => absurd h (Nat.not_lt_zero _)

abbrev dmaSemScoped : Fin 78 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | _ => false

abbrev sig : RefSig :=
  ofTc nBuf bufTy 0 78 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c : Ref sig .tc := ⟨.hbm, 41, rfl⟩
abbrev main_v27 : Ref sig .tc := ⟨.hbm, 42, rfl⟩
abbrev main_v28 : Ref sig .tc := ⟨.hbm, 43, rfl⟩
abbrev main_c_4 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_5 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38_0 : Ref sig .tc := ⟨.hbm, 55, rfl⟩
abbrev main_v38_1 : Ref sig .tc := ⟨.hbm, 56, rfl⟩
abbrev main_v39 : Ref sig .tc := ⟨.hbm, 57, rfl⟩
abbrev main_c_6 : Ref sig .tc := ⟨.hbm, 58, rfl⟩
abbrev main_v40 : Ref sig .tc := ⟨.hbm, 59, rfl⟩
abbrev main_v41 : Ref sig .tc := ⟨.hbm, 60, rfl⟩
abbrev main_c_7 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_8 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51_0 : Ref sig .tc := ⟨.hbm, 72, rfl⟩
abbrev main_v51_1 : Ref sig .tc := ⟨.hbm, 73, rfl⟩
abbrev main_c_9 : Ref sig .tc := ⟨.hbm, 74, rfl⟩
abbrev main_v52 : Ref sig .tc := ⟨.hbm, 75, rfl⟩
abbrev main_v53 : Ref sig .tc := ⟨.hbm, 76, rfl⟩
abbrev main_c_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_11 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63_0 : Ref sig .tc := ⟨.hbm, 88, rfl⟩
abbrev main_v63_1 : Ref sig .tc := ⟨.hbm, 89, rfl⟩
abbrev main_v64 : Ref sig .tc := ⟨.hbm, 90, rfl⟩
abbrev main_c_12 : Ref sig .tc := ⟨.hbm, 91, rfl⟩
abbrev main_v65 : Ref sig .tc := ⟨.hbm, 92, rfl⟩
abbrev main_v66 : Ref sig .tc := ⟨.hbm, 93, rfl⟩
abbrev main_c_13 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_14 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76_0 : Ref sig .tc := ⟨.hbm, 105, rfl⟩
abbrev main_v76_1 : Ref sig .tc := ⟨.hbm, 106, rfl⟩
abbrev main_call0_v0 : Ref sig .tc := ⟨.hbm, 107, rfl⟩
abbrev main_call0_cst : Ref sig .tc := ⟨.hbm, 108, rfl⟩
abbrev main_call0_v1 : Ref sig .tc := ⟨.hbm, 109, rfl⟩
abbrev main_call0_v2 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_call1_v0 : Ref sig .tc := ⟨.hbm, 117, rfl⟩
abbrev main_call1_c : Ref sig .tc := ⟨.hbm, 118, rfl⟩
abbrev main_call1_v1 : Ref sig .tc := ⟨.hbm, 119, rfl⟩
abbrev main_call1_v2 : Ref sig .tc := ⟨.hbm, 120, rfl⟩
abbrev main_call1_v3 : Ref sig .tc := ⟨.hbm, 121, rfl⟩
abbrev main_call1_v4 : Ref sig .tc := ⟨.hbm, 122, rfl⟩
abbrev main_call1_cst : Ref sig .tc := ⟨.hbm, 123, rfl⟩
abbrev main_call1_v5 : Ref sig .tc := ⟨.hbm, 124, rfl⟩
abbrev main_v83 : Ref sig .tc := ⟨.hbm, 125, rfl⟩
abbrev main_cst_15 : Ref sig .tc := ⟨.hbm, 126, rfl⟩
abbrev main_v84 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg3_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg1_1 : Ref sig .tc := ⟨.vmem, 32, rfl⟩
abbrev cc4_stg2_0 : Ref sig .tc := ⟨.vmem, 33, rfl⟩
abbrev cc4_stg2_1 : Ref sig .tc := ⟨.vmem, 34, rfl⟩
abbrev cc4_stg3_0 : Ref sig .tc := ⟨.vmem, 35, rfl⟩
abbrev cc4_stg3_1 : Ref sig .tc := ⟨.vmem, 36, rfl⟩
abbrev cc4_stg4_0 : Ref sig .tc := ⟨.vmem, 37, rfl⟩
abbrev cc4_stg4_1 : Ref sig .tc := ⟨.vmem, 38, rfl⟩
abbrev cc5_stg0_0 : Ref sig .tc := ⟨.vmem, 39, rfl⟩
abbrev cc5_stg0_1 : Ref sig .tc := ⟨.vmem, 40, rfl⟩
abbrev cc5_stg1_0 : Ref sig .tc := ⟨.vmem, 41, rfl⟩
abbrev cc5_stg1_1 : Ref sig .tc := ⟨.vmem, 42, rfl⟩
abbrev cc5_stg2_0 : Ref sig .tc := ⟨.vmem, 43, rfl⟩
abbrev cc5_stg3_0 : Ref sig .tc := ⟨.vmem, 44, rfl⟩
abbrev cc5_stg3_1 : Ref sig .tc := ⟨.vmem, 45, rfl⟩
abbrev cc6_stg0_0 : Ref sig .tc := ⟨.vmem, 46, rfl⟩
abbrev cc6_stg0_1 : Ref sig .tc := ⟨.vmem, 47, rfl⟩
abbrev cc6_stg1_0 : Ref sig .tc := ⟨.vmem, 48, rfl⟩
abbrev cc6_stg1_1 : Ref sig .tc := ⟨.vmem, 49, rfl⟩
abbrev cc6_stg2_0 : Ref sig .tc := ⟨.vmem, 50, rfl⟩
abbrev cc6_stg2_1 : Ref sig .tc := ⟨.vmem, 51, rfl⟩
abbrev cc6_stg3_0 : Ref sig .tc := ⟨.vmem, 52, rfl⟩
abbrev cc6_stg3_1 : Ref sig .tc := ⟨.vmem, 53, rfl⟩
abbrev cc6_stg4_0 : Ref sig .tc := ⟨.vmem, 54, rfl⟩
abbrev cc6_stg4_1 : Ref sig .tc := ⟨.vmem, 55, rfl⟩
abbrev cc7_stg0_0 : Ref sig .tc := ⟨.vmem, 56, rfl⟩
abbrev cc7_stg0_1 : Ref sig .tc := ⟨.vmem, 57, rfl⟩
abbrev cc7_stg1_0 : Ref sig .tc := ⟨.vmem, 58, rfl⟩
abbrev cc7_stg2_0 : Ref sig .tc := ⟨.vmem, 59, rfl⟩
abbrev cc7_stg3_0 : Ref sig .tc := ⟨.vmem, 60, rfl⟩
abbrev cc7_stg3_1 : Ref sig .tc := ⟨.vmem, 61, rfl⟩
abbrev cc8_stg0_0 : Ref sig .tc := ⟨.vmem, 62, rfl⟩
abbrev cc8_stg0_1 : Ref sig .tc := ⟨.vmem, 63, rfl⟩
abbrev cc8_stg1_0 : Ref sig .tc := ⟨.vmem, 64, rfl⟩
abbrev cc8_stg1_1 : Ref sig .tc := ⟨.vmem, 65, rfl⟩
abbrev cc8_stg2_0 : Ref sig .tc := ⟨.vmem, 66, rfl⟩
abbrev cc8_stg2_1 : Ref sig .tc := ⟨.vmem, 67, rfl⟩
abbrev cc9_stg0_0 : Ref sig .tc := ⟨.vmem, 68, rfl⟩
abbrev cc9_stg0_1 : Ref sig .tc := ⟨.vmem, 69, rfl⟩
abbrev cc9_stg1_0 : Ref sig .tc := ⟨.vmem, 70, rfl⟩
abbrev cc9_stg1_1 : Ref sig .tc := ⟨.vmem, 71, rfl⟩
abbrev cc9_stg2_0 : Ref sig .tc := ⟨.vmem, 72, rfl⟩
abbrev cc9_stg2_1 : Ref sig .tc := ⟨.vmem, 73, rfl⟩
abbrev cc9_stg3_0 : Ref sig .tc := ⟨.vmem, 74, rfl⟩
abbrev cc9_stg3_1 : Ref sig .tc := ⟨.vmem, 75, rfl⟩
abbrev cc9_stg4_0 : Ref sig .tc := ⟨.vmem, 76, rfl⟩
abbrev cc9_stg4_1 : Ref sig .tc := ⟨.vmem, 77, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem3_0 : DmaSem sig := 21
abbrev cc2_sem3_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc4_sem0_0 : DmaSem sig := 29
abbrev cc4_sem0_1 : DmaSem sig := 30
abbrev cc4_sem1_0 : DmaSem sig := 31
abbrev cc4_sem1_1 : DmaSem sig := 32
abbrev cc4_sem2_0 : DmaSem sig := 33
abbrev cc4_sem2_1 : DmaSem sig := 34
abbrev cc4_sem3_0 : DmaSem sig := 35
abbrev cc4_sem3_1 : DmaSem sig := 36
abbrev cc4_sem4_0 : DmaSem sig := 37
abbrev cc4_sem4_1 : DmaSem sig := 38
abbrev cc5_sem0_0 : DmaSem sig := 39
abbrev cc5_sem0_1 : DmaSem sig := 40
abbrev cc5_sem1_0 : DmaSem sig := 41
abbrev cc5_sem1_1 : DmaSem sig := 42
abbrev cc5_sem2_0 : DmaSem sig := 43
abbrev cc5_sem3_0 : DmaSem sig := 44
abbrev cc5_sem3_1 : DmaSem sig := 45
abbrev cc6_sem0_0 : DmaSem sig := 46
abbrev cc6_sem0_1 : DmaSem sig := 47
abbrev cc6_sem1_0 : DmaSem sig := 48
abbrev cc6_sem1_1 : DmaSem sig := 49
abbrev cc6_sem2_0 : DmaSem sig := 50
abbrev cc6_sem2_1 : DmaSem sig := 51
abbrev cc6_sem3_0 : DmaSem sig := 52
abbrev cc6_sem3_1 : DmaSem sig := 53
abbrev cc6_sem4_0 : DmaSem sig := 54
abbrev cc6_sem4_1 : DmaSem sig := 55
abbrev cc7_sem0_0 : DmaSem sig := 56
abbrev cc7_sem0_1 : DmaSem sig := 57
abbrev cc7_sem1_0 : DmaSem sig := 58
abbrev cc7_sem2_0 : DmaSem sig := 59
abbrev cc7_sem3_0 : DmaSem sig := 60
abbrev cc7_sem3_1 : DmaSem sig := 61
abbrev cc8_sem0_0 : DmaSem sig := 62
abbrev cc8_sem0_1 : DmaSem sig := 63
abbrev cc8_sem1_0 : DmaSem sig := 64
abbrev cc8_sem1_1 : DmaSem sig := 65
abbrev cc8_sem2_0 : DmaSem sig := 66
abbrev cc8_sem2_1 : DmaSem sig := 67
abbrev cc9_sem0_0 : DmaSem sig := 68
abbrev cc9_sem0_1 : DmaSem sig := 69
abbrev cc9_sem1_0 : DmaSem sig := 70
abbrev cc9_sem1_1 : DmaSem sig := 71
abbrev cc9_sem2_0 : DmaSem sig := 72
abbrev cc9_sem2_1 : DmaSem sig := 73
abbrev cc9_sem3_0 : DmaSem sig := 74
abbrev cc9_sem3_1 : DmaSem sig := 75
abbrev cc9_sem4_0 : DmaSem sig := 76
abbrev cc9_sem4_1 : DmaSem sig := 77

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S9x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S4x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S5000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![250], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S8000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S8000x1 .i32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S9x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S8000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![40], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x1 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S5000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S5000x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S5000x64 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S4x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S4x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S5000x64 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![100], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S10000x1 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S10000x64 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S5000x64 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S5000x64 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 2 → Memref sig .tc .vmem S5000x64 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev stage9_4 : Fin 2 → Memref sig .tc .vmem S5000x64 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S2000000 : S_.BroadcastsInDim S2000000 (![] : Fin 0 → Fin S2000000.rank)
  bcast_S_S200000 : S_.BroadcastsInDim S200000 (![] : Fin 0 → Fin S200000.rank)
  bcast_S2000000_S2000000x1_0 : S2000000.BroadcastsInDim S2000000x1 (![0] : Fin 1 → Fin S2000000x1.rank)
  bcast_S200000_S200000x1_0 : S200000.BroadcastsInDim S200000x1 (![0] : Fin 1 → Fin S200000x1.rank)
  reducesTo_S4x9_S4_d1 : S4x9.ReducesTo [1] S4
  h_S_ : 0 < S_.numel
  bcast_S_S4 : S_.BroadcastsInDim S4 (![] : Fin 0 → Fin S4.rank)
  bcast_S4_S4x1_0 : S4.BroadcastsInDim S4x1 (![0] : Fin 1 → Fin S4x1.rank)
  bcast_S4x1_S4x9_0_1 : S4x1.BroadcastsInDim S4x9 (![0, 1] : Fin 2 → Fin S4x9.rank)
  bcast_S1000000_S1000000x1_0 : S1000000.BroadcastsInDim S1000000x1 (![0] : Fin 1 → Fin S1000000x1.rank)
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  iota_S8000x9_d1_w32 : S8000x9.Iotas .tc 32 [1]
  broadcasts_S8000x1_S8000x9 : S8000x1.Broadcasts S8000x9
  natLt_1_32 : 1 < 32
  bitsLt_bf16_f32 : FTy.bits .bf16 < FTy.bits .f32
  inb_S9x64_S9x64_0_0 : ∀ a, (![0, 0] : Fin 2 → Nat) a + S9x64.size a ≤ S9x64.size a
  h_S9x64 : 0 < S9x64.numel
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  bcast_S_S200000x64 : S_.BroadcastsInDim S200000x64 (![] : Fin 0 → Fin S200000x64.rank)
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S5000x1_S5000x64 : S5000x1.Broadcasts S5000x64
  reduces_S5000x64_S5000 : S5000x64.Reduces [1] S5000
  shapeCasts_S5000_S5000x1 : S5000.ShapeCasts S5000x1
  inb_S4x64_S4x64_0_0 : ∀ a, (![0, 0] : Fin 2 → Nat) a + S4x64.size a ≤ S4x64.size a
  h_S4x64 : 0 < S4x64.numel
  reduces_S5000x4_S5000 : S5000x4.Reduces [1] S5000
  broadcasts_S5000x1_S5000x4 : S5000x1.Broadcasts S5000x4
  shapeCasts_S4x64_S4x64 : S4x64.ShapeCasts S4x64
  bcast_S_S1000000 : S_.BroadcastsInDim S1000000 (![] : Fin 0 → Fin S1000000.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  bcast_S_S100000x64 : S_.BroadcastsInDim S100000x64 (![] : Fin 0 → Fin S100000x64.rank)
  transposes_S4x9_S9x4_1_0 : S4x9.Transposes [1, 0] S9x4
  bcast_S_S4x4 : S_.BroadcastsInDim S4x4 (![] : Fin 0 → Fin S4x4.rank)
  reducesTo_S4x4_S_d0_1 : S4x4.ReducesTo [0, 1] S_
  scatter_S200000_S2000000x1_S2000000_n_0_0_1_wf : ScatterDims.WF S200000 S2000000x1 S2000000 [] [0] [0] 1
  dot_S4x9_S9x64_S4x64_1_0_0_1_n_n_wf : DotDims.WF S4x9 S9x64 S4x64 [1] [0] [0] [1] [] []
  gather_S200000x64_S2000000x1_S2000000x64_1_0_n_n_0_1_164_wf : GatherDims.WF S200000x64 S2000000x1 S2000000x64 [1] [0] [] [0] [] 1 ![1, 64]
  dot_S8000x9_S9x64_S8000x64_1_0_0_1_n_n_wf : DotDims.WF S8000x9 S9x64 S8000x64 [1] [0] [0] [1] [] []
  scatter_S200000x64_S2000000x1_S2000000x64_1_0_0_1_wf : ScatterDims.WF S200000x64 S2000000x1 S2000000x64 [1] [0] [0] 1
  dot_S5000x64_S4x64_S5000x4_1_1_0_0_n_n_wf : DotDims.WF S5000x64 S4x64 S5000x4 [1] [1] [0] [0] [] []
  dot_S5000x4_S4x64_S5000x64_1_0_0_1_n_n_wf : DotDims.WF S5000x4 S4x64 S5000x64 [1] [0] [0] [1] [] []
  gather_S200000x64_S1000000x1_S1000000x64_1_0_n_n_0_1_164_wf : GatherDims.WF S200000x64 S1000000x1 S1000000x64 [1] [0] [] [0] [] 1 ![1, 64]
  scatter_S100000x64_S1000000x1_S1000000x64_1_0_0_1_wf : ScatterDims.WF S100000x64 S1000000x1 S1000000x64 [1] [0] [0] 1
  dot_S4x9_S9x4_S4x4_1_0_0_1_n_n_wf : DotDims.WF S4x9 S9x4 S4x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S2000000x64.size a
  hwx0_0 : ∀ i : grid0.Coords, EltTy.bits .f32 = 32 ∨ (Rect.block (s := S2000000x64) S8000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x1.size a ≤ S2000000x1.size a
  hwx0_1 : ∀ i : grid0.Coords, EltTy.bits .i32 = 32 ∨ (Rect.block (s := S2000000x1) S8000x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S9x64.size a ≤ S9x64.size a
  hwx0_2 : ∀ i : grid0.Coords, EltTy.bits .f32 = 32 ∨ (Rect.block (s := S9x64) S9x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x64.size a ≤ S2000000x64.size a
  hwx0_3 : ∀ i : grid0.Coords, EltTy.bits .f32 = 32 ∨ (Rect.block (s := S2000000x64) S8000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S200000x64.size a
  hwx1_0 : ∀ i : grid1.Coords, EltTy.bits .f32 = 32 ∨ (Rect.block (s := S200000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S200000x1.size a
  hwx1_1 : ∀ i : grid1.Coords, EltTy.bits .f32 = 32 ∨ (Rect.block (s := S200000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S200000x64.size a
  hwx1_2 : ∀ i : grid1.Coords, EltTy.bits .f32 = 32 ∨ (Rect.block (s := S200000x64) S5000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S200000x64.size a
  hwx1_3 : ∀ i : grid1.Coords, EltTy.bits .f32 = 32 ∨ (Rect.block (s := S200000x64) S5000x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S200000x64.size a
  hwx1_4 : ∀ i : grid1.Coords, EltTy.bits .f32 = 32 ∨ (Rect.block (s := S200000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4x64.size a ≤ S4x64.size a
  hwx2_1 : ∀ i : grid2.Coords, EltTy.bits .f32 = 32 ∨ (Rect.block (s := S4x64) S4x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S4x64.size a ≤ S4x64.size a
  hwx2_2 : ∀ i : grid2.Coords, EltTy.bits .f32 = 32 ∨ (Rect.block (s := S4x64) S4x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S1000000x64.size a
  hwx3_0 : ∀ i : grid3.Coords, EltTy.bits .f32 = 32 ∨ (Rect.block (s := S1000000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x1.size a ≤ S1000000x1.size a
  hwx3_1 : ∀ i : grid3.Coords, EltTy.bits .f32 = 32 ∨ (Rect.block (s := S1000000x1) S10000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S1000000x64.size a
  hwx3_2 : ∀ i : grid3.Coords, EltTy.bits .f32 = 32 ∨ (Rect.block (s := S1000000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S100000x64.size a
  hwx4_1 : ∀ i : grid4.Coords, EltTy.bits .f32 = 32 ∨ (Rect.block (s := S100000x64) S5000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S100000x64.size a
  hwx4_2 : ∀ i : grid4.Coords, EltTy.bits .f32 = 32 ∨ (Rect.block (s := S100000x64) S5000x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S100000x64.size a
  hwx4_3 : ∀ i : grid4.Coords, EltTy.bits .f32 = 32 ∨ (Rect.block (s := S100000x64) S5000x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x64.size a ≤ S100000x64.size a
  hwx4_4 : ∀ i : grid4.Coords, EltTy.bits .f32 = 32 ∨ (Rect.block (s := S100000x64) S5000x64.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8000x64.size a ≤ S2000000x64.size a
  hwx5_0 : ∀ i : grid5.Coords, EltTy.bits .f32 = 32 ∨ (Rect.block (s := S2000000x64) S8000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S8000x1.size a ≤ S2000000x1.size a
  hwx5_1 : ∀ i : grid5.Coords, EltTy.bits .i32 = 32 ∨ (Rect.block (s := S2000000x1) S8000x1.size (cc5_transform_1 i) (hinb5_1 i)).WholeWords (EltTy.packing .i32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S9x64.size a ≤ S9x64.size a
  hwx5_2 : ∀ i : grid5.Coords, EltTy.bits .f32 = 32 ∨ (Rect.block (s := S9x64) S9x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S8000x64.size a ≤ S2000000x64.size a
  hwx5_3 : ∀ i : grid5.Coords, EltTy.bits .f32 = 32 ∨ (Rect.block (s := S2000000x64) S8000x64.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S200000x64.size a
  hwx6_0 : ∀ i : grid6.Coords, EltTy.bits .f32 = 32 ∨ (Rect.block (s := S200000x64) S5000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x1.size a ≤ S200000x1.size a
  hwx6_1 : ∀ i : grid6.Coords, EltTy.bits .f32 = 32 ∨ (Rect.block (s := S200000x1) S5000x1.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x64.size a ≤ S200000x64.size a
  hwx6_2 : ∀ i : grid6.Coords, EltTy.bits .f32 = 32 ∨ (Rect.block (s := S200000x64) S5000x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x64.size a ≤ S200000x64.size a
  hwx6_3 : ∀ i : grid6.Coords, EltTy.bits .f32 = 32 ∨ (Rect.block (s := S200000x64) S5000x64.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S5000x64.size a ≤ S200000x64.size a
  hwx6_4 : ∀ i : grid6.Coords, EltTy.bits .f32 = 32 ∨ (Rect.block (s := S200000x64) S5000x64.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S100000x64.size a
  hwx7_0 : ∀ i : grid7.Coords, EltTy.bits .f32 = 32 ∨ (Rect.block (s := S100000x64) S5000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S4x64.size a ≤ S4x64.size a
  hwx7_1 : ∀ i : grid7.Coords, EltTy.bits .f32 = 32 ∨ (Rect.block (s := S4x64) S4x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S4x64.size a ≤ S4x64.size a
  hwx7_2 : ∀ i : grid7.Coords, EltTy.bits .f32 = 32 ∨ (Rect.block (s := S4x64) S4x64.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x64.size a ≤ S100000x64.size a
  hwx7_3 : ∀ i : grid7.Coords, EltTy.bits .f32 = 32 ∨ (Rect.block (s := S100000x64) S5000x64.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x64.size a ≤ S1000000x64.size a
  hwx8_0 : ∀ i : grid8.Coords, EltTy.bits .f32 = 32 ∨ (Rect.block (s := S1000000x64) S10000x64.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S10000x1.size a ≤ S1000000x1.size a
  hwx8_1 : ∀ i : grid8.Coords, EltTy.bits .f32 = 32 ∨ (Rect.block (s := S1000000x1) S10000x1.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S10000x64.size a ≤ S1000000x64.size a
  hwx8_2 : ∀ i : grid8.Coords, EltTy.bits .f32 = 32 ∨ (Rect.block (s := S1000000x64) S10000x64.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x64.size a ≤ S100000x64.size a
  hwx9_0 : ∀ i : grid9.Coords, EltTy.bits .f32 = 32 ∨ (Rect.block (s := S100000x64) S5000x64.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S5000x64.size a ≤ S100000x64.size a
  hwx9_1 : ∀ i : grid9.Coords, EltTy.bits .f32 = 32 ∨ (Rect.block (s := S100000x64) S5000x64.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S5000x64.size a ≤ S100000x64.size a
  hwx9_2 : ∀ i : grid9.Coords, EltTy.bits .f32 = 32 ∨ (Rect.block (s := S100000x64) S5000x64.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S5000x64.size a ≤ S100000x64.size a
  hwx9_3 : ∀ i : grid9.Coords, EltTy.bits .f32 = 32 ∨ (Rect.block (s := S100000x64) S5000x64.size (cc9_transform_3 i) (hinb9_3 i)).WholeWords (EltTy.packing .f32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S5000x64.size a ≤ S100000x64.size a
  hwx9_4 : ∀ i : grid9.Coords, EltTy.bits .f32 = 32 ∨ (Rect.block (s := S100000x64) S5000x64.size (cc9_transform_4 i) (hinb9_4 i)).WholeWords (EltTy.packing .f32)

variable [Facts₀]

def scatter_S200000_S2000000x1_S2000000_n_0_0_1 : ScatterDims S200000 S2000000x1 S2000000 where
  updateWindowDims := []
  insertedWindowDims := [0]
  scatterDimsToOperandDims := [0]
  indexVectorDim := 1
  wf := scatter_S200000_S2000000x1_S2000000_n_0_0_1_wf
def dot_S4x9_S9x64_S4x64_1_0_0_1_n_n : DotDims S4x9 S9x64 S4x64 where
  lhsContracting := [1]
  rhsContracting := [0]
  lhsNonContracting := [0]
  rhsNonContracting := [1]
  lhsBatch := []
  rhsBatch := []
  wf := dot_S4x9_S9x64_S4x64_1_0_0_1_n_n_wf
def gather_S200000x64_S2000000x1_S2000000x64_1_0_n_n_0_1_164 : GatherDims S200000x64 S2000000x1 S2000000x64 where
  offsetDims := [1]
  collapsedSliceDims := [0]
  operandBatchingDims := []
  startIndicesBatchingDims := []
  startIndexMap := [0]
  indexVectorDim := 1
  sliceSizes := ![1, 64]
  wf := gather_S200000x64_S2000000x1_S2000000x64_1_0_n_n_0_1_164_wf
def dot_S8000x9_S9x64_S8000x64_1_0_0_1_n_n : DotDims S8000x9 S9x64 S8000x64 where
  lhsContracting := [1]
  rhsContracting := [0]
  lhsNonContracting := [0]
  rhsNonContracting := [1]
  lhsBatch := []
  rhsBatch := []
  wf := dot_S8000x9_S9x64_S8000x64_1_0_0_1_n_n_wf
def scatter_S200000x64_S2000000x1_S2000000x64_1_0_0_1 : ScatterDims S200000x64 S2000000x1 S2000000x64 where
  updateWindowDims := [1]
  insertedWindowDims := [0]
  scatterDimsToOperandDims := [0]
  indexVectorDim := 1
  wf := scatter_S200000x64_S2000000x1_S2000000x64_1_0_0_1_wf
def dot_S5000x64_S4x64_S5000x4_1_1_0_0_n_n : DotDims S5000x64 S4x64 S5000x4 where
  lhsContracting := [1]
  rhsContracting := [1]
  lhsNonContracting := [0]
  rhsNonContracting := [0]
  lhsBatch := []
  rhsBatch := []
  wf := dot_S5000x64_S4x64_S5000x4_1_1_0_0_n_n_wf
def dot_S5000x4_S4x64_S5000x64_1_0_0_1_n_n : DotDims S5000x4 S4x64 S5000x64 where
  lhsContracting := [1]
  rhsContracting := [0]
  lhsNonContracting := [0]
  rhsNonContracting := [1]
  lhsBatch := []
  rhsBatch := []
  wf := dot_S5000x4_S4x64_S5000x64_1_0_0_1_n_n_wf
def gather_S200000x64_S1000000x1_S1000000x64_1_0_n_n_0_1_164 : GatherDims S200000x64 S1000000x1 S1000000x64 where
  offsetDims := [1]
  collapsedSliceDims := [0]
  operandBatchingDims := []
  startIndicesBatchingDims := []
  startIndexMap := [0]
  indexVectorDim := 1
  sliceSizes := ![1, 64]
  wf := gather_S200000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S4x9_S9x4_S4x4_1_0_0_1_n_n : DotDims S4x9 S9x4 S4x4 where
  lhsContracting := [1]
  rhsContracting := [0]
  lhsNonContracting := [0]
  rhsNonContracting := [1]
  lhsBatch := []
  rhsBatch := []
  wf := dot_S4x9_S9x4_S4x4_1_0_0_1_n_n_wf

abbrev win0_0 : Pipeline.Window sig grid0 :=
  Pipeline.Window.ofSpec (Memref.whole main_v33) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S8000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg7) S9x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v34) S8000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v37) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v38_0) S5000x64.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v38_1) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg0) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S4x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v24) S4x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v39) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v46) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v26) S10000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v47) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v50) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v39) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg0) S5000x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v51_0) S5000x64.size cc4_transform_3 reads4_3 true false 2 stage4_3 sem4_3
    hrank4 hreads4_3 hinb4_3 nbuf4_3 (Memref.isWhole_whole _) hwx4_3 hstage4_3

abbrev win4_4 : Pipeline.Window sig grid4 :=
  Pipeline.Window.ofSpec (Memref.whole main_v51_1) S5000x64.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v58) S8000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v25) S8000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg7) S9x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v59) S8000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v62) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v12) S5000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v38_1) S5000x64.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v63_0) S5000x64.size cc6_transform_3 reads6_3 true false 2 stage6_3 sem6_3
    hrank6 hreads6_3 hinb6_3 nbuf6_3 (Memref.isWhole_whole _) hwx6_3 hstage6_3

abbrev win6_4 : Pipeline.Window sig grid6 :=
  Pipeline.Window.ofSpec (Memref.whole main_v63_1) S5000x64.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v51_0) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg2) S4x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v24) S4x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v64) S5000x64.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v71) S10000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v26) S10000x1.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v72) S10000x64.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v75) S5000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v64) S5000x64.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v51_1) S5000x64.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_v76_0) S5000x64.size cc9_transform_3 reads9_3 true false 2 stage9_3 sem9_3
    hrank9 hreads9_3 hinb9_3 nbuf9_3 (Memref.isWhole_whole _) hwx9_3 hstage9_3

abbrev win9_4 : Pipeline.Window sig grid9 :=
  Pipeline.Window.ofSpec (Memref.whole main_v76_1) S5000x64.size cc9_transform_4 reads9_4 true false 2 stage9_4 sem9_4
    hrank9 hreads9_4 hinb9_4 nbuf9_4 (Memref.isWhole_whole _) hwx9_4 hstage9_4

abbrev win9 : Fin 5 → Pipeline.Window sig grid9 := fun | 0 => win9_0 | 1 => win9_1 | 2 => win9_2 | 3 => win9_3 | 4 => win9_4 | ⟨_ + 5, h⟩ => absurd h (Nat.not_lt.2 (Nat.le_add_left _ _))
abbrev spec9 : Fin 5 → Pipeline.WinSpec sig grid9.rank := fun w => (win9 w).toWinSpec

class Facts : Prop extends Facts₀ where

variable [Facts]
-- ==== ReferenceIdeal.lean ====
abbrev S100000x64 : Shape := ⟨2, ![100000, 64]⟩
abbrev S200000x64 : Shape := ⟨2, ![200000, 64]⟩
abbrev S4x64 : Shape := ⟨2, ![4, 64]⟩
abbrev S2x2000000 : Shape := ⟨2, ![2, 2000000]⟩
abbrev S2000000 : Shape := ⟨1, ![2000000]⟩
abbrev S2x1000000 : Shape := ⟨2, ![2, 1000000]⟩
abbrev S1000000 : Shape := ⟨1, ![1000000]⟩
abbrev S9x64 : Shape := ⟨2, ![9, 64]⟩
abbrev S4x9 : Shape := ⟨2, ![4, 9]⟩
abbrev S1x2000000 : Shape := ⟨2, ![1, 2000000]⟩
abbrev S1x1000000 : Shape := ⟨2, ![1, 1000000]⟩
abbrev S_ : Shape := ⟨0, ![]⟩
abbrev S200000 : Shape := ⟨1, ![200000]⟩
abbrev S2000000x1 : Shape := ⟨2, ![2000000, 1]⟩
abbrev S200000x1 : Shape := ⟨2, ![200000, 1]⟩
abbrev S4 : Shape := ⟨1, ![4]⟩
abbrev S4x1 : Shape := ⟨2, ![4, 1]⟩
abbrev S2000000x64 : Shape := ⟨2, ![2000000, 64]⟩
abbrev S64x4 : Shape := ⟨2, ![64, 4]⟩
abbrev S100000x4 : Shape := ⟨2, ![100000, 4]⟩
abbrev S100000 : Shape := ⟨1, ![100000]⟩
abbrev S100000x1 : Shape := ⟨2, ![100000, 1]⟩
abbrev S1000000x1 : Shape := ⟨2, ![1000000, 1]⟩
abbrev S1000000x64 : Shape := ⟨2, ![1000000, 64]⟩
abbrev S9x4 : Shape := ⟨2, ![9, 4]⟩
abbrev S4x4 : Shape := ⟨2, ![4, 4]⟩

abbrev nBuf : Space → Nat
  | .hbm => 233
  | .vmem => 0
  | .smem => 0
  | _ => 0

abbrev hbmTy0_0 (i : Nat) : BufTy := match i % 128 with
  | 0 => ⟨S100000x64, .f32⟩
  | 1 => ⟨S200000x64, .f32⟩
  | 2 => ⟨S4x64, .f32⟩
  | 3 => ⟨S2x2000000, .i32⟩
  | 4 => ⟨S2000000, .i32⟩
  | 5 => ⟨S2x1000000, .i32⟩
  | 6 => ⟨S1000000, .f32⟩
  | 7 => ⟨S9x64, .f32⟩
  | 8 => ⟨S4x9, .f32⟩
  | 9 => ⟨S1x2000000, .i32⟩
  | 10 => ⟨S2000000, .i32⟩
  | 11 => ⟨S1x2000000, .i32⟩
  | 12 => ⟨S2000000, .i32⟩
  | 13 => ⟨S1x1000000, .i32⟩
  | 14 => ⟨S1000000, .i32⟩
  | 15 => ⟨S1x1000000, .i32⟩
  | 16 => ⟨S1000000, .i32⟩
  | 17 => ⟨S_, .f32⟩
  | 18 => ⟨S2000000, .f32⟩
  | 19 => ⟨S_, .f32⟩
  | 20 => ⟨S200000, .f32⟩
  | 21 => ⟨S2000000x1, .i32⟩
  | 22 => ⟨S200000, .f32⟩
  | 23 => ⟨S_, .f32⟩
  | 24 => ⟨S200000, .f32⟩
  | 25 => ⟨S200000, .f32⟩
  | 26 => ⟨S200000x1, .f32⟩
  | 27 => ⟨S_, .f32⟩
  | 28 => ⟨S4, .f32⟩
  | 29 => ⟨S_, .f32⟩
  | 30 => ⟨S4, .f32⟩
  | 31 => ⟨S4, .f32⟩
  | 32 => ⟨S4x1, .f32⟩
  | 33 => ⟨S4x9, .f32⟩
  | 34 => ⟨S4x9, .f32⟩
  | 35 => ⟨S4x9, .f32⟩
  | 36 => ⟨S_, .f32⟩
  | 37 => ⟨S4, .f32⟩
  | 38 => ⟨S4x1, .f32⟩
  | 39 => ⟨S4x9, .f32⟩
  | 40 => ⟨S4x9, .f32⟩
  | 41 => ⟨S4x64, .f32⟩
  | 42 => ⟨S_, .i32⟩
  | 43 => ⟨S2000000, .i32⟩
  | 44 => ⟨S2000000, .i1⟩
  | 45 => ⟨S_, .i32⟩
  | 46 => ⟨S2000000, .i32⟩
  | 47 => ⟨S2000000, .i32⟩
  | 48 => ⟨S2000000, .i32⟩
  | 49 => ⟨S2000000x1, .i32⟩
  | 50 => ⟨S2000000x64, .f32⟩
  | 51 => ⟨S_, .i32⟩
  | 52 => ⟨S2000000, .i32⟩
  | 53 => ⟨S2000000, .i32⟩
  | 54 => ⟨S_, .i32⟩
  | 55 => ⟨S2000000, .i32⟩
  | 56 => ⟨S2000000, .i1⟩
  | 57 => ⟨S_, .i32⟩
  | 58 => ⟨S2000000, .i32⟩
  | 59 => ⟨S2000000, .i32⟩
  | 60 => ⟨S2000000, .i32⟩
  | 61 => ⟨S2000000x1, .i32⟩
  | 62 => ⟨S2000000x64, .f32⟩
  | 63 => ⟨S2000000x64, .f32⟩
  | 64 => ⟨S_, .f32⟩
  | 65 => ⟨S200000x64, .f32⟩
  | 66 => ⟨S2000000x1, .i32⟩
  | 67 => ⟨S200000x64, .f32⟩
  | 68 => ⟨S200000x64, .f32⟩
  | 69 => ⟨S200000x64, .f32⟩
  | 70 => ⟨S64x4, .f32⟩
  | 71 => ⟨S100000x4, .f32⟩
  | 72 => ⟨S_, .f32⟩
  | 73 => ⟨S100000, .f32⟩
  | 74 => ⟨S_, .f32⟩
  | 75 => ⟨S100000, .f32⟩
  | 76 => ⟨S100000, .f32⟩
  | 77 => ⟨S100000x1, .f32⟩
  | 78 => ⟨S100000x4, .f32⟩
  | 79 => ⟨S100000x4, .f32⟩
  | 80 => ⟨S100000x4, .f32⟩
  | 81 => ⟨S_, .f32⟩
  | 82 => ⟨S100000, .f32⟩
  | 83 => ⟨S100000x1, .f32⟩
  | 84 => ⟨S100000x4, .f32⟩
  | 85 => ⟨S100000x4, .f32⟩
  | 86 => ⟨S1000000x1, .f32⟩
  | 87 => ⟨S_, .i32⟩
  | 88 => ⟨S1000000, .i32⟩
  | 89 => ⟨S1000000, .i1⟩
  | 90 => ⟨S_, .i32⟩
  | 91 => ⟨S1000000, .i32⟩
  | 92 => ⟨S1000000, .i32⟩
  | 93 => ⟨S1000000, .i32⟩
  | 94 => ⟨S1000000x1, .i32⟩
  | 95 => ⟨S1000000x64, .f32⟩
  | 96 => ⟨S1000000x64, .f32⟩
  | 97 => ⟨S1000000x64, .f32⟩
  | 98 => ⟨S_, .f32⟩
  | 99 => ⟨S100000x64, .f32⟩
  | 100 => ⟨S1000000x1, .i32⟩
  | 101 => ⟨S100000x64, .f32⟩
  | 102 => ⟨S100000x64, .f32⟩
  | 103 => ⟨S100000x64, .f32⟩
  | 104 => ⟨S100000x64, .f32⟩
  | 105 => ⟨S200000x64, .f32⟩
  | 106 => ⟨S_, .f32⟩
  | 107 => ⟨S200000, .f32⟩
  | 108 => ⟨S200000x1, .f32⟩
  | 109 => ⟨S200000x1, .f32⟩
  | 110 => ⟨S_, .f32⟩
  | 111 => ⟨S200000x1, .f32⟩
  | 112 => ⟨S200000x1, .f32⟩
  | 113 => ⟨S200000x64, .f32⟩
  | 114 => ⟨S200000x64, .f32⟩
  | 115 => ⟨S100000x64, .f32⟩
  | 116 => ⟨S_, .f32⟩
  | 117 => ⟨S100000, .f32⟩
  | 118 => ⟨S100000x1, .f32⟩
  | 119 => ⟨S100000x1, .f32⟩
  | 120 => ⟨S_, .f32⟩
  | 121 => ⟨S100000x1, .f32⟩
  | 122 => ⟨S100000x1, .f32⟩
  | 123 => ⟨S100000x64, .f32⟩
  | 124 => ⟨S100000x64, .f32⟩
  | 125 => ⟨S200000x64, .f32⟩
  | 126 => ⟨S100000x64, .f32⟩
  | 127 => ⟨S_, .i32⟩
  | _ => ⟨S100000x64, .f32⟩

abbrev hbmTy0_1 (i : Nat) : BufTy := match i % 128 with
  | 0 => ⟨S2000000, .i32⟩
  | 1 => ⟨S2000000, .i1⟩
  | 2 => ⟨S_, .i32⟩
  | 3 => ⟨S2000000, .i32⟩
  | 4 => ⟨S2000000, .i32⟩
  | 5 => ⟨S2000000, .i32⟩
  | 6 => ⟨S2000000x1, .i32⟩
  | 7 => ⟨S2000000x64, .f32⟩
  | 8 => ⟨S_, .i32⟩
  | 9 => ⟨S2000000, .i32⟩
  | 10 => ⟨S2000000, .i32⟩
  | 11 => ⟨S_, .i32⟩
  | 12 => ⟨S2000000, .i32⟩
  | 13 => ⟨S2000000, .i1⟩
  | 14 => ⟨S_, .i32⟩
  | 15 => ⟨S2000000, .i32⟩
  | 16 => ⟨S2000000, .i32⟩
  | 17 => ⟨S2000000, .i32⟩
  | 18 => ⟨S2000000x1, .i32⟩
  | 19 => ⟨S2000000x64, .f32⟩
  | 20 => ⟨S2000000x64, .f32⟩
  | 21 => ⟨S_, .f32⟩
  | 22 => ⟨S200000x64, .f32⟩
  | 23 => ⟨S2000000x1, .i32⟩
  | 24 => ⟨S200000x64, .f32⟩
  | 25 => ⟨S200000x64, .f32⟩
  | 26 => ⟨S200000x64, .f32⟩
  | 27 => ⟨S64x4, .f32⟩
  | 28 => ⟨S100000x4, .f32⟩
  | 29 => ⟨S_, .f32⟩
  | 30 => ⟨S100000, .f32⟩
  | 31 => ⟨S_, .f32⟩
  | 32 => ⟨S100000, .f32⟩
  | 33 => ⟨S100000, .f32⟩
  | 34 => ⟨S100000x1, .f32⟩
  | 35 => ⟨S100000x4, .f32⟩
  | 36 => ⟨S100000x4, .f32⟩
  | 37 => ⟨S100000x4, .f32⟩
  | 38 => ⟨S_, .f32⟩
  | 39 => ⟨S100000, .f32⟩
  | 40 => ⟨S100000x1, .f32⟩
  | 41 => ⟨S100000x4, .f32⟩
  | 42 => ⟨S100000x4, .f32⟩
  | 43 => ⟨S1000000x1, .f32⟩
  | 44 => ⟨S_, .i32⟩
  | 45 => ⟨S1000000, .i32⟩
  | 46 => ⟨S1000000, .i1⟩
  | 47 => ⟨S_, .i32⟩
  | 48 => ⟨S1000000, .i32⟩
  | 49 => ⟨S1000000, .i32⟩
  | 50 => ⟨S1000000, .i32⟩
  | 51 => ⟨S1000000x1, .i32⟩
  | 52 => ⟨S1000000x64, .f32⟩
  | 53 => ⟨S1000000x64, .f32⟩
  | 54 => ⟨S1000000x64, .f32⟩
  | 55 => ⟨S_, .f32⟩
  | 56 => ⟨S100000x64, .f32⟩
  | 57 => ⟨S1000000x1, .i32⟩
  | 58 => ⟨S100000x64, .f32⟩
  | 59 => ⟨S100000x64, .f32⟩
  | 60 => ⟨S100000x64, .f32⟩
  | 61 => ⟨S100000x64, .f32⟩
  | 62 => ⟨S200000x64, .f32⟩
  | 63 => ⟨S_, .f32⟩
  | 64 => ⟨S200000, .f32⟩
  | 65 => ⟨S200000x1, .f32⟩
  | 66 => ⟨S200000x1, .f32⟩
  | 67 => ⟨S_, .f32⟩
  | 68 => ⟨S200000x1, .f32⟩
  | 69 => ⟨S200000x1, .f32⟩
  | 70 => ⟨S200000x64, .f32⟩
  | 71 => ⟨S200000x64, .f32⟩
  | 72 => ⟨S100000x64, .f32⟩
  | 73 => ⟨S_, .f32⟩
  | 74 => ⟨S100000, .f32⟩
  | 75 => ⟨S100000x1, .f32⟩
  | 76 => ⟨S100000x1, .f32⟩
  | 77 => ⟨S_, .f32⟩
  | 78 => ⟨S100000x1, .f32⟩
  | 79 => ⟨S100000x1, .f32⟩
  | 80 => ⟨S100000x64, .f32⟩
  | 81 => ⟨S100000x64, .f32⟩
  | 82 => ⟨S200000x64, .f32⟩
  | 83 => ⟨S100000x64, .f32⟩
  | 84 => ⟨S4x9, .f32⟩
  | 85 => ⟨S_, .f32⟩
  | 86 => ⟨S4, .f32⟩
  | 87 => ⟨S4x1, .f32⟩
  | 88 => ⟨S4x1, .f32⟩
  | 89 => ⟨S4x9, .f32⟩
  | 90 => ⟨S4x9, .f32⟩
  | 91 => ⟨S9x4, .f32⟩
  | 92 => ⟨S4x4, .f32⟩
  | 93 => ⟨S4x4, .f32⟩
  | 94 => ⟨S4x4, .i32⟩
  | 95 => ⟨S_, .i32⟩
  | 96 => ⟨S4x4, .i32⟩
  | 97 => ⟨S4x4, .i32⟩
  | 98 => ⟨S4x4, .i32⟩
  | 99 => ⟨S4x4, .i1⟩
  | 100 => ⟨S_, .f32⟩
  | 101 => ⟨S4x4, .f32⟩
  | 102 => ⟨S4x4, .f32⟩
  | 103 => ⟨S_, .f32⟩
  | 104 => ⟨S_, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c : Ref sig .tc := ⟨.hbm, 42, rfl⟩
abbrev main_v27 : Ref sig .tc := ⟨.hbm, 43, rfl⟩
abbrev main_v28 : Ref sig .tc := ⟨.hbm, 44, rfl⟩
abbrev main_c_5 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_c_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_9 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_10 : Ref sig .tc := ⟨.hbm, 72, rfl⟩
abbrev main_v51 : Ref sig .tc := ⟨.hbm, 73, rfl⟩
abbrev main_cst_11 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_12 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_c_13 : Ref sig .tc := ⟨.hbm, 87, rfl⟩
abbrev main_v63 : Ref sig .tc := ⟨.hbm, 88, rfl⟩
abbrev main_v64 : Ref sig .tc := ⟨.hbm, 89, rfl⟩
abbrev main_c_14 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_cst_15 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_call0_v0 : Ref sig .tc := ⟨.hbm, 105, rfl⟩
abbrev main_call0_cst : Ref sig .tc := ⟨.hbm, 106, rfl⟩
abbrev main_call0_v1 : Ref sig .tc := ⟨.hbm, 107, rfl⟩
abbrev main_call0_v2 : Ref sig .tc := ⟨.hbm, 108, rfl⟩
abbrev main_v78 : Ref sig .tc := ⟨.hbm, 109, rfl⟩
abbrev main_cst_16 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_call1_v0 : Ref sig .tc := ⟨.hbm, 115, rfl⟩
abbrev main_call1_cst : Ref sig .tc := ⟨.hbm, 116, rfl⟩
abbrev main_call1_v1 : Ref sig .tc := ⟨.hbm, 117, rfl⟩
abbrev main_call1_v2 : Ref sig .tc := ⟨.hbm, 118, rfl⟩
abbrev main_v83 : Ref sig .tc := ⟨.hbm, 119, rfl⟩
abbrev main_cst_17 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_c_18 : Ref sig .tc := ⟨.hbm, 127, rfl⟩
abbrev main_v90 : Ref sig .tc := ⟨.hbm, 128, rfl⟩
abbrev main_v91 : Ref sig .tc := ⟨.hbm, 129, rfl⟩
abbrev main_c_19 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_c_20 : Ref sig .tc := ⟨.hbm, 136, rfl⟩
abbrev main_v97 : Ref sig .tc := ⟨.hbm, 137, rfl⟩
abbrev main_v98 : Ref sig .tc := ⟨.hbm, 138, rfl⟩
abbrev main_c_21 : Ref sig .tc := ⟨.hbm, 139, rfl⟩
abbrev main_v99 : Ref sig .tc := ⟨.hbm, 140, rfl⟩
abbrev main_v100 : Ref sig .tc := ⟨.hbm, 141, rfl⟩
abbrev main_c_22 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_cst_23 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_cst_24 : Ref sig .tc := ⟨.hbm, 157, rfl⟩
abbrev main_v114 : Ref sig .tc := ⟨.hbm, 158, rfl⟩
abbrev main_cst_25 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_cst_26 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_c_27 : Ref sig .tc := ⟨.hbm, 172, rfl⟩
abbrev main_v126 : Ref sig .tc := ⟨.hbm, 173, rfl⟩
abbrev main_v127 : Ref sig .tc := ⟨.hbm, 174, rfl⟩
abbrev main_c_28 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_cst_29 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_call2_v0 : Ref sig .tc := ⟨.hbm, 190, rfl⟩
abbrev main_call2_cst : Ref sig .tc := ⟨.hbm, 191, rfl⟩
abbrev main_call2_v1 : Ref sig .tc := ⟨.hbm, 192, rfl⟩
abbrev main_call2_v2 : Ref sig .tc := ⟨.hbm, 193, rfl⟩
abbrev main_v141 : Ref sig .tc := ⟨.hbm, 194, rfl⟩
abbrev main_cst_30 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_call3_v0 : Ref sig .tc := ⟨.hbm, 200, rfl⟩
abbrev main_call3_cst : Ref sig .tc := ⟨.hbm, 201, rfl⟩
abbrev main_call3_v1 : Ref sig .tc := ⟨.hbm, 202, rfl⟩
abbrev main_call3_v2 : Ref sig .tc := ⟨.hbm, 203, rfl⟩
abbrev main_v146 : Ref sig .tc := ⟨.hbm, 204, rfl⟩
abbrev main_cst_31 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩
abbrev main_call4_v0 : Ref sig .tc := ⟨.hbm, 212, rfl⟩
abbrev main_call4_cst : Ref sig .tc := ⟨.hbm, 213, rfl⟩
abbrev main_call4_v1 : Ref sig .tc := ⟨.hbm, 214, rfl⟩
abbrev main_call4_v2 : Ref sig .tc := ⟨.hbm, 215, rfl⟩
abbrev main_v153 : Ref sig .tc := ⟨.hbm, 216, rfl⟩
abbrev main_v154 : Ref sig .tc := ⟨.hbm, 217, rfl⟩
abbrev main_v155 : Ref sig .tc := ⟨.hbm, 218, rfl⟩
abbrev main_v156 : Ref sig .tc := ⟨.hbm, 219, rfl⟩
abbrev main_v157 : Ref sig .tc := ⟨.hbm, 220, rfl⟩
abbrev main_v158 : Ref sig .tc := ⟨.hbm, 221, rfl⟩
abbrev main_call5_v0 : Ref sig .tc := ⟨.hbm, 222, rfl⟩
abbrev main_call5_c : Ref sig .tc := ⟨.hbm, 223, rfl⟩
abbrev main_call5_v1 : Ref sig .tc := ⟨.hbm, 224, rfl⟩
abbrev main_call5_v2 : Ref sig .tc := ⟨.hbm, 225, rfl⟩
abbrev main_call5_v3 : Ref sig .tc := ⟨.hbm, 226, rfl⟩
abbrev main_call5_v4 : Ref sig .tc := ⟨.hbm, 227, rfl⟩
abbrev main_call5_cst : Ref sig .tc := ⟨.hbm, 228, rfl⟩
abbrev main_call5_v5 : Ref sig .tc := ⟨.hbm, 229, rfl⟩
abbrev main_v159 : Ref sig .tc := ⟨.hbm, 230, rfl⟩
abbrev main_cst_32 : Ref sig .tc := ⟨.hbm, 231, rfl⟩
abbrev main_v160 : Ref sig .tc := ⟨.hbm, 232, rfl⟩

abbrev nD : Nat := 1
abbrev τ : Topo := Topo.v7x

variable {F : FTy → Type} [FloatOps F]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S2000000 : S_.BroadcastsInDim S2000000 (![] : Fin 0 → Fin S2000000.rank)
  bcast_S_S200000 : S_.BroadcastsInDim S200000 (![] : Fin 0 → Fin S200000.rank)
  bcast_S2000000_S2000000x1_0 : S2000000.BroadcastsInDim S2000000x1 (![0] : Fin 1 → Fin S2000000x1.rank)
  bcast_S200000_S200000x1_0 : S200000.BroadcastsInDim S200000x1 (![0] : Fin 1 → Fin S200000x1.rank)
  reducesTo_S4x9_S4_d1 : S4x9.ReducesTo [1] S4
  h_S_ : 0 < S_.numel
  bcast_S_S4 : S_.BroadcastsInDim S4 (![] : Fin 0 → Fin S4.rank)
  bcast_S4_S4x1_0 : S4.BroadcastsInDim S4x1 (![0] : Fin 1 → Fin S4x1.rank)
  bcast_S4x1_S4x9_0_1 : S4x1.BroadcastsInDim S4x9 (![0, 1] : Fin 2 → Fin S4x9.rank)
  bcast_S_S200000x64 : S_.BroadcastsInDim S200000x64 (![] : Fin 0 → Fin S200000x64.rank)
  bcast_S200000x1_S200000x64_0_1 : S200000x1.BroadcastsInDim S200000x64 (![0, 1] : Fin 2 → Fin S200000x64.rank)
  transposes_S4x64_S64x4_1_0 : S4x64.Transposes [1, 0] S64x4
  reducesTo_S100000x4_S100000_d1 : S100000x4.ReducesTo [1] S100000
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x4_0_1 : S100000x1.BroadcastsInDim S100000x4 (![0, 1] : Fin 2 → Fin S100000x4.rank)
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  reducesTo_S200000x64_S200000_d1 : S200000x64.ReducesTo [1] S200000
  bcast_S_S200000x1 : S_.BroadcastsInDim S200000x1 (![] : Fin 0 → Fin S200000x1.rank)
  reducesTo_S100000x64_S100000_d1 : S100000x64.ReducesTo [1] S100000
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  transposes_S4x9_S9x4_1_0 : S4x9.Transposes [1, 0] S9x4
  bcast_S_S4x4 : S_.BroadcastsInDim S4x4 (![] : Fin 0 → Fin S4x4.rank)
  reducesTo_S4x4_S_d0_1 : S4x4.ReducesTo [0, 1] S_
  scatter_S200000_S2000000x1_S2000000_n_0_0_1_wf : ScatterDims.WF S200000 S2000000x1 S2000000 [] [0] [0] 1
  dot_S4x9_S9x64_S4x64_1_0_0_1_n_n_wf : DotDims.WF S4x9 S9x64 S4x64 [1] [0] [0] [1] [] []
  gather_S200000x64_S2000000x1_S2000000x64_1_0_n_n_0_1_164_wf : GatherDims.WF S200000x64 S2000000x1 S2000000x64 [1] [0] [] [0] [] 1 ![1, 64]
  gather_S9x64_S2000000x1_S2000000x64_1_0_n_n_0_1_164_wf : GatherDims.WF S9x64 S2000000x1 S2000000x64 [1] [0] [] [0] [] 1 ![1, 64]
  scatter_S200000x64_S2000000x1_S2000000x64_1_0_0_1_wf : ScatterDims.WF S200000x64 S2000000x1 S2000000x64 [1] [0] [0] 1
  dot_S100000x64_S64x4_S100000x4_1_0_0_1_n_n_wf : DotDims.WF S100000x64 S64x4 S100000x4 [1] [0] [0] [1] [] []
  gather_S200000x64_S1000000x1_S1000000x64_1_0_n_n_0_1_164_wf : GatherDims.WF S200000x64 S1000000x1 S1000000x64 [1] [0] [] [0] [] 1 ![1, 64]
  scatter_S100000x64_S1000000x1_S1000000x64_1_0_0_1_wf : ScatterDims.WF S100000x64 S1000000x1 S1000000x64 [1] [0] [0] 1
  dot_S100000x4_S4x64_S100000x64_1_0_0_1_n_n_wf : DotDims.WF S100000x4 S4x64 S100000x64 [1] [0] [0] [1] [] []
  dot_S4x9_S9x4_S4x4_1_0_0_1_n_n_wf : DotDims.WF S4x9 S9x4 S4x4 [1] [0] [0] [1] [] []

variable [Facts₀]

def scatter_S200000_S2000000x1_S2000000_n_0_0_1 : ScatterDims S200000 S2000000x1 S2000000 where
  updateWindowDims := []
  insertedWindowDims := [0]
  scatterDimsToOperandDims := [0]
  indexVectorDim := 1
  wf := scatter_S200000_S2000000x1_S2000000_n_0_0_1_wf
def dot_S4x9_S9x64_S4x64_1_0_0_1_n_n : DotDims S4x9 S9x64 S4x64 where
  lhsContracting := [1]
  rhsContracting := [0]
  lhsNonContracting := [0]
  rhsNonContracting := [1]
  lhsBatch := []
  rhsBatch := []
  wf := dot_S4x9_S9x64_S4x64_1_0_0_1_n_n_wf
def gather_S200000x64_S2000000x1_S2000000x64_1_0_n_n_0_1_164 : GatherDims S200000x64 S2000000x1 S2000000x64 where
  offsetDims := [1]
  collapsedSliceDims := [0]
  operandBatchingDims := []
  startIndicesBatchingDims := []
  startIndexMap := [0]
  indexVectorDim := 1
  sliceSizes := ![1, 64]
  wf := gather_S200000x64_S2000000x1_S2000000x64_1_0_n_n_0_1_164_wf
def gather_S9x64_S2000000x1_S2000000x64_1_0_n_n_0_1_164 : GatherDims S9x64 S2000000x1 S2000000x64 where
  offsetDims := [1]
  collapsedSliceDims := [0]
  operandBatchingDims := []
  startIndicesBatchingDims := []
  startIndexMap := [0]
  indexVectorDim := 1
  sliceSizes := ![1, 64]
  wf := gather_S9x64_S2000000x1_S2000000x64_1_0_n_n_0_1_164_wf
def scatter_S200000x64_S2000000x1_S2000000x64_1_0_0_1 : ScatterDims S200000x64 S2000000x1 S2000000x64 where
  updateWindowDims := [1]
  insertedWindowDims := [0]
  scatterDimsToOperandDims := [0]
  indexVectorDim := 1
  wf := scatter_S200000x64_S2000000x1_S2000000x64_1_0_0_1_wf
def dot_S100000x64_S64x4_S100000x4_1_0_0_1_n_n : DotDims S100000x64 S64x4 S100000x4 where
  lhsContracting := [1]
  rhsContracting := [0]
  lhsNonContracting := [0]
  rhsNonContracting := [1]
  lhsBatch := []
  rhsBatch := []
  wf := dot_S100000x64_S64x4_S100000x4_1_0_0_1_n_n_wf
def gather_S200000x64_S1000000x1_S1000000x64_1_0_n_n_0_1_164 : GatherDims S200000x64 S1000000x1 S1000000x64 where
  offsetDims := [1]
  collapsedSliceDims := [0]
  operandBatchingDims := []
  startIndicesBatchingDims := []
  startIndexMap := [0]
  indexVectorDim := 1
  sliceSizes := ![1, 64]
  wf := gather_S200000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S100000x4_S4x64_S100000x64_1_0_0_1_n_n : DotDims S100000x4 S4x64 S100000x64 where
  lhsContracting := [1]
  rhsContracting := [0]
  lhsNonContracting := [0]
  rhsNonContracting := [1]
  lhsBatch := []
  rhsBatch := []
  wf := dot_S100000x4_S4x64_S100000x64_1_0_0_1_n_n_wf
def dot_S4x9_S9x4_S4x4_1_0_0_1_n_n : DotDims S4x9 S9x4 S4x4 where
  lhsContracting := [1]
  rhsContracting := [0]
  lhsNonContracting := [0]
  rhsNonContracting := [1]
  lhsBatch := []
  rhsBatch := []
  wf := dot_S4x9_S9x4_S4x4_1_0_0_1_n_n_wf

class Facts : Prop extends Facts₀ where

variable [Facts]
-- ==== Proof.Carry.lean ====
import proofs.«425177_j67456756351000_2_alg».proof.Proof.Gen.KernelIdeal.Frame

set_option maxRecDepth 16384

noncomputable section

namespace Cert.KernelIdeal.Gen

open Idealize.ShloMosaic Idealize.ShloMosaic.TcCoe Idealize.ShloMosaic.Tactic Idealize.SL.Sem
open Idealize.ShloMosaic.Pipeline (Dat Cfg Window)

variable {F : FTy → Type} [FloatOps F]
variable (m : (ℓ : Loc nD τ sig) → Buf (Elt F) ℓ) (ρ : Dev nD → PrngReg)

set_option maxHeartbeats 1000000 in
theorem carry_arg7_0_1 (c : Dev nD) : W1 m ρ c (Proc.devRef .tc main_arg7) = W0 m ρ c (Proc.devRef .tc main_arg7) :=
  calc W1 m ρ c (Proc.devRef .tc main_arg7)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

set_option maxHeartbeats 1000000 in
theorem carry_arg7_0_10 (c : Dev nD) : W10 m ρ c (Proc.devRef .tc main_arg7) = W0 m ρ c (Proc.devRef .tc main_arg7) :=
  calc W10 m ρ c (Proc.devRef .tc main_arg7)
    _ = W9 m ρ c (Proc.devRef .tc main_arg7) := StableHlo.after_of_forall_not_mem (b := Proc.devRef .tc main_arg7) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg7) := W9_of_ne m ρ c main_arg7 (by decide)
    _ = W7 m ρ c (Proc.devRef .tc main_arg7) := StableHlo.after_of_forall_not_mem (b := Proc.devRef .tc main_arg7) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg7) := W7_of_ne m ρ c main_arg7 (by decide)
    _ = W5 m ρ c (Proc.devRef .tc main_arg7) := StableHlo.after_of_forall_not_mem (b := Proc.devRef .tc main_arg7) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg7) := W5_of_ne m ρ c main_arg7 (by decide)
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := (W2_arr m ρ c 2).trans (((dat0 (V1 m ρ) c).arrAt_in 2 rfl _).trans (A_eq0 (V1 m ρ) c 2))
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

set_option maxHeartbeats 1000000 in
theorem carry_arg1_0_3 (c : Dev nD) : W3 m ρ c (Proc.devRef .tc main_arg1) = W0 m ρ c (Proc.devRef .tc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

set_option maxHeartbeats 1000000 in
theorem carry_arg1_0_5 (c : Dev nD) : W5 m ρ c (Proc.devRef .tc main_arg1) = W0 m ρ c (Proc.devRef .tc main_arg1) :=
  calc W5 m ρ c (Proc.devRef .tc main_arg1)
    _ = W4 m ρ c (Proc.devRef .tc main_arg1) := W5_of_ne m ρ c main_arg1 (by decide)
    _ = W3 m ρ c (Proc.devRef .tc main_arg1) := (W4_arr m ρ c 2).trans (((dat1 (V3 m ρ) c).arrAt_in 2 rfl _).trans (A_eq1 (V3 m ρ) c 2))
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

set_option maxHeartbeats 1000000 in
theorem carry_arg0_0_4 (c : Dev nD) : W4 m ρ c (Proc.devRef .tc main_arg0) = W0 m ρ c (Proc.devRef .tc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

set_option maxHeartbeats 1000000 in
theorem carry_arg0_0_8 (c : Dev nD) : W8 m ρ c (Proc.devRef .tc main_arg0) = W0 m ρ c (Proc.devRef .tc main_arg0) :=
  calc W8 m ρ c (Proc.devRef .tc main_arg0)
    _ = W7 m ρ c (Proc.devRef .tc main_arg0) := StableHlo.after_of_forall_not_mem (b := Proc.devRef .tc main_arg0) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg0) := W7_of_ne m ρ c main_arg0 (by decide)
    _ = W5 m ρ c (Proc.devRef .tc main_arg0) := StableHlo.after_of_forall_not_mem (b := Proc.devRef .tc main_arg0) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg0) := (W5_arr m ρ c 0).trans (((dat2 (V4 m ρ) c).arrAt_in 0 rfl _).trans (A_eq2 (V4 m ρ) c 0))
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

set_option maxHeartbeats 1000000 in
theorem carry_arg2_0_4 (c : Dev nD) : W4 m ρ c (Proc.devRef .tc main_arg2) = W0 m ρ c (Proc.devRef .tc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

set_option maxHeartbeats 1000000 in
theorem carry_arg2_0_13 (c : Dev nD) : W13 m ρ c (Proc.devRef .tc main_arg2) = W0 m ρ c (Proc.devRef .tc main_arg2) :=
  calc W13 m ρ c (Proc.devRef .tc main_arg2)
    _ = W12 m ρ c (Proc.devRef .tc main_arg2) := W13_of_ne m ρ c main_arg2 (by decide)
    _ = W11 m ρ c (Proc.devRef .tc main_arg2) := StableHlo.after_of_forall_not_mem (b := Proc.devRef .tc main_arg2) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_arg2) := W11_of_ne m ρ c main_arg2 (by decide)
    _ = W9 m ρ c (Proc.devRef .tc main_arg2) := StableHlo.after_of_forall_not_mem (b := Proc.devRef .tc main_arg2) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg2) := W9_of_ne m ρ c main_arg2 (by decide)
    _ = W7 m ρ c (Proc.devRef .tc main_arg2) := StableHlo.after_of_forall_not_mem (b := Proc.devRef .tc main_arg2) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg2) := W7_of_ne m ρ c main_arg2 (by decide)
    _ = W5 m ρ c (Proc.devRef .tc main_arg2) := StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg2) := (W5_arr m ρ c 1).trans (((dat2 (V4 m ρ) c).arrAt_in 1 rfl _).trans (A_eq2 (V4 m ρ) c 1))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

set_option maxHeartbeats 1000000 in
theorem carry_v1_1_2 (c : Dev nD) : W2 m ρ c (Proc.devRef .tc main_v1) = W1 m ρ c (Proc.devRef .tc main_v1) :=
  calc W2 m ρ c (Proc.devRef .tc main_v1)
    _ = W1 m ρ c (Proc.devRef .tc main_v1) := W2_of_ne m ρ c main_v1 (by decide)

set_option maxHeartbeats 1000000 in
theorem carry_v1_1_11 (c : Dev nD) : W11 m ρ c (Proc.devRef .tc main_v1) = W1 m ρ c (Proc.devRef .tc main_v1) :=
  calc W11 m ρ c (Proc.devRef .tc main_v1)
    _ = W10 m ρ c (Proc.devRef .tc main_v1) := W11_of_ne m ρ c main_v1 (by decide)
    _ = W9 m ρ c (Proc.devRef .tc main_v1) := StableHlo.after_of_forall_not_mem (b := Proc.devRef .tc main_v1) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_v1) := W9_of_ne m ρ c main_v1 (by decide)
    _ = W7 m ρ c (Proc.devRef .tc main_v1) := StableHlo.after_of_forall_not_mem (b := Proc.devRef .tc main_v1) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v1) := W7_of_ne m ρ c main_v1 (by decide)
    _ = W5 m ρ c (Proc.devRef .tc main_v1) := StableHlo.after_of_forall_not_mem (b := Proc.devRef .tc main_v1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v1) := W5_of_ne m ρ c main_v1 (by decide)
    _ = W3 m ρ c (Proc.devRef .tc main_v1) := W4_of_ne m ρ c main_v1 (by decide)
    _ = W2 m ρ c (Proc.devRef .tc main_v1) := StableHlo.after_of_forall_not_mem (b := Proc.devRef .tc main_v1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v1) := W2_of_ne m ρ c main_v1 (by decide)

set_option maxHeartbeats 1000000 in
theorem carry_v3_1_9 (c : Dev nD) : W9 m ρ c (Proc.devRef .tc main_v3) = W1 m ρ c (Proc.devRef .tc main_v3) :=
  calc W9 m ρ c (Proc.devRef .tc main_v3)
    _ = W8 m ρ c (Proc.devRef .tc main_v3) := W9_of_ne m ρ c main_v3 (by decide)
    _ = W7 m ρ c (Proc.devRef .tc main_v3) := StableHlo.after_of_forall_not_mem (b := Proc.devRef .tc main_v3) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v3) := W7_of_ne m ρ c main_v3 (by decide)
    _ = W5 m ρ c (Proc.devRef .tc main_v3) := StableHlo.after_of_forall_not_mem (b := Proc.devRef .tc main_v3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v3) := W5_of_ne m ρ c main_v3 (by decide)
    _ = W3 m ρ c (Proc.devRef .tc main_v3) := W4_of_ne m ρ c main_v3 (by decide)
    _ = W2 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := W2_of_ne m ρ c main_v3 (by decide)

set_option maxHeartbeats 1000000 in
theorem carry_v5_1_7 (c : Dev nD) : W7 m ρ c (Proc.devRef .tc main_v5) = W1 m ρ c (Proc.devRef .tc main_v5) :=
  calc W7 m ρ c (Proc.devRef .tc main_v5)
    _ = W6 m ρ c (Proc.devRef .tc main_v5) := W7_of_ne m ρ c main_v5 (by decide)
    _ = W5 m ρ c (Proc.devRef .tc main_v5) := StableHlo.after_of_forall_not_mem (b := Proc.devRef .tc main_v5) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v5) := W5_of_ne m ρ c main_v5 (by decide)
    _ = W3 m ρ c (Proc.devRef .tc main_v5) := W4_of_ne m ρ c main_v5 (by decide)
    _ = W2 m ρ c (Proc.devRef .tc main_v5) := StableHlo.after_of_forall_not_mem (b := Proc.devRef .tc main_v5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v5) := W2_of_ne m ρ c main_v5 (by decide)

set_option maxHeartbeats 1000000 in
theorem carry_v5_1_16 (c : Dev nD) : W16 m ρ c (Proc.devRef .tc main_v5) = W1 m ρ c (Proc.devRef .tc main_v5) :=
  calc W16 m ρ c (Proc.devRef .tc main_v5)
    _ = W15 m ρ c (Proc.devRef .tc main_v5) := W16_of_ne m ρ c main_v5 (by decide)
    _ = W14 m ρ c (Proc.devRef .tc main_v5) := StableHlo.after_of_forall_not_mem (b := Proc.devRef .tc main_v5) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_v5) := W14_of_ne m ρ c main_v5 (by decide)
    _ = W12 m ρ c (Proc.devRef .tc main_v5) := W13_of_ne m ρ c main_v5 (by decide)
    _ = W11 m ρ c (Proc.devRef .tc main_v5) := StableHlo.after_of_forall_not_mem (b := Proc.devRef .tc main_v5) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_v5) := W11_of_ne m ρ c main_v5 (by decide)
    _ = W9 m ρ c (Proc.devRef .tc main_v5) := StableHlo.after_of_forall_not_mem (b := Proc.devRef .tc main_v5) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_v5) := W9_of_ne m ρ c main_v5 (by decide)
    _ = W7 m ρ c (Proc.devRef .tc main_v5) := StableHlo.after_of_forall_not_mem (b := Proc.devRef .tc main_v5) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v5) := W7_of_ne m ρ c main_v5 (by decide)
    _ = W5 m ρ c (Proc.devRef .tc main_v5) := StableHlo.after_of_forall_not_mem (b := Proc.devRef .tc main_v5) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v5) := W5_of_ne m ρ c main_v5 (by decide)
    _ = W3 m ρ c (Proc.devRef .tc main_v5) := W4_of_ne m ρ c main_v5 (by decide)
    _ = W2 m ρ c (Proc.devRef .tc main_v5) := StableHlo.after_of_forall_not_mem (b := Proc.devRef .tc main_v5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v5) := W2_of_ne m ρ c main_v5 (by decide)

set_option maxHeartbeats 1000000 in
theorem carry_v7_1_5 (c : Dev nD) : W5 m ρ c (Proc.devRef .tc main_v7) = W1 m ρ c (Proc.devRef .tc main_v7) :=
  calc W5 m ρ c (Proc.devRef .tc main_v7)
    _ = W4 m ρ c (Proc.devRef .tc main_v7) := W5_of_ne m ρ c main_v7 (by decide)
    _ = W3 m ρ c (Proc.devRef .tc main_v7) := W4_of_ne m ρ c main_v7 (by decide)
    _ = W2 m ρ c (Proc.devRef .tc main_v7) := StableHlo.after_of_forall_not_mem (b := Proc.devRef .tc main_v7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v7) := W2_of_ne m ρ c main_v7 (by decide)

set_option maxHeartbeats 1000000 in
theorem carry_v7_1_14 (c : Dev nD) : W14 m ρ c (Proc.devRef .tc main_v7) = W1 m ρ c (Proc.devRef .tc main_v7) :=
  calc W14 m ρ c (Proc.devRef .tc main_v7)
    _ = W13 m ρ c (Proc.devRef .tc main_v7) := W14_of_ne m ρ c main_v7 (by decide)
    _ = W12 m ρ c (Proc.devRef .tc main_v7) := W13_of_ne m ρ c main_v7 (by decide)
    _ = W11 m ρ c (Proc.devRef .tc main_v7) := StableHlo.after_of_forall_not_mem (b := Proc.devRef .tc main_v7) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_v7) := W11_of_ne m ρ c main_v7 (by decide)
    _ = W9 m ρ c (Proc.devRef .tc main_v7) := StableHlo.after_of_forall_not_mem (b := Proc.devRef .tc main_v7) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_v7) := W9_of_ne m ρ c main_v7 (by decide)
    _ = W7 m ρ c (Proc.devRef .tc main_v7) := StableHlo.after_of_forall_not_mem (b := Proc.devRef .tc main_v7) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v7) := W7_of_ne m ρ c main_v7 (by decide)
    _ = W5 m ρ c (Proc.devRef .tc main_v7) := StableHlo.after_of_forall_not_mem (b := Proc.devRef .tc main_v7) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v7) := W5_of_ne m ρ c main_v7 (by decide)
    _ = W3 m ρ c (Proc.devRef .tc main_v7) := W4_of_ne m ρ c main_v7 (by decide)
    _ = W2 m ρ c (Proc.devRef .tc main_v7) := StableHlo.after_of_forall_not_mem (b := Proc.devRef .tc main_v7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v7) := W2_of_ne m ρ c main_v7 (by decide)

set_option maxHeartbeats 1000000 in
theorem carry_v12_1_3 (c : Dev nD) : W3 m ρ c (Proc.devRef .tc main_v12) = W1 m ρ c (Proc.devRef .tc main_v12) :=
  calc W3 m ρ c (Proc.devRef .tc main_v12)
    _ = W2 m ρ c (Proc.devRef .tc main_v12) := StableHlo.after_of_forall_not_mem (b := Proc.devRef .tc main_v12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v12) := W2_of_ne m ρ c main_v12 (by decide)

set_option maxHeartbeats 1000000 in
theorem carry_v12_1_12 (c : Dev nD) : W12 m ρ c (Proc.devRef .tc main_v12) = W1 m ρ c (Proc.devRef .tc main_v12) :=
  calc W12 m ρ c (Proc.devRef .tc main_v12)
    _ = W11 m ρ c (Proc.devRef .tc main_v12) := StableHlo.after_of_forall_not_mem (b := Proc.devRef .tc main_v12) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_v12) := W11_of_ne m ρ c main_v12 (by decide)
    _ = W9 m ρ c (Proc.devRef .tc main_v12) := StableHlo.after_of_forall_not_mem (b := Proc.devRef .tc main_v12) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_v12) := W9_of_ne m ρ c main_v12 (by decide)
    _ = W7 m ρ c (Proc.devRef .tc main_v12) := StableHlo.after_of_forall_not_mem (b := Proc.devRef .tc main_v12) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v12) := W7_of_ne m ρ c main_v12 (by decide)
    _ = W5 m ρ c (Proc.devRef .tc main_v12) := StableHlo.after_of_forall_not_mem (b := Proc.devRef .tc main_v12) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v12) := W5_of_ne m ρ c main_v12 (by decide)
    _ = W3 m ρ c (Proc.devRef .tc main_v12) := (W4_arr m ρ c 1).trans (((dat1 (V3 m ρ) c).arrAt_in 1 rfl _).trans (A_eq1 (V3 m ρ) c 1))
    _ = W2 m ρ c (Proc.devRef .tc main_v12) := StableHlo.after_of_forall_not_mem (b := Proc.devRef .tc main_v12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v12) := W2_of_ne m ρ c main_v12 (by decide)

set_option maxHeartbeats 1000000 in
theorem carry_v24_1_4 (c : Dev nD) : W4 m ρ c (Proc.devRef .tc main_v24) = W1 m ρ c (Proc.devRef .tc main_v24) :=
  calc W4 m ρ c (Proc.devRef .tc main_v24)
    _ = W3 m ρ c (Proc.devRef .tc main_v24) := W4_of_ne m ρ c main_v24 (by decide)
    _ = W2 m ρ c (Proc.devRef .tc main_v24) := StableHlo.after_of_forall_not_mem (b := Proc.devRef .tc main_v24) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v24) := W2_of_ne m ρ c main_v24 (by decide)

set_option maxHeartbeats 1000000 in
theorem carry_v24_1_13 (c : Dev nD) : W13 m ρ c (Proc.devRef .tc main_v24) = W1 m ρ c (Proc.devRef .tc main_v24) :=
  calc W13 m ρ c (Proc.devRef .tc main_v24)
    _ = W12 m ρ c (Proc.devRef .tc main_v24) := W13_of_ne m ρ c main_v24 (by decide)
    _ = W11 m ρ c (Proc.devRef .tc main_v24) := StableHlo.after_of_forall_not_mem (b := Proc.devRef .tc main_v24) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_v24) := W11_of_ne m ρ c main_v24 (by decide)
    _ = W9 m ρ c (Proc.devRef .tc main_v24) := StableHlo.after_of_forall_not_mem (b := Proc.devRef .tc main_v24) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_v24) := W9_of_ne m ρ c main_v24 (by decide)
    _ = W7 m ρ c (Proc.devRef .tc main_v24) := StableHlo.after_of_forall_not_mem (b := Proc.devRef .tc main_v24) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v24) := W7_of_ne m ρ c main_v24 (by decide)
    _ = W5 m ρ c (Proc.devRef .tc main_v24) := StableHlo.after_of_forall_not_mem (b := Proc.devRef .tc main_v24) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v24) := (W5_arr m ρ c 2).trans (((dat2 (V4 m ρ) c).arrAt_in 2 rfl _).trans (A_eq2 (V4 m ρ) c 2))
    _ = W3 m ρ c (Proc.devRef .tc main_v24) := W4_of_ne m ρ c main_v24 (by decide)
    _ = W2 m ρ c (Proc.devRef .tc main_v24) := StableHlo.after_of_forall_not_mem (b := Proc.devRef .tc main_v24) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v24) := W2_of_ne m ρ c main_v24 (by decide)

set_option maxHeartbeats 1000000 in
theorem carry_v25_1_10 (c : Dev nD) : W10 m ρ c (Proc.devRef .tc main_v25) = W1 m ρ c (Proc.devRef .tc main_v25) :=
  calc W10 m ρ c (Proc.devRef .tc main_v25)
    _ = W9 m ρ c (Proc.devRef .tc main_v25) := StableHlo.after_of_forall_not_mem (b := Proc.devRef .tc main_v25) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_v25) := W9_of_ne m ρ c main_v25 (by decide)
    _ = W7 m ρ c (Proc.devRef .tc main_v25) := StableHlo.after_of_forall_not_mem (b := Proc.devRef .tc main_v25) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v25) := W7_of_ne m ρ c main_v25 (by decide)
    _ = W5 m ρ c (Proc.devRef .tc main_v25) := StableHlo.after_of_forall_not_mem (b := Proc.devRef .tc main_v25) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v25) := W5_of_ne m ρ c main_v25 (by decide)
    _ = W3 m ρ c (Proc.devRef .tc main_v25) := W4_of_ne m ρ c main_v25 (by decide)
    _ = W2 m ρ c (Proc.devRef .tc main_v25) := StableHlo.after_of_forall_not_mem (b := Proc.devRef .tc main_v25) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v25) := (W2_arr m ρ c 1).trans (((dat0 (V1 m ρ) c).arrAt_in 1 rfl _).trans (A_eq0 (V1 m ρ) c 1))

set_option maxHeartbeats 1000000 in
theorem carry_v26_1_6 (c : Dev nD) : W6 m ρ c (Proc.devRef .tc main_v26) = W1 m ρ c (Proc.devRef .tc main_v26) :=
  calc W6 m ρ c (Proc.devRef .tc main_v26)
    _ = W5 m ρ c (Proc.devRef .tc main_v26) := StableHlo.after_of_forall_not_mem (b := Proc.devRef .tc main_v26) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v26) := W5_of_ne m ρ c main_v26 (by decide)
    _ = W3 m ρ c (Proc.devRef .tc main_v26) := W4_of_ne m ρ c main_v26 (by decide)
    _ = W2 m ρ c (Proc.devRef .tc main_v26) := StableHlo.after_of_forall_not_mem (b := Proc.devRef .tc main_v26) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v26) := W2_of_ne m ρ c main_v26 (by decide)

set_option maxHeartbeats 1000000 in
theorem carry_v26_1_15 (c : Dev nD) : W15 m ρ c (Proc.devRef .tc main_v26) = W1 m ρ c (Proc.devRef .tc main_v26) :=
  calc W15 m ρ c (Proc.devRef .tc main_v26)
    _ = W14 m ρ c (Proc.devRef .tc main_v26) := StableHlo.after_of_forall_not_mem (b := Proc.devRef .tc main_v26) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_v26) := W14_of_ne m ρ c main_v26 (by decide)
    _ = W12 m ρ c (Proc.devRef .tc main_v26) := W13_of_ne m ρ c main_v26 (by decide)
    _ = W11 m ρ c (Proc.devRef .tc main_v26) := StableHlo.after_of_forall_not_mem (b := Proc.devRef .tc main_v26) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_v26) := W11_of_ne m ρ c main_v26 (by decide)
    _ = W9 m ρ c (Proc.devRef .tc main_v26) := StableHlo.after_of_forall_not_mem (b := Proc.devRef .tc main_v26) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_v26) := W9_of_ne m ρ c main_v26 (by decide)
    _ = W7 m ρ c (Proc.devRef .tc main_v26) := StableHlo.after_of_forall_not_mem (b := Proc.devRef .tc main_v26) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v26) := (W7_arr m ρ c 1).trans (((dat3 (V6 m ρ) c).arrAt_in 1 rfl _).trans (A_eq3 (V6 m ρ) c 1))
    _ = W5 m ρ c (Proc.devRef .tc main_v26) := StableHlo.after_of_forall_not_mem (b := Proc.devRef .tc main_v26) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v26) := W5_of_ne m ρ c main_v26 (by decide)
    _ = W3 m ρ c (Proc.devRef .tc main_v26) := W4_of_ne m ρ c main_v26 (by decide)
    _ = W2 m ρ c (Proc.devRef .tc main_v26) := StableHlo.after_of_forall_not_mem (b := Proc.devRef .tc main_v26) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v26) := W2_of_ne m ρ c main_v26 (by decide)

set_option maxHeartbeats 1000000 in
theorem carry_v38_0_4_9 (c : Dev nD) : W9 m ρ c (Proc.devRef .tc main_v38_0) = W4 m ρ c (Proc.devRef .tc main_v38_0) :=
  calc W9 m ρ c (Proc.devRef .tc main_v38_0)
    _ = W8 m ρ c (Proc.devRef .tc main_v38_0) := W9_of_ne m ρ c main_v38_0 (by decide)
    _ = W7 m ρ c (Proc.devRef .tc main_v38_0) := StableHlo.after_of_forall_not_mem (b := Proc.devRef .tc main_v38_0) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v38_0) := W7_of_ne m ρ c main_v38_0 (by decide)
    _ = W5 m ρ c (Proc.devRef .tc main_v38_0) := StableHlo.after_of_forall_not_mem (b := Proc.devRef .tc main_v38_0) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v38_0) := W5_of_ne m ρ c main_v38_0 (by decide)

set_option maxHeartbeats 1000000 in
theorem carry_v38_0_4_14 (c : Dev nD) : W14 m ρ c (Proc.devRef .tc main_v38_0) = W4 m ρ c (Proc.devRef .tc main_v38_0) :=
  calc W14 m ρ c (Proc.devRef .tc main_v38_0)
    _ = W13 m ρ c (Proc.devRef .tc main_v38_0) := W14_of_ne m ρ c main_v38_0 (by decide)
    _ = W12 m ρ c (Proc.devRef .tc main_v38_0) := W13_of_ne m ρ c main_v38_0 (by decide)
    _ = W11 m ρ c (Proc.devRef .tc main_v38_0) := StableHlo.after_of_forall_not_mem (b := Proc.devRef .tc main_v38_0) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_v38_0) := W11_of_ne m ρ c main_v38_0 (by decide)
    _ = W9 m ρ c (Proc.devRef .tc main_v38_0) := StableHlo.after_of_forall_not_mem (b := Proc.devRef .tc main_v38_0) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_v38_0) := W9_of_ne m ρ c main_v38_0 (by decide)
    _ = W7 m ρ c (Proc.devRef .tc main_v38_0) := StableHlo.after_of_forall_not_mem (b := Proc.devRef .tc main_v38_0) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v38_0) := W7_of_ne m ρ c main_v38_0 (by decide)
    _ = W5 m ρ c (Proc.devRef .tc main_v38_0) := StableHlo.after_of_forall_not_mem (b := Proc.devRef .tc main_v38_0) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v38_0) := W5_of_ne m ρ c main_v38_0 (by decide)

set_option maxHeartbeats 1000000 in
theorem carry_v38_1_4_12 (c : Dev nD) : W12 m ρ c (Proc.devRef .tc main_v38_1) = W4 m ρ c (Proc.devRef .tc main_v38_1) :=
  calc W12 m ρ c (Proc.devRef .tc main_v38_1)
    _ = W11 m ρ c (Proc.devRef .tc main_v38_1) := StableHlo.after_of_forall_not_mem (b := Proc.devRef .tc main_v38_1) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_v38_1) := W11_of_ne m ρ c main_v38_1 (by decide)
    _ = W9 m ρ c (Proc.devRef .tc main_v38_1) := StableHlo.after_of_forall_not_mem (b := Proc.devRef .tc main_v38_1) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_v38_1) := W9_of_ne m ρ c main_v38_1 (by decide)
    _ = W7 m ρ c (Proc.devRef .tc main_v38_1) := StableHlo.after_of_forall_not_mem (b := Proc.devRef .tc main_v38_1) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v38_1) := W7_of_ne m ρ c main_v38_1 (by decide)
    _ = W5 m ρ c (Proc.devRef .tc main_v38_1) := StableHlo.after_of_forall_not_mem (b := Proc.devRef .tc main_v38_1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v38_1) := W5_of_ne m ρ c main_v38_1 (by decide)

set_option maxHeartbeats 1000000 in
theorem carry_v39_5_8 (c : Dev nD) : W8 m ρ c (Proc.devRef .tc main_v39) = W5 m ρ c (Proc.devRef .tc main_v39) :=
  calc W8 m ρ c (Proc.devRef .tc main_v39)
    _ = W7 m ρ c (Proc.devRef .tc main_v39) := StableHlo.after_of_forall_not_mem (b := Proc.devRef .tc main_v39) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v39) := W7_of_ne m ρ c main_v39 (by decide)
    _ = W5 m ρ c (Proc.devRef .tc main_v39) := StableHlo.after_of_forall_not_mem (b := Proc.devRef .tc main_v39) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

set_option maxHeartbeats 1000000 in
theorem carry_v51_0_9_13 (c : Dev nD) : W13 m ρ c (Proc.devRef .tc main_v51_0) = W9 m ρ c (Proc.devRef .tc main_v51_0) :=
  calc W13 m ρ c (Proc.devRef .tc main_v51_0)
    _ = W12 m ρ c (Proc.devRef .tc main_v51_0) := W13_of_ne m ρ c main_v51_0 (by decide)
    _ = W11 m ρ c (Proc.devRef .tc main_v51_0) := StableHlo.after_of_forall_not_mem (b := Proc.devRef .tc main_v51_0) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_v51_0) := W11_of_ne m ρ c main_v51_0 (by decide)
    _ = W9 m ρ c (Proc.devRef .tc main_v51_0) := StableHlo.after_of_forall_not_mem (b := Proc.devRef .tc main_v51_0) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

set_option maxHeartbeats 1000000 in
theorem carry_v51_1_9_17 (c : Dev nD) : W17 m ρ c (Proc.devRef .tc main_v51_1) = W9 m ρ c (Proc.devRef .tc main_v51_1) :=
  calc W17 m ρ c (Proc.devRef .tc main_v51_1)
    _ = W16 m ρ c (Proc.devRef .tc main_v51_1) := StableHlo.after_of_forall_not_mem (b := Proc.devRef .tc main_v51_1) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_v51_1) := W16_of_ne m ρ c main_v51_1 (by decide)
    _ = W14 m ρ c (Proc.devRef .tc main_v51_1) := StableHlo.after_of_forall_not_mem (b := Proc.devRef .tc main_v51_1) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_v51_1) := W14_of_ne m ρ c main_v51_1 (by decide)
    _ = W12 m ρ c (Proc.devRef .tc main_v51_1) := W13_of_ne m ρ c main_v51_1 (by decide)
    _ = W11 m ρ c (Proc.devRef .tc main_v51_1) := StableHlo.after_of_forall_not_mem (b := Proc.devRef .tc main_v51_1) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_v51_1) := W11_of_ne m ρ c main_v51_1 (by decide)
    _ = W9 m ρ c (Proc.devRef .tc main_v51_1) := StableHlo.after_of_forall_not_mem (b := Proc.devRef .tc main_v51_1) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

set_option maxHeartbeats 1000000 in
theorem carry_v63_1_13_22 (c : Dev nD) : W22 m ρ c (Proc.devRef .tc main_v63_1) = W13 m ρ c (Proc.devRef .tc main_v63_1) :=
  calc W22 m ρ c (Proc.devRef .tc main_v63_1)
    _ = W21 m ρ c (Proc.devRef .tc main_v63_1) := StableHlo.after_of_forall_not_mem (b := Proc.devRef .tc main_v63_1) _ _ (List.forall_iff_forall_mem.mp (by
          simp only [hostOps10_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W20 m ρ c (Proc.devRef .tc main_v63_1) := StableHlo.after_of_forall_not_mem (b := Proc.devRef .tc main_v63_1) _ _ (List.forall_iff_forall_mem.mp (by
          simp only [hostOps10_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W19 m ρ c (Proc.devRef .tc main_v63_1) := StableHlo.after_of_forall_not_mem (b := Proc.devRef .tc main_v63_1) _ _ (List.forall_iff_forall_mem.mp (by
          simp only [hostOps10_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W18 m ρ c (Proc.devRef .tc main_v63_1) := StableHlo.after_of_forall_not_mem (b := Proc.devRef .tc main_v63_1) _ _ (List.forall_iff_forall_mem.mp (by
          simp only [hostOps10, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W17 m ρ c (Proc.devRef .tc main_v63_1) := W18_of_ne m ρ c main_v63_1 (by decide)
    _ = W16 m ρ c (Proc.devRef .tc main_v63_1) := StableHlo.after_of_forall_not_mem (b := Proc.devRef .tc main_v63_1) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_v63_1) := W16_of_ne m ρ c main_v63_1 (by decide)
    _ = W14 m ρ c (Proc.devRef .tc main_v63_1) := StableHlo.after_of_forall_not_mem (b := Proc.devRef .tc main_v63_1) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_v63_1) := W14_of_ne m ρ c main_v63_1 (by decide)

set_option maxHeartbeats 1000000 in
theorem carry_v64_14_17 (c : Dev nD) : W17 m ρ c (Proc.devRef .tc main_v64) = W14 m ρ c (Proc.devRef .tc main_v64) :=
  calc W17 m ρ c (Proc.devRef .tc main_v64)
    _ = W16 m ρ c (Proc.devRef .tc main_v64) := StableHlo.after_of_forall_not_mem (b := Proc.devRef .tc main_v64) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_v64) := W16_of_ne m ρ c main_v64 (by decide)
    _ = W14 m ρ c (Proc.devRef .tc main_v64) := StableHlo.after_of_forall_not_mem (b := Proc.devRef .tc main_v64) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

set_option maxHeartbeats 1000000 in
theorem carry_v76_1_18_22 (c : Dev nD) : W22 m ρ c (Proc.devRef .tc main_v76_1) = W18 m ρ c (Proc.devRef .tc main_v76_1) :=
  calc W22 m ρ c (Proc.devRef .tc main_v76_1)
    _ = W21 m ρ c (Proc.devRef .tc main_v76_1) := StableHlo.after_of_forall_not_mem (b := Proc.devRef .tc main_v76_1) _ _ (List.forall_iff_forall_mem.mp (by
          simp only [hostOps10_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W20 m ρ c (Proc.devRef .tc main_v76_1) := StableHlo.after_of_forall_not_mem (b := Proc.devRef .tc main_v76_1) _ _ (List.forall_iff_forall_mem.mp (by
          simp only [hostOps10_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W19 m ρ c (Proc.devRef .tc main_v76_1) := StableHlo.after_of_forall_not_mem (b := Proc.devRef .tc main_v76_1) _ _ (List.forall_iff_forall_mem.mp (by
          simp only [hostOps10_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W18 m ρ c (Proc.devRef .tc main_v76_1) := StableHlo.after_of_forall_not_mem (b := Proc.devRef .tc main_v76_1) _ _ (List.forall_iff_forall_mem.mp (by
          simp only [hostOps10, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

set_option maxHeartbeats 1000000 in
theorem carry_arg8_0_18 (c : Dev nD) : W18 m ρ c (Proc.devRef .tc main_arg8) = W0 m ρ c (Proc.devRef .tc main_arg8) :=
  calc W18 m ρ c (Proc.devRef .tc main_arg8)
    _ = W17 m ρ c (Proc.devRef .tc main_arg8) := W18_of_ne m ρ c main_arg8 (by decide)
    _ = W16 m ρ c (Proc.devRef .tc main_arg8) := StableHlo.after_of_forall_not_mem (b := Proc.devRef .tc main_arg8) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg8) := W16_of_ne m ρ c main_arg8 (by decide)
    _ = W14 m ρ c (Proc.devRef .tc main_arg8) := StableHlo.after_of_forall_not_mem (b := Proc.devRef .tc main_arg8) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg8) := W14_of_ne m ρ c main_arg8 (by decide)
    _ = W12 m ρ c (Proc.devRef .tc main_arg8) := W13_of_ne m ρ c main_arg8 (by decide)
    _ = W11 m ρ c (Proc.devRef .tc main_arg8) := StableHlo.after_of_forall_not_mem (b := Proc.devRef .tc main_arg8) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_arg8) := W11_of_ne m ρ c main_arg8 (by decide)
    _ = W9 m ρ c (Proc.devRef .tc main_arg8) := StableHlo.after_of_forall_not_mem (b := Proc.devRef .tc main_arg8) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg8) := W9_of_ne m ρ c main_arg8 (by decide)
    _ = W7 m ρ c (Proc.devRef .tc main_arg8) := StableHlo.after_of_forall_not_mem (b := Proc.devRef .tc main_arg8) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg8) := W7_of_ne m ρ c main_arg8 (by decide)
    _ = W5 m ρ c (Proc.devRef .tc main_arg8) := StableHlo.after_of_forall_not_mem (b := Proc.devRef .tc main_arg8) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg8) := W5_of_ne m ρ c main_arg8 (by decide)
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

set_option maxHeartbeats 1000000 in
theorem carry_arg8_0_19 (c : Dev nD) : W19 m ρ c (Proc.devRef .tc main_arg8) = W0 m ρ c (Proc.devRef .tc main_arg8) :=
  calc W19 m ρ c (Proc.devRef .tc main_arg8)
    _ = W18 m ρ c (Proc.devRef .tc main_arg8) := StableHlo.after_of_forall_not_mem (b := Proc.devRef .tc main_arg8) _ _ (List.forall_iff_forall_mem.mp (by
          simp only [hostOps10, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W17 m ρ c (Proc.devRef .tc main_arg8) := W18_of_ne m ρ c main_arg8 (by decide)
    _ = W16 m ρ c (Proc.devRef .tc main_arg8) := StableHlo.after_of_forall_not_mem (b := Proc.devRef .tc main_arg8) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg8) := W16_of_ne m ρ c main_arg8 (by decide)
    _ = W14 m ρ c (Proc.devRef .tc main_arg8) := StableHlo.after_of_forall_not_mem (b := Proc.devRef .tc main_arg8) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg8) := W14_of_ne m ρ c main_arg8 (by decide)
    _ = W12 m ρ c (Proc.devRef .tc main_arg8) := W13_of_ne m ρ c main_arg8 (by decide)
    _ = W11 m ρ c (Proc.devRef .tc main_arg8) := StableHlo.after_of_forall_not_mem (b := Proc.devRef .tc main_arg8) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_arg8) := W11_of_ne m ρ c main_arg8 (by decide)
    _ = W9 m ρ c (Proc.devRef .tc main_arg8) := StableHlo.after_of_forall_not_mem (b := Proc.devRef .tc main_arg8) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg8) := W9_of_ne m ρ c main_arg8 (by decide)
    _ = W7 m ρ c (Proc.devRef .tc main_arg8) := StableHlo.after_of_forall_not_mem (b := Proc.devRef .tc main_arg8) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg8) := W7_of_ne m ρ c main_arg8 (by decide)
    _ = W5 m ρ c (Proc.devRef .tc main_arg8) := StableHlo.after_of_forall_not_mem (b := Proc.devRef .tc main_arg8) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg8) := W5_of_ne m ρ c main_arg8 (by decide)
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KernelIdeal.Gen

end
-- ==== Proof.Spec.lean ====
/-
  The mathematics both programs compute, as whole-array functions read index by index over the extended reals
  (two hops of relation-weighted message passing over a knowledge graph with a user-item interaction graph).
  Rows are nodes or edges, the 64 columns are embedding channels.

  * `relMsg`   an edge's message: the tail's embedding times the weight row of the edge's relation label
                 (labels are 1-based, 1 … 9; a label outside that range selects no row and the message is 0);
  * `meanRows` a head's summed messages divided by its in-degree clamped at one;
  * `l2rows`   every row divided by its Euclidean norm clamped at ε from below;
  * `attn`     a user's softmax attention over the 4 latent factors, mixed into the 64 channels by `dw`;
  * `wscale`   an interaction edge's item embedding times the edge's weight;
  * `userMix`  a user's aggregated items scaled channelwise by (attention + 1).
-/
import Idealize.ShloMosaic.PureOps.Ideal
import Idealize.ShloMosaic.Lib.ValueIdx

noncomputable section

namespace Cert.Spec

open Idealize.ShloMosaic Idealize.ShloMosaic.ValueIdx

/-- An `r × c` array of extended reals, and of 32-bit words. -/
abbrev Mat (r c : Nat) := (⟨2, ![r, c]⟩ : Shape).Idx → EReal
abbrev IMat (r c : Nat) := (⟨2, ![r, c]⟩ : Shape).Idx → BitVec 32

/-- The three float constants both programs carry, by their f32 words: 1, ε = f32(1e-12), and -∞. -/
abbrev one : EReal := Ideal.ofBits .f32 0x3F800000#32
abbrev eps : EReal := Ideal.ofBits .f32 0x2B8CBCCC#32
abbrev negInf : EReal := Ideal.ofBits .f32 0xFF800000#32

/-- Every entry is a real number (neither infinity). -/
def IsReal {S : Shape} (v : S.Idx → EReal) : Prop := ∀ i, ∃ r : ℝ, v i = (r : EReal)

/-- A vector laid out as a one-column matrix. -/
def col {α : Type} {n : Nat} (v : (⟨1, ![n]⟩ : Shape).Idx → α) : (⟨2, ![n, 1]⟩ : Shape).Idx → α :=
  fun i => v (ix1 (i 0 : Fin n))

/-- The weight row a 1-based relation label selects, if the label is one of 1 … 9. -/
def relRow (e : BitVec 32) : Option (Fin 9) :=
  if h : 1 ≤ e.toInt ∧ e.toInt ≤ 9 then some ⟨(e.toInt - 1).toNat, by omega⟩ else none

/-- Channel `q` of the weight row of label `e`; zero when the label selects no row. -/
def relVec (w : Mat 9 64) (e : BitVec 32) (q : Fin 64) : EReal :=
  match relRow e with
  | some k => w (ix2 k q)
  | none => 0

/-- Edge messages: row `p` of `x` times the weight row of the label `et[p]`. -/
def relMsg {n : Nat} (x : Mat n 64) (et : IMat n 1) (w : Mat 9 64) : Mat n 64 :=
  fun i => x i * relVec w (et (ix2 (i 0 : Fin n) (0 : Fin 1))) (i 1 : Fin 64)

/-- Row `p` of the sums divided by `max (cnt[p]) 1`. -/
def meanRows {n : Nat} (agg : Mat n 64) (cnt : Mat n 1) : Mat n 64 :=
  fun i => Ideal.div (agg i) (max (cnt (ix2 (i 0 : Fin n) (0 : Fin 1))) one)

/-- The Euclidean norm of row `p`, clamped at ε from below. -/
def rowNorm {n : Nat} (e : Mat n 64) (p : Fin n) : EReal :=
  max (Ideal.sqrt (∑ q : Fin 64, e (ix2 p q) * e (ix2 p q))) eps

/-- Every row divided by its clamped norm. -/
def l2rows {n : Nat} (e : Mat n 64) : Mat n 64 :=
  fun i => Ideal.div (e i) (rowNorm e (i 0 : Fin n))

/-- The new entity embeddings of one hop: normalized neighbourhood means. -/
def entNew {n : Nat} (agg : Mat n 64) (cnt : Mat n 1) : Mat n 64 := l2rows (meanRows agg cnt)

/-- The residual accumulation. -/
def resAdd {n : Nat} (res e : Mat n 64) : Mat n 64 := fun i => res i + e i

/-- A user's logit against latent factor `f`. -/
def logits {n : Nat} (u : Mat n 64) (lat : Mat 4 64) (p : Fin n) (f : Fin 4) : EReal :=
  ∑ c : Fin 64, u (ix2 p c) * lat (ix2 f c)

/-- The maximum of four logits, as both programs take it (a fold from -∞, then once more against -∞). -/
def rowMax4 (L : Fin 4 → EReal) : EReal := max negInf ((Finset.univ : Finset (Fin 4)).fold max negInf L)

/-- The softmax weight of factor `f`. -/
def softmax4 (L : Fin 4 → EReal) (f : Fin 4) : EReal :=
  Ideal.div (Ideal.exp (L f - rowMax4 L)) (∑ g : Fin 4, Ideal.exp (L g - rowMax4 L))

/-- The attention a user pays to each channel: its softmax over the factors mixed by `dw`. -/
def attn {n : Nat} (u : Mat n 64) (lat dw : Mat 4 64) : Mat n 64 :=
  fun i => ∑ f : Fin 4, softmax4 (logits u lat (i 0 : Fin n)) f * dw (ix2 f (i 1 : Fin 64))

/-- Interaction messages: row `p` of the item embeddings times the edge weight `w[p]`. -/
def wscale {n : Nat} (emb : Mat n 64) (w : Mat n 1) : Mat n 64 :=
  fun i => emb i * w (ix2 (i 0 : Fin n) (0 : Fin 1))

/-- Aggregated items scaled by attention plus one. -/
def userMix {n : Nat} (agg a : Mat n 64) : Mat n 64 := fun i => agg i * (a i + one)

/-- The new user embeddings of one hop. -/
def userNew {n : Nat} (agg a : Mat n 64) : Mat n 64 := l2rows (userMix agg a)

end Cert.Spec

end
-- ==== Proof.Glue.lean ====
import proofs.«425177_j67456756351000_2_alg».proof.Proof.Spec
import Idealize.ShloMosaic.Lib.ValueIdx
import Idealize.ShloMosaic.Lib.Pipeline.Value
import Idealize.ShloMosaic.Lib.ValueLayout

noncomputable section

namespace Cert.Spec

open Idealize.ShloMosaic Idealize.ShloMosaic.ValueIdx

/-- A vector broadcast along axis 0 of an `n × 1` matrix is the vector as a column. -/
theorem bcast_col {α : Type} {n : Nat} (h : (⟨1, ![n]⟩ : Shape).BroadcastsInDim ⟨2, ![n, 1]⟩ ![0])
    (v : (⟨1, ![n]⟩ : Shape).Idx → α) : broadcastInDim ⟨2, ![n, 1]⟩ ![0] h v = col v := by
  funext i
  unfold col
  refine broadcastInDim_apply _ h v i (ix1 (i 0 : Fin n)) (fun a => ?_)
  match a with
  | ⟨0, _⟩ =>
    show (i 0).val = if n = 1 then 0 else (i 0).val
    have hlt : (i 0).val < n := idx2_lt0 i
    split
    · omega
    · rfl

end Cert.Spec

end
-- ==== Proof.Reg0.lean ====
import proofs.«425177_j67456756351000_2_alg».proof.Proof.Gen.KernelIdeal.Frame
import proofs.«425177_j67456756351000_2_alg».proof.Proof.Spec
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

namespace Cert.KernelIdeal.Val

open Cert.KernelIdeal Cert.KernelIdeal.Gen Idealize.ShloMosaic Idealize.ShloMosaic.TcCoe Idealize.SL.Sem Idealize.ShloMosaic.ValueIdx
open Idealize.ShloMosaic.Pipeline (Dat)

/- The TensorCore's buffer contents when the region is entered (any). -/
variable (V : (c : Dev nD) → (b : Ref sig .tc) → Buf (Elt Ideal) ((c : Thread nD τ).loc b))

/-- A label selects weight row k exactly when it is the word k + 1. -/
theorem value0_relRow_iff (e : BitVec 32) (k : Fin 9) : Cert.Spec.relRow e = some k ↔ e.toNat = k.val + 1 := by
  have hc := BitVec.toInt_eq_toNat_cond e
  have hl := e.isLt
  have hk := k.isLt
  unfold Cert.Spec.relRow
  split_ifs at hc with h2 <;> split_ifs with h <;> simp only [Option.some.injEq, Fin.ext_iff, reduceCtorEq, false_iff] <;> omega

/-- The label minus one is the column number exactly when the label is that column's word. -/
theorem value0_sub_iff (e : BitVec 32) (k : Fin 9) : e - 1#32 = BitVec.ofNat 32 k.val ↔ e.toNat = k.val + 1 := by
  have hl := e.isLt
  have hk := k.isLt
  rw [← BitVec.toNat_inj]
  simp only [BitVec.toNat_sub, BitVec.toNat_ofNat]
  omega

/-- The one-hot entry: 1 in the column the label selects, 0 elsewhere. -/
theorem value0_onehot (e : BitVec 32) (k : Fin 9) :
    (FloatOps.sitofp (F := Ideal) .f32 ((IntOp.cmpi .eq (IntOp.subi e 1#32) (BitVec.ofNat 32 k.val)).setWidth 32) : EReal)
      = if Cert.Spec.relRow e = some k then 1 else 0 := by
  show ((((IntOp.cmpi .eq (IntOp.subi e 1#32) (BitVec.ofNat 32 k.val)).setWidth 32).toInt : ℝ) : EReal) = _
  unfold IntOp.cmpi IntOp.subi
  by_cases h : e - 1#32 = BitVec.ofNat 32 k.val
  · rw [if_pos ((value0_relRow_iff e k).mpr ((value0_sub_iff e k).mp h)),
      show (e - 1#32 == BitVec.ofNat 32 k.val) = true from beq_iff_eq.mpr h,
      show ((BitVec.ofBool true).setWidth 32).toInt = 1 by decide]
    simp
  · rw [if_neg (fun h' => h ((value0_sub_iff e k).mpr ((value0_relRow_iff e k).mp h'))),
      show (e - 1#32 == BitVec.ofNat 32 k.val) = false from beq_eq_false_iff_ne.mpr h,
      show ((BitVec.ofBool false).setWidth 32).toInt = 0 by decide]
    simp

/-- A one-hot row times the weight table is the selected weight row (0 times anything is 0 on the extended reals). -/
theorem value0_onehot_sum (w : Cert.Spec.Mat 9 64) (e : BitVec 32) (q : Fin 64) :
    ∑ k : Fin 9, (if Cert.Spec.relRow e = some k then (1 : EReal) else 0) * w (ix2 k q) = Cert.Spec.relVec w e q := by
  unfold Cert.Spec.relVec
  cases h : Cert.Spec.relRow e with
  | none => simp
  | some k0 =>
    simp only [Option.some.injEq]
    rw [Finset.sum_eq_single k0]
    · rw [if_pos rfl, one_mul]
    · intro b _ hb; rw [if_neg (Ne.symm hb), zero_mul]
    · intro h; exact absurd (Finset.mem_univ _) h

/-! The matrix product's operand indices at output index (p, q) and contraction index k are (p, k) and (k, q). -/

theorem value0_lhsA (i : S8000x64.Idx) (r : dot_S8000x9_S9x64_S8000x64_1_0_0_1_n_n.contr.Idx) :
    (dot_S8000x9_S9x64_S8000x64_1_0_0_1_n_n.lhsIdx i r 0).val = (i 0).val := by
  unfold DotDims.lhsIdx
  rw [dif_neg (show ¬(0 : Fin S8000x9.rank) ∈ dot_S8000x9_S9x64_S8000x64_1_0_0_1_n_n.lhsBatch by decide), dif_pos (show (0 : Fin S8000x9.rank) ∈ dot_S8000x9_S9x64_S8000x64_1_0_0_1_n_n.lhsNonContracting by decide)]
  rfl
theorem value0_lhsB (i : S8000x64.Idx) (r : dot_S8000x9_S9x64_S8000x64_1_0_0_1_n_n.contr.Idx) :
    (dot_S8000x9_S9x64_S8000x64_1_0_0_1_n_n.lhsIdx i r 1).val = (r ⟨0, by decide⟩).val :=
  dot_S8000x9_S9x64_S8000x64_1_0_0_1_n_n.lhsIdx_val_of_single rfl i r
theorem value0_rhsA (i : S8000x64.Idx) (r : dot_S8000x9_S9x64_S8000x64_1_0_0_1_n_n.contr.Idx) :
    (dot_S8000x9_S9x64_S8000x64_1_0_0_1_n_n.rhsIdx i r 0).val = (r ⟨0, by decide⟩).val :=
  dot_S8000x9_S9x64_S8000x64_1_0_0_1_n_n.rhsIdx_val_of_single rfl i r
theorem value0_rhsB (i : S8000x64.Idx) (r : dot_S8000x9_S9x64_S8000x64_1_0_0_1_n_n.contr.Idx) :
    (dot_S8000x9_S9x64_S8000x64_1_0_0_1_n_n.rhsIdx i r 1).val = (i 1).val := by
  unfold DotDims.rhsIdx
  rw [dif_neg (show ¬(1 : Fin S9x64.rank) ∈ dot_S8000x9_S9x64_S8000x64_1_0_0_1_n_n.rhsBatch by decide), dif_pos (show (1 : Fin S9x64.rank) ∈ dot_S8000x9_S9x64_S8000x64_1_0_0_1_n_n.rhsNonContracting by decide)]
  rfl

/-- The product into a zero accumulator at (p, q): the sum over the 9 columns of the left factor's row p times the right factor's column q. -/
theorem value0_matmul (L : FVec Ideal S8000x9 .bf16) (R : FVec Ideal S9x64 .bf16) (p : Fin 8000) (q : Fin 64) :
    matmul dot_S8000x9_S9x64_S8000x64_1_0_0_1_n_n none L R (constant (F := Ideal) S8000x64 .f32 0x00000000#32) (ix2 p q)
      = ∑ k : Fin 9, L (ix2 p k) * R (ix2 k q) := by
  simp only [matmul]
  rw [Ideal.matmul_constant_zero_apply, ← Equiv.sum_comp (contrEquiv1 dot_S8000x9_S9x64_S8000x64_1_0_0_1_n_n 9 rfl rfl).symm]
  refine Finset.sum_congr rfl fun k _ => ?_
  have hk := contrEquiv1_symm_val dot_S8000x9_S9x64_S8000x64_1_0_0_1_n_n 9 rfl rfl k
  have el : dot_S8000x9_S9x64_S8000x64_1_0_0_1_n_n.lhsIdx (ix2 p q) ((contrEquiv1 dot_S8000x9_S9x64_S8000x64_1_0_0_1_n_n 9 rfl rfl).symm k) = ix2 p k := funext fun a => Fin.ext (by
    match a with
    | ⟨0, _⟩ => exact value0_lhsA _ _
    | ⟨1, _⟩ => exact (value0_lhsB _ _).trans hk)
  have er : dot_S8000x9_S9x64_S8000x64_1_0_0_1_n_n.rhsIdx (ix2 p q) ((contrEquiv1 dot_S8000x9_S9x64_S8000x64_1_0_0_1_n_n 9 rfl rfl).symm k) = ix2 k q := funext fun a => Fin.ext (by
    match a with
    | ⟨0, _⟩ => exact (value0_rhsA _ _).trans hk
    | ⟨1, _⟩ => exact value0_rhsB _ _)
  rw [el, er]

/-- The one-hot row the body builds from the labels, at row p and column k: 1 when row p's label selects weight row k, else 0. -/
theorem value0_lhs (x1 : Vec Ideal S8000x1 .i32) (hc : S8000x1.ShapeCasts S8000x1) (hb : S8000x1.Broadcasts S8000x9)
    (hi : S8000x9.Iotas .tc 32 [1]) (hlt : 1 < 32) (hbits : FTy.bits .bf16 < FTy.bits .f32) (p : Fin 8000) (k : Fin 9) :
    (truncf (F := Ideal) .bf16 (sitofp .f32 (extui 32 (cmpi .eq (broadcastTo S8000x9 (subi (shapeCast S8000x1 x1 hc) (broadcast S8000x1 1#32)) hb) (iota .tc S8000x9 32 [1] hi)) hlt)) hbits : FVec Ideal S8000x9 .bf16) (ix2 p k)
      = if Cert.Spec.relRow (x1 (ix2 p (0 : Fin 1))) = some k then 1 else 0 := by
  rw [shapeCast_self, truncf_apply, sitofp_apply, extui_apply]
  show FloatOps.sitofp .f32 ((IntOp.cmpi .eq (broadcastTo S8000x9 (subi x1 (broadcast S8000x1 1#32)) hb (ix2 p k)) (iota .tc S8000x9 32 [1] hi (ix2 p k))).setWidth 32) = _
  rw [iota_single_apply, broadcastTo_apply _ hb (ix2 p k) (ix2 p (0 : Fin 1)) (fun a => by
    match a with
    | ⟨0, _⟩ => show p.val = if (8000 : Nat) = 1 then 0 else p.val; rw [if_neg (by decide)]
    | ⟨1, _⟩ => show (0 : Nat) = if (1 : Nat) = 1 then 0 else k.val; rw [if_pos rfl])]
  exact value0_onehot _ k

/-- The body's stored value at (p, q): the tail embedding's entry times the weight row the row's label selects, at channel q. -/
theorem value0_pay (x1 : Vec Ideal S8000x1 .i32) (x2 : Vec Ideal S9x64 .f32) (x0 : Vec Ideal S8000x64 .f32) (p : Fin 8000) (q : Fin 64) :
    (k0_pay1 (F := Ideal) x1 x2 x0) (ix2 p q) = x0 (ix2 p q) * Cert.Spec.relVec x2 (x1 (ix2 p (0 : Fin 1))) q := by
  unfold k0_pay1
  dsimp only
  rw [mulf_apply, shapeCast_self, value0_matmul, ← value0_onehot_sum]
  refine congrArg (x0 (ix2 p q) * ·) (Finset.sum_congr rfl fun k _ => ?_)
  rw [value0_lhs, truncf_apply]

/-! From blocks to the array: point t reads rows 8000 t … 8000 t + 7999 of the tail embeddings and of the labels, the whole weight table, and writes the same rows of the output. -/

theorem value0_hz : (![0, 0] : Fin 2 → Nat) = fun _ => 0 := funext fun a => by fin_cases a <;> rfl

/-- The windows' block indices over the grid: the three row-block windows sit at block row t, the weight table at its one block. -/
theorem value0_idx : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- One output entry: when the input blocks hold the arrays' entries the output's rectangle names, the stored value is the edge message at the array index. -/
theorem value0_point (x0 : Vec Ideal S8000x64 .f32) (x1 : Vec Ideal S8000x1 .i32) (x2 : Vec Ideal S9x64 .f32)
    (A0 : Cert.Spec.Mat 2000000 64) (A1 : Cert.Spec.IMat 2000000 1) (A2 : Cert.Spec.Mat 9 64)
    (y : S8000x64.Idx) (i : S2000000x64.Idx)
    (h0 : x0 y = A0 i)
    (h1 : ∀ (y' : S8000x1.Idx) (i' : S2000000x1.Idx), (y' 0).val = (y 0).val → (i' 0).val = (i 0).val → x1 y' = A1 i')
    (h2 : x2 = A2) (hq : (y 1).val = (i 1).val) :
    k0_pay1 (F := Ideal) x1 x2 x0 y = Cert.Spec.relMsg A0 A1 A2 i := by
  obtain ⟨p, q, rfl⟩ : ∃ (p : Fin 8000) (q : Fin 64), y = ix2 p q := ⟨y 0, y 1, eq_ix2 y⟩
  obtain ⟨r, q', rfl⟩ : ∃ (r : Fin 2000000) (q' : Fin 64), i = ix2 r q' := ⟨i 0, i 1, eq_ix2 i⟩
  obtain rfl : q = q' := Fin.ext hq
  rw [value0_pay, h0, h1 (ix2 p (0 : Fin 1)) (ix2 r (0 : Fin 1)) rfl rfl, h2]
  rfl

/-- What point t writes back is block t of the edge messages of the arrays as the region finds them. -/
theorem value0_flushed (c : Dev nD) (t : Fin cfg0.N) :
    (dat0 V c).flushed 3 t = ((cfg0.win 3).blk t).view.read (Elt Ideal) (Cert.Spec.relMsg (n := 2000000) (V c main_v33) (V c main_v25) (V c main_arg7)) := by
  show (cfg0.win 3).cut (grid0.coords t) ((dat0 V c).after 3 t) = _
  rw [after0_3]
  unfold out0_3
  rw [View.canon_unit_zero value0_hz]
  simp only [View.ld_unit_zero (S := S8000x64) value0_hz, View.ld_unit_zero (S := S8000x1) value0_hz, View.ld_unit_zero (S := S9x64) value0_hz]
  obtain ⟨e00, e01, e10, e11, e20, e21, e30, e31⟩ := value0_idx t
  funext j
  show k0_pay1 (F := Ideal) (iblk0 V c 1 t) (iblk0 V c 2 t) (iblk0 V c 0 t) j
    = Cert.Spec.relMsg (n := 2000000) (V c main_v33) (V c main_v25) (V c main_arg7) (((cfg0.win 3).blk t).view.emb j)
  refine value0_point (iblk0 V c 0 t) (iblk0 V c 1 t) (iblk0 V c 2 t) (V c main_v33) (V c main_v25) (V c main_arg7) j (((cfg0.win 3).blk t).view.emb j) ?_ ?_ ?_ ?_
  · show V c main_v33 (((cfg0.win 0).blk t).view.emb j) = V c main_v33 (((cfg0.win 3).blk t).view.emb j)
    refine congrArg _ (funext fun a => Fin.ext ?_)
    match a with
    | ⟨0, _⟩ => show win0_0.index t (0 : Fin 2) * 8000 + 1 * (j 0).val = win0_3.index t (0 : Fin 2) * 8000 + 1 * (j 0).val; rw [e00, e30]
    | ⟨1, _⟩ => show win0_0.index t (1 : Fin 2) * 64 + 1 * (j 1).val = win0_3.index t (1 : Fin 2) * 64 + 1 * (j 1).val; rw [e01, e31]
  · intro y' i' hy hi
    show V c main_v25 (((cfg0.win 1).blk t).view.emb y') = V c main_v25 i'
    refine congrArg _ (funext fun a => Fin.ext ?_)
    have hi' : (i' 0).val = win0_3.index t (0 : Fin 2) * 8000 + 1 * (j 0).val := hi
    match a with
    | ⟨0, _⟩ => show win0_1.index t (0 : Fin 2) * 8000 + 1 * (y' 0).val = (i' 0).val; rw [hi', hy, e10, e30]
    | ⟨1, _⟩ => show win0_1.index t (1 : Fin 2) * 1 + 1 * (y' 1).val = (i' 1).val; have := idx2_lt1 y'; have := idx2_lt1 i'; omega
  · funext y
    show V c main_arg7 (((cfg0.win 2).blk t).view.emb y) = V c main_arg7 y
    refine congrArg _ (funext fun a => Fin.ext ?_)
    match a with
    | ⟨0, _⟩ => show win0_2.index t (0 : Fin 2) * 9 + 1 * (y 0).val = (y 0).val; rw [e20]; omega
    | ⟨1, _⟩ => show win0_2.index t (1 : Fin 2) * 64 + 1 * (y 1).val = (y 1).val; rw [e21]; omega
  · show (j 1).val = win0_3.index t (1 : Fin 2) * 64 + 1 * (j 1).val
    rw [e31]; omega

/-- An index of the output array is in point t's block iff each coordinate is in the block's range on its axis. -/
theorem value0_mem (t : Fin cfg0.N) (i : S2000000x64.Idx) :
    i ∈ ((cfg0.win 3).blk t).view.set ↔ ∀ a : Fin 2, win0_3.index t a * S8000x64.size a ≤ (i a).val ∧ (i a).val < win0_3.index t a * S8000x64.size a + S8000x64.size a := by
  show i ∈ ((View.whole main_v34).slice (win0_3.rect t)).set ↔ _
  rw [View.set_slice_whole, Rect.mem_set_unit]
  exact Iff.rfl

/-- The blocks cover the array: row r is in the block of point r / 8000. -/
theorem value0_cover (i : S2000000x64.Idx) : ∃ t : Fin cfg0.N, (cfg0.win 3).flush t = true ∧ i ∈ ((cfg0.win 3).blk t).view.set := by
  have hN : cfg0.N = 250 := N_0
  have hi0 : (i 0).val < 2000000 := idx2_lt0 i
  have hi1 : (i 1).val < 64 := idx2_lt1 i
  obtain ⟨t, ht⟩ : ∃ t : Fin cfg0.N, t.val = (i 0).val / 8000 := ⟨⟨(i 0).val / 8000, by omega⟩, rfl⟩
  obtain ⟨-, -, -, -, -, -, e30, e31⟩ := value0_idx t
  refine ⟨t, flush0_3 t, ?_⟩
  rw [value0_mem]
  intro a
  match a with
  | ⟨0, _⟩ => show win0_3.index t (0 : Fin 2) * 8000 ≤ (i 0).val ∧ (i 0).val < win0_3.index t (0 : Fin 2) * 8000 + 8000; rw [e30, ht]; omega
  | ⟨1, _⟩ => show win0_3.index t (1 : Fin 2) * 64 ≤ (i 1).val ∧ (i 1).val < win0_3.index t (1 : Fin 2) * 64 + 64; rw [e31]; omega

/-! Region 0 (the first hop's edge messages): after the 250 grid points the output array holds, row by row, the tail embedding times the weight row its relation label selects. -/

theorem value0 (c : Dev nD) : (dat0 V c).arrAt 3 cfg0.N = Cert.Spec.relMsg (n := 2000000) (V c main_v33) (V c main_v25) (V c main_arg7) := by
  exact (dat0 V c).arrAt_eq_of_cover 3 _ (fun t _ => value0_flushed V c t) value0_cover

end Cert.KernelIdeal.Val

end
-- ==== Proof.Reg1.lean ====
import proofs.«425177_j67456756351000_2_alg».proof.Proof.Gen.KernelIdeal.Frame
import proofs.«425177_j67456756351000_2_alg».proof.Proof.Spec
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

namespace Cert.KernelIdeal.Val

open Cert.KernelIdeal Cert.KernelIdeal.Gen Idealize.ShloMosaic Idealize.ShloMosaic.TcCoe Idealize.SL.Sem Idealize.ShloMosaic.ValueIdx
open Idealize.ShloMosaic.Pipeline (Dat)

/- The TensorCore's buffer contents when the region is entered (any). -/
variable (V : (c : Dev nD) → (b : Ref sig .tc) → Buf (Elt Ideal) ((c : Thread nD τ).loc b))

/-! Region 1 (the first hop's entity update): the 40 blocks of 5000 rows leave the normalized neighbourhood means in the first output and the residual sum in the second. -/

/-- A one-column matrix broadcast along the channels reads, at row `p` and any channel, its entry of row `p`. -/
theorem value1_bcol {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A vector laid out as one column reads, at row `p`, its entry `p`. -/
theorem value1_tocol {α : Type} {a : ℕ} (v : (⟨1, ![a]⟩ : Shape).Idx → α)
    (h : (⟨1, ![a]⟩ : Shape).ShapeCasts ⟨2, ![a, 1]⟩) (p : Fin a) :
    shapeCast ⟨2, ![a, 1]⟩ v h (ix2 p (0 : Fin 1)) = v (ix1 p) := by
  refine shapeCast_apply v h (ix2 p (0 : Fin 1)) (ix1 p) ?_
  rw [Shape.rowMajor_val_one, Shape.rowMajor_val_two]
  show p.val = p.val * 1 + 0
  omega

/-- The sum along the channels of a 5000 × 64 block, at row `p`, is the sum of the row's 64 entries. -/
theorem value1_lanesum (x : FVec Ideal S5000x64 .f32) (h : S5000x64.Reduces [1] S5000)
    (hφ : FTy.f32 = FTy.f32 ∨ FTy.f32 = FTy.bf16) (hacc : (0x00000000#32 : BitVec 32) = 0x00000000#32) (p : Fin 5000) :
    multiReduction .add [1] S5000 x 0x00000000#32 h hφ hacc (ix1 p) = ∑ k : Fin 64, x (ix2 p k) := by
  refine (Ideal.multiReduction_add_single x 0x00000000#32 h hφ hacc (ix1 p)).trans ?_
  show ∑ k : Fin 64, x (h.lift (ix1 p) k) = _
  refine Finset.sum_congr rfl fun k _ => congrArg x ?_
  funext c
  apply Fin.ext
  match c with
  | ⟨0, _⟩ => rfl
  | ⟨1, _⟩ => rfl

/-- The square root of a block, entry by entry. -/
theorem value1_sqrt {s : Shape} (v : FVec Ideal s .f32) (i : s.Idx) : sqrt v i = Ideal.sqrt (v i) := rfl

/-- The body's first payload is the normalized mean of its two blocks. -/
theorem value1_pay (x0 : Vec Ideal S5000x64 .f32) (x1 : Vec Ideal S5000x1 .f32) :
    k1_pay1 (F := Ideal) x1 x0 = Cert.Spec.entNew (n := 5000) x0 x1 := by
  funext j
  obtain ⟨p, q, rfl⟩ : ∃ (p : Fin 5000) (q : Fin 64), j = ix2 p q := ⟨j 0, j 1, eq_ix2 j⟩
  unfold k1_pay1
  simp only [shapeCast_self]
  simp only [divf_apply, maximumf_apply, broadcast_apply, value1_bcol, value1_sqrt, value1_tocol]
  rw [value1_lanesum]
  simp only [mulf_apply, divf_apply, maximumf_apply, broadcast_apply, value1_bcol]
  rfl

/-- The normalized mean of a row is a function of that row's sums and of its count alone. -/
theorem value1_rowlocal {n m : ℕ} (a : Cert.Spec.Mat n 64) (k : Cert.Spec.Mat n 1) (A : Cert.Spec.Mat m 64) (K : Cert.Spec.Mat m 1)
    (p : Fin n) (r : Fin m) (q : Fin 64)
    (ha : ∀ u : Fin 64, a (ix2 p u) = A (ix2 r u))
    (hk : k (ix2 p (0 : Fin 1)) = K (ix2 r (0 : Fin 1))) :
    Cert.Spec.entNew a k (ix2 p q) = Cert.Spec.entNew A K (ix2 r q) := by
  have hm : ∀ u : Fin 64, Cert.Spec.meanRows a k (ix2 p u) = Cert.Spec.meanRows A K (ix2 r u) := fun u => by
    show Ideal.div (a (ix2 p u)) (max (k (ix2 p (0 : Fin 1))) Cert.Spec.one)
      = Ideal.div (A (ix2 r u)) (max (K (ix2 r (0 : Fin 1))) Cert.Spec.one)
    rw [ha, hk]
  have hn : Cert.Spec.rowNorm (Cert.Spec.meanRows a k) p = Cert.Spec.rowNorm (Cert.Spec.meanRows A K) r := by
    unfold Cert.Spec.rowNorm
    simp only [hm]
  show Ideal.div (Cert.Spec.meanRows a k (ix2 p q)) (Cert.Spec.rowNorm (Cert.Spec.meanRows a k) p)
    = Ideal.div (Cert.Spec.meanRows A K (ix2 r q)) (Cert.Spec.rowNorm (Cert.Spec.meanRows A K) r)
  rw [hm, hn]

/-- The zero offsets of a whole-block access. -/
theorem value1_hz : (![0, 0] : Fin 2 → Nat) = fun _ => 0 := funext fun a => by fin_cases a <;> rfl

/-- The index maps over the grid: every window's block at point `t` is row block `t`, whole rows. -/
theorem value1_idx : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- Row `p` of the sums' block at point `t` is row `5000 t + p` of the sums. -/
theorem value1_blk_sums (c : Dev nD) (t : Fin cfg1.N) (p : Fin 5000) (q : Fin 64) (r : Fin 200000)
    (hr : r.val = t.val * 5000 + p.val) :
    (iblk1 V c 0 t : Vec Ideal S5000x64 .f32) (ix2 p q) = (V c main_v37 : S200000x64.Idx → EReal) (ix2 r q) := by
  obtain ⟨ea, eb, -⟩ := value1_idx t
  unfold iblk1
  rw [View.read_apply]
  show V c main_v37 _ = V c main_v37 _
  congr 1
  funext a
  apply Fin.ext
  match a with
  | ⟨0, _⟩ => show win1_0.index t 0 * 5000 + 1 * p.val = r.val; rw [ea, hr]; omega
  | ⟨1, _⟩ => show win1_0.index t 1 * 64 + 1 * q.val = q.val; rw [eb]; omega

/-- Row `p` of the counts' block at point `t` is row `5000 t + p` of the counts. -/
theorem value1_blk_cnt (c : Dev nD) (t : Fin cfg1.N) (p : Fin 5000) (r : Fin 200000)
    (hr : r.val = t.val * 5000 + p.val) :
    (iblk1 V c 1 t : Vec Ideal S5000x1 .f32) (ix2 p (0 : Fin 1)) = (V c main_v12 : S200000x1.Idx → EReal) (ix2 r (0 : Fin 1)) := by
  obtain ⟨-, -, ea, eb, -⟩ := value1_idx t
  unfold iblk1
  rw [View.read_apply]
  show V c main_v12 _ = V c main_v12 _
  congr 1
  funext a
  apply Fin.ext
  match a with
  | ⟨0, _⟩ => show win1_1.index t 0 * 5000 + 1 * p.val = r.val; rw [ea, hr]; omega
  | ⟨1, _⟩ => show win1_1.index t 1 * 1 + 1 * 0 = 0; rw [eb]

/-- What point `t` writes back to the first output is block `t` of the normalized means of the whole arrays:
    row `p` of the block is row `5000 t + p` of the arrays, and a row's normalized mean reads that row alone. -/
theorem value1_flushed_new (c : Dev nD) (t : Fin cfg1.N) :
    (dat1 V c).flushed 3 t = ((cfg1.win 3).blk t).view.read (Elt Ideal)
      (Cert.Spec.entNew (n := 200000) (V c main_v37) (V c main_v12)) := by
  show (cfg1.win 3).cut (grid1.coords t) ((dat1 V c).after 3 t) = _
  rw [after1_3]
  unfold out1_3
  rw [View.canon_unit_zero value1_hz]
  simp only [View.ld_unit_zero (S := S5000x64) value1_hz, View.ld_unit_zero (S := S5000x1) value1_hz]
  obtain ⟨-, -, -, -, -, -, ea, eb, -⟩ := value1_idx t
  have hN : t.val < 40 := Nat.lt_of_lt_of_eq t.isLt (show cfg1.N = 40 from N_1)
  funext j
  revert j
  show ∀ j : S5000x64.Idx, k1_pay1 (F := Ideal) (iblk1 V c 1 t) (iblk1 V c 0 t) j
    = Cert.Spec.entNew (n := 200000) (V c main_v37) (V c main_v12) (((cfg1.win 3).blk t).view.emb j)
  intro j
  obtain ⟨p, q, rfl⟩ : ∃ (p : Fin 5000) (q : Fin 64), j = ix2 p q := ⟨j 0, j 1, eq_ix2 j⟩
  have hr : t.val * 5000 + p.val < 200000 := by have := p.isLt; omega
  have hemb : ((cfg1.win 3).blk t).view.emb (ix2 p q) = (ix2 (⟨t.val * 5000 + p.val, hr⟩ : Fin 200000) q : S200000x64.Idx) := by
    funext a
    apply Fin.ext
    match a with
    | ⟨0, _⟩ => show win1_3.index t 0 * 5000 + 1 * p.val = t.val * 5000 + p.val; rw [ea]; omega
    | ⟨1, _⟩ => show win1_3.index t 1 * 64 + 1 * q.val = q.val; rw [eb]; omega
  rw [hemb]
  refine (congrFun (value1_pay (iblk1 V c 0 t) (iblk1 V c 1 t)) (ix2 p q)).trans ?_
  exact value1_rowlocal _ _ _ _ p ⟨_, hr⟩ q (fun u => value1_blk_sums V c t p u _ rfl) (value1_blk_cnt V c t p _ rfl)

/-- An index of the first output lies in point `t`'s block exactly when each coordinate lies in the block's range. -/
theorem value1_mem_new (t : Fin cfg1.N) (i : S200000x64.Idx) :
    i ∈ ((cfg1.win 3).blk t).view.set ↔ ∀ a : Fin 2, win1_3.index t a * S5000x64.size a ≤ (i a).val
      ∧ (i a).val < win1_3.index t a * S5000x64.size a + S5000x64.size a := by
  show i ∈ ((View.whole main_v38_0).slice (win1_3.rect t)).set ↔ _
  rw [View.set_slice_whole, Rect.mem_set_unit]
  exact Iff.rfl

/-- The 40 row blocks cover the first output: row `r` lies in the block of point `r / 5000`. -/
theorem value1_cover_new (i : S200000x64.Idx) :
    ∃ t : Fin cfg1.N, (cfg1.win 3).flush t = true ∧ i ∈ ((cfg1.win 3).blk t).view.set := by
  have hi : (i 0).val < 200000 := (i 0).isLt
  have hq : (i 1).val < 64 := (i 1).isLt
  have hN : cfg1.N = 40 := N_1
  have ht : (i 0).val / 5000 < cfg1.N := by rw [hN]; omega
  obtain ⟨-, -, -, -, -, -, ea, eb, -⟩ := value1_idx ⟨(i 0).val / 5000, ht⟩
  refine ⟨⟨(i 0).val / 5000, ht⟩, flush1_3 _, ?_⟩
  rw [value1_mem_new]
  intro a
  match a with
  | ⟨0, _⟩ =>
    show win1_3.index ⟨(i 0).val / 5000, ht⟩ (0 : Fin 2) * 5000 ≤ (i 0).val
      ∧ (i 0).val < win1_3.index ⟨(i 0).val / 5000, ht⟩ (0 : Fin 2) * 5000 + 5000
    rw [ea]
    show (i 0).val / 5000 * 5000 ≤ (i 0).val ∧ (i 0).val < (i 0).val / 5000 * 5000 + 5000
    omega
  | ⟨1, _⟩ =>
    show win1_3.index ⟨(i 0).val / 5000, ht⟩ (1 : Fin 2) * 64 ≤ (i 1).val
      ∧ (i 1).val < win1_3.index ⟨(i 0).val / 5000, ht⟩ (1 : Fin 2) * 64 + 64
    rw [eb]
    omega

/-- The first output after the region: the normalized neighbourhood means of the sums and counts the region found. -/
theorem value1_new (c : Dev nD) : (dat1 V c).arrAt 3 cfg1.N = Cert.Spec.entNew (n := 200000) (V c main_v37) (V c main_v12) := by
  exact (dat1 V c).arrAt_eq_of_cover 3 (Cert.Spec.entNew (n := 200000) (V c main_v37) (V c main_v12))
    (fun t _ => value1_flushed_new V c t) value1_cover_new

/-- The body's second payload is the residual's block plus the first payload. -/
theorem value1_pay_res (x0 : Vec Ideal S5000x64 .f32) (x1 : Vec Ideal S5000x1 .f32) (x2 : Vec Ideal S5000x64 .f32) :
    k1_pay2 (F := Ideal) x1 x0 x2 = Cert.Spec.resAdd (n := 5000) x2 (Cert.Spec.entNew (n := 5000) x0 x1) := by
  unfold k1_pay2
  rw [value1_pay]
  first
  | rfl
  | (simp only [shapeCast_self] <;> rfl)

/-- The residual sum at a row reads the residual's entry and that row's sums and count alone. -/
theorem value1_rowlocal_res {n m : ℕ} (x : Cert.Spec.Mat n 64) (a : Cert.Spec.Mat n 64) (k : Cert.Spec.Mat n 1)
    (X : Cert.Spec.Mat m 64) (A : Cert.Spec.Mat m 64) (K : Cert.Spec.Mat m 1) (p : Fin n) (r : Fin m) (q : Fin 64)
    (hx : x (ix2 p q) = X (ix2 r q)) (ha : ∀ u : Fin 64, a (ix2 p u) = A (ix2 r u))
    (hk : k (ix2 p (0 : Fin 1)) = K (ix2 r (0 : Fin 1))) :
    Cert.Spec.resAdd x (Cert.Spec.entNew a k) (ix2 p q) = Cert.Spec.resAdd X (Cert.Spec.entNew A K) (ix2 r q) := by
  show x (ix2 p q) + Cert.Spec.entNew a k (ix2 p q) = X (ix2 r q) + Cert.Spec.entNew A K (ix2 r q)
  rw [hx, value1_rowlocal a k A K p r q ha hk]

/-- Row `p` of the residual's block at point `t` is row `5000 t + p` of the residual. -/
theorem value1_blk_res (c : Dev nD) (t : Fin cfg1.N) (p : Fin 5000) (q : Fin 64) (r : Fin 200000)
    (hr : r.val = t.val * 5000 + p.val) :
    (iblk1 V c 2 t : Vec Ideal S5000x64 .f32) (ix2 p q) = (V c main_arg1 : S200000x64.Idx → EReal) (ix2 r q) := by
  obtain ⟨-, -, -, -, ea, eb, -⟩ := value1_idx t
  unfold iblk1
  rw [View.read_apply]
  show V c main_arg1 _ = V c main_arg1 _
  congr 1
  funext a
  apply Fin.ext
  match a with
  | ⟨0, _⟩ => show win1_2.index t 0 * 5000 + 1 * p.val = r.val; rw [ea, hr]; omega
  | ⟨1, _⟩ => show win1_2.index t 1 * 64 + 1 * q.val = q.val; rw [eb]; omega

/-- What point `t` writes back to the second output is block `t` of the residual sum of the whole arrays. -/
theorem value1_flushed_res (c : Dev nD) (t : Fin cfg1.N) :
    (dat1 V c).flushed 4 t = ((cfg1.win 4).blk t).view.read (Elt Ideal)
      (Cert.Spec.resAdd (n := 200000) (V c main_arg1) (Cert.Spec.entNew (n := 200000) (V c main_v37) (V c main_v12))) := by
  show (cfg1.win 4).cut (grid1.coords t) ((dat1 V c).after 4 t) = _
  rw [after1_4]
  unfold out1_4
  rw [View.canon_unit_zero value1_hz]
  simp only [View.ld_unit_zero (S := S5000x64) value1_hz, View.ld_unit_zero (S := S5000x1) value1_hz]
  obtain ⟨-, -, -, -, -, -, -, -, ea, eb⟩ := value1_idx t
  have hN : t.val < 40 := Nat.lt_of_lt_of_eq t.isLt (show cfg1.N = 40 from N_1)
  funext j
  revert j
  show ∀ j : S5000x64.Idx, k1_pay2 (F := Ideal) (iblk1 V c 1 t) (iblk1 V c 0 t) (iblk1 V c 2 t) j
    = Cert.Spec.resAdd (n := 200000) (V c main_arg1) (Cert.Spec.entNew (n := 200000) (V c main_v37) (V c main_v12))
        (((cfg1.win 4).blk t).view.emb j)
  intro j
  obtain ⟨p, q, rfl⟩ : ∃ (p : Fin 5000) (q : Fin 64), j = ix2 p q := ⟨j 0, j 1, eq_ix2 j⟩
  have hr : t.val * 5000 + p.val < 200000 := by have := p.isLt; omega
  have hemb : ((cfg1.win 4).blk t).view.emb (ix2 p q) = (ix2 (⟨t.val * 5000 + p.val, hr⟩ : Fin 200000) q : S200000x64.Idx) := by
    funext a
    apply Fin.ext
    match a with
    | ⟨0, _⟩ => show win1_4.index t 0 * 5000 + 1 * p.val = t.val * 5000 + p.val; rw [ea]; omega
    | ⟨1, _⟩ => show win1_4.index t 1 * 64 + 1 * q.val = q.val; rw [eb]; omega
  rw [hemb]
  refine (congrFun (value1_pay_res (iblk1 V c 0 t) (iblk1 V c 1 t) (iblk1 V c 2 t)) (ix2 p q)).trans ?_
  exact value1_rowlocal_res _ _ _ _ _ _ p ⟨_, hr⟩ q (value1_blk_res V c t p q _ rfl)
    (fun u => value1_blk_sums V c t p u _ rfl) (value1_blk_cnt V c t p _ rfl)

/-- An index of the second output lies in point `t`'s block exactly when each coordinate lies in the block's range. -/
theorem value1_mem_res (t : Fin cfg1.N) (i : S200000x64.Idx) :
    i ∈ ((cfg1.win 4).blk t).view.set ↔ ∀ a : Fin 2, win1_4.index t a * S5000x64.size a ≤ (i a).val
      ∧ (i a).val < win1_4.index t a * S5000x64.size a + S5000x64.size a := by
  show i ∈ ((View.whole main_v38_1).slice (win1_4.rect t)).set ↔ _
  rw [View.set_slice_whole, Rect.mem_set_unit]
  exact Iff.rfl

/-- The 40 row blocks cover the second output: row `r` lies in the block of point `r / 5000`. -/
theorem value1_cover_res (i : S200000x64.Idx) :
    ∃ t : Fin cfg1.N, (cfg1.win 4).flush t = true ∧ i ∈ ((cfg1.win 4).blk t).view.set := by
  have hi : (i 0).val < 200000 := (i 0).isLt
  have hq : (i 1).val < 64 := (i 1).isLt
  have hN : cfg1.N = 40 := N_1
  have ht : (i 0).val / 5000 < cfg1.N := by rw [hN]; omega
  obtain ⟨-, -, -, -, -, -, -, -, ea, eb⟩ := value1_idx ⟨(i 0).val / 5000, ht⟩
  refine ⟨⟨(i 0).val / 5000, ht⟩, flush1_4 _, ?_⟩
  rw [value1_mem_res]
  intro a
  match a with
  | ⟨0, _⟩ =>
    show win1_4.index ⟨(i 0).val / 5000, ht⟩ (0 : Fin 2) * 5000 ≤ (i 0).val
      ∧ (i 0).val < win1_4.index ⟨(i 0).val / 5000, ht⟩ (0 : Fin 2) * 5000 + 5000
    rw [ea]
    show (i 0).val / 5000 * 5000 ≤ (i 0).val ∧ (i 0).val < (i 0).val / 5000 * 5000 + 5000
    omega
  | ⟨1, _⟩ =>
    show win1_4.index ⟨(i 0).val / 5000, ht⟩ (1 : Fin 2) * 64 ≤ (i 1).val
      ∧ (i 1).val < win1_4.index ⟨(i 0).val / 5000, ht⟩ (1 : Fin 2) * 64 + 64
    rw [eb]
    omega

/-- The second output after the region: the residual the region found plus those normalized means. -/
theorem value1_res (c : Dev nD) : (dat1 V c).arrAt 4 cfg1.N = Cert.Spec.resAdd (n := 200000) (V c main_arg1) (Cert.Spec.entNew (V c main_v37) (V c main_v12)) := by
  exact (dat1 V c).arrAt_eq_of_cover 4
    (Cert.Spec.resAdd (n := 200000) (V c main_arg1) (Cert.Spec.entNew (n := 200000) (V c main_v37) (V c main_v12)))
    (fun t _ => value1_flushed_res V c t) value1_cover_res

end Cert.KernelIdeal.Val

end
-- ==== Proof.Reg2.lean ====
import proofs.«425177_j67456756351000_2_alg».proof.Proof.Gen.KernelIdeal.Frame
import proofs.«425177_j67456756351000_2_alg».proof.Proof.Spec
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

namespace Cert.KernelIdeal.Val

open Cert.KernelIdeal Cert.KernelIdeal.Gen Idealize.ShloMosaic Idealize.ShloMosaic.TcCoe Idealize.SL.Sem Idealize.ShloMosaic.ValueIdx
open Idealize.ShloMosaic.Pipeline (Dat)

/- The TensorCore's buffer contents when the region is entered (any). -/
variable (V : (c : Dev nD) → (b : Ref sig .tc) → Buf (Elt Ideal) ((c : Thread nD τ).loc b))

/-! ## The two matrix products read at an index -/

/-- The logits' product: the left operand's row is the output's row … -/
private theorem logitDot_lhs_row (i : S5000x4.Idx) (q : dot_S5000x64_S4x64_S5000x4_1_1_0_0_n_n.contr.Idx) :
    (dot_S5000x64_S4x64_S5000x4_1_1_0_0_n_n.lhsIdx i q 0).val = (i 0).val := by
  unfold DotDims.lhsIdx
  rw [dif_neg (show ¬(0 : Fin S5000x64.rank) ∈ dot_S5000x64_S4x64_S5000x4_1_1_0_0_n_n.lhsBatch by decide), dif_pos (show (0 : Fin S5000x64.rank) ∈ dot_S5000x64_S4x64_S5000x4_1_1_0_0_n_n.lhsNonContracting by decide)]
  rfl
/-- … its column the contracted channel; -/
private theorem logitDot_lhs_col (i : S5000x4.Idx) (q : dot_S5000x64_S4x64_S5000x4_1_1_0_0_n_n.contr.Idx) :
    (dot_S5000x64_S4x64_S5000x4_1_1_0_0_n_n.lhsIdx i q 1).val = (q ⟨0, by decide⟩).val :=
  dot_S5000x64_S4x64_S5000x4_1_1_0_0_n_n.lhsIdx_val_of_single rfl i q
/-- the right operand's row is the output's column (the factor) … -/
private theorem logitDot_rhs_row (i : S5000x4.Idx) (q : dot_S5000x64_S4x64_S5000x4_1_1_0_0_n_n.contr.Idx) :
    (dot_S5000x64_S4x64_S5000x4_1_1_0_0_n_n.rhsIdx i q 0).val = (i 1).val := by
  unfold DotDims.rhsIdx
  rw [dif_neg (show ¬(0 : Fin S4x64.rank) ∈ dot_S5000x64_S4x64_S5000x4_1_1_0_0_n_n.rhsBatch by decide), dif_pos (show (0 : Fin S4x64.rank) ∈ dot_S5000x64_S4x64_S5000x4_1_1_0_0_n_n.rhsNonContracting by decide)]
  rfl
/-- … and its column the contracted channel. -/
private theorem logitDot_rhs_col (i : S5000x4.Idx) (q : dot_S5000x64_S4x64_S5000x4_1_1_0_0_n_n.contr.Idx) :
    (dot_S5000x64_S4x64_S5000x4_1_1_0_0_n_n.rhsIdx i q 1).val = (q ⟨0, by decide⟩).val :=
  dot_S5000x64_S4x64_S5000x4_1_1_0_0_n_n.rhsIdx_val_of_single rfl i q

/-- The first product into a zero accumulator, at row `p` and factor `f`: the sum over the 64 channels of the
    row's entry times the factor's entry. -/
private theorem logitDot_apply {φa φb : FTy} (a : FVec Ideal S5000x64 φa) (b : FVec Ideal S4x64 φb) (p : Fin 5000) (f : Fin 4) :
    matmul dot_S5000x64_S4x64_S5000x4_1_1_0_0_n_n none a b (constant (F := Ideal) S5000x4 .f32 0x00000000#32) (ix2 p f)
      = ∑ k : Fin 64, a (ix2 p k) * b (ix2 f k) := by
  simp only [matmul]
  rw [Ideal.matmul_constant_zero_apply, ← Equiv.sum_comp (contrEquiv1 dot_S5000x64_S4x64_S5000x4_1_1_0_0_n_n 64 rfl rfl).symm]
  refine Finset.sum_congr rfl fun k _ => ?_
  have hk := contrEquiv1_symm_val dot_S5000x64_S4x64_S5000x4_1_1_0_0_n_n 64 rfl rfl k
  have el : dot_S5000x64_S4x64_S5000x4_1_1_0_0_n_n.lhsIdx (ix2 p f) ((contrEquiv1 dot_S5000x64_S4x64_S5000x4_1_1_0_0_n_n 64 rfl rfl).symm k) = ix2 p k := funext fun x => Fin.ext (by
    match x with
    | ⟨0, _⟩ => exact logitDot_lhs_row _ _
    | ⟨1, _⟩ => exact (logitDot_lhs_col _ _).trans hk)
  have er : dot_S5000x64_S4x64_S5000x4_1_1_0_0_n_n.rhsIdx (ix2 p f) ((contrEquiv1 dot_S5000x64_S4x64_S5000x4_1_1_0_0_n_n 64 rfl rfl).symm k) = ix2 f k := funext fun x => Fin.ext (by
    match x with
    | ⟨0, _⟩ => exact logitDot_rhs_row _ _
    | ⟨1, _⟩ => exact (logitDot_rhs_col _ _).trans hk)
  rw [el, er]

/-- The mixing product: the left operand's row is the output's row … -/
private theorem mixDot_lhs_row (i : S5000x64.Idx) (q : dot_S5000x4_S4x64_S5000x64_1_0_0_1_n_n.contr.Idx) :
    (dot_S5000x4_S4x64_S5000x64_1_0_0_1_n_n.lhsIdx i q 0).val = (i 0).val := by
  unfold DotDims.lhsIdx
  rw [dif_neg (show ¬(0 : Fin S5000x4.rank) ∈ dot_S5000x4_S4x64_S5000x64_1_0_0_1_n_n.lhsBatch by decide), dif_pos (show (0 : Fin S5000x4.rank) ∈ dot_S5000x4_S4x64_S5000x64_1_0_0_1_n_n.lhsNonContracting by decide)]
  rfl
/-- … its column the contracted factor; -/
private theorem mixDot_lhs_col (i : S5000x64.Idx) (q : dot_S5000x4_S4x64_S5000x64_1_0_0_1_n_n.contr.Idx) :
    (dot_S5000x4_S4x64_S5000x64_1_0_0_1_n_n.lhsIdx i q 1).val = (q ⟨0, by decide⟩).val :=
  dot_S5000x4_S4x64_S5000x64_1_0_0_1_n_n.lhsIdx_val_of_single rfl i q
/-- the right operand's row is the contracted factor … -/
private theorem mixDot_rhs_row (i : S5000x64.Idx) (q : dot_S5000x4_S4x64_S5000x64_1_0_0_1_n_n.contr.Idx) :
    (dot_S5000x4_S4x64_S5000x64_1_0_0_1_n_n.rhsIdx i q 0).val = (q ⟨0, by decide⟩).val :=
  dot_S5000x4_S4x64_S5000x64_1_0_0_1_n_n.rhsIdx_val_of_single rfl i q
/-- … and its column the output's column (the channel). -/
private theorem mixDot_rhs_col (i : S5000x64.Idx) (q : dot_S5000x4_S4x64_S5000x64_1_0_0_1_n_n.contr.Idx) :
    (dot_S5000x4_S4x64_S5000x64_1_0_0_1_n_n.rhsIdx i q 1).val = (i 1).val := by
  unfold DotDims.rhsIdx
  rw [dif_neg (show ¬(1 : Fin S4x64.rank) ∈ dot_S5000x4_S4x64_S5000x64_1_0_0_1_n_n.rhsBatch by decide), dif_pos (show (1 : Fin S4x64.rank) ∈ dot_S5000x4_S4x64_S5000x64_1_0_0_1_n_n.rhsNonContracting by decide)]
  rfl

/-- The second product into a zero accumulator, at row `p` and channel `q`: the sum over the 4 factors of the
    row's weight times the table's entry. -/
private theorem mixDot_apply {φa φb : FTy} (a : FVec Ideal S5000x4 φa) (b : FVec Ideal S4x64 φb) (p : Fin 5000) (q : Fin 64) :
    matmul dot_S5000x4_S4x64_S5000x64_1_0_0_1_n_n none a b (constant (F := Ideal) S5000x64 .f32 0x00000000#32) (ix2 p q)
      = ∑ f : Fin 4, a (ix2 p f) * b (ix2 f q) := by
  simp only [matmul]
  rw [Ideal.matmul_constant_zero_apply, ← Equiv.sum_comp (contrEquiv1 dot_S5000x4_S4x64_S5000x64_1_0_0_1_n_n 4 rfl rfl).symm]
  refine Finset.sum_congr rfl fun k _ => ?_
  have hk := contrEquiv1_symm_val dot_S5000x4_S4x64_S5000x64_1_0_0_1_n_n 4 rfl rfl k
  have el : dot_S5000x4_S4x64_S5000x64_1_0_0_1_n_n.lhsIdx (ix2 p q) ((contrEquiv1 dot_S5000x4_S4x64_S5000x64_1_0_0_1_n_n 4 rfl rfl).symm k) = ix2 p k := funext fun x => Fin.ext (by
    match x with
    | ⟨0, _⟩ => exact mixDot_lhs_row _ _
    | ⟨1, _⟩ => exact (mixDot_lhs_col _ _).trans hk)
  have er : dot_S5000x4_S4x64_S5000x64_1_0_0_1_n_n.rhsIdx (ix2 p q) ((contrEquiv1 dot_S5000x4_S4x64_S5000x64_1_0_0_1_n_n 4 rfl rfl).symm k) = ix2 k q := funext fun x => Fin.ext (by
    match x with
    | ⟨0, _⟩ => exact (mixDot_rhs_row _ _).trans hk
    | ⟨1, _⟩ => exact mixDot_rhs_col _ _)
  rw [el, er]

/-! ## The lane reductions and the column broadcast read at an index -/

/-- The source index over row `p` with factor `f` inserted on the reduced axis is `(p, f)`. -/
private theorem lane_lift (h : S5000x4.Reduces [1] S5000) (p : Fin 5000) (f : Fin 4) :
    h.lift (ix1 p) f = ix2 p f := by
  funext x; apply Fin.ext
  show h.liftVal (ix1 p) f.val x = _
  unfold Shape.Reduces.liftVal
  match x with
  | ⟨0, _⟩ => rfl
  | ⟨1, _⟩ => rfl

/-- A row's maximum over the 4 factors: the fold of `max` from the accumulator's value. -/
private theorem laneMax_apply (v : FVec Ideal S5000x4 .f32) (h : S5000x4.Reduces [1] S5000)
    (hφ : FKind.Formats FTy.f32) (hacc : (0xFF800000#32 : BitVec 32) = 0xFF800000#32) (p : Fin 5000) :
    multiReduction (F := Ideal) .maximumf [1] S5000 v 0xFF800000#32 h hφ hacc (ix1 p)
      = (Finset.univ : Finset (Fin 4)).fold max (Ideal.ofBits .f32 0xFF800000#32) (fun f => v (ix2 p f)) := by
  refine (Ideal.multiReduction_maximumf_single v 0xFF800000#32 h hφ hacc (ix1 p)).trans ?_
  show (Finset.univ : Finset (Fin 4)).fold max (Ideal.ofBits .f32 0xFF800000#32) (v ∘ h.lift (ix1 p)) = _
  congr 1
  funext f
  exact congrArg v (lane_lift h p f)

/-- A row's sum over the 4 factors. -/
private theorem laneSum_apply (v : FVec Ideal S5000x4 .f32) (h : S5000x4.Reduces [1] S5000)
    (hφ : FKind.Formats FTy.f32) (hacc : (0x00000000#32 : BitVec 32) = 0x00000000#32) (p : Fin 5000) :
    multiReduction (F := Ideal) .add [1] S5000 v 0x00000000#32 h hφ hacc (ix1 p) = ∑ f : Fin 4, v (ix2 p f) := by
  refine (Ideal.multiReduction_add_single v 0x00000000#32 h hφ hacc (ix1 p)).trans ?_
  exact Finset.sum_congr rfl fun f _ => congrArg v (lane_lift h p f)

/-- A per-row value laid along the 4 factors: the column cast then the broadcast read the row's value. -/
private theorem colBroadcast_apply {α : Type} (v : S5000.Idx → α) (hc : S5000.ShapeCasts S5000x1) (hb : S5000x1.Broadcasts S5000x4)
    (p : Fin 5000) (f : Fin 4) :
    broadcastTo S5000x4 (shapeCast S5000x1 v hc) hb (ix2 p f) = v (ix1 p) := by
  rw [broadcastTo_apply (shapeCast S5000x1 v hc) hb (ix2 p f) (ix2 p (0 : Fin 1)) (by
    intro a
    match a with
    | ⟨0, _⟩ => rfl
    | ⟨1, _⟩ => rfl)]
  exact shapeCast_apply v hc (ix2 p (0 : Fin 1)) (ix1 p) (by
    rw [Shape.rowMajor_val_two, Shape.rowMajor_val_one]; show p.val = p.val * 1 + 0; omega)

/-! ## The body's value at an index of its block -/

/-- The exponential at an index. -/
private theorem expVec_apply {s : Shape} {φ : FTy} (v : FVec Ideal s φ) (i : s.Idx) : exp v i = Ideal.exp (v i) := rfl

/-- At row `p` and channel `q` of a block the body leaves the softmax over the 4 factors of the row's logits against
    the factor table, mixed into the channel by the second table. -/
private theorem pay_apply (x0 : Vec Ideal S5000x64 .f32) (x1 x2 : Vec Ideal S4x64 .f32) (p : Fin 5000) (q : Fin 64) :
    k2_pay1 (F := Ideal) x0 x1 x2 (ix2 p q)
      = ∑ f : Fin 4, Cert.Spec.softmax4 (fun g : Fin 4 => ∑ k : Fin 64, x0 (ix2 p k) * x1 (ix2 g k)) f * x2 (ix2 f q) := by
  unfold k2_pay1
  dsimp only
  rw [mixDot_apply]
  refine Finset.sum_congr rfl fun f _ => ?_
  simp only [truncf_apply, divf_apply, expVec_apply, subf_apply, colBroadcast_apply, maximumf_apply, broadcast_apply,
    logitDot_apply, shapeCast_self]
  rw [laneMax_apply, laneSum_apply]
  simp only [truncf_apply, expVec_apply, subf_apply, colBroadcast_apply, maximumf_apply, broadcast_apply, logitDot_apply]
  rw [laneMax_apply]
  simp only [truncf_apply, logitDot_apply]
  rfl

/-! ## From blocks to the array -/

private theorem zeroOff : (![0, 0] : Fin 2 → Nat) = fun _ => 0 := funext fun a => by fin_cases a <;> rfl

/-- The printed index maps over the grid: the user window's and the output window's block row is the point's number,
    their block column 0; the two tables stay at block (0, 0). -/
private theorem idx_facts : ∀ t : Fin cfg2.N,
      win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The user window's block at point `t` holds rows `5000 t … 5000 t + 4999` of the user array. -/
private theorem userBlk_apply (c : Dev nD) (t : Fin cfg2.N) (p : Fin 5000) (k : Fin 64) (i : S100000x64.Idx)
    (hr : (i 0).val = t.val * 5000 + p.val) (hk : (i 1).val = k.val) :
    (iblk2 V c 0 t : Vec Ideal S5000x64 .f32) (ix2 p k) = (V c main_arg0 : S100000x64.Idx → EReal) i := by
  obtain ⟨e0, e1, -⟩ := idx_facts t
  unfold iblk2
  rw [View.read_apply]
  show V c main_arg0 _ = V c main_arg0 _
  congr 1
  funext a; apply Fin.ext
  match a with
  | ⟨0, _⟩ => show win2_0.index t (0 : Fin 2) * 5000 + 1 * p.val = (i 0).val; rw [e0, hr]; omega
  | ⟨1, _⟩ => show win2_0.index t (1 : Fin 2) * 64 + 1 * k.val = (i 1).val; rw [e1, hk]; omega

/-- The factor table's block is the whole table at every point. -/
private theorem latBlk_apply (c : Dev nD) (t : Fin cfg2.N) (g : Fin 4) (k : Fin 64) :
    (iblk2 V c 1 t : Vec Ideal S4x64 .f32) (ix2 g k) = (V c main_arg2 : S4x64.Idx → EReal) (ix2 g k) := by
  obtain ⟨-, -, e2, e3, -⟩ := idx_facts t
  unfold iblk2
  rw [View.read_apply]
  show V c main_arg2 _ = V c main_arg2 _
  congr 1
  funext a; apply Fin.ext
  match a with
  | ⟨0, _⟩ => show win2_1.index t (0 : Fin 2) * 4 + 1 * g.val = g.val; rw [e2]; omega
  | ⟨1, _⟩ => show win2_1.index t (1 : Fin 2) * 64 + 1 * k.val = k.val; rw [e3]; omega

/-- The mixing table's block is the whole table at every point. -/
private theorem mixBlk_apply (c : Dev nD) (t : Fin cfg2.N) (g : Fin 4) (k : Fin 64) :
    (iblk2 V c 2 t : Vec Ideal S4x64 .f32) (ix2 g k) = (V c main_v24 : S4x64.Idx → EReal) (ix2 g k) := by
  obtain ⟨-, -, -, -, e4, e5, -⟩ := idx_facts t
  unfold iblk2
  rw [View.read_apply]
  show V c main_v24 _ = V c main_v24 _
  congr 1
  funext a; apply Fin.ext
  match a with
  | ⟨0, _⟩ => show win2_2.index t (0 : Fin 2) * 4 + 1 * g.val = g.val; rw [e4]; omega
  | ⟨1, _⟩ => show win2_2.index t (1 : Fin 2) * 64 + 1 * k.val = k.val; rw [e5]; omega

/-- What point `t` writes back is block `t` of the attention array of the region's inputs. -/
private theorem flushed_eq (c : Dev nD) (t : Fin cfg2.N) :
    (dat2 V c).flushed 3 t = ((cfg2.win 3).blk t).view.read (Elt Ideal)
      (Cert.Spec.attn (n := 100000) (V c main_arg0) (V c main_arg2) (V c main_v24)) := by
  show (cfg2.win 3).cut (grid2.coords t) ((dat2 V c).after 3 t) = _
  rw [after2_3]
  unfold out2_3
  rw [View.canon_unit_zero zeroOff]
  simp only [View.ld_unit_zero (S := S5000x64) zeroOff, View.ld_unit_zero (S := S4x64) zeroOff]
  obtain ⟨-, -, -, -, -, -, e6, e7⟩ := idx_facts t
  funext j
  obtain ⟨p, q, rfl⟩ : ∃ (p : Fin 5000) (q : Fin 64), j = ix2 p q := ⟨j 0, j 1, eq_ix2 j⟩
  show k2_pay1 (F := Ideal) (iblk2 V c 0 t) (iblk2 V c 1 t) (iblk2 V c 2 t) (ix2 p q)
    = Cert.Spec.attn (n := 100000) (V c main_arg0) (V c main_arg2) (V c main_v24) (((cfg2.win 3).blk t).view.emb (ix2 p q))
  have hr : ((((cfg2.win 3).blk t).view.emb (ix2 p q)) 0).val = t.val * 5000 + p.val := by
    show win2_3.index t (0 : Fin 2) * 5000 + 1 * p.val = _
    rw [e6]; omega
  have hq : ((((cfg2.win 3).blk t).view.emb (ix2 p q)) 1).val = q.val := by
    show win2_3.index t (1 : Fin 2) * 64 + 1 * q.val = _
    rw [e7]; omega
  rw [pay_apply]
  unfold Cert.Spec.attn
  refine Finset.sum_congr rfl fun f _ => ?_
  refine congrArg₂ (· * ·) (congrArg (fun L => Cert.Spec.softmax4 L f) (funext fun g => ?_)) ?_
  · unfold Cert.Spec.logits
    exact Finset.sum_congr rfl fun k _ => congrArg₂ (· * ·) (userBlk_apply V c t p k _ hr rfl) (latBlk_apply V c t g k)
  · rw [mixBlk_apply]
    exact congrArg (V c main_v24) (funext fun a => Fin.ext (by
      match a with
      | ⟨0, _⟩ => rfl
      | ⟨1, _⟩ => exact hq.symm))

/-- An index of the array is in point `t`'s block iff each coordinate is in the block's range on its axis. -/
private theorem mem_blk (t : Fin cfg2.N) (i : S100000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v39).slice (win2_3.rect t)).set ↔ _
  rw [View.set_slice_whole, Rect.mem_set_unit]
  exact Iff.rfl

/-- Every row of the array is in some point's block: row `r` in the block of point `r / 5000`. -/
private theorem blocks_cover (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  have hN : cfg2.N = 20 := N_2
  have ht : (i 0).val / 5000 < cfg2.N := by rw [hN]; omega
  obtain ⟨-, -, -, -, -, -, e6, e7⟩ := idx_facts ⟨(i 0).val / 5000, ht⟩
  refine ⟨⟨(i 0).val / 5000, ht⟩, flush2_3 _, ?_⟩
  rw [mem_blk]
  intro a
  match a with
  | ⟨0, _⟩ =>
    show win2_3.index ⟨(i 0).val / 5000, ht⟩ (0 : Fin 2) * 5000 ≤ (i 0).val ∧ (i 0).val < win2_3.index ⟨(i 0).val / 5000, ht⟩ (0 : Fin 2) * 5000 + 5000
    rw [e6]; show (i 0).val / 5000 * 5000 ≤ (i 0).val ∧ (i 0).val < (i 0).val / 5000 * 5000 + 5000; omega
  | ⟨1, _⟩ =>
    show win2_3.index ⟨(i 0).val / 5000, ht⟩ (1 : Fin 2) * 64 ≤ (i 1).val ∧ (i 1).val < win2_3.index ⟨(i 0).val / 5000, ht⟩ (1 : Fin 2) * 64 + 64
    rw [e7]; omega

/-! Region 2 (the first hop's user attention): each of the 20 blocks of 5000 users ends at the softmax-mixed attention rows. -/

theorem value2 (c : Dev nD) : (dat2 V c).arrAt 3 cfg2.N = Cert.Spec.attn (n := 100000) (V c main_arg0) (V c main_arg2) (V c main_v24) :=
  (dat2 V c).arrAt_eq_of_cover 3 _ (fun t _ => flushed_eq V c t) blocks_cover

end Cert.KernelIdeal.Val

end
-- ==== Proof.Reg3.lean ====
import proofs.«425177_j67456756351000_2_alg».proof.Proof.Gen.KernelIdeal.Frame
import proofs.«425177_j67456756351000_2_alg».proof.Proof.Spec
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

namespace Cert.KernelIdeal.Val

open Cert.KernelIdeal Cert.KernelIdeal.Gen Idealize.ShloMosaic Idealize.ShloMosaic.TcCoe Idealize.SL.Sem Idealize.ShloMosaic.ValueIdx
open Idealize.ShloMosaic.Pipeline (Dat)

/- The TensorCore's buffer contents when the region is entered (any). -/
variable (V : (c : Dev nD) → (b : Ref sig .tc) → Buf (Elt Ideal) ((c : Thread nD τ).loc b))

/-! Region 3 (the first hop's interaction messages): each of the 100 blocks of 10000 edges ends at the item embedding times the edge weight. -/

/-- The zero offsets of a whole-block access, as a constant function. -/
theorem value3_hz : (![0, 0] : Fin 2 → Nat) = fun _ => 0 := funext fun a => by fin_cases a <;> rfl

/-- The body's arithmetic at row p, channel q of a block: the embedding entry times the row's weight (the weight
    column repeated along the channels). -/
theorem value3_pay (x0 : Vec Ideal S10000x64 .f32) (x1 : Vec Ideal S10000x1 .f32) (p : Fin 10000) (q : Fin 64) :
    k3_pay1 x0 x1 (ix2 p q) = x0 (ix2 p q) * x1 (ix2 p (0 : Fin 1)) := by
  show mulf (F := Ideal) (φ := .f32) (shapeCast S10000x64 x0 shapeCasts_S10000x64_S10000x64)
      (broadcastTo S10000x64 (shapeCast S10000x1 x1 shapeCasts_S10000x1_S10000x1) broadcasts_S10000x1_S10000x64) (ix2 p q) = _
  rw [shapeCast_self, shapeCast_self, mulf_apply,
    broadcastTo_apply x1 broadcasts_S10000x1_S10000x64 (ix2 p q) (ix2 p (0 : Fin 1)) (fun a => match a with
      | ⟨0, _⟩ => by show p.val = if (10000 : Nat) = 1 then 0 else p.val; rw [if_neg (by decide)]
      | ⟨1, _⟩ => by show 0 = if (1 : Nat) = 1 then 0 else q.val; rw [if_pos rfl])]

/-- Block T of the product: if the two loaded blocks are rows T·10000 … T·10000 + 9999 of the arrays A and W, the body's
    result at y is A times the weight column at the array index k that y names in block T. -/
theorem value3_point (x0 : Vec Ideal S10000x64 .f32) (x1 : Vec Ideal S10000x1 .f32) (A : Cert.Spec.Mat 1000000 64)
    (W : Cert.Spec.Mat 1000000 1) (T : Nat)
    (hx0 : ∀ (y : S10000x64.Idx) (k : S1000000x64.Idx), (k 0).val = T * 10000 + (y 0).val → (k 1).val = (y 1).val → x0 y = A k)
    (hx1 : ∀ (y : S10000x1.Idx) (k : S1000000x1.Idx), (k 0).val = T * 10000 + (y 0).val → (k 1).val = (y 1).val → x1 y = W k)
    (y : S10000x64.Idx) (k : S1000000x64.Idx) (hk0 : (k 0).val = T * 10000 + (y 0).val) (hk1 : (k 1).val = (y 1).val) :
    k3_pay1 x0 x1 y = Cert.Spec.wscale (n := 1000000) A W k := by
  obtain ⟨p, q, rfl⟩ : ∃ (p : Fin 10000) (q : Fin 64), y = ix2 p q := ⟨y 0, y 1, eq_ix2 y⟩
  obtain ⟨r, s, rfl⟩ : ∃ (r : Fin 1000000) (s : Fin 64), k = ix2 r s := ⟨k 0, k 1, eq_ix2 k⟩
  have hr : r.val = T * 10000 + p.val := hk0
  have hs : s.val = q.val := hk1
  rw [value3_pay, hx0 (ix2 p q) (ix2 r s) hr hs, hx1 (ix2 p (0 : Fin 1)) (ix2 r (0 : Fin 1)) hr rfl]
  rfl

/-- The printed index maps, decided over the grid: at point t every window's block is block row t, block column 0. -/
theorem value3_idx : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- Input window 0's block at point t is rows t·10000 … of its array. -/
theorem value3_iblk0 (c : Dev nD) (t : Fin cfg3.N) (y : S10000x64.Idx) (k : S1000000x64.Idx)
    (hk0 : (k 0).val = t.val * 10000 + (y 0).val) (hk1 : (k 1).val = (y 1).val) :
    (iblk3 V c 0 t : Vec Ideal S10000x64 .f32) y = (V c main_v46 : S1000000x64.Idx → EReal) k := by
  obtain ⟨e0, e1, -⟩ := value3_idx t
  unfold iblk3
  rw [View.read_apply]
  show V c main_v46 _ = V c main_v46 _
  congr 1
  funext a
  apply Fin.ext
  match a with
  | ⟨0, _⟩ => show win3_0.index t (0 : Fin 2) * 10000 + 1 * (y 0).val = (k 0).val; rw [e0, hk0]; omega
  | ⟨1, _⟩ => show win3_0.index t (1 : Fin 2) * 64 + 1 * (y 1).val = (k 1).val; rw [e1, hk1]; omega

/-- Input window 1's block at point t is rows t·10000 … of its array. -/
theorem value3_iblk1 (c : Dev nD) (t : Fin cfg3.N) (y : S10000x1.Idx) (k : S1000000x1.Idx)
    (hk0 : (k 0).val = t.val * 10000 + (y 0).val) (hk1 : (k 1).val = (y 1).val) :
    (iblk3 V c 1 t : Vec Ideal S10000x1 .f32) y = (V c main_v26 : S1000000x1.Idx → EReal) k := by
  obtain ⟨-, -, e2, e3, -⟩ := value3_idx t
  unfold iblk3
  rw [View.read_apply]
  show V c main_v26 _ = V c main_v26 _
  congr 1
  funext a
  apply Fin.ext
  match a with
  | ⟨0, _⟩ => show win3_1.index t (0 : Fin 2) * 10000 + 1 * (y 0).val = (k 0).val; rw [e2, hk0]; omega
  | ⟨1, _⟩ => show win3_1.index t (1 : Fin 2) * 1 + 1 * (y 1).val = (k 1).val; rw [e3, hk1]; omega

/-- What point t writes back is block t of the product array. -/
theorem value3_flushed (c : Dev nD) (t : Fin cfg3.N) :
    (dat3 V c).flushed 2 t
      = ((cfg3.win 2).blk t).view.read (Elt Ideal) (Cert.Spec.wscale (n := 1000000) (V c main_v46) (V c main_v26)) := by
  show (cfg3.win 2).cut (grid3.coords t) ((dat3 V c).after 2 t) = _
  rw [after3_2]
  unfold out3_2
  rw [View.canon_unit_zero value3_hz]
  simp only [View.ld_unit_zero (S := S10000x64) value3_hz, View.ld_unit_zero (S := S10000x1) value3_hz]
  obtain ⟨-, -, -, -, e4, e5⟩ := value3_idx t
  funext j
  show k3_pay1 (iblk3 V c 0 t) (iblk3 V c 1 t) j
    = Cert.Spec.wscale (n := 1000000) (V c main_v46) (V c main_v26) (((cfg3.win 2).blk t).view.emb j)
  refine value3_point _ _ _ _ t.val (fun y k h0 h1 => value3_iblk0 V c t y k h0 h1) (fun y k h0 h1 => value3_iblk1 V c t y k h0 h1) j _ ?_ ?_
  · show win3_2.index t (0 : Fin 2) * 10000 + 1 * (j 0).val = t.val * 10000 + (j 0).val; rw [e4]; omega
  · show win3_2.index t (1 : Fin 2) * 64 + 1 * (j 1).val = (j 1).val; rw [e5]; omega

/-- An index of the array is in point t's block iff each coordinate is in the block's range on its axis. -/
theorem value3_mem_blk (t : Fin cfg3.N) (i : S1000000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v47).slice (win3_2.rect t)).set ↔ _
  rw [View.set_slice_whole, Rect.mem_set_unit]
  exact Iff.rfl

/-- Every row r of the array is in the block of point r / 10000. -/
theorem value3_cover (i : S1000000x64.Idx) :
    ∃ t : Fin cfg3.N, (cfg3.win 2).flush t = true ∧ i ∈ ((cfg3.win 2).blk t).view.set := by
  have hi0 : (i 0).val < 1000000 := (i 0).isLt
  have hi1 : (i 1).val < 64 := (i 1).isLt
  have hN : cfg3.N = 100 := N_3
  obtain ⟨t, ht⟩ : ∃ t : Fin cfg3.N, t.val = (i 0).val / 10000 := ⟨⟨(i 0).val / 10000, by rw [hN]; omega⟩, rfl⟩
  obtain ⟨-, -, -, -, e4, e5⟩ := value3_idx t
  refine ⟨t, flush3_2 t, ?_⟩
  rw [value3_mem_blk]
  intro a
  match a with
  | ⟨0, _⟩ => show win3_2.index t (0 : Fin 2) * 10000 ≤ (i 0).val ∧ (i 0).val < win3_2.index t (0 : Fin 2) * 10000 + 10000; rw [e4, ht]; omega
  | ⟨1, _⟩ => show win3_2.index t (1 : Fin 2) * 64 ≤ (i 1).val ∧ (i 1).val < win3_2.index t (1 : Fin 2) * 64 + 64; rw [e5]; omega

theorem value3 (c : Dev nD) : (dat3 V c).arrAt 2 cfg3.N = Cert.Spec.wscale (n := 1000000) (V c main_v46) (V c main_v26) :=
  (dat3 V c).arrAt_eq_of_cover 2 _ (fun t _ => value3_flushed V c t) value3_cover

end Cert.KernelIdeal.Val

end
-- ==== Proof.Reg4.lean ====
import proofs.«425177_j67456756351000_2_alg».proof.Proof.Gen.KernelIdeal.Frame
import proofs.«425177_j67456756351000_2_alg».proof.Proof.Spec
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

namespace Cert.KernelIdeal.Val

open Cert.KernelIdeal Cert.KernelIdeal.Gen Idealize.ShloMosaic Idealize.ShloMosaic.TcCoe Idealize.SL.Sem Idealize.ShloMosaic.ValueIdx
open Idealize.ShloMosaic.Pipeline (Dat)

/- The TensorCore's buffer contents when the region is entered (any). -/
variable (V : (c : Dev nD) → (b : Ref sig .tc) → Buf (Elt Ideal) ((c : Thread nD τ).loc b))

/-! Region 4 (the first hop's user update): normalized attention-scaled aggregates, and the residual sum. -/

/-! ## The body's arithmetic at one element of a row block

A block is 5000 whole rows of 64 channels. At row `p`, channel `q` the body forms the aggregate times
(attention + 1), and divides it by the row's Euclidean norm (the square root of the sum over the 64 channels of
the squares) clamped at ε from below. -/

/-- The aggregate scaled by attention plus one, at row `p`, channel `q` of a block. -/
abbrev value4_mix (x0 x1 : Vec Ideal S5000x64 .f32) (p : Fin 5000) (q : Fin 64) : EReal :=
  x0 (ix2 p q) * (x1 (ix2 p q) + Cert.Spec.one)

/-- The index a lane sum reads at row `p`, lane `k`, is `(p, k)`. -/
theorem value4_lift (p : Fin 5000) (k : Fin 64) :
    (reduces_S5000x64_S5000).lift (ix1 p) k = (ix2 p k : S5000x64.Idx) := by
  funext a
  apply Fin.ext
  match a with
  | ⟨0, _⟩ => rfl
  | ⟨1, _⟩ => rfl

/-- The normalized row at `(p, q)`: the scaled aggregate over the clamped norm of its row. -/
theorem value4_pay_new (x0 x1 : Vec Ideal S5000x64 .f32) (p : Fin 5000) (q : Fin 64) :
    k4_pay1 (F := Ideal) x0 x1 (ix2 p q)
      = Ideal.div (value4_mix x0 x1 p q)
          (max (Ideal.sqrt (∑ k : Fin 64, value4_mix x0 x1 p k * value4_mix x0 x1 p k)) Cert.Spec.eps) := by
  unfold k4_pay1
  simp only [shapeCast_self]
  refine (divf_apply _ _ _).trans (congrArg₂ Ideal.div rfl ?_)
  -- the divisor: a column broadcast along the channels reads its row's entry
  refine (broadcastTo_apply _ broadcasts_S5000x1_S5000x64 (ix2 p q) (ix2 p (0 : Fin 1)) (fun a => ?_)).trans ?_
  · match a with
    | ⟨0, _⟩ => rfl
    | ⟨1, _⟩ => rfl
  refine (maximumf_apply _ _ _).trans (congrArg₂ max ?_ rfl)
  show Ideal.sqrt _ = Ideal.sqrt _
  refine congrArg Ideal.sqrt ?_
  -- the column of lane sums reads the vector of lane sums at its row
  refine (shapeCast_apply _ shapeCasts_S5000_S5000x1 (ix2 p (0 : Fin 1)) (ix1 p) ?_).trans ?_
  · rw [Shape.rowMajor_val_one, Shape.rowMajor_val_two]
    show p.val = p.val * 1 + 0
    omega
  -- a lane sum is the sum over the 64 channels
  refine (Ideal.multiReduction_add_single (φ := .f32) _ 0x00000000#32 reduces_S5000x64_S5000 (.inl rfl) rfl (ix1 p)).trans ?_
  show ∑ k : Fin 64, _ = ∑ k : Fin 64, _
  refine Finset.sum_congr rfl fun k _ => ?_
  exact (congrArg _ (value4_lift p k)).trans rfl

/-- The residual sum at `(p, q)`: the residual plus the normalized row. -/
theorem value4_pay_res (x0 x1 x2 : Vec Ideal S5000x64 .f32) (p : Fin 5000) (q : Fin 64) :
    k4_pay2 (F := Ideal) x0 x1 x2 (ix2 p q) = x2 (ix2 p q) + k4_pay1 (F := Ideal) x0 x1 (ix2 p q) := by
  unfold k4_pay2
  -- a cast to the same shape, where the body has one, is the identity
  first
    | rfl
    | (simp only [shapeCast_self]; rfl)

/-! ## From blocks to the arrays

Every window of the region is a row block: at grid point `t` it holds rows `5000 t … 5000 t + 4999` of its array, all 64
channels. So the entry `(p, q)` of a block at point `t` is the entry `(5000 t + p, q)` of the array. -/

theorem value4_hz : (![0, 0] : Fin 2 → Nat) = fun _ => 0 := funext fun a => by fin_cases a <;> rfl

/-- Every window's block index at grid point `t` is `(t, 0)`: block row `t`, the one block column. -/
theorem value4_idx : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0 :=
  (by decide +kernel : ∀ t : Fin grid4.N, _)

/-- The three arrays the region reads, as it finds them: the aggregated items, the attention, the residual. -/
abbrev value4_agg (c : Dev nD) : Cert.Spec.Mat 100000 64 := V c main_v50
abbrev value4_att (c : Dev nD) : Cert.Spec.Mat 100000 64 := V c main_v39
abbrev value4_rsd (c : Dev nD) : Cert.Spec.Mat 100000 64 := V c main_arg0

/-- Their blocks at point `t`. -/
abbrev value4_xagg (c : Dev nD) (t : Fin cfg4.N) : Vec Ideal S5000x64 .f32 := iblk4 V c 0 t
abbrev value4_xatt (c : Dev nD) (t : Fin cfg4.N) : Vec Ideal S5000x64 .f32 := iblk4 V c 1 t
abbrev value4_xrsd (c : Dev nD) (t : Fin cfg4.N) : Vec Ideal S5000x64 .f32 := iblk4 V c 2 t

/-- The aggregates' block at point `t` reads the aggregates' array at the block's rows. -/
theorem value4_blk_agg (c : Dev nD) (t : Fin cfg4.N) (x : S5000x64.Idx) (k : S100000x64.Idx)
    (hk0 : (k 0).val = t.val * 5000 + (x 0).val) (hk1 : (k 1).val = (x 1).val) :
    value4_xagg V c t x = value4_agg V c k := by
  obtain ⟨e0, e1, -⟩ := value4_idx t
  unfold value4_xagg iblk4
  rw [View.read_apply]
  show V c main_v50 _ = V c main_v50 _
  refine congrArg _ ?_
  funext a
  apply Fin.ext
  match a with
  | ⟨0, _⟩ => show win4_0.index t (0 : Fin 2) * 5000 + 1 * (x 0).val = (k 0).val; rw [e0, hk0]; omega
  | ⟨1, _⟩ => show win4_0.index t (1 : Fin 2) * 64 + 1 * (x 1).val = (k 1).val; rw [e1, hk1]; omega

/-- The attention's block at point `t` reads the attention's array at the block's rows. -/
theorem value4_blk_att (c : Dev nD) (t : Fin cfg4.N) (x : S5000x64.Idx) (k : S100000x64.Idx)
    (hk0 : (k 0).val = t.val * 5000 + (x 0).val) (hk1 : (k 1).val = (x 1).val) :
    value4_xatt V c t x = value4_att V c k := by
  obtain ⟨-, -, e0, e1, -⟩ := value4_idx t
  unfold value4_xatt iblk4
  rw [View.read_apply]
  show V c main_v39 _ = V c main_v39 _
  refine congrArg _ ?_
  funext a
  apply Fin.ext
  match a with
  | ⟨0, _⟩ => show win4_1.index t (0 : Fin 2) * 5000 + 1 * (x 0).val = (k 0).val; rw [e0, hk0]; omega
  | ⟨1, _⟩ => show win4_1.index t (1 : Fin 2) * 64 + 1 * (x 1).val = (k 1).val; rw [e1, hk1]; omega

/-- The residual's block at point `t` reads the residual's array at the block's rows. -/
theorem value4_blk_res (c : Dev nD) (t : Fin cfg4.N) (x : S5000x64.Idx) (k : S100000x64.Idx)
    (hk0 : (k 0).val = t.val * 5000 + (x 0).val) (hk1 : (k 1).val = (x 1).val) :
    value4_xrsd V c t x = value4_rsd V c k := by
  obtain ⟨-, -, -, -, e0, e1, -⟩ := value4_idx t
  unfold value4_xrsd iblk4
  rw [View.read_apply]
  show V c main_arg0 _ = V c main_arg0 _
  refine congrArg _ ?_
  funext a
  apply Fin.ext
  match a with
  | ⟨0, _⟩ => show win4_2.index t (0 : Fin 2) * 5000 + 1 * (x 0).val = (k 0).val; rw [e0, hk0]; omega
  | ⟨1, _⟩ => show win4_2.index t (1 : Fin 2) * 64 + 1 * (x 1).val = (k 1).val; rw [e1, hk1]; omega

/-- What the body leaves at `(p, q)` of the first output's block at point `t` is the new user rows at `(r, q)`,
    `r = 5000 t + p`: the row's 64 channels lie in the same block. -/
theorem value4_new_at (c : Dev nD) (t : Fin cfg4.N) (p : Fin 5000) (q : Fin 64) (r : Fin 100000)
    (hr : r.val = t.val * 5000 + p.val) :
    k4_pay1 (F := Ideal) (value4_xagg V c t) (value4_xatt V c t) (ix2 p q)
      = Cert.Spec.userNew (value4_agg V c) (value4_att V c) (ix2 r q) := by
  have hA : ∀ k : Fin 64, value4_xagg V c t (ix2 p k) = value4_agg V c (ix2 r k) :=
    fun k => value4_blk_agg V c t (ix2 p k) (ix2 r k) hr rfl
  have hB : ∀ k : Fin 64, value4_xatt V c t (ix2 p k) = value4_att V c (ix2 r k) :=
    fun k => value4_blk_att V c t (ix2 p k) (ix2 r k) hr rfl
  refine (value4_pay_new (value4_xagg V c t) (value4_xatt V c t) p q).trans ?_
  show _ = Ideal.div (value4_agg V c (ix2 r q) * (value4_att V c (ix2 r q) + Cert.Spec.one))
      (max (Ideal.sqrt (∑ k : Fin 64, (value4_agg V c (ix2 r k) * (value4_att V c (ix2 r k) + Cert.Spec.one))
        * (value4_agg V c (ix2 r k) * (value4_att V c (ix2 r k) + Cert.Spec.one)))) Cert.Spec.eps)
  unfold value4_mix
  rw [hA q, hB q]
  refine congrArg (fun s => Ideal.div _ (max (Ideal.sqrt s) Cert.Spec.eps)) ?_
  refine Finset.sum_congr rfl fun k _ => ?_
  rw [hA k, hB k]

/-- The same for an element of the block and the array index over it. -/
theorem value4_new_blk (c : Dev nD) (t : Fin cfg4.N) (x : S5000x64.Idx) (i : S100000x64.Idx)
    (hi0 : (i 0).val = t.val * 5000 + (x 0).val) (hi1 : (i 1).val = (x 1).val) :
    k4_pay1 (F := Ideal) (value4_xagg V c t) (value4_xatt V c t) x
      = Cert.Spec.userNew (value4_agg V c) (value4_att V c) i := by
  obtain ⟨p, q, rfl⟩ : ∃ (p : Fin 5000) (q : Fin 64), x = ix2 p q := ⟨x 0, x 1, eq_ix2 x⟩
  obtain ⟨r, s, rfl⟩ : ∃ (r : Fin 100000) (s : Fin 64), i = ix2 r s := ⟨i 0, i 1, eq_ix2 i⟩
  obtain rfl : s = q := Fin.ext hi1
  exact value4_new_at V c t p s r hi0

/-- And for the second output: the residual's entry plus the new user rows' entry. -/
theorem value4_res_blk (c : Dev nD) (t : Fin cfg4.N) (x : S5000x64.Idx) (i : S100000x64.Idx)
    (hi0 : (i 0).val = t.val * 5000 + (x 0).val) (hi1 : (i 1).val = (x 1).val) :
    k4_pay2 (F := Ideal) (value4_xagg V c t) (value4_xatt V c t) (value4_xrsd V c t) x
      = Cert.Spec.resAdd (value4_rsd V c) (Cert.Spec.userNew (value4_agg V c) (value4_att V c)) i := by
  obtain ⟨p, q, rfl⟩ : ∃ (p : Fin 5000) (q : Fin 64), x = ix2 p q := ⟨x 0, x 1, eq_ix2 x⟩
  refine (value4_pay_res (value4_xagg V c t) (value4_xatt V c t) (value4_xrsd V c t) p q).trans ?_
  show _ = value4_rsd V c i + Cert.Spec.userNew (value4_agg V c) (value4_att V c) i
  rw [value4_blk_res V c t (ix2 p q) i hi0 hi1, value4_new_blk V c t (ix2 p q) i hi0 hi1]

/-- What grid point `t` writes back to the first output is block `t` of the new user rows. -/
theorem value4_flushed_new (c : Dev nD) (t : Fin cfg4.N) :
    (dat4 V c).flushed 3 t
      = ((cfg4.win 3).blk t).view.read (Elt Ideal) (Cert.Spec.userNew (n := 100000) (V c main_v50) (V c main_v39)) := by
  show (cfg4.win 3).cut (grid4.coords t) ((dat4 V c).after 3 t) = _
  rw [after4_3]
  unfold out4_3
  rw [View.canon_unit_zero value4_hz]
  simp only [View.ld_unit_zero (S := S5000x64) value4_hz]
  obtain ⟨-, -, -, -, -, -, e0, e1, -⟩ := value4_idx t
  funext j
  show k4_pay1 (F := Ideal) (iblk4 V c 0 t) (iblk4 V c 1 t) j
      = Cert.Spec.userNew (n := 100000) (V c main_v50) (V c main_v39) (((cfg4.win 3).blk t).view.emb j)
  refine value4_new_blk V c t j _ ?_ ?_
  · show win4_3.index t (0 : Fin 2) * 5000 + 1 * (j 0).val = t.val * 5000 + (j 0).val
    rw [e0]; omega
  · show win4_3.index t (1 : Fin 2) * 64 + 1 * (j 1).val = (j 1).val
    rw [e1]; omega

/-- What grid point `t` writes back to the second output is block `t` of the residual sum. -/
theorem value4_flushed_res (c : Dev nD) (t : Fin cfg4.N) :
    (dat4 V c).flushed 4 t
      = ((cfg4.win 4).blk t).view.read (Elt Ideal)
          (Cert.Spec.resAdd (n := 100000) (V c main_arg0) (Cert.Spec.userNew (V c main_v50) (V c main_v39))) := by
  show (cfg4.win 4).cut (grid4.coords t) ((dat4 V c).after 4 t) = _
  rw [after4_4]
  unfold out4_4
  rw [View.canon_unit_zero value4_hz]
  simp only [View.ld_unit_zero (S := S5000x64) value4_hz]
  obtain ⟨-, -, -, -, -, -, -, -, e0, e1⟩ := value4_idx t
  funext j
  show k4_pay2 (F := Ideal) (iblk4 V c 0 t) (iblk4 V c 1 t) (iblk4 V c 2 t) j
      = Cert.Spec.resAdd (n := 100000) (V c main_arg0) (Cert.Spec.userNew (V c main_v50) (V c main_v39)) (((cfg4.win 4).blk t).view.emb j)
  refine value4_res_blk V c t j _ ?_ ?_
  · show win4_4.index t (0 : Fin 2) * 5000 + 1 * (j 0).val = t.val * 5000 + (j 0).val
    rw [e0]; omega
  · show win4_4.index t (1 : Fin 2) * 64 + 1 * (j 1).val = (j 1).val
    rw [e1]; omega

/-- An index of the first output's array is in point `t`'s block iff each coordinate is in the block's range. -/
theorem value4_mem_new (t : Fin cfg4.N) (i : S100000x64.Idx) :
    i ∈ ((cfg4.win 3).blk t).view.set ↔ ∀ a : Fin 2, win4_3.index t a * S5000x64.size a ≤ (i a).val ∧ (i a).val < win4_3.index t a * S5000x64.size a + S5000x64.size a := by
  show i ∈ ((View.whole main_v51_0).slice (win4_3.rect t)).set ↔ _
  rw [View.set_slice_whole, Rect.mem_set_unit]
  exact Iff.rfl

/-- The same for the second output's array. -/
theorem value4_mem_res (t : Fin cfg4.N) (i : S100000x64.Idx) :
    i ∈ ((cfg4.win 4).blk t).view.set ↔ ∀ a : Fin 2, win4_4.index t a * S5000x64.size a ≤ (i a).val ∧ (i a).val < win4_4.index t a * S5000x64.size a + S5000x64.size a := by
  show i ∈ ((View.whole main_v51_1).slice (win4_4.rect t)).set ↔ _
  rw [View.set_slice_whole, Rect.mem_set_unit]
  exact Iff.rfl

/-- The 20 row blocks cover the first output's array: row `r` lies in the block of point `r / 5000`. -/
theorem value4_cover_new (i : S100000x64.Idx) :
    ∃ t : Fin cfg4.N, (cfg4.win 3).flush t = true ∧ i ∈ ((cfg4.win 3).blk t).view.set := by
  have hN : cfg4.N = 20 := N_4
  have hi0 : (i 0).val < 100000 := (i 0).isLt
  have hi1 : (i 1).val < 64 := (i 1).isLt
  have ht : (i 0).val / 5000 < cfg4.N := by rw [hN]; omega
  obtain ⟨-, -, -, -, -, -, e0, e1, -⟩ := value4_idx ⟨(i 0).val / 5000, ht⟩
  refine ⟨⟨(i 0).val / 5000, ht⟩, flush4_3 _, ?_⟩
  rw [value4_mem_new]
  intro a
  match a with
  | ⟨0, _⟩ =>
    show win4_3.index ⟨(i 0).val / 5000, ht⟩ (0 : Fin 2) * 5000 ≤ (i 0).val ∧ (i 0).val < win4_3.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win4_3.index ⟨(i 0).val / 5000, ht⟩ (1 : Fin 2) * 64 ≤ (i 1).val ∧ (i 1).val < win4_3.index ⟨(i 0).val / 5000, ht⟩ (1 : Fin 2) * 64 + 64
    rw [e1]; omega

/-- And the second output's. -/
theorem value4_cover_res (i : S100000x64.Idx) :
    ∃ t : Fin cfg4.N, (cfg4.win 4).flush t = true ∧ i ∈ ((cfg4.win 4).blk t).view.set := by
  have hN : cfg4.N = 20 := N_4
  have hi0 : (i 0).val < 100000 := (i 0).isLt
  have hi1 : (i 1).val < 64 := (i 1).isLt
  have ht : (i 0).val / 5000 < cfg4.N := by rw [hN]; omega
  obtain ⟨-, -, -, -, -, -, -, -, e0, e1⟩ := value4_idx ⟨(i 0).val / 5000, ht⟩
  refine ⟨⟨(i 0).val / 5000, ht⟩, flush4_4 _, ?_⟩
  rw [value4_mem_res]
  intro a
  match a with
  | ⟨0, _⟩ =>
    show win4_4.index ⟨(i 0).val / 5000, ht⟩ (0 : Fin 2) * 5000 ≤ (i 0).val ∧ (i 0).val < win4_4.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win4_4.index ⟨(i 0).val / 5000, ht⟩ (1 : Fin 2) * 64 ≤ (i 1).val ∧ (i 1).val < win4_4.index ⟨(i 0).val / 5000, ht⟩ (1 : Fin 2) * 64 + 64
    rw [e1]; omega

theorem value4_new (c : Dev nD) : (dat4 V c).arrAt 3 cfg4.N = Cert.Spec.userNew (n := 100000) (V c main_v50) (V c main_v39) := by
  exact (dat4 V c).arrAt_eq_of_cover 3 _ (fun t _ => value4_flushed_new V c t) value4_cover_new

theorem value4_res (c : Dev nD) : (dat4 V c).arrAt 4 cfg4.N = Cert.Spec.resAdd (n := 100000) (V c main_arg0) (Cert.Spec.userNew (V c main_v50) (V c main_v39)) := by
  exact (dat4 V c).arrAt_eq_of_cover 4 _ (fun t _ => value4_flushed_res V c t) value4_cover_res

end Cert.KernelIdeal.Val

end
-- ==== Proof.Reg5.lean ====
import proofs.«425177_j67456756351000_2_alg».proof.Proof.Gen.KernelIdeal.Frame
import proofs.«425177_j67456756351000_2_alg».proof.Proof.Spec
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

namespace Cert.KernelIdeal.Val

open Cert.KernelIdeal Cert.KernelIdeal.Gen Idealize.ShloMosaic Idealize.ShloMosaic.TcCoe Idealize.SL.Sem Idealize.ShloMosaic.ValueIdx
open Idealize.ShloMosaic.Pipeline (Dat)

/- The TensorCore's buffer contents when the region is entered (any). -/
variable (V : (c : Dev nD) → (b : Ref sig .tc) → Buf (Elt Ideal) ((c : Thread nD τ).loc b))

/-- A label selects weight row k exactly when it is the word k + 1. -/
theorem value5_relRow_iff (e : BitVec 32) (k : Fin 9) : Cert.Spec.relRow e = some k ↔ e.toNat = k.val + 1 := by
  have hc := BitVec.toInt_eq_toNat_cond e
  have hl := e.isLt
  have hk := k.isLt
  unfold Cert.Spec.relRow
  split_ifs at hc with h2 <;> split_ifs with h <;> simp only [Option.some.injEq, Fin.ext_iff, reduceCtorEq, false_iff] <;> omega

/-- The label minus one is the column number exactly when the label is that column's word. -/
theorem value5_sub_iff (e : BitVec 32) (k : Fin 9) : e - 1#32 = BitVec.ofNat 32 k.val ↔ e.toNat = k.val + 1 := by
  have hl := e.isLt
  have hk := k.isLt
  rw [← BitVec.toNat_inj]
  simp only [BitVec.toNat_sub, BitVec.toNat_ofNat]
  omega

/-- The one-hot entry: 1 in the column the label selects, 0 elsewhere. -/
theorem value5_onehot (e : BitVec 32) (k : Fin 9) :
    (FloatOps.sitofp (F := Ideal) .f32 ((IntOp.cmpi .eq (IntOp.subi e 1#32) (BitVec.ofNat 32 k.val)).setWidth 32) : EReal)
      = if Cert.Spec.relRow e = some k then 1 else 0 := by
  show ((((IntOp.cmpi .eq (IntOp.subi e 1#32) (BitVec.ofNat 32 k.val)).setWidth 32).toInt : ℝ) : EReal) = _
  unfold IntOp.cmpi IntOp.subi
  by_cases h : e - 1#32 = BitVec.ofNat 32 k.val
  · rw [if_pos ((value5_relRow_iff e k).mpr ((value5_sub_iff e k).mp h)),
      show (e - 1#32 == BitVec.ofNat 32 k.val) = true from beq_iff_eq.mpr h,
      show ((BitVec.ofBool true).setWidth 32).toInt = 1 by decide]
    simp
  · rw [if_neg (fun h' => h ((value5_sub_iff e k).mpr ((value5_relRow_iff e k).mp h'))),
      show (e - 1#32 == BitVec.ofNat 32 k.val) = false from beq_eq_false_iff_ne.mpr h,
      show ((BitVec.ofBool false).setWidth 32).toInt = 0 by decide]
    simp

/-- A one-hot row times the weight table is the selected weight row (0 times anything is 0 on the extended reals). -/
theorem value5_onehot_sum (w : Cert.Spec.Mat 9 64) (e : BitVec 32) (q : Fin 64) :
    ∑ k : Fin 9, (if Cert.Spec.relRow e = some k then (1 : EReal) else 0) * w (ix2 k q) = Cert.Spec.relVec w e q := by
  unfold Cert.Spec.relVec
  cases h : Cert.Spec.relRow e with
  | none => simp
  | some k0 =>
    simp only [Option.some.injEq]
    rw [Finset.sum_eq_single k0]
    · rw [if_pos rfl, one_mul]
    · intro b _ hb; rw [if_neg (Ne.symm hb), zero_mul]
    · intro h; exact absurd (Finset.mem_univ _) h

/-! The matrix product's operand indices at output index (p, q) and contraction index k are (p, k) and (k, q). -/

theorem value5_lhsA (i : S8000x64.Idx) (r : dot_S8000x9_S9x64_S8000x64_1_0_0_1_n_n.contr.Idx) :
    (dot_S8000x9_S9x64_S8000x64_1_0_0_1_n_n.lhsIdx i r 0).val = (i 0).val := by
  unfold DotDims.lhsIdx
  rw [dif_neg (show ¬(0 : Fin S8000x9.rank) ∈ dot_S8000x9_S9x64_S8000x64_1_0_0_1_n_n.lhsBatch by decide), dif_pos (show (0 : Fin S8000x9.rank) ∈ dot_S8000x9_S9x64_S8000x64_1_0_0_1_n_n.lhsNonContracting by decide)]
  rfl
theorem value5_lhsB (i : S8000x64.Idx) (r : dot_S8000x9_S9x64_S8000x64_1_0_0_1_n_n.contr.Idx) :
    (dot_S8000x9_S9x64_S8000x64_1_0_0_1_n_n.lhsIdx i r 1).val = (r ⟨0, by decide⟩).val :=
  dot_S8000x9_S9x64_S8000x64_1_0_0_1_n_n.lhsIdx_val_of_single rfl i r
theorem value5_rhsA (i : S8000x64.Idx) (r : dot_S8000x9_S9x64_S8000x64_1_0_0_1_n_n.contr.Idx) :
    (dot_S8000x9_S9x64_S8000x64_1_0_0_1_n_n.rhsIdx i r 0).val = (r ⟨0, by decide⟩).val :=
  dot_S8000x9_S9x64_S8000x64_1_0_0_1_n_n.rhsIdx_val_of_single rfl i r
theorem value5_rhsB (i : S8000x64.Idx) (r : dot_S8000x9_S9x64_S8000x64_1_0_0_1_n_n.contr.Idx) :
    (dot_S8000x9_S9x64_S8000x64_1_0_0_1_n_n.rhsIdx i r 1).val = (i 1).val := by
  unfold DotDims.rhsIdx
  rw [dif_neg (show ¬(1 : Fin S9x64.rank) ∈ dot_S8000x9_S9x64_S8000x64_1_0_0_1_n_n.rhsBatch by decide), dif_pos (show (1 : Fin S9x64.rank) ∈ dot_S8000x9_S9x64_S8000x64_1_0_0_1_n_n.rhsNonContracting by decide)]
  rfl

/-- The product into a zero accumulator at (p, q): the sum over the 9 columns of the left factor's row p times the right factor's column q. -/
theorem value5_matmul (L : FVec Ideal S8000x9 .bf16) (R : FVec Ideal S9x64 .bf16) (p : Fin 8000) (q : Fin 64) :
    matmul dot_S8000x9_S9x64_S8000x64_1_0_0_1_n_n none L R (constant (F := Ideal) S8000x64 .f32 0x00000000#32) (ix2 p q)
      = ∑ k : Fin 9, L (ix2 p k) * R (ix2 k q) := by
  simp only [matmul]
  rw [Ideal.matmul_constant_zero_apply, ← Equiv.sum_comp (contrEquiv1 dot_S8000x9_S9x64_S8000x64_1_0_0_1_n_n 9 rfl rfl).symm]
  refine Finset.sum_congr rfl fun k _ => ?_
  have hk := contrEquiv1_symm_val dot_S8000x9_S9x64_S8000x64_1_0_0_1_n_n 9 rfl rfl k
  have el : dot_S8000x9_S9x64_S8000x64_1_0_0_1_n_n.lhsIdx (ix2 p q) ((contrEquiv1 dot_S8000x9_S9x64_S8000x64_1_0_0_1_n_n 9 rfl rfl).symm k) = ix2 p k := funext fun a => Fin.ext (by
    match a with
    | ⟨0, _⟩ => exact value5_lhsA _ _
    | ⟨1, _⟩ => exact (value5_lhsB _ _).trans hk)
  have er : dot_S8000x9_S9x64_S8000x64_1_0_0_1_n_n.rhsIdx (ix2 p q) ((contrEquiv1 dot_S8000x9_S9x64_S8000x64_1_0_0_1_n_n 9 rfl rfl).symm k) = ix2 k q := funext fun a => Fin.ext (by
    match a with
    | ⟨0, _⟩ => exact (value5_rhsA _ _).trans hk
    | ⟨1, _⟩ => exact value5_rhsB _ _)
  rw [el, er]

/-- The one-hot row the body builds from the labels, at row p and column k: 1 when row p's label selects weight row k, else 0. -/
theorem value5_lhs (x1 : Vec Ideal S8000x1 .i32) (hc : S8000x1.ShapeCasts S8000x1) (hb : S8000x1.Broadcasts S8000x9)
    (hi : S8000x9.Iotas .tc 32 [1]) (hlt : 1 < 32) (hbits : FTy.bits .bf16 < FTy.bits .f32) (p : Fin 8000) (k : Fin 9) :
    (truncf (F := Ideal) .bf16 (sitofp .f32 (extui 32 (cmpi .eq (broadcastTo S8000x9 (subi (shapeCast S8000x1 x1 hc) (broadcast S8000x1 1#32)) hb) (iota .tc S8000x9 32 [1] hi)) hlt)) hbits : FVec Ideal S8000x9 .bf16) (ix2 p k)
      = if Cert.Spec.relRow (x1 (ix2 p (0 : Fin 1))) = some k then 1 else 0 := by
  rw [shapeCast_self, truncf_apply, sitofp_apply, extui_apply]
  show FloatOps.sitofp .f32 ((IntOp.cmpi .eq (broadcastTo S8000x9 (subi x1 (broadcast S8000x1 1#32)) hb (ix2 p k)) (iota .tc S8000x9 32 [1] hi (ix2 p k))).setWidth 32) = _
  rw [iota_single_apply, broadcastTo_apply _ hb (ix2 p k) (ix2 p (0 : Fin 1)) (fun a => by
    match a with
    | ⟨0, _⟩ => show p.val = if (8000 : Nat) = 1 then 0 else p.val; rw [if_neg (by decide)]
    | ⟨1, _⟩ => show (0 : Nat) = if (1 : Nat) = 1 then 0 else k.val; rw [if_pos rfl])]
  exact value5_onehot _ k

/-- The body's stored value at (p, q): the tail embedding's entry times the weight row the row's label selects, at channel q. -/
theorem value5_pay (x1 : Vec Ideal S8000x1 .i32) (x2 : Vec Ideal S9x64 .f32) (x0 : Vec Ideal S8000x64 .f32) (p : Fin 8000) (q : Fin 64) :
    (k5_pay1 (F := Ideal) x1 x2 x0) (ix2 p q) = x0 (ix2 p q) * Cert.Spec.relVec x2 (x1 (ix2 p (0 : Fin 1))) q := by
  unfold k5_pay1
  dsimp only
  rw [mulf_apply, shapeCast_self, value5_matmul, ← value5_onehot_sum]
  refine congrArg (x0 (ix2 p q) * ·) (Finset.sum_congr rfl fun k _ => ?_)
  rw [value5_lhs, truncf_apply]

/-! From blocks to the array: point t reads rows 8000 t … 8000 t + 7999 of the tail embeddings and of the labels, the whole weight table, and writes the same rows of the output. -/

theorem value5_hz : (![0, 0] : Fin 2 → Nat) = fun _ => 0 := funext fun a => by fin_cases a <;> rfl

/-- The windows' block indices over the grid: the three row-block windows sit at block row t, the weight table at its one block. -/
theorem value5_idx : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- One output entry: when the input blocks hold the arrays' entries the output's rectangle names, the stored value is the edge message at the array index. -/
theorem value5_point (x0 : Vec Ideal S8000x64 .f32) (x1 : Vec Ideal S8000x1 .i32) (x2 : Vec Ideal S9x64 .f32)
    (A0 : Cert.Spec.Mat 2000000 64) (A1 : Cert.Spec.IMat 2000000 1) (A2 : Cert.Spec.Mat 9 64)
    (y : S8000x64.Idx) (i : S2000000x64.Idx)
    (h0 : x0 y = A0 i)
    (h1 : ∀ (y' : S8000x1.Idx) (i' : S2000000x1.Idx), (y' 0).val = (y 0).val → (i' 0).val = (i 0).val → x1 y' = A1 i')
    (h2 : x2 = A2) (hq : (y 1).val = (i 1).val) :
    k5_pay1 (F := Ideal) x1 x2 x0 y = Cert.Spec.relMsg A0 A1 A2 i := by
  obtain ⟨p, q, rfl⟩ : ∃ (p : Fin 8000) (q : Fin 64), y = ix2 p q := ⟨y 0, y 1, eq_ix2 y⟩
  obtain ⟨r, q', rfl⟩ : ∃ (r : Fin 2000000) (q' : Fin 64), i = ix2 r q' := ⟨i 0, i 1, eq_ix2 i⟩
  obtain rfl : q = q' := Fin.ext hq
  rw [value5_pay, h0, h1 (ix2 p (0 : Fin 1)) (ix2 r (0 : Fin 1)) rfl rfl, h2]
  rfl

/-- What point t writes back is block t of the edge messages of the arrays as the region finds them. -/
theorem value5_flushed (c : Dev nD) (t : Fin cfg5.N) :
    (dat5 V c).flushed 3 t = ((cfg5.win 3).blk t).view.read (Elt Ideal) (Cert.Spec.relMsg (n := 2000000) (V c main_v58) (V c main_v25) (V c main_arg7)) := by
  show (cfg5.win 3).cut (grid5.coords t) ((dat5 V c).after 3 t) = _
  rw [after5_3]
  unfold out5_3
  rw [View.canon_unit_zero value5_hz]
  simp only [View.ld_unit_zero (S := S8000x64) value5_hz, View.ld_unit_zero (S := S8000x1) value5_hz, View.ld_unit_zero (S := S9x64) value5_hz]
  obtain ⟨e00, e01, e10, e11, e20, e21, e30, e31⟩ := value5_idx t
  funext j
  show k5_pay1 (F := Ideal) (iblk5 V c 1 t) (iblk5 V c 2 t) (iblk5 V c 0 t) j
    = Cert.Spec.relMsg (n := 2000000) (V c main_v58) (V c main_v25) (V c main_arg7) (((cfg5.win 3).blk t).view.emb j)
  refine value5_point (iblk5 V c 0 t) (iblk5 V c 1 t) (iblk5 V c 2 t) (V c main_v58) (V c main_v25) (V c main_arg7) j (((cfg5.win 3).blk t).view.emb j) ?_ ?_ ?_ ?_
  · show V c main_v58 (((cfg5.win 0).blk t).view.emb j) = V c main_v58 (((cfg5.win 3).blk t).view.emb j)
    refine congrArg _ (funext fun a => Fin.ext ?_)
    match a with
    | ⟨0, _⟩ => show win5_0.index t (0 : Fin 2) * 8000 + 1 * (j 0).val = win5_3.index t (0 : Fin 2) * 8000 + 1 * (j 0).val; rw [e00, e30]
    | ⟨1, _⟩ => show win5_0.index t (1 : Fin 2) * 64 + 1 * (j 1).val = win5_3.index t (1 : Fin 2) * 64 + 1 * (j 1).val; rw [e01, e31]
  · intro y' i' hy hi
    show V c main_v25 (((cfg5.win 1).blk t).view.emb y') = V c main_v25 i'
    refine congrArg _ (funext fun a => Fin.ext ?_)
    have hi' : (i' 0).val = win5_3.index t (0 : Fin 2) * 8000 + 1 * (j 0).val := hi
    match a with
    | ⟨0, _⟩ => show win5_1.index t (0 : Fin 2) * 8000 + 1 * (y' 0).val = (i' 0).val; rw [hi', hy, e10, e30]
    | ⟨1, _⟩ => show win5_1.index t (1 : Fin 2) * 1 + 1 * (y' 1).val = (i' 1).val; have := idx2_lt1 y'; have := idx2_lt1 i'; omega
  · funext y
    show V c main_arg7 (((cfg5.win 2).blk t).view.emb y) = V c main_arg7 y
    refine congrArg _ (funext fun a => Fin.ext ?_)
    match a with
    | ⟨0, _⟩ => show win5_2.index t (0 : Fin 2) * 9 + 1 * (y 0).val = (y 0).val; rw [e20]; omega
    | ⟨1, _⟩ => show win5_2.index t (1 : Fin 2) * 64 + 1 * (y 1).val = (y 1).val; rw [e21]; omega
  · show (j 1).val = win5_3.index t (1 : Fin 2) * 64 + 1 * (j 1).val
    rw [e31]; omega

/-- An index of the output array is in point t's block iff each coordinate is in the block's range on its axis. -/
theorem value5_mem (t : Fin cfg5.N) (i : S2000000x64.Idx) :
    i ∈ ((cfg5.win 3).blk t).view.set ↔ ∀ a : Fin 2, win5_3.index t a * S8000x64.size a ≤ (i a).val ∧ (i a).val < win5_3.index t a * S8000x64.size a + S8000x64.size a := by
  show i ∈ ((View.whole main_v59).slice (win5_3.rect t)).set ↔ _
  rw [View.set_slice_whole, Rect.mem_set_unit]
  exact Iff.rfl

/-- The blocks cover the array: row r is in the block of point r / 8000. -/
theorem value5_cover (i : S2000000x64.Idx) : ∃ t : Fin cfg5.N, (cfg5.win 3).flush t = true ∧ i ∈ ((cfg5.win 3).blk t).view.set := by
  have hN : cfg5.N = 250 := N_5
  have hi0 : (i 0).val < 2000000 := idx2_lt0 i
  have hi1 : (i 1).val < 64 := idx2_lt1 i
  obtain ⟨t, ht⟩ : ∃ t : Fin cfg5.N, t.val = (i 0).val / 8000 := ⟨⟨(i 0).val / 8000, by omega⟩, rfl⟩
  obtain ⟨-, -, -, -, -, -, e30, e31⟩ := value5_idx t
  refine ⟨t, flush5_3 t, ?_⟩
  rw [value5_mem]
  intro a
  match a with
  | ⟨0, _⟩ => show win5_3.index t (0 : Fin 2) * 8000 ≤ (i 0).val ∧ (i 0).val < win5_3.index t (0 : Fin 2) * 8000 + 8000; rw [e30, ht]; omega
  | ⟨1, _⟩ => show win5_3.index t (1 : Fin 2) * 64 ≤ (i 1).val ∧ (i 1).val < win5_3.index t (1 : Fin 2) * 64 + 64; rw [e31]; omega

/-! Region 5 (the second hop's edge messages): the same kernel as region 0 over the second hop's gathered tail embeddings. -/

theorem value5 (c : Dev nD) : (dat5 V c).arrAt 3 cfg5.N = Cert.Spec.relMsg (n := 2000000) (V c main_v58) (V c main_v25) (V c main_arg7) := by
  exact (dat5 V c).arrAt_eq_of_cover 3 _ (fun t _ => value5_flushed V c t) value5_cover

end Cert.KernelIdeal.Val

end
-- ==== Proof.Reg6.lean ====
import proofs.«425177_j67456756351000_2_alg».proof.Proof.Gen.KernelIdeal.Frame
import proofs.«425177_j67456756351000_2_alg».proof.Proof.Spec
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

namespace Cert.KernelIdeal.Val

open Cert.KernelIdeal Cert.KernelIdeal.Gen Idealize.ShloMosaic Idealize.ShloMosaic.TcCoe Idealize.SL.Sem Idealize.ShloMosaic.ValueIdx
open Idealize.ShloMosaic.Pipeline (Dat)

/- The TensorCore's buffer contents when the region is entered (any). -/
variable (V : (c : Dev nD) → (b : Ref sig .tc) → Buf (Elt Ideal) ((c : Thread nD τ).loc b))

/-! Region 6 (the second hop's entity update): the same kernel as region 1 over the second hop's summed messages and the first hop's residual. -/

/-- A one-column matrix broadcast along the channels reads, at row `p` and any channel, its entry of row `p`. -/
theorem value6_bcol {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A vector laid out as one column reads, at row `p`, its entry `p`. -/
theorem value6_tocol {α : Type} {a : ℕ} (v : (⟨1, ![a]⟩ : Shape).Idx → α)
    (h : (⟨1, ![a]⟩ : Shape).ShapeCasts ⟨2, ![a, 1]⟩) (p : Fin a) :
    shapeCast ⟨2, ![a, 1]⟩ v h (ix2 p (0 : Fin 1)) = v (ix1 p) := by
  refine shapeCast_apply v h (ix2 p (0 : Fin 1)) (ix1 p) ?_
  rw [Shape.rowMajor_val_one, Shape.rowMajor_val_two]
  show p.val = p.val * 1 + 0
  omega

/-- The sum along the channels of a 5000 × 64 block, at row `p`, is the sum of the row's 64 entries. -/
theorem value6_lanesum (x : FVec Ideal S5000x64 .f32) (h : S5000x64.Reduces [1] S5000)
    (hφ : FTy.f32 = FTy.f32 ∨ FTy.f32 = FTy.bf16) (hacc : (0x00000000#32 : BitVec 32) = 0x00000000#32) (p : Fin 5000) :
    multiReduction .add [1] S5000 x 0x00000000#32 h hφ hacc (ix1 p) = ∑ k : Fin 64, x (ix2 p k) := by
  refine (Ideal.multiReduction_add_single x 0x00000000#32 h hφ hacc (ix1 p)).trans ?_
  show ∑ k : Fin 64, x (h.lift (ix1 p) k) = _
  refine Finset.sum_congr rfl fun k _ => congrArg x ?_
  funext c
  apply Fin.ext
  match c with
  | ⟨0, _⟩ => rfl
  | ⟨1, _⟩ => rfl

/-- The square root of a block, entry by entry. -/
theorem value6_sqrt {s : Shape} (v : FVec Ideal s .f32) (i : s.Idx) : sqrt v i = Ideal.sqrt (v i) := rfl

/-- The body's first payload is the normalized mean of its two blocks. -/
theorem value6_pay (x0 : Vec Ideal S5000x64 .f32) (x1 : Vec Ideal S5000x1 .f32) :
    k6_pay1 (F := Ideal) x1 x0 = Cert.Spec.entNew (n := 5000) x0 x1 := by
  funext j
  obtain ⟨p, q, rfl⟩ : ∃ (p : Fin 5000) (q : Fin 64), j = ix2 p q := ⟨j 0, j 1, eq_ix2 j⟩
  unfold k6_pay1
  simp only [shapeCast_self]
  simp only [divf_apply, maximumf_apply, broadcast_apply, value6_bcol, value6_sqrt, value6_tocol]
  rw [value6_lanesum]
  simp only [mulf_apply, divf_apply, maximumf_apply, broadcast_apply, value6_bcol]
  rfl

/-- The normalized mean of a row is a function of that row's sums and of its count alone. -/
theorem value6_rowlocal {n m : ℕ} (a : Cert.Spec.Mat n 64) (k : Cert.Spec.Mat n 1) (A : Cert.Spec.Mat m 64) (K : Cert.Spec.Mat m 1)
    (p : Fin n) (r : Fin m) (q : Fin 64)
    (ha : ∀ u : Fin 64, a (ix2 p u) = A (ix2 r u))
    (hk : k (ix2 p (0 : Fin 1)) = K (ix2 r (0 : Fin 1))) :
    Cert.Spec.entNew a k (ix2 p q) = Cert.Spec.entNew A K (ix2 r q) := by
  have hm : ∀ u : Fin 64, Cert.Spec.meanRows a k (ix2 p u) = Cert.Spec.meanRows A K (ix2 r u) := fun u => by
    show Ideal.div (a (ix2 p u)) (max (k (ix2 p (0 : Fin 1))) Cert.Spec.one)
      = Ideal.div (A (ix2 r u)) (max (K (ix2 r (0 : Fin 1))) Cert.Spec.one)
    rw [ha, hk]
  have hn : Cert.Spec.rowNorm (Cert.Spec.meanRows a k) p = Cert.Spec.rowNorm (Cert.Spec.meanRows A K) r := by
    unfold Cert.Spec.rowNorm
    simp only [hm]
  show Ideal.div (Cert.Spec.meanRows a k (ix2 p q)) (Cert.Spec.rowNorm (Cert.Spec.meanRows a k) p)
    = Ideal.div (Cert.Spec.meanRows A K (ix2 r q)) (Cert.Spec.rowNorm (Cert.Spec.meanRows A K) r)
  rw [hm, hn]

/-- The zero offsets of a whole-block access. -/
theorem value6_hz : (![0, 0] : Fin 2 → Nat) = fun _ => 0 := funext fun a => by fin_cases a <;> rfl

/-- The index maps over the grid: every window's block at point `t` is row block `t`, whole rows. -/
theorem value6_idx : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = t.val ∧ win6_3.index t (1 : Fin 2) = 0
    ∧ win6_4.index t (0 : Fin 2) = t.val ∧ win6_4.index t (1 : Fin 2) = 0 :=
  (by decide +kernel : ∀ t : Fin grid6.N, _)

/-- Row `p` of the sums' block at point `t` is row `5000 t + p` of the sums. -/
theorem value6_blk_sums (c : Dev nD) (t : Fin cfg6.N) (p : Fin 5000) (q : Fin 64) (r : Fin 200000)
    (hr : r.val = t.val * 5000 + p.val) :
    (iblk6 V c 0 t : Vec Ideal S5000x64 .f32) (ix2 p q) = (V c main_v62 : S200000x64.Idx → EReal) (ix2 r q) := by
  obtain ⟨ea, eb, -⟩ := value6_idx t
  unfold iblk6
  rw [View.read_apply]
  show V c main_v62 _ = V c main_v62 _
  congr 1
  funext a
  apply Fin.ext
  match a with
  | ⟨0, _⟩ => show win6_0.index t 0 * 5000 + 1 * p.val = r.val; rw [ea, hr]; omega
  | ⟨1, _⟩ => show win6_0.index t 1 * 64 + 1 * q.val = q.val; rw [eb]; omega

/-- Row `p` of the counts' block at point `t` is row `5000 t + p` of the counts. -/
theorem value6_blk_cnt (c : Dev nD) (t : Fin cfg6.N) (p : Fin 5000) (r : Fin 200000)
    (hr : r.val = t.val * 5000 + p.val) :
    (iblk6 V c 1 t : Vec Ideal S5000x1 .f32) (ix2 p (0 : Fin 1)) = (V c main_v12 : S200000x1.Idx → EReal) (ix2 r (0 : Fin 1)) := by
  obtain ⟨-, -, ea, eb, -⟩ := value6_idx t
  unfold iblk6
  rw [View.read_apply]
  show V c main_v12 _ = V c main_v12 _
  congr 1
  funext a
  apply Fin.ext
  match a with
  | ⟨0, _⟩ => show win6_1.index t 0 * 5000 + 1 * p.val = r.val; rw [ea, hr]; omega
  | ⟨1, _⟩ => show win6_1.index t 1 * 1 + 1 * 0 = 0; rw [eb]

/-- What point `t` writes back to the first output is block `t` of the normalized means of the whole arrays:
    row `p` of the block is row `5000 t + p` of the arrays, and a row's normalized mean reads that row alone. -/
theorem value6_flushed_new (c : Dev nD) (t : Fin cfg6.N) :
    (dat6 V c).flushed 3 t = ((cfg6.win 3).blk t).view.read (Elt Ideal)
      (Cert.Spec.entNew (n := 200000) (V c main_v62) (V c main_v12)) := by
  show (cfg6.win 3).cut (grid6.coords t) ((dat6 V c).after 3 t) = _
  rw [after6_3]
  unfold out6_3
  rw [View.canon_unit_zero value6_hz]
  simp only [View.ld_unit_zero (S := S5000x64) value6_hz, View.ld_unit_zero (S := S5000x1) value6_hz]
  obtain ⟨-, -, -, -, -, -, ea, eb, -⟩ := value6_idx t
  have hN : t.val < 40 := Nat.lt_of_lt_of_eq t.isLt (show cfg6.N = 40 from N_6)
  funext j
  revert j
  show ∀ j : S5000x64.Idx, k6_pay1 (F := Ideal) (iblk6 V c 1 t) (iblk6 V c 0 t) j
    = Cert.Spec.entNew (n := 200000) (V c main_v62) (V c main_v12) (((cfg6.win 3).blk t).view.emb j)
  intro j
  obtain ⟨p, q, rfl⟩ : ∃ (p : Fin 5000) (q : Fin 64), j = ix2 p q := ⟨j 0, j 1, eq_ix2 j⟩
  have hr : t.val * 5000 + p.val < 200000 := by have := p.isLt; omega
  have hemb : ((cfg6.win 3).blk t).view.emb (ix2 p q) = (ix2 (⟨t.val * 5000 + p.val, hr⟩ : Fin 200000) q : S200000x64.Idx) := by
    funext a
    apply Fin.ext
    match a with
    | ⟨0, _⟩ => show win6_3.index t 0 * 5000 + 1 * p.val = t.val * 5000 + p.val; rw [ea]; omega
    | ⟨1, _⟩ => show win6_3.index t 1 * 64 + 1 * q.val = q.val; rw [eb]; omega
  rw [hemb]
  refine (congrFun (value6_pay (iblk6 V c 0 t) (iblk6 V c 1 t)) (ix2 p q)).trans ?_
  exact value6_rowlocal _ _ _ _ p ⟨_, hr⟩ q (fun u => value6_blk_sums V c t p u _ rfl) (value6_blk_cnt V c t p _ rfl)

/-- An index of the first output lies in point `t`'s block exactly when each coordinate lies in the block's range. -/
theorem value6_mem_new (t : Fin cfg6.N) (i : S200000x64.Idx) :
    i ∈ ((cfg6.win 3).blk t).view.set ↔ ∀ a : Fin 2, win6_3.index t a * S5000x64.size a ≤ (i a).val
      ∧ (i a).val < win6_3.index t a * S5000x64.size a + S5000x64.size a := by
  show i ∈ ((View.whole main_v63_0).slice (win6_3.rect t)).set ↔ _
  rw [View.set_slice_whole, Rect.mem_set_unit]
  exact Iff.rfl

/-- The 40 row blocks cover the first output: row `r` lies in the block of point `r / 5000`. -/
theorem value6_cover_new (i : S200000x64.Idx) :
    ∃ t : Fin cfg6.N, (cfg6.win 3).flush t = true ∧ i ∈ ((cfg6.win 3).blk t).view.set := by
  have hi : (i 0).val < 200000 := (i 0).isLt
  have hq : (i 1).val < 64 := (i 1).isLt
  have hN : cfg6.N = 40 := N_6
  have ht : (i 0).val / 5000 < cfg6.N := by rw [hN]; omega
  obtain ⟨-, -, -, -, -, -, ea, eb, -⟩ := value6_idx ⟨(i 0).val / 5000, ht⟩
  refine ⟨⟨(i 0).val / 5000, ht⟩, flush6_3 _, ?_⟩
  rw [value6_mem_new]
  intro a
  match a with
  | ⟨0, _⟩ =>
    show win6_3.index ⟨(i 0).val / 5000, ht⟩ (0 : Fin 2) * 5000 ≤ (i 0).val
      ∧ (i 0).val < win6_3.index ⟨(i 0).val / 5000, ht⟩ (0 : Fin 2) * 5000 + 5000
    rw [ea]
    show (i 0).val / 5000 * 5000 ≤ (i 0).val ∧ (i 0).val < (i 0).val / 5000 * 5000 + 5000
    omega
  | ⟨1, _⟩ =>
    show win6_3.index ⟨(i 0).val / 5000, ht⟩ (1 : Fin 2) * 64 ≤ (i 1).val
      ∧ (i 1).val < win6_3.index ⟨(i 0).val / 5000, ht⟩ (1 : Fin 2) * 64 + 64
    rw [eb]
    omega

/-- The first output after the region: the normalized neighbourhood means of the sums and counts the region found. -/
theorem value6_new (c : Dev nD) : (dat6 V c).arrAt 3 cfg6.N = Cert.Spec.entNew (n := 200000) (V c main_v62) (V c main_v12) := by
  exact (dat6 V c).arrAt_eq_of_cover 3 (Cert.Spec.entNew (n := 200000) (V c main_v62) (V c main_v12))
    (fun t _ => value6_flushed_new V c t) value6_cover_new

/-- The body's second payload is the residual's block plus the first payload. -/
theorem value6_pay_res (x0 : Vec Ideal S5000x64 .f32) (x1 : Vec Ideal S5000x1 .f32) (x2 : Vec Ideal S5000x64 .f32) :
    k6_pay2 (F := Ideal) x1 x0 x2 = Cert.Spec.resAdd (n := 5000) x2 (Cert.Spec.entNew (n := 5000) x0 x1) := by
  unfold k6_pay2
  rw [value6_pay]
  first
  | rfl
  | (simp only [shapeCast_self] <;> rfl)

/-- The residual sum at a row reads the residual's entry and that row's sums and count alone. -/
theorem value6_rowlocal_res {n m : ℕ} (x : Cert.Spec.Mat n 64) (a : Cert.Spec.Mat n 64) (k : Cert.Spec.Mat n 1)
    (X : Cert.Spec.Mat m 64) (A : Cert.Spec.Mat m 64) (K : Cert.Spec.Mat m 1) (p : Fin n) (r : Fin m) (q : Fin 64)
    (hx : x (ix2 p q) = X (ix2 r q)) (ha : ∀ u : Fin 64, a (ix2 p u) = A (ix2 r u))
    (hk : k (ix2 p (0 : Fin 1)) = K (ix2 r (0 : Fin 1))) :
    Cert.Spec.resAdd x (Cert.Spec.entNew a k) (ix2 p q) = Cert.Spec.resAdd X (Cert.Spec.entNew A K) (ix2 r q) := by
  show x (ix2 p q) + Cert.Spec.entNew a k (ix2 p q) = X (ix2 r q) + Cert.Spec.entNew A K (ix2 r q)
  rw [hx, value6_rowlocal a k A K p r q ha hk]

/-- Row `p` of the residual's block at point `t` is row `5000 t + p` of the residual. -/
theorem value6_blk_res (c : Dev nD) (t : Fin cfg6.N) (p : Fin 5000) (q : Fin 64) (r : Fin 200000)
    (hr : r.val = t.val * 5000 + p.val) :
    (iblk6 V c 2 t : Vec Ideal S5000x64 .f32) (ix2 p q) = (V c main_v38_1 : S200000x64.Idx → EReal) (ix2 r q) := by
  obtain ⟨-, -, -, -, ea, eb, -⟩ := value6_idx t
  unfold iblk6
  rw [View.read_apply]
  show V c main_v38_1 _ = V c main_v38_1 _
  congr 1
  funext a
  apply Fin.ext
  match a with
  | ⟨0, _⟩ => show win6_2.index t 0 * 5000 + 1 * p.val = r.val; rw [ea, hr]; omega
  | ⟨1, _⟩ => show win6_2.index t 1 * 64 + 1 * q.val = q.val; rw [eb]; omega

/-- What point `t` writes back to the second output is block `t` of the residual sum of the whole arrays. -/
theorem value6_flushed_res (c : Dev nD) (t : Fin cfg6.N) :
    (dat6 V c).flushed 4 t = ((cfg6.win 4).blk t).view.read (Elt Ideal)
      (Cert.Spec.resAdd (n := 200000) (V c main_v38_1) (Cert.Spec.entNew (n := 200000) (V c main_v62) (V c main_v12))) := by
  show (cfg6.win 4).cut (grid6.coords t) ((dat6 V c).after 4 t) = _
  rw [after6_4]
  unfold out6_4
  rw [View.canon_unit_zero value6_hz]
  simp only [View.ld_unit_zero (S := S5000x64) value6_hz, View.ld_unit_zero (S := S5000x1) value6_hz]
  obtain ⟨-, -, -, -, -, -, -, -, ea, eb⟩ := value6_idx t
  have hN : t.val < 40 := Nat.lt_of_lt_of_eq t.isLt (show cfg6.N = 40 from N_6)
  funext j
  revert j
  show ∀ j : S5000x64.Idx, k6_pay2 (F := Ideal) (iblk6 V c 1 t) (iblk6 V c 0 t) (iblk6 V c 2 t) j
    = Cert.Spec.resAdd (n := 200000) (V c main_v38_1) (Cert.Spec.entNew (n := 200000) (V c main_v62) (V c main_v12))
        (((cfg6.win 4).blk t).view.emb j)
  intro j
  obtain ⟨p, q, rfl⟩ : ∃ (p : Fin 5000) (q : Fin 64), j = ix2 p q := ⟨j 0, j 1, eq_ix2 j⟩
  have hr : t.val * 5000 + p.val < 200000 := by have := p.isLt; omega
  have hemb : ((cfg6.win 4).blk t).view.emb (ix2 p q) = (ix2 (⟨t.val * 5000 + p.val, hr⟩ : Fin 200000) q : S200000x64.Idx) := by
    funext a
    apply Fin.ext
    match a with
    | ⟨0, _⟩ => show win6_4.index t 0 * 5000 + 1 * p.val = t.val * 5000 + p.val; rw [ea]; omega
    | ⟨1, _⟩ => show win6_4.index t 1 * 64 + 1 * q.val = q.val; rw [eb]; omega
  rw [hemb]
  refine (congrFun (value6_pay_res (iblk6 V c 0 t) (iblk6 V c 1 t) (iblk6 V c 2 t)) (ix2 p q)).trans ?_
  exact value6_rowlocal_res _ _ _ _ _ _ p ⟨_, hr⟩ q (value6_blk_res V c t p q _ rfl)
    (fun u => value6_blk_sums V c t p u _ rfl) (value6_blk_cnt V c t p _ rfl)

/-- An index of the second output lies in point `t`'s block exactly when each coordinate lies in the block's range. -/
theorem value6_mem_res (t : Fin cfg6.N) (i : S200000x64.Idx) :
    i ∈ ((cfg6.win 4).blk t).view.set ↔ ∀ a : Fin 2, win6_4.index t a * S5000x64.size a ≤ (i a).val
      ∧ (i a).val < win6_4.index t a * S5000x64.size a + S5000x64.size a := by
  show i ∈ ((View.whole main_v63_1).slice (win6_4.rect t)).set ↔ _
  rw [View.set_slice_whole, Rect.mem_set_unit]
  exact Iff.rfl

/-- The 40 row blocks cover the second output: row `r` lies in the block of point `r / 5000`. -/
theorem value6_cover_res (i : S200000x64.Idx) :
    ∃ t : Fin cfg6.N, (cfg6.win 4).flush t = true ∧ i ∈ ((cfg6.win 4).blk t).view.set := by
  have hi : (i 0).val < 200000 := (i 0).isLt
  have hq : (i 1).val < 64 := (i 1).isLt
  have hN : cfg6.N = 40 := N_6
  have ht : (i 0).val / 5000 < cfg6.N := by rw [hN]; omega
  obtain ⟨-, -, -, -, -, -, -, -, ea, eb⟩ := value6_idx ⟨(i 0).val / 5000, ht⟩
  refine ⟨⟨(i 0).val / 5000, ht⟩, flush6_4 _, ?_⟩
  rw [value6_mem_res]
  intro a
  match a with
  | ⟨0, _⟩ =>
    show win6_4.index ⟨(i 0).val / 5000, ht⟩ (0 : Fin 2) * 5000 ≤ (i 0).val
      ∧ (i 0).val < win6_4.index ⟨(i 0).val / 5000, ht⟩ (0 : Fin 2) * 5000 + 5000
    rw [ea]
    show (i 0).val / 5000 * 5000 ≤ (i 0).val ∧ (i 0).val < (i 0).val / 5000 * 5000 + 5000
    omega
  | ⟨1, _⟩ =>
    show win6_4.index ⟨(i 0).val / 5000, ht⟩ (1 : Fin 2) * 64 ≤ (i 1).val
      ∧ (i 1).val < win6_4.index ⟨(i 0).val / 5000, ht⟩ (1 : Fin 2) * 64 + 64
    rw [eb]
    omega

/-- The second output after the region: the residual the region found plus those normalized means. -/
theorem value6_res (c : Dev nD) : (dat6 V c).arrAt 4 cfg6.N = Cert.Spec.resAdd (n := 200000) (V c main_v38_1) (Cert.Spec.entNew (V c main_v62) (V c main_v12)) := by
  exact (dat6 V c).arrAt_eq_of_cover 4
    (Cert.Spec.resAdd (n := 200000) (V c main_v38_1) (Cert.Spec.entNew (n := 200000) (V c main_v62) (V c main_v12)))
    (fun t _ => value6_flushed_res V c t) value6_cover_res

end Cert.KernelIdeal.Val

end
-- ==== Proof.Reg7.lean ====
import proofs.«425177_j67456756351000_2_alg».proof.Proof.Gen.KernelIdeal.Frame
import proofs.«425177_j67456756351000_2_alg».proof.Proof.Spec
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

namespace Cert.KernelIdeal.Val

open Cert.KernelIdeal Cert.KernelIdeal.Gen Idealize.ShloMosaic Idealize.ShloMosaic.TcCoe Idealize.SL.Sem Idealize.ShloMosaic.ValueIdx
open Idealize.ShloMosaic.Pipeline (Dat)

/- The TensorCore's buffer contents when the region is entered (any). -/
variable (V : (c : Dev nD) → (b : Ref sig .tc) → Buf (Elt Ideal) ((c : Thread nD τ).loc b))

/-! ## The two matrix products read at an index -/

/-- The logits' product: the left operand's row is the output's row … -/
private theorem logitDot_lhs_row (i : S5000x4.Idx) (q : dot_S5000x64_S4x64_S5000x4_1_1_0_0_n_n.contr.Idx) :
    (dot_S5000x64_S4x64_S5000x4_1_1_0_0_n_n.lhsIdx i q 0).val = (i 0).val := by
  unfold DotDims.lhsIdx
  rw [dif_neg (show ¬(0 : Fin S5000x64.rank) ∈ dot_S5000x64_S4x64_S5000x4_1_1_0_0_n_n.lhsBatch by decide), dif_pos (show (0 : Fin S5000x64.rank) ∈ dot_S5000x64_S4x64_S5000x4_1_1_0_0_n_n.lhsNonContracting by decide)]
  rfl
/-- … its column the contracted channel; -/
private theorem logitDot_lhs_col (i : S5000x4.Idx) (q : dot_S5000x64_S4x64_S5000x4_1_1_0_0_n_n.contr.Idx) :
    (dot_S5000x64_S4x64_S5000x4_1_1_0_0_n_n.lhsIdx i q 1).val = (q ⟨0, by decide⟩).val :=
  dot_S5000x64_S4x64_S5000x4_1_1_0_0_n_n.lhsIdx_val_of_single rfl i q
/-- the right operand's row is the output's column (the factor) … -/
private theorem logitDot_rhs_row (i : S5000x4.Idx) (q : dot_S5000x64_S4x64_S5000x4_1_1_0_0_n_n.contr.Idx) :
    (dot_S5000x64_S4x64_S5000x4_1_1_0_0_n_n.rhsIdx i q 0).val = (i 1).val := by
  unfold DotDims.rhsIdx
  rw [dif_neg (show ¬(0 : Fin S4x64.rank) ∈ dot_S5000x64_S4x64_S5000x4_1_1_0_0_n_n.rhsBatch by decide), dif_pos (show (0 : Fin S4x64.rank) ∈ dot_S5000x64_S4x64_S5000x4_1_1_0_0_n_n.rhsNonContracting by decide)]
  rfl
/-- … and its column the contracted channel. -/
private theorem logitDot_rhs_col (i : S5000x4.Idx) (q : dot_S5000x64_S4x64_S5000x4_1_1_0_0_n_n.contr.Idx) :
    (dot_S5000x64_S4x64_S5000x4_1_1_0_0_n_n.rhsIdx i q 1).val = (q ⟨0, by decide⟩).val :=
  dot_S5000x64_S4x64_S5000x4_1_1_0_0_n_n.rhsIdx_val_of_single rfl i q

/-- The first product into a zero accumulator, at row `p` and factor `f`: the sum over the 64 channels of the
    row's entry times the factor's entry. -/
private theorem logitDot_apply {φa φb : FTy} (a : FVec Ideal S5000x64 φa) (b : FVec Ideal S4x64 φb) (p : Fin 5000) (f : Fin 4) :
    matmul dot_S5000x64_S4x64_S5000x4_1_1_0_0_n_n none a b (constant (F := Ideal) S5000x4 .f32 0x00000000#32) (ix2 p f)
      = ∑ k : Fin 64, a (ix2 p k) * b (ix2 f k) := by
  simp only [matmul]
  rw [Ideal.matmul_constant_zero_apply, ← Equiv.sum_comp (contrEquiv1 dot_S5000x64_S4x64_S5000x4_1_1_0_0_n_n 64 rfl rfl).symm]
  refine Finset.sum_congr rfl fun k _ => ?_
  have hk := contrEquiv1_symm_val dot_S5000x64_S4x64_S5000x4_1_1_0_0_n_n 64 rfl rfl k
  have el : dot_S5000x64_S4x64_S5000x4_1_1_0_0_n_n.lhsIdx (ix2 p f) ((contrEquiv1 dot_S5000x64_S4x64_S5000x4_1_1_0_0_n_n 64 rfl rfl).symm k) = ix2 p k := funext fun x => Fin.ext (by
    match x with
    | ⟨0, _⟩ => exact logitDot_lhs_row _ _
    | ⟨1, _⟩ => exact (logitDot_lhs_col _ _).trans hk)
  have er : dot_S5000x64_S4x64_S5000x4_1_1_0_0_n_n.rhsIdx (ix2 p f) ((contrEquiv1 dot_S5000x64_S4x64_S5000x4_1_1_0_0_n_n 64 rfl rfl).symm k) = ix2 f k := funext fun x => Fin.ext (by
    match x with
    | ⟨0, _⟩ => exact logitDot_rhs_row _ _
    | ⟨1, _⟩ => exact (logitDot_rhs_col _ _).trans hk)
  rw [el, er]

/-- The mixing product: the left operand's row is the output's row … -/
private theorem mixDot_lhs_row (i : S5000x64.Idx) (q : dot_S5000x4_S4x64_S5000x64_1_0_0_1_n_n.contr.Idx) :
    (dot_S5000x4_S4x64_S5000x64_1_0_0_1_n_n.lhsIdx i q 0).val = (i 0).val := by
  unfold DotDims.lhsIdx
  rw [dif_neg (show ¬(0 : Fin S5000x4.rank) ∈ dot_S5000x4_S4x64_S5000x64_1_0_0_1_n_n.lhsBatch by decide), dif_pos (show (0 : Fin S5000x4.rank) ∈ dot_S5000x4_S4x64_S5000x64_1_0_0_1_n_n.lhsNonContracting by decide)]
  rfl
/-- … its column the contracted factor; -/
private theorem mixDot_lhs_col (i : S5000x64.Idx) (q : dot_S5000x4_S4x64_S5000x64_1_0_0_1_n_n.contr.Idx) :
    (dot_S5000x4_S4x64_S5000x64_1_0_0_1_n_n.lhsIdx i q 1).val = (q ⟨0, by decide⟩).val :=
  dot_S5000x4_S4x64_S5000x64_1_0_0_1_n_n.lhsIdx_val_of_single rfl i q
/-- the right operand's row is the contracted factor … -/
private theorem mixDot_rhs_row (i : S5000x64.Idx) (q : dot_S5000x4_S4x64_S5000x64_1_0_0_1_n_n.contr.Idx) :
    (dot_S5000x4_S4x64_S5000x64_1_0_0_1_n_n.rhsIdx i q 0).val = (q ⟨0, by decide⟩).val :=
  dot_S5000x4_S4x64_S5000x64_1_0_0_1_n_n.rhsIdx_val_of_single rfl i q
/-- … and its column the output's column (the channel). -/
private theorem mixDot_rhs_col (i : S5000x64.Idx) (q : dot_S5000x4_S4x64_S5000x64_1_0_0_1_n_n.contr.Idx) :
    (dot_S5000x4_S4x64_S5000x64_1_0_0_1_n_n.rhsIdx i q 1).val = (i 1).val := by
  unfold DotDims.rhsIdx
  rw [dif_neg (show ¬(1 : Fin S4x64.rank) ∈ dot_S5000x4_S4x64_S5000x64_1_0_0_1_n_n.rhsBatch by decide), dif_pos (show (1 : Fin S4x64.rank) ∈ dot_S5000x4_S4x64_S5000x64_1_0_0_1_n_n.rhsNonContracting by decide)]
  rfl

/-- The second product into a zero accumulator, at row `p` and channel `q`: the sum over the 4 factors of the
    row's weight times the table's entry. -/
private theorem mixDot_apply {φa φb : FTy} (a : FVec Ideal S5000x4 φa) (b : FVec Ideal S4x64 φb) (p : Fin 5000) (q : Fin 64) :
    matmul dot_S5000x4_S4x64_S5000x64_1_0_0_1_n_n none a b (constant (F := Ideal) S5000x64 .f32 0x00000000#32) (ix2 p q)
      = ∑ f : Fin 4, a (ix2 p f) * b (ix2 f q) := by
  simp only [matmul]
  rw [Ideal.matmul_constant_zero_apply, ← Equiv.sum_comp (contrEquiv1 dot_S5000x4_S4x64_S5000x64_1_0_0_1_n_n 4 rfl rfl).symm]
  refine Finset.sum_congr rfl fun k _ => ?_
  have hk := contrEquiv1_symm_val dot_S5000x4_S4x64_S5000x64_1_0_0_1_n_n 4 rfl rfl k
  have el : dot_S5000x4_S4x64_S5000x64_1_0_0_1_n_n.lhsIdx (ix2 p q) ((contrEquiv1 dot_S5000x4_S4x64_S5000x64_1_0_0_1_n_n 4 rfl rfl).symm k) = ix2 p k := funext fun x => Fin.ext (by
    match x with
    | ⟨0, _⟩ => exact mixDot_lhs_row _ _
    | ⟨1, _⟩ => exact (mixDot_lhs_col _ _).trans hk)
  have er : dot_S5000x4_S4x64_S5000x64_1_0_0_1_n_n.rhsIdx (ix2 p q) ((contrEquiv1 dot_S5000x4_S4x64_S5000x64_1_0_0_1_n_n 4 rfl rfl).symm k) = ix2 k q := funext fun x => Fin.ext (by
    match x with
    | ⟨0, _⟩ => exact (mixDot_rhs_row _ _).trans hk
    | ⟨1, _⟩ => exact mixDot_rhs_col _ _)
  rw [el, er]

/-! ## The lane reductions and the column broadcast read at an index -/

/-- The source index over row `p` with factor `f` inserted on the reduced axis is `(p, f)`. -/
private theorem lane_lift (h : S5000x4.Reduces [1] S5000) (p : Fin 5000) (f : Fin 4) :
    h.lift (ix1 p) f = ix2 p f := by
  funext x; apply Fin.ext
  show h.liftVal (ix1 p) f.val x = _
  unfold Shape.Reduces.liftVal
  match x with
  | ⟨0, _⟩ => rfl
  | ⟨1, _⟩ => rfl

/-- A row's maximum over the 4 factors: the fold of `max` from the accumulator's value. -/
private theorem laneMax_apply (v : FVec Ideal S5000x4 .f32) (h : S5000x4.Reduces [1] S5000)
    (hφ : FKind.Formats FTy.f32) (hacc : (0xFF800000#32 : BitVec 32) = 0xFF800000#32) (p : Fin 5000) :
    multiReduction (F := Ideal) .maximumf [1] S5000 v 0xFF800000#32 h hφ hacc (ix1 p)
      = (Finset.univ : Finset (Fin 4)).fold max (Ideal.ofBits .f32 0xFF800000#32) (fun f => v (ix2 p f)) := by
  refine (Ideal.multiReduction_maximumf_single v 0xFF800000#32 h hφ hacc (ix1 p)).trans ?_
  show (Finset.univ : Finset (Fin 4)).fold max (Ideal.ofBits .f32 0xFF800000#32) (v ∘ h.lift (ix1 p)) = _
  congr 1
  funext f
  exact congrArg v (lane_lift h p f)

/-- A row's sum over the 4 factors. -/
private theorem laneSum_apply (v : FVec Ideal S5000x4 .f32) (h : S5000x4.Reduces [1] S5000)
    (hφ : FKind.Formats FTy.f32) (hacc : (0x00000000#32 : BitVec 32) = 0x00000000#32) (p : Fin 5000) :
    multiReduction (F := Ideal) .add [1] S5000 v 0x00000000#32 h hφ hacc (ix1 p) = ∑ f : Fin 4, v (ix2 p f) := by
  refine (Ideal.multiReduction_add_single v 0x00000000#32 h hφ hacc (ix1 p)).trans ?_
  exact Finset.sum_congr rfl fun f _ => congrArg v (lane_lift h p f)

/-- A per-row value laid along the 4 factors: the column cast then the broadcast read the row's value. -/
private theorem colBroadcast_apply {α : Type} (v : S5000.Idx → α) (hc : S5000.ShapeCasts S5000x1) (hb : S5000x1.Broadcasts S5000x4)
    (p : Fin 5000) (f : Fin 4) :
    broadcastTo S5000x4 (shapeCast S5000x1 v hc) hb (ix2 p f) = v (ix1 p) := by
  rw [broadcastTo_apply (shapeCast S5000x1 v hc) hb (ix2 p f) (ix2 p (0 : Fin 1)) (by
    intro a
    match a with
    | ⟨0, _⟩ => rfl
    | ⟨1, _⟩ => rfl)]
  exact shapeCast_apply v hc (ix2 p (0 : Fin 1)) (ix1 p) (by
    rw [Shape.rowMajor_val_two, Shape.rowMajor_val_one]; show p.val = p.val * 1 + 0; omega)

/-! ## The body's value at an index of its block -/

/-- The exponential at an index. -/
private theorem expVec_apply {s : Shape} {φ : FTy} (v : FVec Ideal s φ) (i : s.Idx) : exp v i = Ideal.exp (v i) := rfl

/-- At row `p` and channel `q` of a block the body leaves the softmax over the 4 factors of the row's logits against
    the factor table, mixed into the channel by the second table. -/
private theorem pay_apply (x0 : Vec Ideal S5000x64 .f32) (x1 x2 : Vec Ideal S4x64 .f32) (p : Fin 5000) (q : Fin 64) :
    k7_pay1 (F := Ideal) x0 x1 x2 (ix2 p q)
      = ∑ f : Fin 4, Cert.Spec.softmax4 (fun g : Fin 4 => ∑ k : Fin 64, x0 (ix2 p k) * x1 (ix2 g k)) f * x2 (ix2 f q) := by
  unfold k7_pay1
  dsimp only
  rw [mixDot_apply]
  refine Finset.sum_congr rfl fun f _ => ?_
  simp only [truncf_apply, divf_apply, expVec_apply, subf_apply, colBroadcast_apply, maximumf_apply, broadcast_apply,
    logitDot_apply, shapeCast_self]
  rw [laneMax_apply, laneSum_apply]
  simp only [truncf_apply, expVec_apply, subf_apply, colBroadcast_apply, maximumf_apply, broadcast_apply, logitDot_apply]
  rw [laneMax_apply]
  simp only [truncf_apply, logitDot_apply]
  rfl

/-! ## From blocks to the array -/

private theorem zeroOff : (![0, 0] : Fin 2 → Nat) = fun _ => 0 := funext fun a => by fin_cases a <;> rfl

/-- The printed index maps over the grid: the user window's and the output window's block row is the point's number,
    their block column 0; the two tables stay at block (0, 0). -/
private theorem idx_facts : ∀ t : Fin cfg7.N,
      win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

/-- The user window's block at point `t` holds rows `5000 t … 5000 t + 4999` of the user array. -/
private theorem userBlk_apply (c : Dev nD) (t : Fin cfg7.N) (p : Fin 5000) (k : Fin 64) (i : S100000x64.Idx)
    (hr : (i 0).val = t.val * 5000 + p.val) (hk : (i 1).val = k.val) :
    (iblk7 V c 0 t : Vec Ideal S5000x64 .f32) (ix2 p k) = (V c main_v51_0 : S100000x64.Idx → EReal) i := by
  obtain ⟨e0, e1, -⟩ := idx_facts t
  unfold iblk7
  rw [View.read_apply]
  show V c main_v51_0 _ = V c main_v51_0 _
  congr 1
  funext a; apply Fin.ext
  match a with
  | ⟨0, _⟩ => show win7_0.index t (0 : Fin 2) * 5000 + 1 * p.val = (i 0).val; rw [e0, hr]; omega
  | ⟨1, _⟩ => show win7_0.index t (1 : Fin 2) * 64 + 1 * k.val = (i 1).val; rw [e1, hk]; omega

/-- The factor table's block is the whole table at every point. -/
private theorem latBlk_apply (c : Dev nD) (t : Fin cfg7.N) (g : Fin 4) (k : Fin 64) :
    (iblk7 V c 1 t : Vec Ideal S4x64 .f32) (ix2 g k) = (V c main_arg2 : S4x64.Idx → EReal) (ix2 g k) := by
  obtain ⟨-, -, e2, e3, -⟩ := idx_facts t
  unfold iblk7
  rw [View.read_apply]
  show V c main_arg2 _ = V c main_arg2 _
  congr 1
  funext a; apply Fin.ext
  match a with
  | ⟨0, _⟩ => show win7_1.index t (0 : Fin 2) * 4 + 1 * g.val = g.val; rw [e2]; omega
  | ⟨1, _⟩ => show win7_1.index t (1 : Fin 2) * 64 + 1 * k.val = k.val; rw [e3]; omega

/-- The mixing table's block is the whole table at every point. -/
private theorem mixBlk_apply (c : Dev nD) (t : Fin cfg7.N) (g : Fin 4) (k : Fin 64) :
    (iblk7 V c 2 t : Vec Ideal S4x64 .f32) (ix2 g k) = (V c main_v24 : S4x64.Idx → EReal) (ix2 g k) := by
  obtain ⟨-, -, -, -, e4, e5, -⟩ := idx_facts t
  unfold iblk7
  rw [View.read_apply]
  show V c main_v24 _ = V c main_v24 _
  congr 1
  funext a; apply Fin.ext
  match a with
  | ⟨0, _⟩ => show win7_2.index t (0 : Fin 2) * 4 + 1 * g.val = g.val; rw [e4]; omega
  | ⟨1, _⟩ => show win7_2.index t (1 : Fin 2) * 64 + 1 * k.val = k.val; rw [e5]; omega

/-- What point `t` writes back is block `t` of the attention array of the region's inputs. -/
private theorem flushed_eq (c : Dev nD) (t : Fin cfg7.N) :
    (dat7 V c).flushed 3 t = ((cfg7.win 3).blk t).view.read (Elt Ideal)
      (Cert.Spec.attn (n := 100000) (V c main_v51_0) (V c main_arg2) (V c main_v24)) := by
  show (cfg7.win 3).cut (grid7.coords t) ((dat7 V c).after 3 t) = _
  rw [after7_3]
  unfold out7_3
  rw [View.canon_unit_zero zeroOff]
  simp only [View.ld_unit_zero (S := S5000x64) zeroOff, View.ld_unit_zero (S := S4x64) zeroOff]
  obtain ⟨-, -, -, -, -, -, e6, e7⟩ := idx_facts t
  funext j
  obtain ⟨p, q, rfl⟩ : ∃ (p : Fin 5000) (q : Fin 64), j = ix2 p q := ⟨j 0, j 1, eq_ix2 j⟩
  show k7_pay1 (F := Ideal) (iblk7 V c 0 t) (iblk7 V c 1 t) (iblk7 V c 2 t) (ix2 p q)
    = Cert.Spec.attn (n := 100000) (V c main_v51_0) (V c main_arg2) (V c main_v24) (((cfg7.win 3).blk t).view.emb (ix2 p q))
  have hr : ((((cfg7.win 3).blk t).view.emb (ix2 p q)) 0).val = t.val * 5000 + p.val := by
    show win7_3.index t (0 : Fin 2) * 5000 + 1 * p.val = _
    rw [e6]; omega
  have hq : ((((cfg7.win 3).blk t).view.emb (ix2 p q)) 1).val = q.val := by
    show win7_3.index t (1 : Fin 2) * 64 + 1 * q.val = _
    rw [e7]; omega
  rw [pay_apply]
  unfold Cert.Spec.attn
  refine Finset.sum_congr rfl fun f _ => ?_
  refine congrArg₂ (· * ·) (congrArg (fun L => Cert.Spec.softmax4 L f) (funext fun g => ?_)) ?_
  · unfold Cert.Spec.logits
    exact Finset.sum_congr rfl fun k _ => congrArg₂ (· * ·) (userBlk_apply V c t p k _ hr rfl) (latBlk_apply V c t g k)
  · rw [mixBlk_apply]
    exact congrArg (V c main_v24) (funext fun a => Fin.ext (by
      match a with
      | ⟨0, _⟩ => rfl
      | ⟨1, _⟩ => exact hq.symm))

/-- An index of the array is in point `t`'s block iff each coordinate is in the block's range on its axis. -/
private theorem mem_blk (t : Fin cfg7.N) (i : S100000x64.Idx) :
    i ∈ ((cfg7.win 3).blk t).view.set ↔ ∀ a : Fin 2, win7_3.index t a * S5000x64.size a ≤ (i a).val ∧ (i a).val < win7_3.index t a * S5000x64.size a + S5000x64.size a := by
  show i ∈ ((View.whole main_v64).slice (win7_3.rect t)).set ↔ _
  rw [View.set_slice_whole, Rect.mem_set_unit]
  exact Iff.rfl

/-- Every row of the array is in some point's block: row `r` in the block of point `r / 5000`. -/
private theorem blocks_cover (i : S100000x64.Idx) :
    ∃ t : Fin cfg7.N, (cfg7.win 3).flush t = true ∧ i ∈ ((cfg7.win 3).blk t).view.set := by
  have hi0 : (i 0).val < 100000 := (i 0).isLt
  have hi1 : (i 1).val < 64 := (i 1).isLt
  have hN : cfg7.N = 20 := N_7
  have ht : (i 0).val / 5000 < cfg7.N := by rw [hN]; omega
  obtain ⟨-, -, -, -, -, -, e6, e7⟩ := idx_facts ⟨(i 0).val / 5000, ht⟩
  refine ⟨⟨(i 0).val / 5000, ht⟩, flush7_3 _, ?_⟩
  rw [mem_blk]
  intro a
  match a with
  | ⟨0, _⟩ =>
    show win7_3.index ⟨(i 0).val / 5000, ht⟩ (0 : Fin 2) * 5000 ≤ (i 0).val ∧ (i 0).val < win7_3.index ⟨(i 0).val / 5000, ht⟩ (0 : Fin 2) * 5000 + 5000
    rw [e6]; show (i 0).val / 5000 * 5000 ≤ (i 0).val ∧ (i 0).val < (i 0).val / 5000 * 5000 + 5000; omega
  | ⟨1, _⟩ =>
    show win7_3.index ⟨(i 0).val / 5000, ht⟩ (1 : Fin 2) * 64 ≤ (i 1).val ∧ (i 1).val < win7_3.index ⟨(i 0).val / 5000, ht⟩ (1 : Fin 2) * 64 + 64
    rw [e7]; omega

/-! Region 7 (the second hop's user attention): the same kernel as region 2 over the first hop's user embeddings. -/

theorem value7 (c : Dev nD) : (dat7 V c).arrAt 3 cfg7.N = Cert.Spec.attn (n := 100000) (V c main_v51_0) (V c main_arg2) (V c main_v24) :=
  (dat7 V c).arrAt_eq_of_cover 3 _ (fun t _ => flushed_eq V c t) blocks_cover

end Cert.KernelIdeal.Val

end
-- ==== Proof.Reg8.lean ====
import proofs.«425177_j67456756351000_2_alg».proof.Proof.Gen.KernelIdeal.Frame
import proofs.«425177_j67456756351000_2_alg».proof.Proof.Spec
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

namespace Cert.KernelIdeal.Val

open Cert.KernelIdeal Cert.KernelIdeal.Gen Idealize.ShloMosaic Idealize.ShloMosaic.TcCoe Idealize.SL.Sem Idealize.ShloMosaic.ValueIdx
open Idealize.ShloMosaic.Pipeline (Dat)

/- The TensorCore's buffer contents when the region is entered (any). -/
variable (V : (c : Dev nD) → (b : Ref sig .tc) → Buf (Elt Ideal) ((c : Thread nD τ).loc b))

/-! Region 8 (the second hop's interaction messages): the same kernel as region 3 over the second hop's gathered item embeddings. -/

/-- The zero offsets of a whole-block access, as a constant function. -/
theorem value8_hz : (![0, 0] : Fin 2 → Nat) = fun _ => 0 := funext fun a => by fin_cases a <;> rfl

/-- The body's arithmetic at row p, channel q of a block: the embedding entry times the row's weight (the weight
    column repeated along the channels). -/
theorem value8_pay (x0 : Vec Ideal S10000x64 .f32) (x1 : Vec Ideal S10000x1 .f32) (p : Fin 10000) (q : Fin 64) :
    k8_pay1 x0 x1 (ix2 p q) = x0 (ix2 p q) * x1 (ix2 p (0 : Fin 1)) := by
  show mulf (F := Ideal) (φ := .f32) (shapeCast S10000x64 x0 shapeCasts_S10000x64_S10000x64)
      (broadcastTo S10000x64 (shapeCast S10000x1 x1 shapeCasts_S10000x1_S10000x1) broadcasts_S10000x1_S10000x64) (ix2 p q) = _
  rw [shapeCast_self, shapeCast_self, mulf_apply,
    broadcastTo_apply x1 broadcasts_S10000x1_S10000x64 (ix2 p q) (ix2 p (0 : Fin 1)) (fun a => match a with
      | ⟨0, _⟩ => by show p.val = if (10000 : Nat) = 1 then 0 else p.val; rw [if_neg (by decide)]
      | ⟨1, _⟩ => by show 0 = if (1 : Nat) = 1 then 0 else q.val; rw [if_pos rfl])]

/-- Block T of the product: if the two loaded blocks are rows T·10000 … T·10000 + 9999 of the arrays A and W, the body's
    result at y is A times the weight column at the array index k that y names in block T. -/
theorem value8_point (x0 : Vec Ideal S10000x64 .f32) (x1 : Vec Ideal S10000x1 .f32) (A : Cert.Spec.Mat 1000000 64)
    (W : Cert.Spec.Mat 1000000 1) (T : Nat)
    (hx0 : ∀ (y : S10000x64.Idx) (k : S1000000x64.Idx), (k 0).val = T * 10000 + (y 0).val → (k 1).val = (y 1).val → x0 y = A k)
    (hx1 : ∀ (y : S10000x1.Idx) (k : S1000000x1.Idx), (k 0).val = T * 10000 + (y 0).val → (k 1).val = (y 1).val → x1 y = W k)
    (y : S10000x64.Idx) (k : S1000000x64.Idx) (hk0 : (k 0).val = T * 10000 + (y 0).val) (hk1 : (k 1).val = (y 1).val) :
    k8_pay1 x0 x1 y = Cert.Spec.wscale (n := 1000000) A W k := by
  obtain ⟨p, q, rfl⟩ : ∃ (p : Fin 10000) (q : Fin 64), y = ix2 p q := ⟨y 0, y 1, eq_ix2 y⟩
  obtain ⟨r, s, rfl⟩ : ∃ (r : Fin 1000000) (s : Fin 64), k = ix2 r s := ⟨k 0, k 1, eq_ix2 k⟩
  have hr : r.val = T * 10000 + p.val := hk0
  have hs : s.val = q.val := hk1
  rw [value8_pay, hx0 (ix2 p q) (ix2 r s) hr hs, hx1 (ix2 p (0 : Fin 1)) (ix2 r (0 : Fin 1)) hr rfl]
  rfl

/-- The printed index maps, decided over the grid: at point t every window's block is block row t, block column 0. -/
theorem value8_idx : ∀ t : Fin cfg8.N, win8_0.index t (0 : Fin 2) = t.val ∧ win8_0.index t (1 : Fin 2) = 0
    ∧ win8_1.index t (0 : Fin 2) = t.val ∧ win8_1.index t (1 : Fin 2) = 0
    ∧ win8_2.index t (0 : Fin 2) = t.val ∧ win8_2.index t (1 : Fin 2) = 0 :=
  (by decide +kernel : ∀ t : Fin grid8.N, _)

/-- Input window 0's block at point t is rows t·10000 … of its array. -/
theorem value8_iblk0 (c : Dev nD) (t : Fin cfg8.N) (y : S10000x64.Idx) (k : S1000000x64.Idx)
    (hk0 : (k 0).val = t.val * 10000 + (y 0).val) (hk1 : (k 1).val = (y 1).val) :
    (iblk8 V c 0 t : Vec Ideal S10000x64 .f32) y = (V c main_v71 : S1000000x64.Idx → EReal) k := by
  obtain ⟨e0, e1, -⟩ := value8_idx t
  unfold iblk8
  rw [View.read_apply]
  show V c main_v71 _ = V c main_v71 _
  congr 1
  funext a
  apply Fin.ext
  match a with
  | ⟨0, _⟩ => show win8_0.index t (0 : Fin 2) * 10000 + 1 * (y 0).val = (k 0).val; rw [e0, hk0]; omega
  | ⟨1, _⟩ => show win8_0.index t (1 : Fin 2) * 64 + 1 * (y 1).val = (k 1).val; rw [e1, hk1]; omega

/-- Input window 1's block at point t is rows t·10000 … of its array. -/
theorem value8_iblk1 (c : Dev nD) (t : Fin cfg8.N) (y : S10000x1.Idx) (k : S1000000x1.Idx)
    (hk0 : (k 0).val = t.val * 10000 + (y 0).val) (hk1 : (k 1).val = (y 1).val) :
    (iblk8 V c 1 t : Vec Ideal S10000x1 .f32) y = (V c main_v26 : S1000000x1.Idx → EReal) k := by
  obtain ⟨-, -, e2, e3, -⟩ := value8_idx t
  unfold iblk8
  rw [View.read_apply]
  show V c main_v26 _ = V c main_v26 _
  congr 1
  funext a
  apply Fin.ext
  match a with
  | ⟨0, _⟩ => show win8_1.index t (0 : Fin 2) * 10000 + 1 * (y 0).val = (k 0).val; rw [e2, hk0]; omega
  | ⟨1, _⟩ => show win8_1.index t (1 : Fin 2) * 1 + 1 * (y 1).val = (k 1).val; rw [e3, hk1]; omega

/-- What point t writes back is block t of the product array. -/
theorem value8_flushed (c : Dev nD) (t : Fin cfg8.N) :
    (dat8 V c).flushed 2 t
      = ((cfg8.win 2).blk t).view.read (Elt Ideal) (Cert.Spec.wscale (n := 1000000) (V c main_v71) (V c main_v26)) := by
  show (cfg8.win 2).cut (grid8.coords t) ((dat8 V c).after 2 t) = _
  rw [after8_2]
  unfold out8_2
  rw [View.canon_unit_zero value8_hz]
  simp only [View.ld_unit_zero (S := S10000x64) value8_hz, View.ld_unit_zero (S := S10000x1) value8_hz]
  obtain ⟨-, -, -, -, e4, e5⟩ := value8_idx t
  funext j
  show k8_pay1 (iblk8 V c 0 t) (iblk8 V c 1 t) j
    = Cert.Spec.wscale (n := 1000000) (V c main_v71) (V c main_v26) (((cfg8.win 2).blk t).view.emb j)
  refine value8_point _ _ _ _ t.val (fun y k h0 h1 => value8_iblk0 V c t y k h0 h1) (fun y k h0 h1 => value8_iblk1 V c t y k h0 h1) j _ ?_ ?_
  · show win8_2.index t (0 : Fin 2) * 10000 + 1 * (j 0).val = t.val * 10000 + (j 0).val; rw [e4]; omega
  · show win8_2.index t (1 : Fin 2) * 64 + 1 * (j 1).val = (j 1).val; rw [e5]; omega

/-- An index of the array is in point t's block iff each coordinate is in the block's range on its axis. -/
theorem value8_mem_blk (t : Fin cfg8.N) (i : S1000000x64.Idx) :
    i ∈ ((cfg8.win 2).blk t).view.set ↔ ∀ a : Fin 2, win8_2.index t a * S10000x64.size a ≤ (i a).val ∧ (i a).val < win8_2.index t a * S10000x64.size a + S10000x64.size a := by
  show i ∈ ((View.whole main_v72).slice (win8_2.rect t)).set ↔ _
  rw [View.set_slice_whole, Rect.mem_set_unit]
  exact Iff.rfl

/-- Every row r of the array is in the block of point r / 10000. -/
theorem value8_cover (i : S1000000x64.Idx) :
    ∃ t : Fin cfg8.N, (cfg8.win 2).flush t = true ∧ i ∈ ((cfg8.win 2).blk t).view.set := by
  have hi0 : (i 0).val < 1000000 := (i 0).isLt
  have hi1 : (i 1).val < 64 := (i 1).isLt
  have hN : cfg8.N = 100 := N_8
  obtain ⟨t, ht⟩ : ∃ t : Fin cfg8.N, t.val = (i 0).val / 10000 := ⟨⟨(i 0).val / 10000, by rw [hN]; omega⟩, rfl⟩
  obtain ⟨-, -, -, -, e4, e5⟩ := value8_idx t
  refine ⟨t, flush8_2 t, ?_⟩
  rw [value8_mem_blk]
  intro a
  match a with
  | ⟨0, _⟩ => show win8_2.index t (0 : Fin 2) * 10000 ≤ (i 0).val ∧ (i 0).val < win8_2.index t (0 : Fin 2) * 10000 + 10000; rw [e4, ht]; omega
  | ⟨1, _⟩ => show win8_2.index t (1 : Fin 2) * 64 ≤ (i 1).val ∧ (i 1).val < win8_2.index t (1 : Fin 2) * 64 + 64; rw [e5]; omega

theorem value8 (c : Dev nD) : (dat8 V c).arrAt 2 cfg8.N = Cert.Spec.wscale (n := 1000000) (V c main_v71) (V c main_v26) :=
  (dat8 V c).arrAt_eq_of_cover 2 _ (fun t _ => value8_flushed V c t) value8_cover

end Cert.KernelIdeal.Val

end
-- ==== Proof.Reg9.lean ====
import proofs.«425177_j67456756351000_2_alg».proof.Proof.Gen.KernelIdeal.Frame
import proofs.«425177_j67456756351000_2_alg».proof.Proof.Spec
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

namespace Cert.KernelIdeal.Val

open Cert.KernelIdeal Cert.KernelIdeal.Gen Idealize.ShloMosaic Idealize.ShloMosaic.TcCoe Idealize.SL.Sem Idealize.ShloMosaic.ValueIdx
open Idealize.ShloMosaic.Pipeline (Dat)

/- The TensorCore's buffer contents when the region is entered (any). -/
variable (V : (c : Dev nD) → (b : Ref sig .tc) → Buf (Elt Ideal) ((c : Thread nD τ).loc b))

/-! Region 9 (the second hop's user update): the same kernel as region 4 over the second hop's aggregate and attention and the first hop's residual. -/

/-! ## The body's arithmetic at one element of a row block

A block is 5000 whole rows of 64 channels. At row `p`, channel `q` the body forms the aggregate times
(attention + 1), and divides it by the row's Euclidean norm (the square root of the sum over the 64 channels of
the squares) clamped at ε from below. -/

/-- The aggregate scaled by attention plus one, at row `p`, channel `q` of a block. -/
abbrev value9_mix (x0 x1 : Vec Ideal S5000x64 .f32) (p : Fin 5000) (q : Fin 64) : EReal :=
  x0 (ix2 p q) * (x1 (ix2 p q) + Cert.Spec.one)

/-- The index a lane sum reads at row `p`, lane `k`, is `(p, k)`. -/
theorem value9_lift (p : Fin 5000) (k : Fin 64) :
    (reduces_S5000x64_S5000).lift (ix1 p) k = (ix2 p k : S5000x64.Idx) := by
  funext a
  apply Fin.ext
  match a with
  | ⟨0, _⟩ => rfl
  | ⟨1, _⟩ => rfl

/-- The normalized row at `(p, q)`: the scaled aggregate over the clamped norm of its row. -/
theorem value9_pay_new (x0 x1 : Vec Ideal S5000x64 .f32) (p : Fin 5000) (q : Fin 64) :
    k9_pay1 (F := Ideal) x0 x1 (ix2 p q)
      = Ideal.div (value9_mix x0 x1 p q)
          (max (Ideal.sqrt (∑ k : Fin 64, value9_mix x0 x1 p k * value9_mix x0 x1 p k)) Cert.Spec.eps) := by
  unfold k9_pay1
  simp only [shapeCast_self]
  refine (divf_apply _ _ _).trans (congrArg₂ Ideal.div rfl ?_)
  -- the divisor: a column broadcast along the channels reads its row's entry
  refine (broadcastTo_apply _ broadcasts_S5000x1_S5000x64 (ix2 p q) (ix2 p (0 : Fin 1)) (fun a => ?_)).trans ?_
  · match a with
    | ⟨0, _⟩ => rfl
    | ⟨1, _⟩ => rfl
  refine (maximumf_apply _ _ _).trans (congrArg₂ max ?_ rfl)
  show Ideal.sqrt _ = Ideal.sqrt _
  refine congrArg Ideal.sqrt ?_
  -- the column of lane sums reads the vector of lane sums at its row
  refine (shapeCast_apply _ shapeCasts_S5000_S5000x1 (ix2 p (0 : Fin 1)) (ix1 p) ?_).trans ?_
  · rw [Shape.rowMajor_val_one, Shape.rowMajor_val_two]
    show p.val = p.val * 1 + 0
    omega
  -- a lane sum is the sum over the 64 channels
  refine (Ideal.multiReduction_add_single (φ := .f32) _ 0x00000000#32 reduces_S5000x64_S5000 (.inl rfl) rfl (ix1 p)).trans ?_
  show ∑ k : Fin 64, _ = ∑ k : Fin 64, _
  refine Finset.sum_congr rfl fun k _ => ?_
  exact (congrArg _ (value9_lift p k)).trans rfl

/-- The residual sum at `(p, q)`: the residual plus the normalized row. -/
theorem value9_pay_res (x0 x1 x2 : Vec Ideal S5000x64 .f32) (p : Fin 5000) (q : Fin 64) :
    k9_pay2 (F := Ideal) x0 x1 x2 (ix2 p q) = x2 (ix2 p q) + k9_pay1 (F := Ideal) x0 x1 (ix2 p q) := by
  unfold k9_pay2
  -- a cast to the same shape, where the body has one, is the identity
  first
    | rfl
    | (simp only [shapeCast_self]; rfl)

/-! ## From blocks to the arrays

Every window of the region is a row block: at grid point `t` it holds rows `5000 t … 5000 t + 4999` of its array, all 64
channels. So the entry `(p, q)` of a block at point `t` is the entry `(5000 t + p, q)` of the array. -/

theorem value9_hz : (![0, 0] : Fin 2 → Nat) = fun _ => 0 := funext fun a => by fin_cases a <;> rfl

/-- Every window's block index at grid point `t` is `(t, 0)`: block row `t`, the one block column. -/
theorem value9_idx : ∀ t : Fin cfg9.N,
    win9_0.index t (0 : Fin 2) = t.val ∧ win9_0.index t (1 : Fin 2) = 0
    ∧ win9_1.index t (0 : Fin 2) = t.val ∧ win9_1.index t (1 : Fin 2) = 0
    ∧ win9_2.index t (0 : Fin 2) = t.val ∧ win9_2.index t (1 : Fin 2) = 0
    ∧ win9_3.index t (0 : Fin 2) = t.val ∧ win9_3.index t (1 : Fin 2) = 0
    ∧ win9_4.index t (0 : Fin 2) = t.val ∧ win9_4.index t (1 : Fin 2) = 0 :=
  (by decide +kernel : ∀ t : Fin grid9.N, _)

/-- The three arrays the region reads, as it finds them: the aggregated items, the attention, the residual. -/
abbrev value9_agg (c : Dev nD) : Cert.Spec.Mat 100000 64 := V c main_v75
abbrev value9_att (c : Dev nD) : Cert.Spec.Mat 100000 64 := V c main_v64
abbrev value9_rsd (c : Dev nD) : Cert.Spec.Mat 100000 64 := V c main_v51_1

/-- Their blocks at point `t`. -/
abbrev value9_xagg (c : Dev nD) (t : Fin cfg9.N) : Vec Ideal S5000x64 .f32 := iblk9 V c 0 t
abbrev value9_xatt (c : Dev nD) (t : Fin cfg9.N) : Vec Ideal S5000x64 .f32 := iblk9 V c 1 t
abbrev value9_xrsd (c : Dev nD) (t : Fin cfg9.N) : Vec Ideal S5000x64 .f32 := iblk9 V c 2 t

/-- The aggregates' block at point `t` reads the aggregates' array at the block's rows. -/
theorem value9_blk_agg (c : Dev nD) (t : Fin cfg9.N) (x : S5000x64.Idx) (k : S100000x64.Idx)
    (hk0 : (k 0).val = t.val * 5000 + (x 0).val) (hk1 : (k 1).val = (x 1).val) :
    value9_xagg V c t x = value9_agg V c k := by
  obtain ⟨e0, e1, -⟩ := value9_idx t
  unfold value9_xagg iblk9
  rw [View.read_apply]
  show V c main_v75 _ = V c main_v75 _
  refine congrArg _ ?_
  funext a
  apply Fin.ext
  match a with
  | ⟨0, _⟩ => show win9_0.index t (0 : Fin 2) * 5000 + 1 * (x 0).val = (k 0).val; rw [e0, hk0]; omega
  | ⟨1, _⟩ => show win9_0.index t (1 : Fin 2) * 64 + 1 * (x 1).val = (k 1).val; rw [e1, hk1]; omega

/-- The attention's block at point `t` reads the attention's array at the block's rows. -/
theorem value9_blk_att (c : Dev nD) (t : Fin cfg9.N) (x : S5000x64.Idx) (k : S100000x64.Idx)
    (hk0 : (k 0).val = t.val * 5000 + (x 0).val) (hk1 : (k 1).val = (x 1).val) :
    value9_xatt V c t x = value9_att V c k := by
  obtain ⟨-, -, e0, e1, -⟩ := value9_idx t
  unfold value9_xatt iblk9
  rw [View.read_apply]
  show V c main_v64 _ = V c main_v64 _
  refine congrArg _ ?_
  funext a
  apply Fin.ext
  match a with
  | ⟨0, _⟩ => show win9_1.index t (0 : Fin 2) * 5000 + 1 * (x 0).val = (k 0).val; rw [e0, hk0]; omega
  | ⟨1, _⟩ => show win9_1.index t (1 : Fin 2) * 64 + 1 * (x 1).val = (k 1).val; rw [e1, hk1]; omega

/-- The residual's block at point `t` reads the residual's array at the block's rows. -/
theorem value9_blk_res (c : Dev nD) (t : Fin cfg9.N) (x : S5000x64.Idx) (k : S100000x64.Idx)
    (hk0 : (k 0).val = t.val * 5000 + (x 0).val) (hk1 : (k 1).val = (x 1).val) :
    value9_xrsd V c t x = value9_rsd V c k := by
  obtain ⟨-, -, -, -, e0, e1, -⟩ := value9_idx t
  unfold value9_xrsd iblk9
  rw [View.read_apply]
  show V c main_v51_1 _ = V c main_v51_1 _
  refine congrArg _ ?_
  funext a
  apply Fin.ext
  match a with
  | ⟨0, _⟩ => show win9_2.index t (0 : Fin 2) * 5000 + 1 * (x 0).val = (k 0).val; rw [e0, hk0]; omega
  | ⟨1, _⟩ => show win9_2.index t (1 : Fin 2) * 64 + 1 * (x 1).val = (k 1).val; rw [e1, hk1]; omega

/-- What the body leaves at `(p, q)` of the first output's block at point `t` is the new user rows at `(r, q)`,
    `r = 5000 t + p`: the row's 64 channels lie in the same block. -/
theorem value9_new_at (c : Dev nD) (t : Fin cfg9.N) (p : Fin 5000) (q : Fin 64) (r : Fin 100000)
    (hr : r.val = t.val * 5000 + p.val) :
    k9_pay1 (F := Ideal) (value9_xagg V c t) (value9_xatt V c t) (ix2 p q)
      = Cert.Spec.userNew (value9_agg V c) (value9_att V c) (ix2 r q) := by
  have hA : ∀ k : Fin 64, value9_xagg V c t (ix2 p k) = value9_agg V c (ix2 r k) :=
    fun k => value9_blk_agg V c t (ix2 p k) (ix2 r k) hr rfl
  have hB : ∀ k : Fin 64, value9_xatt V c t (ix2 p k) = value9_att V c (ix2 r k) :=
    fun k => value9_blk_att V c t (ix2 p k) (ix2 r k) hr rfl
  refine (value9_pay_new (value9_xagg V c t) (value9_xatt V c t) p q).trans ?_
  show _ = Ideal.div (value9_agg V c (ix2 r q) * (value9_att V c (ix2 r q) + Cert.Spec.one))
      (max (Ideal.sqrt (∑ k : Fin 64, (value9_agg V c (ix2 r k) * (value9_att V c (ix2 r k) + Cert.Spec.one))
        * (value9_agg V c (ix2 r k) * (value9_att V c (ix2 r k) + Cert.Spec.one)))) Cert.Spec.eps)
  unfold value9_mix
  rw [hA q, hB q]
  refine congrArg (fun s => Ideal.div _ (max (Ideal.sqrt s) Cert.Spec.eps)) ?_
  refine Finset.sum_congr rfl fun k _ => ?_
  rw [hA k, hB k]

/-- The same for an element of the block and the array index over it. -/
theorem value9_new_blk (c : Dev nD) (t : Fin cfg9.N) (x : S5000x64.Idx) (i : S100000x64.Idx)
    (hi0 : (i 0).val = t.val * 5000 + (x 0).val) (hi1 : (i 1).val = (x 1).val) :
    k9_pay1 (F := Ideal) (value9_xagg V c t) (value9_xatt V c t) x
      = Cert.Spec.userNew (value9_agg V c) (value9_att V c) i := by
  obtain ⟨p, q, rfl⟩ : ∃ (p : Fin 5000) (q : Fin 64), x = ix2 p q := ⟨x 0, x 1, eq_ix2 x⟩
  obtain ⟨r, s, rfl⟩ : ∃ (r : Fin 100000) (s : Fin 64), i = ix2 r s := ⟨i 0, i 1, eq_ix2 i⟩
  obtain rfl : s = q := Fin.ext hi1
  exact value9_new_at V c t p s r hi0

/-- And for the second output: the residual's entry plus the new user rows' entry. -/
theorem value9_res_blk (c : Dev nD) (t : Fin cfg9.N) (x : S5000x64.Idx) (i : S100000x64.Idx)
    (hi0 : (i 0).val = t.val * 5000 + (x 0).val) (hi1 : (i 1).val = (x 1).val) :
    k9_pay2 (F := Ideal) (value9_xagg V c t) (value9_xatt V c t) (value9_xrsd V c t) x
      = Cert.Spec.resAdd (value9_rsd V c) (Cert.Spec.userNew (value9_agg V c) (value9_att V c)) i := by
  obtain ⟨p, q, rfl⟩ : ∃ (p : Fin 5000) (q : Fin 64), x = ix2 p q := ⟨x 0, x 1, eq_ix2 x⟩
  refine (value9_pay_res (value9_xagg V c t) (value9_xatt V c t) (value9_xrsd V c t) p q).trans ?_
  show _ = value9_rsd V c i + Cert.Spec.userNew (value9_agg V c) (value9_att V c) i
  rw [value9_blk_res V c t (ix2 p q) i hi0 hi1, value9_new_blk V c t (ix2 p q) i hi0 hi1]

/-- What grid point `t` writes back to the first output is block `t` of the new user rows. -/
theorem value9_flushed_new (c : Dev nD) (t : Fin cfg9.N) :
    (dat9 V c).flushed 3 t
      = ((cfg9.win 3).blk t).view.read (Elt Ideal) (Cert.Spec.userNew (n := 100000) (V c main_v75) (V c main_v64)) := by
  show (cfg9.win 3).cut (grid9.coords t) ((dat9 V c).after 3 t) = _
  rw [after9_3]
  unfold out9_3
  rw [View.canon_unit_zero value9_hz]
  simp only [View.ld_unit_zero (S := S5000x64) value9_hz]
  obtain ⟨-, -, -, -, -, -, e0, e1, -⟩ := value9_idx t
  funext j
  show k9_pay1 (F := Ideal) (iblk9 V c 0 t) (iblk9 V c 1 t) j
      = Cert.Spec.userNew (n := 100000) (V c main_v75) (V c main_v64) (((cfg9.win 3).blk t).view.emb j)
  refine value9_new_blk V c t j _ ?_ ?_
  · show win9_3.index t (0 : Fin 2) * 5000 + 1 * (j 0).val = t.val * 5000 + (j 0).val
    rw [e0]; omega
  · show win9_3.index t (1 : Fin 2) * 64 + 1 * (j 1).val = (j 1).val
    rw [e1]; omega

/-- What grid point `t` writes back to the second output is block `t` of the residual sum. -/
theorem value9_flushed_res (c : Dev nD) (t : Fin cfg9.N) :
    (dat9 V c).flushed 4 t
      = ((cfg9.win 4).blk t).view.read (Elt Ideal)
          (Cert.Spec.resAdd (n := 100000) (V c main_v51_1) (Cert.Spec.userNew (V c main_v75) (V c main_v64))) := by
  show (cfg9.win 4).cut (grid9.coords t) ((dat9 V c).after 4 t) = _
  rw [after9_4]
  unfold out9_4
  rw [View.canon_unit_zero value9_hz]
  simp only [View.ld_unit_zero (S := S5000x64) value9_hz]
  obtain ⟨-, -, -, -, -, -, -, -, e0, e1⟩ := value9_idx t
  funext j
  show k9_pay2 (F := Ideal) (iblk9 V c 0 t) (iblk9 V c 1 t) (iblk9 V c 2 t) j
      = Cert.Spec.resAdd (n := 100000) (V c main_v51_1) (Cert.Spec.userNew (V c main_v75) (V c main_v64)) (((cfg9.win 4).blk t).view.emb j)
  refine value9_res_blk V c t j _ ?_ ?_
  · show win9_4.index t (0 : Fin 2) * 5000 + 1 * (j 0).val = t.val * 5000 + (j 0).val
    rw [e0]; omega
  · show win9_4.index t (1 : Fin 2) * 64 + 1 * (j 1).val = (j 1).val
    rw [e1]; omega

/-- An index of the first output's array is in point `t`'s block iff each coordinate is in the block's range. -/
theorem value9_mem_new (t : Fin cfg9.N) (i : S100000x64.Idx) :
    i ∈ ((cfg9.win 3).blk t).view.set ↔ ∀ a : Fin 2, win9_3.index t a * S5000x64.size a ≤ (i a).val ∧ (i a).val < win9_3.index t a * S5000x64.size a + S5000x64.size a := by
  show i ∈ ((View.whole main_v76_0).slice (win9_3.rect t)).set ↔ _
  rw [View.set_slice_whole, Rect.mem_set_unit]
  exact Iff.rfl

/-- The same for the second output's array. -/
theorem value9_mem_res (t : Fin cfg9.N) (i : S100000x64.Idx) :
    i ∈ ((cfg9.win 4).blk t).view.set ↔ ∀ a : Fin 2, win9_4.index t a * S5000x64.size a ≤ (i a).val ∧ (i a).val < win9_4.index t a * S5000x64.size a + S5000x64.size a := by
  show i ∈ ((View.whole main_v76_1).slice (win9_4.rect t)).set ↔ _
  rw [View.set_slice_whole, Rect.mem_set_unit]
  exact Iff.rfl

/-- The 20 row blocks cover the first output's array: row `r` lies in the block of point `r / 5000`. -/
theorem value9_cover_new (i : S100000x64.Idx) :
    ∃ t : Fin cfg9.N, (cfg9.win 3).flush t = true ∧ i ∈ ((cfg9.win 3).blk t).view.set := by
  have hN : cfg9.N = 20 := N_9
  have hi0 : (i 0).val < 100000 := (i 0).isLt
  have hi1 : (i 1).val < 64 := (i 1).isLt
  have ht : (i 0).val / 5000 < cfg9.N := by rw [hN]; omega
  obtain ⟨-, -, -, -, -, -, e0, e1, -⟩ := value9_idx ⟨(i 0).val / 5000, ht⟩
  refine ⟨⟨(i 0).val / 5000, ht⟩, flush9_3 _, ?_⟩
  rw [value9_mem_new]
  intro a
  match a with
  | ⟨0, _⟩ =>
    show win9_3.index ⟨(i 0).val / 5000, ht⟩ (0 : Fin 2) * 5000 ≤ (i 0).val ∧ (i 0).val < win9_3.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win9_3.index ⟨(i 0).val / 5000, ht⟩ (1 : Fin 2) * 64 ≤ (i 1).val ∧ (i 1).val < win9_3.index ⟨(i 0).val / 5000, ht⟩ (1 : Fin 2) * 64 + 64
    rw [e1]; omega

/-- And the second output's. -/
theorem value9_cover_res (i : S100000x64.Idx) :
    ∃ t : Fin cfg9.N, (cfg9.win 4).flush t = true ∧ i ∈ ((cfg9.win 4).blk t).view.set := by
  have hN : cfg9.N = 20 := N_9
  have hi0 : (i 0).val < 100000 := (i 0).isLt
  have hi1 : (i 1).val < 64 := (i 1).isLt
  have ht : (i 0).val / 5000 < cfg9.N := by rw [hN]; omega
  obtain ⟨-, -, -, -, -, -, -, -, e0, e1⟩ := value9_idx ⟨(i 0).val / 5000, ht⟩
  refine ⟨⟨(i 0).val / 5000, ht⟩, flush9_4 _, ?_⟩
  rw [value9_mem_res]
  intro a
  match a with
  | ⟨0, _⟩ =>
    show win9_4.index ⟨(i 0).val / 5000, ht⟩ (0 : Fin 2) * 5000 ≤ (i 0).val ∧ (i 0).val < win9_4.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win9_4.index ⟨(i 0).val / 5000, ht⟩ (1 : Fin 2) * 64 ≤ (i 1).val ∧ (i 1).val < win9_4.index ⟨(i 0).val / 5000, ht⟩ (1 : Fin 2) * 64 + 64
    rw [e1]; omega

theorem value9_new (c : Dev nD) : (dat9 V c).arrAt 3 cfg9.N = Cert.Spec.userNew (n := 100000) (V c main_v75) (V c main_v64) := by
  exact (dat9 V c).arrAt_eq_of_cover 3 _ (fun t _ => value9_flushed_new V c t) value9_cover_new

theorem value9_res (c : Dev nD) : (dat9 V c).arrAt 4 cfg9.N = Cert.Spec.resAdd (n := 100000) (V c main_v51_1) (Cert.Spec.userNew (V c main_v75) (V c main_v64)) := by
  exact (dat9 V c).arrAt_eq_of_cover 4 _ (fun t _ => value9_flushed_res V c t) value9_cover_res

end Cert.KernelIdeal.Val

end
-- ==== Proof.RefRel.lean ====
import proofs.«425177_j67456756351000_2_alg».proof.Proof.Gen.ReferenceIdeal
import proofs.«425177_j67456756351000_2_alg».proof.Proof.Spec
import Idealize.ShloMosaic.PureOps.Ideal.Laws
import Idealize.ShloMosaic.Lib.ValueIdx
import Idealize.ShloMosaic.Lib.Pipeline.Value
import Idealize.ShloMosaic.Lib.ValueLayout
import Idealize.ShloMosaic.Lib.KernelVsHost

noncomputable section

namespace Cert.ReferenceIdeal.Bridge

open Cert.ReferenceIdeal Cert.ReferenceIdeal.Gen Idealize.ShloMosaic Idealize.ShloMosaic.TcCoe Idealize.ShloMosaic.ValueIdx

/-! ## Words: a label between 1 and 9, less one -/

/-- A word whose signed value is between 1 and 9, less one, has the signed value one smaller: nothing wraps. -/
theorem toInt_pred {e : BitVec 32} (h : 1 ≤ e.toInt ∧ e.toInt ≤ 9) : (e - 1#32).toInt = e.toInt - 1 := by
  have h1 : (1#32 : BitVec 32).toInt = 1 := by decide
  have h2 : (2 : Int) ^ 32 = 4294967296 := by norm_num
  rw [BitVec.toInt_sub, h1, Int.bmod_def]
  omega

/-- The reference's index arithmetic on such a label: the label less one is not negative, so the wrap by the table's
    length is not taken and the index is the label less one. -/
theorem wrap_pred {e : BitVec 32} (h : 1 ≤ e.toInt ∧ e.toInt ≤ 9) :
    Scalar.select (IntOp.cmpi .slt (IntOp.subi e 1#32) 0#32) (IntOp.addi (IntOp.subi e 1#32) 9#32) (IntOp.subi e 1#32)
      = e - 1#32 := by
  have h0 : (0#32 : BitVec 32).toInt = 0 := by decide
  have hc : IntOp.cmpi .slt (IntOp.subi e 1#32) 0#32 = 0#1 := by
    show BitVec.ofBool ((e - 1#32).slt 0#32) = 0#1
    have : (e - 1#32).slt 0#32 = false := by
      simp only [BitVec.slt, toInt_pred h, h0, decide_eq_false_iff_not]
      omega
    rw [this]; rfl
  rw [hc, select_zero]; rfl

/-! ## A row lookup read at an index -/

/-- A gather that collapses the table's row axis, keeps its channel axis whole and reads one start index per result row
    — what `table[idx]` of a two-axis table lowers to — is, at row `p` and channel `q`, the table at channel `q` of the
    row the start index of `p` names, that index read signed and clamped into the table. -/
theorem gather_rows_apply {α : Type} {N C n w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (p : Fin n) (q : Fin C) (hN : 0 < N) :
    Host.gather d x idx (ix2 p q) = x (ix2 ⟨min (idx (ix2 p (0 : Fin 1))).toInt.toNat (N - 1), by omega⟩ q) := by
  unfold Host.gather
  refine congrArg x (funext fun a => Fin.ext ?_)
  have hb : ∀ a, a ∉ d.operandBatchingDims := fun a => by rw [hob]; exact List.not_mem_nil
  match a with
  | ⟨0, _⟩ =>
    -- the row axis: collapsed, so no offset; its start is the clamped start index
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 p q) idx 0 + d.batchCoord (ix2 p q) 0 + d.offCoord (ix2 p q) 0 = min (idx (ix2 p 0)).toInt.toNat (N - 1)
    rw [GatherDims.batchCoord_eq_zero _ _ _ (hb 0), GatherDims.offCoord_eq_zero _ _ _ hk, Nat.add_zero]
    unfold GatherDims.start
    rw [dif_pos hm]
    show min (idx _).toInt.toNat (N - d.sliceSizes 0) = _
    rw [hsl]
    -- the result's batch axis is its row axis
    have hbatch : ∀ X : Fin 2, X ∈ d.batchDims → ((ix2 p q : (⟨2, ![n, C]⟩ : Shape).Idx) X).val = p.val := by
      intro X hX
      have : X ∉ d.offsetDims := by
        have := hX
        simp only [GatherDims.batchDims, Shape.kept, List.mem_filter] at this
        simpa using this.2
      rw [hoff, List.mem_singleton] at this
      match X, this with
      | ⟨0, _⟩, _ => rfl
      | ⟨1, _⟩, h => exact absurd rfl h
    have hsi : d.siIdx (ix2 p q) ⟨List.idxOf (0 : Fin 2) d.startIndexMap, List.idxOf_lt_length_iff.2 hm⟩ = ix2 p (0 : Fin 1) := by
      funext b
      match b with
      | ⟨0, _⟩ =>
        unfold GatherDims.siIdx
        rw [dif_neg (by rw [hivd]; simp)]
        unfold GatherDims.siCoord
        apply Fin.ext
        simp only [Fin.val_cast]
        exact hbatch _ (List.getElem_mem _)
      | ⟨1, _⟩ =>
        unfold GatherDims.siIdx
        rw [dif_pos (by rw [hivd])]
        apply Fin.ext
        show List.idxOf (0 : Fin 2) d.startIndexMap = 0
        rw [hsim]; simp
    rw [hsi]
  | ⟨1, _⟩ =>
    -- the channel axis: not start-indexed, kept whole; its coordinate is the result's offset coordinate
    have hk : (1 : Fin 2) ∈ d.sKept := by rw [GatherDims.mem_sKept, hcoll, hob]; simp
    have hm : (1 : Fin 2) ∉ d.startIndexMap := by rw [hsim]; simp
    show d.start (ix2 p q) idx 1 + d.batchCoord (ix2 p q) 1 + d.offCoord (ix2 p q) 1 = q.val
    rw [GatherDims.batchCoord_eq_zero _ _ _ (hb 1), Nat.add_zero]
    unfold GatherDims.start
    rw [dif_neg hm, Nat.zero_add]
    unfold GatherDims.offCoord
    rw [dif_pos hk]
    have hoffs : ∀ X : Fin 2, X ∈ d.offsetDims → ((ix2 p q : (⟨2, ![n, C]⟩ : Shape).Idx) X).val = q.val := by
      intro X hX
      rw [hoff, List.mem_singleton] at hX
      subst hX; rfl
    exact hoffs _ (List.getElem_mem _)

/-- The reference's row lookup `weight[edge_type - 1]`: the label less one, a negative index wrapped by the table's
    length, read by a gather that clamps. -/
def refRelSel (x4 : IVec S2000000 32) (x7 : FVec Ideal S9x64 .f32) : FVec Ideal S2000000x64 .f32 :=
  Host.gather gather_S9x64_S2000000x1_S2000000x64_1_0_n_n_0_1_164 (x7) (broadcastInDim S2000000x1 ![0] bcast_S2000000_S2000000x1_0 (select (cmpi .slt (subi (x4) (broadcastInDim S2000000 ![] bcast_S_S2000000 (constantI S_ 32 1#32))) (broadcastInDim S2000000 ![] bcast_S_S2000000 (constantI S_ 32 0#32))) (addi (subi (x4) (broadcastInDim S2000000 ![] bcast_S_S2000000 (constantI S_ 32 1#32))) (broadcastInDim S2000000 ![] bcast_S_S2000000 (constantI S_ 32 9#32))) (subi (x4) (broadcastInDim S2000000 ![] bcast_S_S2000000 (constantI S_ 32 1#32)))))

/-- The looked-up row at edge `p`, channel `q`: where the label of `p` is one of 1 … 9 the index is the label less one,
    inside the table, so the clamp does nothing and the entry is channel `q` of the label's weight row. -/
theorem refRelSel_apply (x4 : IVec S2000000 32) (x7 : FVec Ideal S9x64 .f32) (p : Fin 2000000) (q : Fin 64)
    (hp : 1 ≤ (x4 (ix1 p)).toInt ∧ (x4 (ix1 p)).toInt ≤ 9) :
    refRelSel x4 x7 (ix2 p q) = Cert.Spec.relVec x7 (x4 (ix1 p)) q := by
  -- the column of start indices at row p is the index vector at p
  have hcol : ∀ y : IVec S2000000 32,
      broadcastInDim S2000000x1 ![0] bcast_S2000000_S2000000x1_0 y (ix2 p (0 : Fin 1)) = y (ix1 p) := fun y =>
    broadcastInDim_apply _ bcast_S2000000_S2000000x1_0 y (ix2 p (0 : Fin 1)) (ix1 p) (fun a => match a with
      | ⟨0, _⟩ => by show p.val = if (2000000 : Nat) = 1 then 0 else p.val; rw [if_neg (by decide)])
  unfold refRelSel
  generalize hidx : broadcastInDim S2000000x1 ![0] bcast_S2000000_S2000000x1_0 (select (cmpi .slt (subi (x4) (broadcastInDim S2000000 ![] bcast_S_S2000000 (constantI S_ 32 1#32))) (broadcastInDim S2000000 ![] bcast_S_S2000000 (constantI S_ 32 0#32))) (addi (subi (x4) (broadcastInDim S2000000 ![] bcast_S_S2000000 (constantI S_ 32 1#32))) (broadcastInDim S2000000 ![] bcast_S_S2000000 (constantI S_ 32 9#32))) (subi (x4) (broadcastInDim S2000000 ![] bcast_S_S2000000 (constantI S_ 32 1#32)))) = idx
  -- the start index of row p: the wrapped label less one, which is the label less one
  have hval : idx (ix2 p (0 : Fin 1)) = x4 (ix1 p) - 1#32 := by
    rw [← hidx, hcol]
    exact wrap_pred hp
  rw [gather_rows_apply gather_S9x64_S2000000x1_S2000000x64_1_0_n_n_0_1_164 rfl rfl rfl rfl rfl x7 idx p q (by decide)]
  simp only [Cert.Spec.relVec, Cert.Spec.relRow, dif_pos hp]
  refine congrArg x7 (congrArg (fun k : Fin 9 => (ix2 k q : S9x64.Idx)) (Fin.ext ?_))
  show min (idx (ix2 p (0 : Fin 1))).toInt.toNat (9 - 1) = ((x4 (ix1 p)).toInt - 1).toNat
  rw [hval, toInt_pred hp]
  omega

/-- Where every label is one of 1 … 9 the looked-up row is the label's weight row, so the reference's product of the
    gathered tail embeddings with it is the edge message. -/
theorem refRelSel_spec (x : FVec Ideal S2000000x64 .f32) (x4 : IVec S2000000 32) (x7 : FVec Ideal S9x64 .f32)
    (hpre : ∀ i, 1 ≤ (x4 i).toInt ∧ (x4 i).toInt ≤ 9) :
    mulf x (refRelSel x4 x7) = Cert.Spec.relMsg (n := 2000000) x (Cert.Spec.col x4) x7 := by
  funext i
  obtain ⟨p, q, rfl⟩ : ∃ (p : Fin 2000000) (q : Fin 64), i = ix2 p q := ⟨i 0, i 1, eq_ix2 i⟩
  rw [mulf_apply, refRelSel_apply x4 x7 p q (hpre (ix1 p))]
  rfl

/-- The reference's interaction message: the edge weight, laid along the 64 channels, times the gathered item embedding. -/
def refWscale (x6 : FVec Ideal S1000000 .f32) (emb : FVec Ideal S1000000x64 .f32) : FVec Ideal S1000000x64 .f32 :=
  mulf (broadcastInDim S1000000x64 ![0, 1] bcast_S1000000x1_S1000000x64_0_1 (broadcastInDim S1000000x1 ![0] bcast_S1000000_S1000000x1_0 (x6))) emb

/-- The weight laid along the channels reads, at edge `p` and any channel, the weight of `p`; the product is commuted. -/
theorem refWscale_spec (x6 : FVec Ideal S1000000 .f32) (emb : FVec Ideal S1000000x64 .f32) :
    refWscale x6 emb = Cert.Spec.wscale (n := 1000000) emb (Cert.Spec.col x6) := by
  funext i
  obtain ⟨p, q, rfl⟩ : ∃ (p : Fin 1000000) (q : Fin 64), i = ix2 p q := ⟨i 0, i 1, eq_ix2 i⟩
  have hrow : ∀ y : FVec Ideal S1000000x1 .f32,
      broadcastInDim S1000000x64 ![0, 1] bcast_S1000000x1_S1000000x64_0_1 y (ix2 p q) = y (ix2 p (0 : Fin 1)) := fun y =>
    broadcastInDim_apply _ bcast_S1000000x1_S1000000x64_0_1 y (ix2 p q) (ix2 p (0 : Fin 1)) (fun a => match a with
      | ⟨0, _⟩ => by show p.val = if (1000000 : Nat) = 1 then 0 else p.val; rw [if_neg (by decide)]
      | ⟨1, _⟩ => by show 0 = if (1 : Nat) = 1 then 0 else q.val; rw [if_pos rfl])
  have hcol : ∀ y : FVec Ideal S1000000 .f32,
      broadcastInDim S1000000x1 ![0] bcast_S1000000_S1000000x1_0 y (ix2 p (0 : Fin 1)) = y (ix1 p) := fun y =>
    broadcastInDim_apply _ bcast_S1000000_S1000000x1_0 y (ix2 p (0 : Fin 1)) (ix1 p) (fun a => match a with
      | ⟨0, _⟩ => by show p.val = if (1000000 : Nat) = 1 then 0 else p.val; rw [if_neg (by decide)])
  unfold refWscale
  rw [mulf_apply, hrow, hcol, mul_comm]
  rfl

end Cert.ReferenceIdeal.Bridge

end
-- ==== Proof.RefNorm.lean ====
import proofs.«425177_j67456756351000_2_alg».proof.Proof.Gen.ReferenceIdeal
import proofs.«425177_j67456756351000_2_alg».proof.Proof.Spec
import Idealize.ShloMosaic.PureOps.Ideal.Laws
import Idealize.ShloMosaic.Lib.ValueIdx
import Idealize.ShloMosaic.Lib.Pipeline.Value
import Idealize.ShloMosaic.Lib.ValueLayout
import Idealize.ShloMosaic.Lib.KernelVsHost

noncomputable section

namespace Cert.ReferenceIdeal.Bridge

open Cert.ReferenceIdeal Cert.ReferenceIdeal.Gen Idealize.ShloMosaic Idealize.ShloMosaic.TcCoe Idealize.ShloMosaic.ValueIdx

/-- The word `0x3F800000` denotes the real number one. -/
theorem refNorm_ofBits_one : Ideal.ofBits .f32 0x3F800000#32 = 1 := by
  simp [Ideal.ofBits, Ideal.ieee, -EReal.coe_mul]; norm_num

/-- The reference's neighbourhood mean: the summed messages over the in-degree clamped at one. -/
def refMean (agg : FVec Ideal S200000x64 .f32) (cnt : FVec Ideal S200000 .f32) : FVec Ideal S200000x64 .f32 :=
  Host.divf agg (broadcastInDim S200000x64 ![0, 1] bcast_S200000x1_S200000x64_0_1 (broadcastInDim S200000x1 ![0] bcast_S200000_S200000x1_0 (maximumf cnt (broadcastInDim S200000 ![] bcast_S_S200000 (constant S_ .f32 0x3F800000#32)))))

theorem refMean_spec (agg : FVec Ideal S200000x64 .f32) (cnt : FVec Ideal S200000 .f32) :
    refMean agg cnt = Cert.Spec.meanRows (n := 200000) agg (Cert.Spec.col cnt) := by
  funext i
  obtain ⟨p, q, rfl⟩ : ∃ (p : Fin 200000) (q : Fin 64), i = ix2 p q := ⟨i 0, i 1, eq_ix2 i⟩
  -- the divisor at (p, q) is the column's entry at (p, 0) …
  have h1 : ∀ y : FVec Ideal S200000x1 .f32,
      broadcastInDim S200000x64 ![0, 1] bcast_S200000x1_S200000x64_0_1 y (ix2 p q) = y (ix2 p (0 : Fin 1)) := fun y =>
    broadcastInDim_apply _ bcast_S200000x1_S200000x64_0_1 y (ix2 p q) (ix2 p (0 : Fin 1)) (fun a => match a with
      | ⟨0, _⟩ => by show p.val = if (200000 : Nat) = 1 then 0 else p.val; rw [if_neg (by decide)]
      | ⟨1, _⟩ => by show 0 = if (1 : Nat) = 1 then 0 else q.val; rw [if_pos rfl])
  -- … which is the vector's entry at p …
  have h2 : ∀ y : FVec Ideal S200000 .f32,
      broadcastInDim S200000x1 ![0] bcast_S200000_S200000x1_0 y (ix2 p (0 : Fin 1)) = y (ix1 p) := fun y =>
    broadcastInDim_apply _ bcast_S200000_S200000x1_0 y (ix2 p (0 : Fin 1)) (ix1 p) (fun a => match a with
      | ⟨0, _⟩ => by show p.val = if (200000 : Nat) = 1 then 0 else p.val; rw [if_neg (by decide)])
  -- … and the splat of one reads one everywhere.
  have h3 : ∀ y : FVec Ideal S_ .f32,
      broadcastInDim S200000 ![] bcast_S_S200000 y (ix1 p) = y ix0 := fun y =>
    broadcastInDim_apply _ bcast_S_S200000 y (ix1 p) ix0 (fun a => a.elim0)
  show Ideal.div (agg (ix2 p q)) _ = Ideal.div (agg (ix2 p q)) _
  rw [h1, h2, maximumf_apply, h3, constant_apply]
  rfl

/-- The reference's row normalization of the entity table (`x / max (‖x‖₂, ε)` row by row). -/
def refL2E (e : FVec Ideal S200000x64 .f32) : FVec Ideal S200000x64 .f32 :=
  Host.divf e (broadcastInDim S200000x64 ![0, 1] bcast_S200000x1_S200000x64_0_1 (maximumf (Host.sqrt (broadcastInDim S200000x1 ![0] bcast_S200000_S200000x1_0 (Host.reduceAdd (mulf e e) (constant S_ .f32 0x00000000#32) reducesTo_S200000x64_S200000_d1 h_S_))) (broadcastInDim S200000x1 ![] bcast_S_S200000x1 (constant S_ .f32 0x2B8CBCCC#32))))

theorem refL2E_spec (e : FVec Ideal S200000x64 .f32) : refL2E e = Cert.Spec.l2rows (n := 200000) e := by
  funext i
  obtain ⟨p, q, rfl⟩ : ∃ (p : Fin 200000) (q : Fin 64), i = ix2 p q := ⟨i 0, i 1, eq_ix2 i⟩
  -- the divisor at (p, q) is the clamped column's entry at (p, 0) …
  have h1 : ∀ y : FVec Ideal S200000x1 .f32,
      broadcastInDim S200000x64 ![0, 1] bcast_S200000x1_S200000x64_0_1 y (ix2 p q) = y (ix2 p (0 : Fin 1)) := fun y =>
    broadcastInDim_apply _ bcast_S200000x1_S200000x64_0_1 y (ix2 p q) (ix2 p (0 : Fin 1)) (fun a => match a with
      | ⟨0, _⟩ => by show p.val = if (200000 : Nat) = 1 then 0 else p.val; rw [if_neg (by decide)]
      | ⟨1, _⟩ => by show 0 = if (1 : Nat) = 1 then 0 else q.val; rw [if_pos rfl])
  -- … the column of row sums at (p, 0) is the vector of row sums at p …
  have h2 : ∀ y : FVec Ideal S200000 .f32,
      broadcastInDim S200000x1 ![0] bcast_S200000_S200000x1_0 y (ix2 p (0 : Fin 1)) = y (ix1 p) := fun y =>
    broadcastInDim_apply _ bcast_S200000_S200000x1_0 y (ix2 p (0 : Fin 1)) (ix1 p) (fun a => match a with
      | ⟨0, _⟩ => by show p.val = if (200000 : Nat) = 1 then 0 else p.val; rw [if_neg (by decide)])
  -- … the splat of ε reads ε everywhere …
  have h3 : ∀ y : FVec Ideal S_ .f32,
      broadcastInDim S200000x1 ![] bcast_S_S200000x1 y (ix2 p (0 : Fin 1)) = y ix0 := fun y =>
    broadcastInDim_apply _ bcast_S_S200000x1 y (ix2 p (0 : Fin 1)) ix0 (fun a => a.elim0)
  -- … and the sum over axis 1 from the zero word is the sum of the row's squares.
  have h4 : Host.reduceAdd (mulf e e) (constant S_ .f32 0x00000000#32) reducesTo_S200000x64_S200000_d1 h_S_ (ix1 p)
      = ∑ k : Fin 64, e (ix2 p k) * e (ix2 p k) := by
    simp only [Host.reduceAdd, Ideal.hostReduceAdd_def]
    rw [Ideal.hostReduceAdd_single reducesTo_S200000x64_S200000_d1 (by decide), constant_apply, Ideal.ofBits_zero_f32,
      zero_add]
    refine Finset.sum_congr rfl fun k _ => ?_
    rw [mulf_apply]
    exact congrArg (fun j => e j * e j) (funext fun a => Fin.ext (by match a with | ⟨0, _⟩ => rfl | ⟨1, _⟩ => rfl))
  unfold refL2E Cert.Spec.l2rows Cert.Spec.rowNorm
  simp only [Host.divf, Ideal.hostDivf_def]
  rw [h1, maximumf_apply, h3, constant_apply]
  simp only [Host.sqrt, Ideal.hostUnary_sqrt_def]
  rw [h2, h4]

/-- The same normalization of the user table. -/
def refL2U (e : FVec Ideal S100000x64 .f32) : FVec Ideal S100000x64 .f32 :=
  Host.divf e (broadcastInDim S100000x64 ![0, 1] bcast_S100000x1_S100000x64_0_1 (maximumf (Host.sqrt (broadcastInDim S100000x1 ![0] bcast_S100000_S100000x1_0 (Host.reduceAdd (mulf e e) (constant S_ .f32 0x00000000#32) reducesTo_S100000x64_S100000_d1 h_S_))) (broadcastInDim S100000x1 ![] bcast_S_S100000x1 (constant S_ .f32 0x2B8CBCCC#32))))

theorem refL2U_spec (e : FVec Ideal S100000x64 .f32) : refL2U e = Cert.Spec.l2rows (n := 100000) e := by
  funext i
  obtain ⟨p, q, rfl⟩ : ∃ (p : Fin 100000) (q : Fin 64), i = ix2 p q := ⟨i 0, i 1, eq_ix2 i⟩
  -- the divisor at (p, q) is the clamped column's entry at (p, 0) …
  have h1 : ∀ y : FVec Ideal S100000x1 .f32,
      broadcastInDim S100000x64 ![0, 1] bcast_S100000x1_S100000x64_0_1 y (ix2 p q) = y (ix2 p (0 : Fin 1)) := fun y =>
    broadcastInDim_apply _ bcast_S100000x1_S100000x64_0_1 y (ix2 p q) (ix2 p (0 : Fin 1)) (fun a => match a with
      | ⟨0, _⟩ => by show p.val = if (100000 : Nat) = 1 then 0 else p.val; rw [if_neg (by decide)]
      | ⟨1, _⟩ => by show 0 = if (1 : Nat) = 1 then 0 else q.val; rw [if_pos rfl])
  -- … the column of row sums at (p, 0) is the vector of row sums at p …
  have h2 : ∀ y : FVec Ideal S100000 .f32,
      broadcastInDim S100000x1 ![0] bcast_S100000_S100000x1_0 y (ix2 p (0 : Fin 1)) = y (ix1 p) := fun y =>
    broadcastInDim_apply _ bcast_S100000_S100000x1_0 y (ix2 p (0 : Fin 1)) (ix1 p) (fun a => match a with
      | ⟨0, _⟩ => by show p.val = if (100000 : Nat) = 1 then 0 else p.val; rw [if_neg (by decide)])
  -- … the splat of ε reads ε everywhere …
  have h3 : ∀ y : FVec Ideal S_ .f32,
      broadcastInDim S100000x1 ![] bcast_S_S100000x1 y (ix2 p (0 : Fin 1)) = y ix0 := fun y =>
    broadcastInDim_apply _ bcast_S_S100000x1 y (ix2 p (0 : Fin 1)) ix0 (fun a => a.elim0)
  -- … and the sum over axis 1 from the zero word is the sum of the row's squares.
  have h4 : Host.reduceAdd (mulf e e) (constant S_ .f32 0x00000000#32) reducesTo_S100000x64_S100000_d1 h_S_ (ix1 p)
      = ∑ k : Fin 64, e (ix2 p k) * e (ix2 p k) := by
    simp only [Host.reduceAdd, Ideal.hostReduceAdd_def]
    rw [Ideal.hostReduceAdd_single reducesTo_S100000x64_S100000_d1 (by decide), constant_apply, Ideal.ofBits_zero_f32,
      zero_add]
    refine Finset.sum_congr rfl fun k _ => ?_
    rw [mulf_apply]
    exact congrArg (fun j => e j * e j) (funext fun a => Fin.ext (by match a with | ⟨0, _⟩ => rfl | ⟨1, _⟩ => rfl))
  unfold refL2U Cert.Spec.l2rows Cert.Spec.rowNorm
  simp only [Host.divf, Ideal.hostDivf_def]
  rw [h1, maximumf_apply, h3, constant_apply]
  simp only [Host.sqrt, Ideal.hostUnary_sqrt_def]
  rw [h2, h4]

/-- The reference's `agg · attn + agg` is `agg · (attn + 1)` where the aggregate is finite (distributivity fails at
    an infinite factor). -/
theorem refUserMix_spec (agg a : FVec Ideal S100000x64 .f32) (hfin : Cert.Spec.IsReal agg) :
    addf (mulf agg a) agg = Cert.Spec.userMix (n := 100000) agg a := by
  funext i
  obtain ⟨r, hr⟩ := hfin i
  show agg i * a i + agg i = agg i * (a i + Cert.Spec.one)
  rw [hr, show Cert.Spec.one = 1 from refNorm_ofBits_one, ← EReal.coe_one]
  generalize a i = x
  -- a real factor distributes over x + 1: at an infinite x both sides are the same infinity, or zero when the factor is
  induction x using EReal.rec with
  | bot =>
    rw [EReal.bot_add]
    rcases lt_trichotomy r 0 with h | h | h
    · rw [EReal.coe_mul_bot_of_neg h, EReal.top_add_coe]
    · subst h; simp
    · rw [EReal.coe_mul_bot_of_pos h, EReal.bot_add]
  | top =>
    rw [EReal.top_add_coe]
    rcases lt_trichotomy r 0 with h | h | h
    · rw [EReal.coe_mul_top_of_neg h, EReal.bot_add]
    · subst h; simp
    · rw [EReal.coe_mul_top_of_pos h, EReal.top_add_coe]
  | coe x =>
    rw [← EReal.coe_add, ← EReal.coe_mul, ← EReal.coe_mul, ← EReal.coe_add]
    congr 1; ring

end Cert.ReferenceIdeal.Bridge

end
-- ==== Proof.RefAttn.lean ====
import proofs.«425177_j67456756351000_2_alg».proof.Proof.Gen.ReferenceIdeal
import proofs.«425177_j67456756351000_2_alg».proof.Proof.Spec
import Idealize.ShloMosaic.PureOps.Ideal.Laws
import Idealize.ShloMosaic.Lib.ValueIdx
import Idealize.ShloMosaic.Lib.Pipeline.Value
import Idealize.ShloMosaic.Lib.ValueLayout
import Idealize.ShloMosaic.Lib.KernelVsHost

noncomputable section

namespace Cert.ReferenceIdeal.Bridge

open Cert.ReferenceIdeal Cert.ReferenceIdeal.Gen Idealize.ShloMosaic Idealize.ShloMosaic.TcCoe Idealize.ShloMosaic.ValueIdx

/-- The reference's logits `u · latᵀ`. -/
def refLogits (x0 : FVec Ideal S100000x64 .f32) (x2 : FVec Ideal S4x64 .f32) : FVec Ideal S100000x4 .f32 :=
  Host.dotGeneral dot_S100000x64_S64x4_S100000x4_1_0_0_1_n_n none (x0) (transpose S64x4 [1, 0] (x2) transposes_S4x64_S64x4_1_0)

/-- The reference's row softmax over the four factors. -/
def refSoftmax (L : FVec Ideal S100000x4 .f32) : FVec Ideal S100000x4 .f32 :=
  Host.divf (Host.exp (subf L (broadcastInDim S100000x4 ![0, 1] bcast_S100000x1_S100000x4_0_1 (broadcastInDim S100000x1 ![0] bcast_S100000_S100000x1_0 (maximumf (broadcastInDim S100000 ![] bcast_S_S100000 (constant S_ .f32 0xFF800000#32)) (Host.reduce FloatOps.maximumf L (constant S_ .f32 0xFF800000#32) reducesTo_S100000x4_S100000_d1 h_S_)))))) (broadcastInDim S100000x4 ![0, 1] bcast_S100000x1_S100000x4_0_1 (broadcastInDim S100000x1 ![0] bcast_S100000_S100000x1_0 (Host.reduceAdd (Host.exp (subf L (broadcastInDim S100000x4 ![0, 1] bcast_S100000x1_S100000x4_0_1 (broadcastInDim S100000x1 ![0] bcast_S100000_S100000x1_0 (maximumf (broadcastInDim S100000 ![] bcast_S_S100000 (constant S_ .f32 0xFF800000#32)) (Host.reduce FloatOps.maximumf L (constant S_ .f32 0xFF800000#32) reducesTo_S100000x4_S100000_d1 h_S_)))))) (constant S_ .f32 0x00000000#32) reducesTo_S100000x4_S100000_d1 h_S_)))

/-- The reference's attention: the softmax scores mixed into the channels by `dw`. -/
def refAttn (x0 : FVec Ideal S100000x64 .f32) (x2 dw : FVec Ideal S4x64 .f32) : FVec Ideal S100000x64 .f32 :=
  Host.dotGeneral (F := Ideal) dot_S100000x4_S4x64_S100000x64_1_0_0_1_n_n none (refSoftmax (refLogits x0 x2)) dw

/-! ## Layout: the transposed table, and a per-row quantity repeated along the four factors -/

/-- The transposed table at (c, f) is the table at (f, c). -/
theorem transposeLat_apply (x2 : FVec Ideal S4x64 .f32) (c : Fin 64) (f : Fin 4) :
    transpose S64x4 [1, 0] x2 transposes_S4x64_S64x4_1_0 (ix2 c f) = x2 (ix2 f c) :=
  transpose_apply [1, 0] x2 transposes_S4x64_S64x4_1_0 (ix2 c f) (ix2 f c) (fun b => match b with
    | ⟨0, _⟩ => rfl
    | ⟨1, _⟩ => rfl)

/-- A vector with one entry per row, laid out as a column and repeated over the four factors, reads at (p, f) its
    entry p. -/
theorem rowBroadcast_apply (v : FVec Ideal S100000 .f32) (p : Fin 100000) (f : Fin 4) :
    broadcastInDim S100000x4 ![0, 1] bcast_S100000x1_S100000x4_0_1 (broadcastInDim S100000x1 ![0] bcast_S100000_S100000x1_0 v) (ix2 p f) = v (ix1 p) := by
  rw [broadcastInDim_apply _ bcast_S100000x1_S100000x4_0_1 (broadcastInDim S100000x1 ![0] bcast_S100000_S100000x1_0 v) (ix2 p f) (ix2 p (0 : Fin 1)) (fun a => match a with
    | ⟨0, _⟩ => by show p.val = if (100000 : Nat) = 1 then 0 else p.val; rw [if_neg (by decide)]
    | ⟨1, _⟩ => by show 0 = if (1 : Nat) = 1 then 0 else f.val; rw [if_pos rfl])]
  exact broadcastInDim_apply _ bcast_S100000_S100000x1_0 v (ix2 p (0 : Fin 1)) (ix1 p) (fun a => match a with
    | ⟨0, _⟩ => by show p.val = if (100000 : Nat) = 1 then 0 else p.val; rw [if_neg (by decide)])

/-- Row p with factor k put back on the reduced axis is (p, k). -/
theorem lift_row (h : S100000x4.Reduces [1] S100000) (p : Fin 100000) (k : Fin (S100000x4.size 1)) :
    h.lift (ix1 p) k = ix2 p (⟨k.val, k.isLt⟩ : Fin 4) := by
  funext c; apply Fin.ext
  fin_cases c <;> rfl

/-! ## The logits: a contraction over the 64 channels -/

/- The operand coordinates of the contraction: at result index i and contraction coordinate k the left operand is read
   at (i 0, k) and the right operand at (k, i 1). -/
theorem logitsDot_lhs0 (i : S100000x4.Idx) (q : dot_S100000x64_S64x4_S100000x4_1_0_0_1_n_n.contr.Idx) :
    (dot_S100000x64_S64x4_S100000x4_1_0_0_1_n_n.lhsIdx i q 0).val = (i 0).val := by
  unfold DotDims.lhsIdx
  rw [dif_neg (show ¬(0 : Fin S100000x64.rank) ∈ dot_S100000x64_S64x4_S100000x4_1_0_0_1_n_n.lhsBatch by decide), dif_pos (show (0 : Fin S100000x64.rank) ∈ dot_S100000x64_S64x4_S100000x4_1_0_0_1_n_n.lhsNonContracting by decide)]
  rfl
theorem logitsDot_lhs1 (i : S100000x4.Idx) (q : dot_S100000x64_S64x4_S100000x4_1_0_0_1_n_n.contr.Idx) :
    (dot_S100000x64_S64x4_S100000x4_1_0_0_1_n_n.lhsIdx i q 1).val = (q ⟨0, by decide⟩).val :=
  dot_S100000x64_S64x4_S100000x4_1_0_0_1_n_n.lhsIdx_val_of_single rfl i q
theorem logitsDot_rhs0 (i : S100000x4.Idx) (q : dot_S100000x64_S64x4_S100000x4_1_0_0_1_n_n.contr.Idx) :
    (dot_S100000x64_S64x4_S100000x4_1_0_0_1_n_n.rhsIdx i q 0).val = (q ⟨0, by decide⟩).val :=
  dot_S100000x64_S64x4_S100000x4_1_0_0_1_n_n.rhsIdx_val_of_single rfl i q
theorem logitsDot_rhs1 (i : S100000x4.Idx) (q : dot_S100000x64_S64x4_S100000x4_1_0_0_1_n_n.contr.Idx) :
    (dot_S100000x64_S64x4_S100000x4_1_0_0_1_n_n.rhsIdx i q 1).val = (i 1).val := by
  unfold DotDims.rhsIdx
  rw [dif_neg (show ¬(1 : Fin S64x4.rank) ∈ dot_S100000x64_S64x4_S100000x4_1_0_0_1_n_n.rhsBatch by decide), dif_pos (show (1 : Fin S64x4.rank) ∈ dot_S100000x64_S64x4_S100000x4_1_0_0_1_n_n.rhsNonContracting by decide)]
  rfl

/-- The reference's logit of user p against factor f is Σ over the channels c of u[p, c] · lat[f, c]. -/
theorem refLogits_apply (x0 : FVec Ideal S100000x64 .f32) (x2 : FVec Ideal S4x64 .f32) (p : Fin 100000) (f : Fin 4) :
    refLogits x0 x2 (ix2 p f) = Cert.Spec.logits (n := 100000) x0 x2 p f := by
  unfold refLogits Cert.Spec.logits
  simp only [Host.dotGeneral]
  rw [Ideal.dotGeneral_apply, ← Equiv.sum_comp (contrEquiv1 dot_S100000x64_S64x4_S100000x4_1_0_0_1_n_n 64 rfl rfl).symm]
  refine Finset.sum_congr rfl fun k _ => ?_
  have hk := contrEquiv1_symm_val dot_S100000x64_S64x4_S100000x4_1_0_0_1_n_n 64 rfl rfl k
  have el : dot_S100000x64_S64x4_S100000x4_1_0_0_1_n_n.lhsIdx (ix2 p f) ((contrEquiv1 dot_S100000x64_S64x4_S100000x4_1_0_0_1_n_n 64 rfl rfl).symm k) = ix2 p k := funext fun a => Fin.ext (by
    match a with
    | ⟨0, _⟩ => exact logitsDot_lhs0 _ _
    | ⟨1, _⟩ => exact (logitsDot_lhs1 _ _).trans hk)
  have er : dot_S100000x64_S64x4_S100000x4_1_0_0_1_n_n.rhsIdx (ix2 p f) ((contrEquiv1 dot_S100000x64_S64x4_S100000x4_1_0_0_1_n_n 64 rfl rfl).symm k) = ix2 k f := funext fun a => Fin.ext (by
    match a with
    | ⟨0, _⟩ => exact (logitsDot_rhs0 _ _).trans hk
    | ⟨1, _⟩ => exact logitsDot_rhs1 _ _)
  rw [el, er, transposeLat_apply]

/-! ## The softmax over the four factors -/

/-- The reference's row maximum at p: the fold of max from -∞ over the row's four entries, then once more against -∞. -/
theorem refRowMax_apply (L : FVec Ideal S100000x4 .f32) (p : Fin 100000) :
    (maximumf (broadcastInDim S100000 ![] bcast_S_S100000 (constant S_ .f32 0xFF800000#32)) (Host.reduce FloatOps.maximumf L (constant S_ .f32 0xFF800000#32) reducesTo_S100000x4_S100000_d1 h_S_) : FVec Ideal S100000 .f32) (ix1 p)
      = Cert.Spec.rowMax4 (fun f : Fin 4 => L (ix2 p f)) := by
  have h : S100000x4.Reduces [1] S100000 := by decide
  rw [maximumf_apply, Host.reduce_eq_fold_single FloatOps.maximumf L _ reducesTo_S100000x4_S100000_d1 h h_S_,
    broadcastInDim_apply _ bcast_S_S100000 (constant (F := Ideal) S_ .f32 0xFF800000#32) (ix1 p) ix0 (fun a => a.elim0)]
  have hf : (L ∘ h.lift (ix1 p)) = fun k : Fin 4 => L (ix2 p k) := funext fun k => congrArg L (lift_row h p k)
  unfold Cert.Spec.rowMax4
  exact congrArg (fun g => max Cert.Spec.negInf (Finset.fold max Cert.Spec.negInf g (Finset.univ : Finset (Fin 4)))) hf

/-- The host's exponential and quotient read entrywise: the extended reals' exp and division. -/
theorem hostExp_apply (a : FVec Ideal S100000x4 .f32) (i : S100000x4.Idx) : Host.exp a i = Ideal.exp (a i) := rfl
theorem hostDivf_apply (a b : FVec Ideal S100000x4 .f32) (i : S100000x4.Idx) : Host.divf a b i = Ideal.div (a i) (b i) := rfl

/-- The shifted exponentials: exp of an entry minus its row's quantity m[p]. -/
theorem expShift_apply (L : FVec Ideal S100000x4 .f32) (m : FVec Ideal S100000 .f32) (p : Fin 100000) (g : Fin 4) :
    Host.exp (subf L (broadcastInDim S100000x4 ![0, 1] bcast_S100000x1_S100000x4_0_1 (broadcastInDim S100000x1 ![0] bcast_S100000_S100000x1_0 m))) (ix2 p g) = Ideal.exp (L (ix2 p g) - m (ix1 p)) := by
  rw [hostExp_apply, subf_apply, rowBroadcast_apply]

/-- An array divided by its row sums (a sum from the zero word over the four factors): at (p, f) the entry over
    Σ over g of the row's entries. -/
theorem divRowSum_apply (E : FVec Ideal S100000x4 .f32) (p : Fin 100000) (f : Fin 4) :
    Host.divf E (broadcastInDim S100000x4 ![0, 1] bcast_S100000x1_S100000x4_0_1 (broadcastInDim S100000x1 ![0] bcast_S100000_S100000x1_0 (Host.reduceAdd E (constant S_ .f32 0x00000000#32) reducesTo_S100000x4_S100000_d1 h_S_))) (ix2 p f)
      = Ideal.div (E (ix2 p f)) (∑ g : Fin 4, E (ix2 p g)) := by
  have h : S100000x4.Reduces [1] S100000 := by decide
  rw [hostDivf_apply, rowBroadcast_apply]
  simp only [Host.reduceAdd, Ideal.hostReduceAdd_def]
  rw [Ideal.hostReduceAdd_single reducesTo_S100000x4_S100000_d1 h, constant_apply, Ideal.ofBits_zero_f32, zero_add]
  exact congrArg (Ideal.div (E (ix2 p f))) (Finset.sum_congr rfl fun k _ => congrArg E (lift_row h p k))

/-- The reference's softmax at (p, f) is the softmax weight of factor f among row p's four entries. -/
theorem refSoftmax_apply (L : FVec Ideal S100000x4 .f32) (p : Fin 100000) (f : Fin 4) :
    refSoftmax L (ix2 p f) = Cert.Spec.softmax4 (fun g : Fin 4 => L (ix2 p g)) f := by
  unfold refSoftmax
  rw [divRowSum_apply]
  have hE : ∀ g : Fin 4, Host.exp (subf L (broadcastInDim S100000x4 ![0, 1] bcast_S100000x1_S100000x4_0_1 (broadcastInDim S100000x1 ![0] bcast_S100000_S100000x1_0 (maximumf (broadcastInDim S100000 ![] bcast_S_S100000 (constant S_ .f32 0xFF800000#32)) (Host.reduce FloatOps.maximumf L (constant S_ .f32 0xFF800000#32) reducesTo_S100000x4_S100000_d1 h_S_))))) (ix2 p g)
      = Ideal.exp (L (ix2 p g) - Cert.Spec.rowMax4 (fun f : Fin 4 => L (ix2 p f))) := fun g =>
    (expShift_apply L _ p g).trans (by rw [refRowMax_apply])
  unfold Cert.Spec.softmax4
  rw [hE f]
  exact congrArg (Ideal.div _) (Finset.sum_congr rfl fun g _ => hE g)

/-! ## The attention: a contraction over the four factors -/

/- The operand coordinates of the contraction: at result index i and contraction coordinate k the left operand is read
   at (i 0, k) and the right operand at (k, i 1). -/
theorem attnDot_lhs0 (i : S100000x64.Idx) (q : dot_S100000x4_S4x64_S100000x64_1_0_0_1_n_n.contr.Idx) :
    (dot_S100000x4_S4x64_S100000x64_1_0_0_1_n_n.lhsIdx i q 0).val = (i 0).val := by
  unfold DotDims.lhsIdx
  rw [dif_neg (show ¬(0 : Fin S100000x4.rank) ∈ dot_S100000x4_S4x64_S100000x64_1_0_0_1_n_n.lhsBatch by decide), dif_pos (show (0 : Fin S100000x4.rank) ∈ dot_S100000x4_S4x64_S100000x64_1_0_0_1_n_n.lhsNonContracting by decide)]
  rfl
theorem attnDot_lhs1 (i : S100000x64.Idx) (q : dot_S100000x4_S4x64_S100000x64_1_0_0_1_n_n.contr.Idx) :
    (dot_S100000x4_S4x64_S100000x64_1_0_0_1_n_n.lhsIdx i q 1).val = (q ⟨0, by decide⟩).val :=
  dot_S100000x4_S4x64_S100000x64_1_0_0_1_n_n.lhsIdx_val_of_single rfl i q
theorem attnDot_rhs0 (i : S100000x64.Idx) (q : dot_S100000x4_S4x64_S100000x64_1_0_0_1_n_n.contr.Idx) :
    (dot_S100000x4_S4x64_S100000x64_1_0_0_1_n_n.rhsIdx i q 0).val = (q ⟨0, by decide⟩).val :=
  dot_S100000x4_S4x64_S100000x64_1_0_0_1_n_n.rhsIdx_val_of_single rfl i q
theorem attnDot_rhs1 (i : S100000x64.Idx) (q : dot_S100000x4_S4x64_S100000x64_1_0_0_1_n_n.contr.Idx) :
    (dot_S100000x4_S4x64_S100000x64_1_0_0_1_n_n.rhsIdx i q 1).val = (i 1).val := by
  unfold DotDims.rhsIdx
  rw [dif_neg (show ¬(1 : Fin S4x64.rank) ∈ dot_S100000x4_S4x64_S100000x64_1_0_0_1_n_n.rhsBatch by decide), dif_pos (show (1 : Fin S4x64.rank) ∈ dot_S100000x4_S4x64_S100000x64_1_0_0_1_n_n.rhsNonContracting by decide)]
  rfl

/-- The reference's attention of user p at channel q is Σ over the factors f of softmax(logits of p)[f] · dw[f, q]. -/
theorem refAttn_apply (x0 : FVec Ideal S100000x64 .f32) (x2 dw : FVec Ideal S4x64 .f32) (p : Fin 100000) (q : Fin 64) :
    refAttn x0 x2 dw (ix2 p q)
      = ∑ f : Fin 4, Cert.Spec.softmax4 (Cert.Spec.logits (n := 100000) x0 x2 p) f * dw (ix2 f q) := by
  unfold refAttn
  simp only [Host.dotGeneral]
  rw [Ideal.dotGeneral_apply, ← Equiv.sum_comp (contrEquiv1 dot_S100000x4_S4x64_S100000x64_1_0_0_1_n_n 4 rfl rfl).symm]
  refine Finset.sum_congr rfl fun k _ => ?_
  have hk := contrEquiv1_symm_val dot_S100000x4_S4x64_S100000x64_1_0_0_1_n_n 4 rfl rfl k
  have el : dot_S100000x4_S4x64_S100000x64_1_0_0_1_n_n.lhsIdx (ix2 p q) ((contrEquiv1 dot_S100000x4_S4x64_S100000x64_1_0_0_1_n_n 4 rfl rfl).symm k) = ix2 p k := funext fun a => Fin.ext (by
    match a with
    | ⟨0, _⟩ => exact attnDot_lhs0 _ _
    | ⟨1, _⟩ => exact (attnDot_lhs1 _ _).trans hk)
  have er : dot_S100000x4_S4x64_S100000x64_1_0_0_1_n_n.rhsIdx (ix2 p q) ((contrEquiv1 dot_S100000x4_S4x64_S100000x64_1_0_0_1_n_n 4 rfl rfl).symm k) = ix2 k q := funext fun a => Fin.ext (by
    match a with
    | ⟨0, _⟩ => exact (attnDot_rhs0 _ _).trans hk
    | ⟨1, _⟩ => exact attnDot_rhs1 _ _)
  rw [el, er, refSoftmax_apply]
  have hL : (fun g : Fin 4 => refLogits x0 x2 (ix2 p g)) = Cert.Spec.logits (n := 100000) x0 x2 p :=
    funext fun g => refLogits_apply x0 x2 p g
  rw [hL]

theorem refAttn_spec (x0 : FVec Ideal S100000x64 .f32) (x2 dw : FVec Ideal S4x64 .f32) :
    refAttn x0 x2 dw = Cert.Spec.attn (n := 100000) x0 x2 dw := by
  funext i
  obtain ⟨p, q, rfl⟩ : ∃ (p : Fin 100000) (q : Fin 64), i = ix2 p q := ⟨i 0, i 1, eq_ix2 i⟩
  rw [refAttn_apply]
  rfl

end Cert.ReferenceIdeal.Bridge

end
-- ==== Proof.RefFinite.lean ====
import proofs.«425177_j67456756351000_2_alg».proof.Proof.Gen.ReferenceIdeal
import proofs.«425177_j67456756351000_2_alg».proof.Proof.Spec
import Idealize.ShloMosaic.PureOps.Ideal.Laws
import Idealize.ShloMosaic.Lib.ValueIdx
import Idealize.ShloMosaic.Lib.Pipeline.Value
import Idealize.ShloMosaic.Lib.ValueLayout
import Idealize.ShloMosaic.Lib.KernelVsHost
import proofs.«425177_j67456756351000_2_alg».proof.Proof.RefRel
import proofs.«425177_j67456756351000_2_alg».proof.Proof.RefNorm

noncomputable section

namespace Cert.ReferenceIdeal.Bridge

open Cert.ReferenceIdeal Cert.ReferenceIdeal.Gen Idealize.ShloMosaic Idealize.ShloMosaic.TcCoe Idealize.ShloMosaic.ValueIdx

open Cert.Spec (IsReal)

/-! Finite inputs stay finite along the reference's aggregation chain: a gather only copies entries, a product or a
    finite sum of reals is real, a quotient by a positive real is real, and a row norm clamped at ε is a positive real.
    This is what licenses distributivity where the user aggregate meets its attention. -/

/-- A real plus a finite sum of reals is real: the sum of two reals is real, and so by induction is any finite sum. -/
private theorem real_add_sum {ι : Type} {a : EReal} (ha : ∃ r : ℝ, a = (r : EReal)) (s : Finset ι) (f : ι → EReal)
    (h : ∀ j, ∃ r : ℝ, f j = (r : EReal)) : ∃ r : ℝ, a + ∑ j ∈ s, f j = (r : EReal) := by
  have hs : ∃ r : ℝ, ∑ j ∈ s, f j = (r : EReal) := by
    refine Finset.sum_induction f (fun x => ∃ r : ℝ, x = (r : EReal)) ?_ ⟨0, EReal.coe_zero.symm⟩ (fun j _ => h j)
    rintro x y ⟨rx, rfl⟩ ⟨ry, rfl⟩
    exact ⟨rx + ry, (EReal.coe_add rx ry).symm⟩
  obtain ⟨r, rfl⟩ := ha
  obtain ⟨t, ht⟩ := hs
  exact ⟨r + t, by rw [ht, EReal.coe_add]⟩

/-- The quotient of a real by a nonzero real is the real quotient. -/
private theorem real_div {x y : EReal} (hx : ∃ r : ℝ, x = (r : EReal)) (hy : ∃ r : ℝ, r ≠ 0 ∧ y = (r : EReal)) :
    ∃ r : ℝ, Ideal.div x y = (r : EReal) := by
  obtain ⟨a, rfl⟩ := hx
  obtain ⟨b, hb, rfl⟩ := hy
  refine ⟨a * b⁻¹, ?_⟩
  unfold Ideal.div
  rw [if_neg (fun h0 => hb (EReal.coe_eq_zero.mp h0)), ← EReal.coe_inv, ← EReal.coe_mul]

/-- The maximum of -∞ or a real with a positive real is a real that is not zero: it is at least the positive one. -/
private theorem real_max_pos {x y : EReal} (hx : x = ⊥ ∨ ∃ r : ℝ, x = (r : EReal))
    (hy : ∃ r : ℝ, 0 < r ∧ y = (r : EReal)) : ∃ r : ℝ, r ≠ 0 ∧ max x y = (r : EReal) := by
  obtain ⟨b, hb, rfl⟩ := hy
  rcases hx with rfl | ⟨a, rfl⟩
  · exact ⟨b, hb.ne', max_eq_right bot_le⟩
  · rcases le_total a b with hab | hab
    · exact ⟨b, hb.ne', max_eq_right (EReal.coe_le_coe_iff.mpr hab)⟩
    · exact ⟨a, (lt_of_lt_of_le hb hab).ne', max_eq_left (EReal.coe_le_coe_iff.mpr hab)⟩

/-- The square root of a real is -∞ (below zero) or a real. -/
private theorem sqrt_real {x : EReal} (hx : ∃ r : ℝ, x = (r : EReal)) :
    Ideal.sqrt x = ⊥ ∨ ∃ t : ℝ, Ideal.sqrt x = (t : EReal) := by
  obtain ⟨r, rfl⟩ := hx
  rw [Ideal.sqrt_coe]
  by_cases h : r < 0
  · exact Or.inl (if_pos h)
  · exact Or.inr ⟨Real.sqrt r, if_neg h⟩

/-- The word 0x3F800000 is the real 1. -/
private theorem one_word : ∃ r : ℝ, 0 < r ∧ Ideal.ofBits .f32 0x3F800000#32 = (r : EReal) :=
  ⟨1, one_pos, (IdealRules.sign_bit.ideal_onePat .f32).trans EReal.coe_one.symm⟩

/-- The word 0x2B8CBCCC (sign 0, exponent field 87, fraction field 834764) is the positive real
    (2²³ + 834764) · 2^(87 - 127 - 23). -/
private theorem eps_word : ∃ r : ℝ, 0 < r ∧ Ideal.ofBits .f32 0x2B8CBCCC#32 = (r : EReal) := by
  have h1 : ((0x2B8CBCCC#32 : BitVec 32).extractLsb' (8 + 23) 1 == 1#1) = false := by decide
  have h2 : ((0x2B8CBCCC#32 : BitVec 32).extractLsb' 23 8).toNat = 87 := by decide
  have h3 : ((0x2B8CBCCC#32 : BitVec 32).extractLsb' 0 23).toNat = 834764 := by decide
  refine ⟨(1 : ℝ) * ((2 ^ 23 + 834764 : ℕ) : ℝ) * (2 : ℝ) ^ (((87 : ℕ) : ℤ) - (2 ^ (8 - 1) - 1) - (23 : ℕ)), by positivity, ?_⟩
  show Ideal.ieee 8 23 (0x2B8CBCCC#32 : BitVec 32) = _
  unfold Ideal.ieee
  simp only [h1, h2, h3]
  rw [if_neg (by decide : ¬ ((87 : ℕ) = 2 ^ 8 - 1)), if_neg (by decide : ¬ ((87 : ℕ) = 0)), if_neg Bool.false_ne_true]

/-- A quotient of a real array by an array of nonzero reals is real, entry by entry. -/
private theorem real_divf {s : Shape} (a b : FVec Ideal s .f32) (ha : IsReal a)
    (hb : ∀ i, ∃ r : ℝ, r ≠ 0 ∧ b i = (r : EReal)) : IsReal (Host.divf a b) :=
  fun i => real_div (ha i) (hb i)

/-- A broadcast only copies entries: real entries stay real, … -/
private theorem bcast_real {s t : Shape} (dims : Fin s.rank → Fin t.rank) (h : s.BroadcastsInDim t dims)
    (x : s.Idx → EReal) (hx : IsReal x) : IsReal (broadcastInDim t dims h x) :=
  fun _ => hx _

/-- … nonzero real entries stay nonzero reals, … -/
private theorem bcast_nz {s t : Shape} (dims : Fin s.rank → Fin t.rank) (h : s.BroadcastsInDim t dims)
    (x : s.Idx → EReal) (hx : ∀ k, ∃ r : ℝ, r ≠ 0 ∧ x k = (r : EReal)) (i : t.Idx) :
    ∃ r : ℝ, r ≠ 0 ∧ broadcastInDim t dims h x i = (r : EReal) :=
  hx _

/-- … and positive real entries stay positive reals. -/
private theorem bcast_pos {s t : Shape} (dims : Fin s.rank → Fin t.rank) (h : s.BroadcastsInDim t dims)
    (x : s.Idx → EReal) (hx : ∀ k, ∃ r : ℝ, 0 < r ∧ x k = (r : EReal)) (i : t.Idx) :
    ∃ r : ℝ, 0 < r ∧ broadcastInDim t dims h x i = (r : EReal) :=
  hx _

/-- The square root of a real array clamped from below by an array of positive reals is an array of nonzero reals. -/
private theorem max_sqrt_pos {s : Shape} (B C : FVec Ideal s .f32) (hB : IsReal B)
    (hC : ∀ k, ∃ r : ℝ, 0 < r ∧ C k = (r : EReal)) (k : s.Idx) :
    ∃ r : ℝ, r ≠ 0 ∧ maximumf (Host.sqrt B) C k = (r : EReal) :=
  real_max_pos (sqrt_real (hB k)) (hC k)

/-- A real array clamped from below by an array of positive reals is an array of nonzero reals. -/
private theorem max_pos {s : Shape} (B C : FVec Ideal s .f32) (hB : IsReal B)
    (hC : ∀ k, ∃ r : ℝ, 0 < r ∧ C k = (r : EReal)) (k : s.Idx) :
    ∃ r : ℝ, r ≠ 0 ∧ maximumf B C k = (r : EReal) :=
  real_max_pos (Or.inr (hB k)) (hC k)

/-- A sum of a real array along axes, started from a real, is real: each entry is the start plus a finite sum. -/
private theorem real_reduceAdd {s t u : Shape} {axes : List (Fin s.rank)} (x : FVec Ideal s .f32)
    (init : FVec Ideal u .f32) (h : s.ReducesTo axes t) (hu : 0 < u.numel) (hx : IsReal x) (hi : IsReal init) :
    IsReal (Host.reduceAdd x init h hu) := by
  intro j
  show ∃ r : ℝ, Ideal.hostReduceAdd h x (init (Shape.Idx.first hu)) j = (r : EReal)
  unfold Ideal.hostReduceAdd
  exact real_add_sum (hi _) _ x hx

theorem real_gather {s si t : Shape} {w : Nat} (d : GatherDims s si t) (x : s.Idx → EReal) (idx : IVec si w)
    (h : IsReal x) : IsReal (Host.gather d x idx) := by
  intro j
  exact h (d.operandIdx j idx)

theorem real_mulf {s : Shape} (a b : FVec Ideal s .f32) (ha : IsReal a) (hb : IsReal b) : IsReal (mulf a b) := by
  intro i
  obtain ⟨r, hr⟩ := ha i
  obtain ⟨t, ht⟩ := hb i
  exact ⟨r * t, by rw [mulf_apply, hr, ht, EReal.coe_mul]⟩

theorem real_scatterAdd {s si u : Shape} {w : Nat} (d : ScatterDims s si u) (x : FVec Ideal s .f32) (idx : IVec si w)
    (upd : FVec Ideal u .f32) (hx : IsReal x) (hu : IsReal upd) : IsReal (Host.scatterAdd d x idx upd) := by
  intro i
  show ∃ r : ℝ, Ideal.hostScatterAdd d x idx upd i = (r : EReal)
  unfold Ideal.hostScatterAdd
  exact real_add_sum (hx i) _ upd hu

/-- A splat of the f32 word of 0, or of 1, holds a real. -/
theorem real_splat_zero {t : Shape} (h : S_.BroadcastsInDim t (![] : Fin 0 → Fin t.rank)) :
    IsReal (broadcastInDim t ![] h (constant (F := Ideal) S_ .f32 0x00000000#32)) := by
  intro i
  exact ⟨0, Ideal.ofBits_zero_f32.trans EReal.coe_zero.symm⟩

theorem real_splat_one {t : Shape} (h : S_.BroadcastsInDim t (![] : Fin 0 → Fin t.rank)) :
    IsReal (broadcastInDim t ![] h (constant (F := Ideal) S_ .f32 0x3F800000#32)) := by
  intro i
  obtain ⟨r, _, hr⟩ := one_word
  exact ⟨r, hr⟩

theorem real_refRelSel (x4 : IVec S2000000 32) (x7 : FVec Ideal S9x64 .f32) (h7 : IsReal x7) : IsReal (refRelSel x4 x7) := by
  unfold refRelSel
  exact real_gather _ x7 _ h7

theorem real_refWscale (x6 : FVec Ideal S1000000 .f32) (emb : FVec Ideal S1000000x64 .f32) (h6 : IsReal x6)
    (he : IsReal emb) : IsReal (refWscale x6 emb) := by
  unfold refWscale
  refine real_mulf _ _ ?_ he
  intro i
  exact h6 _

theorem real_refMean (agg : FVec Ideal S200000x64 .f32) (cnt : FVec Ideal S200000 .f32) (ha : IsReal agg)
    (hc : IsReal cnt) : IsReal (refMean agg cnt) := by
  unfold refMean
  exact real_divf _ _ ha (bcast_nz _ _ _ (bcast_nz _ _ _ (max_pos _ _ hc (bcast_pos _ _ _ fun _ => one_word))))

theorem real_refL2E (e : FVec Ideal S200000x64 .f32) (he : IsReal e) : IsReal (refL2E e) := by
  unfold refL2E
  have hzero : IsReal (constant (F := Ideal) S_ .f32 0x00000000#32) :=
    fun _ => ⟨0, Ideal.ofBits_zero_f32.trans EReal.coe_zero.symm⟩
  have hsum : IsReal (Host.reduceAdd (mulf e e) (constant (F := Ideal) S_ .f32 0x00000000#32)
      reducesTo_S200000x64_S200000_d1 h_S_) := real_reduceAdd _ _ _ _ (real_mulf e e he he) hzero
  exact real_divf _ _ he (bcast_nz _ _ _ (max_sqrt_pos _ _ (bcast_real _ _ _ hsum)
    (bcast_pos _ _ _ fun _ => eps_word)))

end Cert.ReferenceIdeal.Bridge

end
-- ==== Proof.Fold.lean ====
/-
  The kernel program's buffer contents, boundary by boundary, are the reference's stage values.

  @main is twenty-two segments: host stretches (slices, broadcasts, the in-degree scatter-add, the relation mixture, the
  gathers and scatter-adds of each hop, the correlation scalar at the end) and ten kernel regions. At each boundary the
  buffers later segments read are shown equal to the value the reference program computes for the same quantity, as a
  function of the launch contents of the nine arguments: a host stretch by reading the fold of its operations (both
  programs apply the same operations there), a region by its whole-array value (the specification) and the reference's
  own operations read as the same specification. Two places use the precondition: the relation lookup (labels 1 … 9) and
  the user update, where `agg · (attn + 1) = agg · attn + agg` needs the aggregate real.
-/
import proofs.«425177_j67456756351000_2_alg».proof.Proof.KRun
import proofs.«425177_j67456756351000_2_alg».proof.Proof.Carry
import proofs.«425177_j67456756351000_2_alg».proof.Proof.Gen.ReferenceIdeal.Read
import proofs.«425177_j67456756351000_2_alg».proof.Proof.Spec
import proofs.«425177_j67456756351000_2_alg».proof.Proof.Glue
import proofs.«425177_j67456756351000_2_alg».proof.Proof.Reg0
import proofs.«425177_j67456756351000_2_alg».proof.Proof.Reg1
import proofs.«425177_j67456756351000_2_alg».proof.Proof.Reg2
import proofs.«425177_j67456756351000_2_alg».proof.Proof.Reg3
import proofs.«425177_j67456756351000_2_alg».proof.Proof.Reg4
import proofs.«425177_j67456756351000_2_alg».proof.Proof.Reg5
import proofs.«425177_j67456756351000_2_alg».proof.Proof.Reg6
import proofs.«425177_j67456756351000_2_alg».proof.Proof.Reg7
import proofs.«425177_j67456756351000_2_alg».proof.Proof.Reg8
import proofs.«425177_j67456756351000_2_alg».proof.Proof.Reg9
import proofs.«425177_j67456756351000_2_alg».proof.Proof.RefRel
import proofs.«425177_j67456756351000_2_alg».proof.Proof.RefNorm
import proofs.«425177_j67456756351000_2_alg».proof.Proof.RefAttn
import proofs.«425177_j67456756351000_2_alg».proof.Proof.RefFinite
import Idealize.ShloMosaic.Lib.StableHlo.Run
import Idealize.ShloMosaic.PureOps.Ideal

set_option maxRecDepth 16384

noncomputable section

namespace Cert.KernelIdeal.Fold

open Cert.KernelIdeal Cert.KernelIdeal.Gen Idealize.ShloMosaic Idealize.ShloMosaic.TcCoe Idealize.ShloMosaic.Tactic Idealize.SL.Sem

variable {F : FTy → Type} [FloatOps F]
variable (m : (ℓ : Loc nD τ sig) → Buf (Elt F) ℓ) (ρ : Dev nD → PrngReg) (c : Dev nD)

/-! The launch contents of the nine argument arrays, and the fold's first boundary read at them. -/
abbrev A0 := m ((c : Thread nD τ).loc main_arg0)
abbrev A1 := m ((c : Thread nD τ).loc main_arg1)
abbrev A2 := m ((c : Thread nD τ).loc main_arg2)
abbrev A3 := m ((c : Thread nD τ).loc main_arg3)
abbrev A4 := m ((c : Thread nD τ).loc main_arg4)
abbrev A5 := m ((c : Thread nD τ).loc main_arg5)
abbrev A6 := m ((c : Thread nD τ).loc main_arg6)
abbrev A7 := m ((c : Thread nD τ).loc main_arg7)
abbrev A8 := m ((c : Thread nD τ).loc main_arg8)
theorem w0_arg0 : W0 m ρ c (Proc.devRef .tc main_arg0) = A0 m c := rfl
theorem w0_arg1 : W0 m ρ c (Proc.devRef .tc main_arg1) = A1 m c := rfl
theorem w0_arg2 : W0 m ρ c (Proc.devRef .tc main_arg2) = A2 m c := rfl
theorem w0_arg3 : W0 m ρ c (Proc.devRef .tc main_arg3) = A3 m c := rfl
theorem w0_arg4 : W0 m ρ c (Proc.devRef .tc main_arg4) = A4 m c := rfl
theorem w0_arg5 : W0 m ρ c (Proc.devRef .tc main_arg5) = A5 m c := rfl
theorem w0_arg6 : W0 m ρ c (Proc.devRef .tc main_arg6) = A6 m c := rfl
theorem w0_arg7 : W0 m ρ c (Proc.devRef .tc main_arg7) = A7 m c := rfl
theorem w0_arg8 : W0 m ρ c (Proc.devRef .tc main_arg8) = A8 m c := rfl

/-! ## The first host stretch: the index vectors, the in-degrees, the relation mixture, the first gather -/
set_option maxHeartbeats 2000000 in
theorem s1_v1 : W1 m ρ c (Proc.devRef .tc main_v1) = Cert.ReferenceIdeal.Read.val_main_v1 (F := F) (A3 m c) := by
  show StableHlo.after hostOps0 (W0 m ρ c) (Proc.devRef .tc main_v1) = _
  after_results_simp
  all_goals (first | rfl | (rw [w0_arg3]; rfl))

set_option maxHeartbeats 2000000 in
theorem s1_v3 : W1 m ρ c (Proc.devRef .tc main_v3) = Cert.ReferenceIdeal.Read.val_main_v3 (F := F) (A3 m c) := by
  show StableHlo.after hostOps0 (W0 m ρ c) (Proc.devRef .tc main_v3) = _
  after_results_simp
  all_goals (first | rfl | (rw [w0_arg3]; rfl))

set_option maxHeartbeats 2000000 in
theorem s1_v5 : W1 m ρ c (Proc.devRef .tc main_v5) = Cert.ReferenceIdeal.Read.val_main_v5 (F := F) (A5 m c) := by
  show StableHlo.after hostOps0 (W0 m ρ c) (Proc.devRef .tc main_v5) = _
  after_results_simp
  all_goals (first | rfl | (rw [w0_arg5]; rfl))

set_option maxHeartbeats 2000000 in
theorem s1_v7 : W1 m ρ c (Proc.devRef .tc main_v7) = Cert.ReferenceIdeal.Read.val_main_v7 (F := F) (A5 m c) := by
  show StableHlo.after hostOps0 (W0 m ρ c) (Proc.devRef .tc main_v7) = _
  after_results_simp
  all_goals (first | rfl | (rw [w0_arg5]; rfl))

set_option maxHeartbeats 2000000 in
theorem s1_v12 : W1 m ρ c (Proc.devRef .tc main_v12) = broadcastInDim S200000x1 ![0] bcast_S200000_S200000x1_0 (Cert.ReferenceIdeal.Read.val_main_v11 (F := F) (A3 m c)) := by
  show StableHlo.after hostOps0 (W0 m ρ c) (Proc.devRef .tc main_v12) = _
  after_results_simp
  all_goals (first | rfl | (rw [w0_arg3]; rfl))

set_option maxHeartbeats 2000000 in
theorem s1_v24 : W1 m ρ c (Proc.devRef .tc main_v24) = Cert.ReferenceIdeal.Read.val_main_v26 (F := F) (A7 m c) (A8 m c) := by
  show StableHlo.after hostOps0 (W0 m ρ c) (Proc.devRef .tc main_v24) = _
  after_results_simp
  all_goals (first | rfl | (rw [w0_arg7, w0_arg8]; rfl))

set_option maxHeartbeats 2000000 in
theorem s1_v25 : W1 m ρ c (Proc.devRef .tc main_v25) = broadcastInDim S2000000x1 ![0] bcast_S2000000_S2000000x1_0 (A4 m c) := by
  show StableHlo.after hostOps0 (W0 m ρ c) (Proc.devRef .tc main_v25) = _
  after_results_simp
  all_goals (first | rfl | (rw [w0_arg4]; rfl))

set_option maxHeartbeats 2000000 in
theorem s1_v26 : W1 m ρ c (Proc.devRef .tc main_v26) = broadcastInDim S1000000x1 ![0] bcast_S1000000_S1000000x1_0 (A6 m c) := by
  show StableHlo.after hostOps0 (W0 m ρ c) (Proc.devRef .tc main_v26) = _
  after_results_simp
  all_goals (first | rfl | (rw [w0_arg6]; rfl))

set_option maxHeartbeats 2000000 in
theorem s1_v33 : W1 m ρ c (Proc.devRef .tc main_v33) = Cert.ReferenceIdeal.Read.val_main_v33 (F := F) (A1 m c) (A3 m c) := by
  show StableHlo.after hostOps0 (W0 m ρ c) (Proc.devRef .tc main_v33) = _
  after_results_simp
  all_goals (first | rfl | (rw [w0_arg1, w0_arg3]; rfl))

/-! ## The last four host stretches: the factor-correlation scalar, the same host operations in both programs -/

theorem w18_arg8 : W18 m ρ c (Proc.devRef .tc main_arg8) = A8 m c := (carry_arg8_0_18 m ρ c).trans (w0_arg8 m ρ c)

set_option maxHeartbeats 4000000 in
theorem t22_v84 : W22 m ρ c (Proc.devRef .tc main_v84) = Cert.ReferenceIdeal.Read.val_main_v160 (F := F) (A8 m c) := by
  show StableHlo.after hostOps10_3 (W21 m ρ c) (Proc.devRef .tc main_v84) = _
  after_results_simp
  simp only [StableHlo.TRef.of, StableHlo.TRef.ofBuf, StableHlo.TRef.toBuf, cast_eq, w18_arg8 m ρ c]
  rfl

end Cert.KernelIdeal.Fold

namespace Cert.KernelIdeal.FoldI

open Cert.KernelIdeal Cert.KernelIdeal.Gen Cert.KernelIdeal.Fold Idealize.ShloMosaic Idealize.ShloMosaic.TcCoe Idealize.ShloMosaic.Tactic Idealize.SL.Sem

variable (m : (ℓ : Loc nD τ sig) → Buf (Elt Ideal) ℓ) (ρ : Dev nD → PrngReg) (c : Dev nD)

/-- Every relation label of the launch memory is one of 1 … 9. -/
def Labels : Prop := ∀ i, 1 ≤ ((A4 m c : (⟨1, ![2000000]⟩ : Shape).Idx → BitVec 32) i).toInt ∧ ((A4 m c : (⟨1, ![2000000]⟩ : Shape).Idx → BitVec 32) i).toInt ≤ 9

/-! ## Hop 1 -/

/-- Region 0 leaves the reference's edge messages. -/
theorem f2_v34 (hpre : Labels m c) : W2 m ρ c (Proc.devRef .tc main_v34) = Cert.ReferenceIdeal.Read.val_main_v43 (F := Ideal) (A1 m c) (A3 m c) (A4 m c) (A7 m c) := by
  refine ((W2_arr m ρ c 3).trans (Cert.KernelIdeal.Val.value0 (V1 m ρ) c)).trans ?_
  show Cert.Spec.relMsg (W1 m ρ c (Proc.devRef .tc main_v33)) (W1 m ρ c (Proc.devRef .tc main_v25)) (W1 m ρ c (Proc.devRef .tc main_arg7)) = _
  rw [s1_v33, s1_v25, carry_arg7_0_1, w0_arg7, Cert.Spec.bcast_col]
  exact (Cert.ReferenceIdeal.Bridge.refRelSel_spec _ _ _ hpre).symm

set_option maxHeartbeats 1000000 in
/-- The host's scatter-add of them onto the heads. -/
theorem f3_v37 (hpre : Labels m c) : W3 m ρ c (Proc.devRef .tc main_v37) = Cert.ReferenceIdeal.Read.val_main_v46 (F := Ideal) (A1 m c) (A3 m c) (A4 m c) (A7 m c) := by
  show StableHlo.after hostOps1 (W2 m ρ c) (Proc.devRef .tc main_v37) = _
  after_results
  rw [carry_v1_1_2, s1_v1, f2_v34 m ρ c hpre]
  rfl

/-- Region 1 leaves the normalized neighbourhood means and the residual sum. -/
theorem f4_v38_0 (hpre : Labels m c) : W4 m ρ c (Proc.devRef .tc main_v38_0) = Cert.ReferenceIdeal.Read.val_main_v82 (F := Ideal) (A1 m c) (A3 m c) (A4 m c) (A7 m c) := by
  refine ((W4_arr m ρ c 3).trans (Cert.KernelIdeal.Val.value1_new (V3 m ρ) c)).trans ?_
  show Cert.Spec.entNew (W3 m ρ c (Proc.devRef .tc main_v37)) (W3 m ρ c (Proc.devRef .tc main_v12)) = _
  rw [f3_v37 m ρ c hpre, carry_v12_1_3, s1_v12, Cert.Spec.bcast_col]
  exact ((congrArg Cert.Spec.l2rows (Cert.ReferenceIdeal.Bridge.refMean_spec _ _)).symm.trans (Cert.ReferenceIdeal.Bridge.refL2E_spec _).symm)

theorem f4_v38_1 (hpre : Labels m c) : W4 m ρ c (Proc.devRef .tc main_v38_1) = Cert.ReferenceIdeal.Read.val_main_v88 (F := Ideal) (A1 m c) (A3 m c) (A4 m c) (A7 m c) := by
  refine ((W4_arr m ρ c 4).trans (Cert.KernelIdeal.Val.value1_res (V3 m ρ) c)).trans ?_
  show Cert.Spec.resAdd (W3 m ρ c (Proc.devRef .tc main_arg1)) (Cert.Spec.entNew (W3 m ρ c (Proc.devRef .tc main_v37)) (W3 m ρ c (Proc.devRef .tc main_v12))) = _
  rw [carry_arg1_0_3, w0_arg1, f3_v37 m ρ c hpre, carry_v12_1_3, s1_v12, Cert.Spec.bcast_col]
  exact congrArg (Cert.Spec.resAdd (A1 m c)) ((congrArg Cert.Spec.l2rows (Cert.ReferenceIdeal.Bridge.refMean_spec _ _)).symm.trans (Cert.ReferenceIdeal.Bridge.refL2E_spec _).symm)

/-- Region 2 leaves the reference's attention rows. -/
theorem f5_v39 : W5 m ρ c (Proc.devRef .tc main_v39) = Cert.ReferenceIdeal.Read.val_main_v75 (F := Ideal) (A0 m c) (A2 m c) (A7 m c) (A8 m c) := by
  refine ((W5_arr m ρ c 3).trans (Cert.KernelIdeal.Val.value2 (V4 m ρ) c)).trans ?_
  show Cert.Spec.attn (W4 m ρ c (Proc.devRef .tc main_arg0)) (W4 m ρ c (Proc.devRef .tc main_arg2)) (W4 m ρ c (Proc.devRef .tc main_v24)) = _
  rw [carry_arg0_0_4, w0_arg0, carry_arg2_0_4, w0_arg2, carry_v24_1_4, s1_v24]
  exact (Cert.ReferenceIdeal.Bridge.refAttn_spec _ _ _).symm

set_option maxHeartbeats 1000000 in
theorem f6_v46 : W6 m ρ c (Proc.devRef .tc main_v46) = Cert.ReferenceIdeal.Read.val_main_v69 (F := Ideal) (A1 m c) (A5 m c) := by
  show StableHlo.after hostOps3 (W5 m ρ c) (Proc.devRef .tc main_v46) = _
  after_results
  rw [carry_arg1_0_5, w0_arg1, carry_v7_1_5, s1_v7]
  rfl

theorem f7_v47 : W7 m ρ c (Proc.devRef .tc main_v47) = Cert.ReferenceIdeal.Read.val_main_v71 (F := Ideal) (A1 m c) (A5 m c) (A6 m c) := by
  refine ((W7_arr m ρ c 2).trans (Cert.KernelIdeal.Val.value3 (V6 m ρ) c)).trans ?_
  show Cert.Spec.wscale (W6 m ρ c (Proc.devRef .tc main_v46)) (W6 m ρ c (Proc.devRef .tc main_v26)) = _
  rw [f6_v46, carry_v26_1_6, s1_v26, Cert.Spec.bcast_col]
  exact (Cert.ReferenceIdeal.Bridge.refWscale_spec _ _).symm

set_option maxHeartbeats 1000000 in
theorem f8_v50 : W8 m ρ c (Proc.devRef .tc main_v50) = Cert.ReferenceIdeal.Read.val_main_v74 (F := Ideal) (A1 m c) (A5 m c) (A6 m c) := by
  show StableHlo.after hostOps4 (W7 m ρ c) (Proc.devRef .tc main_v50) = _
  after_results
  rw [carry_v5_1_7, s1_v5, f7_v47]
  rfl

/-- The first hop's user aggregate holds reals. -/
theorem real_v74 (h1 : Cert.Spec.IsReal (A1 m c)) (h6 : Cert.Spec.IsReal (A6 m c)) : Cert.Spec.IsReal (Cert.ReferenceIdeal.Read.val_main_v74 (F := Ideal) (A1 m c) (A5 m c) (A6 m c)) :=
  Cert.ReferenceIdeal.Bridge.real_scatterAdd _ _ _ _ (Cert.ReferenceIdeal.Bridge.real_splat_zero _) (Cert.ReferenceIdeal.Bridge.real_refWscale _ _ h6 (Cert.ReferenceIdeal.Bridge.real_gather _ _ _ h1))

theorem f9_v51_0 (h1 : Cert.Spec.IsReal (A1 m c)) (h6 : Cert.Spec.IsReal (A6 m c)) : W9 m ρ c (Proc.devRef .tc main_v51_0) = Cert.ReferenceIdeal.Read.val_main_v87 (F := Ideal) (A0 m c) (A1 m c) (A2 m c) (A5 m c) (A6 m c) (A7 m c) (A8 m c) := by
  refine ((W9_arr m ρ c 3).trans (Cert.KernelIdeal.Val.value4_new (V8 m ρ) c)).trans ?_
  show Cert.Spec.userNew (W8 m ρ c (Proc.devRef .tc main_v50)) (W8 m ρ c (Proc.devRef .tc main_v39)) = _
  rw [f8_v50, carry_v39_5_8, f5_v39]
  exact ((congrArg Cert.Spec.l2rows (Cert.ReferenceIdeal.Bridge.refUserMix_spec _ _ (real_v74 m c h1 h6))).symm.trans (Cert.ReferenceIdeal.Bridge.refL2U_spec _).symm)

theorem f9_v51_1 (h1 : Cert.Spec.IsReal (A1 m c)) (h6 : Cert.Spec.IsReal (A6 m c)) : W9 m ρ c (Proc.devRef .tc main_v51_1) = Cert.ReferenceIdeal.Read.val_main_v89 (F := Ideal) (A0 m c) (A1 m c) (A2 m c) (A5 m c) (A6 m c) (A7 m c) (A8 m c) := by
  refine ((W9_arr m ρ c 4).trans (Cert.KernelIdeal.Val.value4_res (V8 m ρ) c)).trans ?_
  show Cert.Spec.resAdd (W8 m ρ c (Proc.devRef .tc main_arg0)) (Cert.Spec.userNew (W8 m ρ c (Proc.devRef .tc main_v50)) (W8 m ρ c (Proc.devRef .tc main_v39))) = _
  rw [carry_arg0_0_8, w0_arg0, f8_v50, carry_v39_5_8, f5_v39]
  exact congrArg (Cert.Spec.resAdd (A0 m c)) ((congrArg Cert.Spec.l2rows (Cert.ReferenceIdeal.Bridge.refUserMix_spec _ _ (real_v74 m c h1 h6))).symm.trans (Cert.ReferenceIdeal.Bridge.refL2U_spec _).symm)

/-! ## Hop 2 -/

set_option maxHeartbeats 1000000 in
theorem f10_v58 (hpre : Labels m c) : W10 m ρ c (Proc.devRef .tc main_v58) = Cert.ReferenceIdeal.Read.val_main_v96 (F := Ideal) (A1 m c) (A3 m c) (A4 m c) (A7 m c) := by
  show StableHlo.after hostOps5 (W9 m ρ c) (Proc.devRef .tc main_v58) = _
  after_results
  rw [carry_v38_0_4_9, f4_v38_0 m ρ c hpre, carry_v3_1_9, s1_v3]
  rfl

theorem f11_v59 (hpre : Labels m c) : W11 m ρ c (Proc.devRef .tc main_v59) = Cert.ReferenceIdeal.Read.val_main_v106 (F := Ideal) (A1 m c) (A3 m c) (A4 m c) (A7 m c) := by
  refine ((W11_arr m ρ c 3).trans (Cert.KernelIdeal.Val.value5 (V10 m ρ) c)).trans ?_
  show Cert.Spec.relMsg (W10 m ρ c (Proc.devRef .tc main_v58)) (W10 m ρ c (Proc.devRef .tc main_v25)) (W10 m ρ c (Proc.devRef .tc main_arg7)) = _
  rw [f10_v58 m ρ c hpre, carry_v25_1_10, s1_v25, carry_arg7_0_10, w0_arg7, Cert.Spec.bcast_col]
  exact (Cert.ReferenceIdeal.Bridge.refRelSel_spec _ _ _ hpre).symm

set_option maxHeartbeats 1000000 in
theorem f12_v62 (hpre : Labels m c) : W12 m ρ c (Proc.devRef .tc main_v62) = Cert.ReferenceIdeal.Read.val_main_v109 (F := Ideal) (A1 m c) (A3 m c) (A4 m c) (A7 m c) := by
  show StableHlo.after hostOps6 (W11 m ρ c) (Proc.devRef .tc main_v62) = _
  after_results
  rw [carry_v1_1_11, s1_v1, f11_v59 m ρ c hpre]
  rfl

theorem f13_v63_1 (hpre : Labels m c) : W13 m ρ c (Proc.devRef .tc main_v63_1) = Cert.ReferenceIdeal.Read.val_main_v151 (F := Ideal) (A1 m c) (A3 m c) (A4 m c) (A7 m c) := by
  refine ((W13_arr m ρ c 4).trans (Cert.KernelIdeal.Val.value6_res (V12 m ρ) c)).trans ?_
  show Cert.Spec.resAdd (W12 m ρ c (Proc.devRef .tc main_v38_1)) (Cert.Spec.entNew (W12 m ρ c (Proc.devRef .tc main_v62)) (W12 m ρ c (Proc.devRef .tc main_v12))) = _
  rw [carry_v38_1_4_12, f4_v38_1 m ρ c hpre, f12_v62 m ρ c hpre, carry_v12_1_12, s1_v12, Cert.Spec.bcast_col]
  exact congrArg (Cert.Spec.resAdd _) ((congrArg Cert.Spec.l2rows (Cert.ReferenceIdeal.Bridge.refMean_spec _ _)).symm.trans (Cert.ReferenceIdeal.Bridge.refL2E_spec _).symm)

theorem f14_v64 (h1 : Cert.Spec.IsReal (A1 m c)) (h6 : Cert.Spec.IsReal (A6 m c)) : W14 m ρ c (Proc.devRef .tc main_v64) = Cert.ReferenceIdeal.Read.val_main_v138 (F := Ideal) (A0 m c) (A1 m c) (A2 m c) (A5 m c) (A6 m c) (A7 m c) (A8 m c) := by
  refine ((W14_arr m ρ c 3).trans (Cert.KernelIdeal.Val.value7 (V13 m ρ) c)).trans ?_
  show Cert.Spec.attn (W13 m ρ c (Proc.devRef .tc main_v51_0)) (W13 m ρ c (Proc.devRef .tc main_arg2)) (W13 m ρ c (Proc.devRef .tc main_v24)) = _
  rw [carry_v51_0_9_13, f9_v51_0 m ρ c h1 h6, carry_arg2_0_13, w0_arg2, carry_v24_1_13, s1_v24]
  exact (Cert.ReferenceIdeal.Bridge.refAttn_spec _ _ _).symm

set_option maxHeartbeats 1000000 in
theorem f15_v71 (hpre : Labels m c) : W15 m ρ c (Proc.devRef .tc main_v71) = Cert.ReferenceIdeal.Read.val_main_v132 (F := Ideal) (A1 m c) (A3 m c) (A4 m c) (A5 m c) (A7 m c) := by
  show StableHlo.after hostOps8 (W14 m ρ c) (Proc.devRef .tc main_v71) = _
  after_results
  rw [carry_v38_0_4_14, f4_v38_0 m ρ c hpre, carry_v7_1_14, s1_v7]
  rfl

theorem f16_v72 (hpre : Labels m c) : W16 m ρ c (Proc.devRef .tc main_v72) = Cert.ReferenceIdeal.Read.val_main_v134 (F := Ideal) (A1 m c) (A3 m c) (A4 m c) (A5 m c) (A6 m c) (A7 m c) := by
  refine ((W16_arr m ρ c 2).trans (Cert.KernelIdeal.Val.value8 (V15 m ρ) c)).trans ?_
  show Cert.Spec.wscale (W15 m ρ c (Proc.devRef .tc main_v71)) (W15 m ρ c (Proc.devRef .tc main_v26)) = _
  rw [f15_v71 m ρ c hpre, carry_v26_1_15, s1_v26, Cert.Spec.bcast_col]
  exact (Cert.ReferenceIdeal.Bridge.refWscale_spec _ _).symm

set_option maxHeartbeats 1000000 in
theorem f17_v75 (hpre : Labels m c) : W17 m ρ c (Proc.devRef .tc main_v75) = Cert.ReferenceIdeal.Read.val_main_v137 (F := Ideal) (A1 m c) (A3 m c) (A4 m c) (A5 m c) (A6 m c) (A7 m c) := by
  show StableHlo.after hostOps9 (W16 m ρ c) (Proc.devRef .tc main_v75) = _
  after_results
  rw [carry_v5_1_16, s1_v5, f16_v72 m ρ c hpre]
  rfl

/-- The first hop's entity embeddings hold reals, hence so does the second hop's user aggregate. -/
theorem real_v82 (h1 : Cert.Spec.IsReal (A1 m c)) (h7 : Cert.Spec.IsReal (A7 m c)) : Cert.Spec.IsReal (Cert.ReferenceIdeal.Read.val_main_v82 (F := Ideal) (A1 m c) (A3 m c) (A4 m c) (A7 m c)) :=
  Cert.ReferenceIdeal.Bridge.real_refL2E _ (Cert.ReferenceIdeal.Bridge.real_refMean _ _
    (Cert.ReferenceIdeal.Bridge.real_scatterAdd _ _ _ _ (Cert.ReferenceIdeal.Bridge.real_splat_zero _) (Cert.ReferenceIdeal.Bridge.real_mulf _ _ (Cert.ReferenceIdeal.Bridge.real_gather _ _ _ h1) (Cert.ReferenceIdeal.Bridge.real_refRelSel _ _ h7)))
    (Cert.ReferenceIdeal.Bridge.real_scatterAdd _ _ _ _ (Cert.ReferenceIdeal.Bridge.real_splat_zero _) (Cert.ReferenceIdeal.Bridge.real_splat_one _)))

theorem real_v137 (h1 : Cert.Spec.IsReal (A1 m c)) (h6 : Cert.Spec.IsReal (A6 m c)) (h7 : Cert.Spec.IsReal (A7 m c)) :
    Cert.Spec.IsReal (Cert.ReferenceIdeal.Read.val_main_v137 (F := Ideal) (A1 m c) (A3 m c) (A4 m c) (A5 m c) (A6 m c) (A7 m c)) :=
  Cert.ReferenceIdeal.Bridge.real_scatterAdd _ _ _ _ (Cert.ReferenceIdeal.Bridge.real_splat_zero _) (Cert.ReferenceIdeal.Bridge.real_refWscale _ _ h6 (Cert.ReferenceIdeal.Bridge.real_gather _ _ _ (real_v82 m c h1 h7)))

theorem f18_v76_1 (hpre : Labels m c) (h1 : Cert.Spec.IsReal (A1 m c)) (h6 : Cert.Spec.IsReal (A6 m c)) (h7 : Cert.Spec.IsReal (A7 m c)) :
    W18 m ρ c (Proc.devRef .tc main_v76_1) = Cert.ReferenceIdeal.Read.val_main_v152 (F := Ideal) (A0 m c) (A1 m c) (A2 m c) (A3 m c) (A4 m c) (A5 m c) (A6 m c) (A7 m c) (A8 m c) := by
  refine ((W18_arr m ρ c 4).trans (Cert.KernelIdeal.Val.value9_res (V17 m ρ) c)).trans ?_
  show Cert.Spec.resAdd (W17 m ρ c (Proc.devRef .tc main_v51_1)) (Cert.Spec.userNew (W17 m ρ c (Proc.devRef .tc main_v75)) (W17 m ρ c (Proc.devRef .tc main_v64))) = _
  rw [carry_v51_1_9_17, f9_v51_1 m ρ c h1 h6, f17_v75 m ρ c hpre, carry_v64_14_17, f14_v64 m ρ c h1 h6]
  exact congrArg (Cert.Spec.resAdd _) ((congrArg Cert.Spec.l2rows (Cert.ReferenceIdeal.Bridge.refUserMix_spec _ _ (real_v137 m c h1 h6 h7))).symm.trans (Cert.ReferenceIdeal.Bridge.refL2U_spec _).symm)

/-! ## The three results at the last boundary -/

theorem result0 (hpre : Labels m c) : W22 m ρ c (Proc.devRef .tc main_v63_1) = Cert.ReferenceIdeal.Read.val_main_v151 (F := Ideal) (A1 m c) (A3 m c) (A4 m c) (A7 m c) :=
  (carry_v63_1_13_22 m ρ c).trans (f13_v63_1 m ρ c hpre)

theorem result1 (hpre : Labels m c) (h1 : Cert.Spec.IsReal (A1 m c)) (h6 : Cert.Spec.IsReal (A6 m c)) (h7 : Cert.Spec.IsReal (A7 m c)) :
    W22 m ρ c (Proc.devRef .tc main_v76_1) = Cert.ReferenceIdeal.Read.val_main_v152 (F := Ideal) (A0 m c) (A1 m c) (A2 m c) (A3 m c) (A4 m c) (A5 m c) (A6 m c) (A7 m c) (A8 m c) :=
  (carry_v76_1_18_22 m ρ c).trans (f18_v76_1 m ρ c hpre h1 h6 h7)

end Cert.KernelIdeal.FoldI

end
-- ==== Proof.PreFacts.lean ====
import proofs.«425177_j67456756351000_2_alg».proof.Defs
import proofs.«425177_j67456756351000_2_alg».proof.Proof.Gen.Pre_finite_inputs
import proofs.«425177_j67456756351000_2_alg».proof.Proof.Gen.KernelIdeal
import proofs.«425177_j67456756351000_2_alg».proof.Proof.Spec
import Idealize.ShloMosaic.Lib.ReduceAll
import Idealize.ShloMosaic.Lib.StableHlo.Predicate

noncomputable section

namespace Cert.PreFacts

open Idealize.ShloMosaic Idealize.SL.Sem

variable (m : (ℓ : Loc Cert.KernelIdeal.nD Cert.KernelIdeal.τ Cert.KernelIdeal.sig) → Buf (Elt Ideal) ℓ)

/-- The scalar shape has one index. -/
instance : Subsingleton Cert.Pre_finite_inputs.S_.Idx := ⟨fun a b => funext fun d => d.elim0⟩

/-- The word 0x7F800000 is +∞. -/
theorem top_word : Ideal.ofBits .f32 0x7F800000#32 = (⊤ : EReal) := by
  simp [Ideal.ofBits, Ideal.ieee]

/-- An extended real whose absolute value compares below +∞ is a real number: neither infinity passes. -/
theorem real_of_abs_lt (x : EReal) (h : Ideal.cmp .olt (max x (-x)) (Ideal.ofBits .f32 0x7F800000#32) = 1#1) :
    ∃ r : ℝ, x = (r : EReal) := by
  rw [top_word] at h
  have hlt : max x (-x) < ⊤ := by
    unfold Ideal.cmp at h
    rw [StableHlo.Predicate.ofBool_eq_one_iff] at h
    exact of_decide_eq_true h
  induction x using EReal.rec with
  | bot => simp at hlt
  | coe r => exact ⟨r, rfl⟩
  | top => simp at hlt

/-- A signed compare read back: a label at least 1 and at most 9. -/
theorem range_of_cmp (e : BitVec 32) (h : IntOp.andi (IntOp.cmpi .sge e 1#32) (IntOp.cmpi .sle e 9#32) = 1#1) :
    1 ≤ e.toInt ∧ e.toInt ≤ 9 := by
  obtain ⟨h1, h9⟩ := IntOp.andi_eq_one.1 h
  unfold IntOp.cmpi at h1 h9
  rw [StableHlo.Predicate.ofBool_eq_one_iff] at h1 h9
  simp only [BitVec.sle, decide_eq_true_eq] at h1 h9
  have e1 : (1#32 : BitVec 32).toInt = 1 := by decide
  have e9 : (9#32 : BitVec 32).toInt = 9 := by decide
  rw [e1] at h1; rw [e9] at h9
  exact ⟨h1, h9⟩

section Decode
open Cert.Pre_finite_inputs

/-- The precondition over any nine argument arrays, decoded: it is a conjunction of seven `all`s, of which four are
    kept here — the second, seventh and eighth arrays (entity embeddings, interaction weights, relation weights) hold
    only real numbers, and every entry of the fifth (the relation labels) is between 1 and 9. -/
theorem decode (a0 : FVec Ideal S100000x64 .f32) (a1 : FVec Ideal S200000x64 .f32) (a2 : FVec Ideal S4x64 .f32)
    (a3 : IVec S2x2000000 32) (a4 : IVec S2000000 32) (a5 : IVec S2x1000000 32) (a6 : FVec Ideal S1000000 .f32)
    (a7 : FVec Ideal S9x64 .f32) (a8 : FVec Ideal S4x9 .f32)
    (h : Cert.Pre_finite_inputs.fn (F := Ideal) a0 a1 a2 a3 a4 a5 a6 a7 a8 = fun _ => 1#1) :
    (∀ i, ∃ r : ℝ, a1 i = (r : EReal)) ∧ (∀ i, ∃ r : ℝ, a6 i = (r : EReal)) ∧ (∀ i, ∃ r : ℝ, a7 i = (r : EReal))
      ∧ ∀ i, 1 ≤ (a4 i).toInt ∧ (a4 i).toInt ≤ 9 := by
  have e := congrFun h ValueIdx.ix0
  dsimp only [Cert.Pre_finite_inputs.fn, Cert.Pre_finite_inputs.fn_part1, Cert.Pre_finite_inputs.fn_part2] at e
  obtain ⟨e6, e34⟩ := IntOp.andi_eq_one.1 e
  obtain ⟨e5, e27⟩ := IntOp.andi_eq_one.1 e6
  obtain ⟨e4, e22⟩ := IntOp.andi_eq_one.1 e5
  obtain ⟨e3, e17⟩ := IntOp.andi_eq_one.1 e4
  obtain ⟨e2, e12⟩ := IntOp.andi_eq_one.1 e3
  obtain ⟨e1, e7⟩ := IntOp.andi_eq_one.1 e2
  refine ⟨fun i => ?_, fun i => ?_, fun i => ?_, fun i => ?_⟩
  · exact real_of_abs_lt _ (Host.reduce_andi_all _ _ _ _ ValueIdx.ix0 e7 i)
  · exact real_of_abs_lt _ (Host.reduce_andi_all _ _ _ _ ValueIdx.ix0 e17 i)
  · exact real_of_abs_lt _ (Host.reduce_andi_all _ _ _ _ ValueIdx.ix0 e22 i)
  · exact range_of_cmp _ (Host.reduce_andi_all _ _ _ _ ValueIdx.ix0 e34 i)

end Decode

/-! What the precondition says of the launch memory, array by array: the three float tables the finiteness argument
    needs hold real numbers, and every relation label is one of 1 … 9. -/

theorem real_arg1 (h : Cert.Pre_KernelIdeal (hPre_finite_inputs := Cert.Pre_finite_inputs.Gen.facts) m) (c : Dev Cert.KernelIdeal.nD) :
    Cert.Spec.IsReal (S := ⟨2, ![200000, 64]⟩) (m ((c.tc : Thread Cert.KernelIdeal.nD Cert.KernelIdeal.τ).loc Cert.KernelIdeal.main_arg1)) :=
  (decode _ _ _ _ _ _ _ _ _ (h c)).1

theorem real_arg6 (h : Cert.Pre_KernelIdeal (hPre_finite_inputs := Cert.Pre_finite_inputs.Gen.facts) m) (c : Dev Cert.KernelIdeal.nD) :
    Cert.Spec.IsReal (S := ⟨1, ![1000000]⟩) (m ((c.tc : Thread Cert.KernelIdeal.nD Cert.KernelIdeal.τ).loc Cert.KernelIdeal.main_arg6)) :=
  (decode _ _ _ _ _ _ _ _ _ (h c)).2.1

theorem real_arg7 (h : Cert.Pre_KernelIdeal (hPre_finite_inputs := Cert.Pre_finite_inputs.Gen.facts) m) (c : Dev Cert.KernelIdeal.nD) :
    Cert.Spec.IsReal (S := ⟨2, ![9, 64]⟩) (m ((c.tc : Thread Cert.KernelIdeal.nD Cert.KernelIdeal.τ).loc Cert.KernelIdeal.main_arg7)) :=
  (decode _ _ _ _ _ _ _ _ _ (h c)).2.2.1

theorem labels (h : Cert.Pre_KernelIdeal (hPre_finite_inputs := Cert.Pre_finite_inputs.Gen.facts) m) (c : Dev Cert.KernelIdeal.nD)
    (i : (⟨1, ![2000000]⟩ : Shape).Idx) :
    1 ≤ ((m ((c.tc : Thread Cert.KernelIdeal.nD Cert.KernelIdeal.τ).loc Cert.KernelIdeal.main_arg4) : (⟨1, ![2000000]⟩ : Shape).Idx → BitVec 32) i).toInt
      ∧ ((m ((c.tc : Thread Cert.KernelIdeal.nD Cert.KernelIdeal.τ).loc Cert.KernelIdeal.main_arg4) : (⟨1, ![2000000]⟩ : Shape).Idx → BitVec 32) i).toInt ≤ 9 :=
  (decode _ _ _ _ _ _ _ _ _ (h c)).2.2.2 i

end Cert.PreFacts

end
-- ==== Proof.lean ====
/-
  Two hops of relation-aware message passing over a knowledge graph and a user-item graph, as ten pallas_call regions among
  host gathers and scatter-adds, against the plain jnp program: equal results over the extended reals.

  The kernel side: the generated frame certificate folds the buffer contents through @main's segments; each region's output
  array is the specification's whole-array function of its input arrays (one module per region), each host stretch is read
  off the fold, and stage by stage the contents are the reference's own stage values. The reference side is its generated
  run, read one operation at a time. Two laws join them: a one-hot row times the relation table is the row a gather reads
  (the labels being 1 … 9, which the precondition states), and `agg · (attn + 1) = agg · attn + agg` where the aggregate is
  a real number (the float inputs being finite, sums, products and quotients by positive reals of reals are real).
-/
import proofs.«425177_j67456756351000_2_alg».proof.Defs
import proofs.«425177_j67456756351000_2_alg».proof.Proof.Gen.Kernel
import proofs.«425177_j67456756351000_2_alg».proof.Proof.Gen.Kernel.Frame
import proofs.«425177_j67456756351000_2_alg».proof.Proof.Gen.KernelIdeal
import proofs.«425177_j67456756351000_2_alg».proof.Proof.Gen.KernelIdeal.Frame
import proofs.«425177_j67456756351000_2_alg».proof.Proof.Gen.ReferenceIdeal
import proofs.«425177_j67456756351000_2_alg».proof.Proof.Gen.ReferenceIdeal.Run
import proofs.«425177_j67456756351000_2_alg».proof.Proof.Gen.ReferenceIdeal.Read
import proofs.«425177_j67456756351000_2_alg».proof.Proof.Gen.Pre_finite_inputs
import proofs.«425177_j67456756351000_2_alg».proof.Proof.KRun
import proofs.«425177_j67456756351000_2_alg».proof.Proof.Fold
import proofs.«425177_j67456756351000_2_alg».proof.Proof.PreFacts
import Idealize.ShloMosaic.Adequacy
import Idealize.ShloMosaic.Init

set_option maxRecDepth 16384

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2) (Cert.ReferenceIdeal.Value.run (F := Ideal) m ρ)

/-- Both programs end at the reference's stage values of the (agreeing) launch contents. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hL := fun c i => Cert.PreFacts.labels m hpre c i
  have h1 := fun c => Cert.PreFacts.real_arg1 m hpre c
  have h6 := fun c => Cert.PreFacts.real_arg6 m hpre c
  have h7 := fun c => Cert.PreFacts.real_arg7 m hpre c
  refine ⟨fun c => Cert.KernelIdeal.Gen.W22 m ρ c (Proc.devRef .tc Cert.KernelIdeal.main_v63_1),
    fun c => Cert.KernelIdeal.Gen.W22 m ρ c (Proc.devRef .tc Cert.KernelIdeal.main_v76_1),
    fun c => Cert.KernelIdeal.Gen.W22 m ρ c (Proc.devRef .tc Cert.KernelIdeal.main_v84),
    Cert.KernelIdeal.Gen.run_results m ρ, ?_⟩
  refine (θ_run Cert.ReferenceIdeal.defs _ _).mono (fun _ h c => ?_) (Cert.ReferenceIdeal.Value.run (F := Ideal) m' ρ')
  obtain ⟨e0, e1, e2, ea⟩ := h c
  obtain ⟨g0, g1, g2, g3, g4, g5, g6, g7, g8⟩ := hagree c
  refine ⟨?_, ?_, ?_, ea⟩
  · rw [e0, Cert.ReferenceIdeal.Read.val_main_v151_eq, g1, g3, g4, g7]
    exact (Cert.KernelIdeal.FoldI.result0 m ρ c (hL c)).symm
  · rw [e1, Cert.ReferenceIdeal.Read.val_main_v152_eq, g0, g1, g2, g3, g4, g5, g6, g7, g8]
    exact (Cert.KernelIdeal.FoldI.result1 m ρ c (hL c) (h1 c) (h6 c) (h7 c)).symm
  · refine e2.trans ((Cert.ReferenceIdeal.Read.val_main_v160_eq (F := Ideal) _).trans ?_)
    rw [g8]
    exact (Cert.KernelIdeal.Fold.t22_v84 (F := Ideal) m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
